-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v334)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v334) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S9x16 : Shape := ⟨2, ![9, 16]⟩
abbrev S16 : Shape := ⟨1, ![16]⟩
abbrev S144x32 : Shape := ⟨2, ![144, 32]⟩
abbrev S32 : Shape := ⟨1, ![32]⟩
abbrev S1568x128 : Shape := ⟨2, ![1568, 128]⟩
abbrev S128 : Shape := ⟨1, ![128]⟩
abbrev S128x128 : Shape := ⟨2, ![128, 128]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S9x16 : S_.BroadcastsInDim S9x16 (![] : Fin 0 → Fin S9x16.rank)
  reducesTo_S9x16_S_d0_1 : S9x16.ReducesTo [0, 1] S_
  bcast_S_S16 : S_.BroadcastsInDim S16 (![] : Fin 0 → Fin S16.rank)
  reducesTo_S16_S_d0 : S16.ReducesTo [0] S_
  bcast_S_S144x32 : S_.BroadcastsInDim S144x32 (![] : Fin 0 → Fin S144x32.rank)
  reducesTo_S144x32_S_d0_1 : S144x32.ReducesTo [0, 1] S_
  bcast_S_S32 : S_.BroadcastsInDim S32 (![] : Fin 0 → Fin S32.rank)
  reducesTo_S32_S_d0 : S32.ReducesTo [0] S_
  bcast_S_S1568x128 : S_.BroadcastsInDim S1568x128 (![] : Fin 0 → Fin S1568x128.rank)
  reducesTo_S1568x128_S_d0_1 : S1568x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S32 .f32) (main_arg5 : FVec F S1568x128 .f32) (main_arg6 : FVec F S128 .f32) (main_arg7 : FVec F S128x128 .f32) (main_arg8 : FVec F S128 .f32) (main_v13 : IVec S_ 1) (main_v16 : IVec S144x32 1) : IVec S_ 1 :=
  let main_c_5 : IVec S_ 1 := constantI S_ 1 1#1
  let main_v17 : IVec S_ 1 := (fun x v => Host.reduce IntOp.andi x v reducesTo_S144x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1568x128 .f32 := Host.absf main_arg5
  let main_cst_8 : FVec F S_ .f32 := constant S_ .f32 0x7F800000#32
  let main_v25 : FVec F S1568x128 .f32 := broadcastInDim S1568x128 ![] bcast_S_S1568x128 main_cst_8
  let main_v26 : IVec S1568x128 1 := cmpf .olt main_v24 main_v25
  let main_c_9 : IVec S_ 1 := constantI S_ 1 1#1
  let main_v27 : IVec S_ 1 := (fun x v => Host.reduce IntOp.andi x v reducesTo_S1568x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16384x1x28x28 .f32) (main_arg1 : FVec F S9x16 .f32) (main_arg2 : FVec F S16 .f32) (main_arg3 : FVec F S144x32 .f32) (main_arg4 : FVec F S32 .f32) (main_arg5 : FVec F S1568x128 .f32) (main_arg6 : FVec F S128 .f32) (main_arg7 : FVec F S128x128 .f32) (main_arg8 : FVec F S128 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S9x16 .f32 := Host.absf main_arg1
  let main_cst_0 : FVec F S_ .f32 := constant S_ .f32 0x7F800000#32
  let main_v5 : FVec F S9x16 .f32 := broadcastInDim S9x16 ![] bcast_S_S9x16 main_cst_0
  let main_v6 : IVec S9x16 1 := cmpf .olt main_v4 main_v5
  let main_c_1 : IVec S_ 1 := constantI S_ 1 1#1
  let main_v7 : IVec S_ 1 := (fun x v => Host.reduce IntOp.andi x v reducesTo_S9x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S144x32 .f32 := Host.absf main_arg3
  let main_cst_4 : FVec F S_ .f32 := constant S_ .f32 0x7F800000#32
  let main_v15 : FVec F S144x32 .f32 := broadcastInDim S144x32 ![] bcast_S_S144x32 main_cst_4
  let main_v16 : IVec S144x32 1 := cmpf .olt main_v14 main_v15
  fn_part1 (F := F) main_arg4 main_arg5 main_arg6 main_arg7 main_arg8 main_v13 main_v16
-- ==== Kernel.lean ====
abbrev S16384x1x28x28 : Shape := ⟨4, ![16384, 1, 28, 28]⟩
abbrev S9x16 : Shape := ⟨2, ![9, 16]⟩
abbrev S16 : Shape := ⟨1, ![16]⟩
abbrev S144x32 : Shape := ⟨2, ![144, 32]⟩
abbrev S32 : Shape := ⟨1, ![32]⟩
abbrev S1568x128 : Shape := ⟨2, ![1568, 128]⟩
abbrev S128 : Shape := ⟨1, ![128]⟩
abbrev S128x128 : Shape := ⟨2, ![128, 128]⟩
abbrev S27x1 : Shape := ⟨2, ![27, 1]⟩
abbrev S27x16 : Shape := ⟨2, ![27, 16]⟩
abbrev S28x1 : Shape := ⟨2, ![28, 1]⟩
abbrev S28x16 : Shape := ⟨2, ![28, 16]⟩
abbrev S13x16x1 : Shape := ⟨3, ![13, 16, 1]⟩
abbrev S13x1x32 : Shape := ⟨3, ![13, 1, 32]⟩
abbrev S14x16x1 : Shape := ⟨3, ![14, 16, 1]⟩
abbrev S14x1x32 : Shape := ⟨3, ![14, 1, 32]⟩
abbrev S16384x784 : Shape := ⟨2, ![16384, 784]⟩
abbrev S_ : Shape := ⟨0, ![]⟩
abbrev S3x28x512 : Shape := ⟨3, ![3, 28, 512]⟩
abbrev S1x16 : Shape := ⟨2, ![1, 16]⟩
abbrev S27x16x1 : Shape := ⟨3, ![27, 16, 1]⟩
abbrev S27x16x3 : Shape := ⟨3, ![27, 16, 3]⟩
abbrev S28x16x1 : Shape := ⟨3, ![28, 16, 1]⟩
abbrev S28x16x3 : Shape := ⟨3, ![28, 16, 3]⟩
abbrev S84x512 : Shape := ⟨2, ![84, 512]⟩
abbrev S3x256x512 : Shape := ⟨3, ![3, 256, 512]⟩
abbrev S16x32 : Shape := ⟨2, ![16, 32]⟩
abbrev S13x16x32 : Shape := ⟨3, ![13, 16, 32]⟩
abbrev S13x16x32x1 : Shape := ⟨4, ![13, 16, 32, 1]⟩
abbrev S13x16x32x3 : Shape := ⟨4, ![13, 16, 32, 3]⟩
abbrev S14x16x32 : Shape := ⟨3, ![14, 16, 32]⟩
abbrev S14x16x32x1 : Shape := ⟨4, ![14, 16, 32, 1]⟩
abbrev S14x16x32x3 : Shape := ⟨4, ![14, 16, 32, 3]⟩
abbrev S768x512 : Shape := ⟨2, ![768, 512]⟩
abbrev S14x16 : Shape := ⟨2, ![14, 16]⟩
abbrev S224 : Shape := ⟨1, ![224]⟩
abbrev S256 : Shape := ⟨1, ![256]⟩
abbrev S1x256 : Shape := ⟨2, ![1, 256]⟩
abbrev S1x32 : Shape := ⟨2, ![1, 32]⟩
abbrev S7x32 : Shape := ⟨2, ![7, 32]⟩
abbrev S7x224x128 : Shape := ⟨3, ![7, 224, 128]⟩
abbrev S7x32x128 : Shape := ⟨3, ![7, 32, 128]⟩
abbrev S7x256x128 : Shape := ⟨3, ![7, 256, 128]⟩
abbrev S1792x128 : Shape := ⟨2, ![1792, 128]⟩
abbrev S1x128 : Shape := ⟨2, ![1, 128]⟩
abbrev S16384x128 : Shape := ⟨2, ![16384, 128]⟩
abbrev S256x784 : Shape := ⟨2, ![256, 784]⟩
abbrev S256x128 : Shape := ⟨2, ![256, 128]⟩
abbrev S256x56 : Shape := ⟨2, ![256, 56]⟩
abbrev S56x512 : Shape := ⟨2, ![56, 512]⟩
abbrev S256x512 : Shape := ⟨2, ![256, 512]⟩
abbrev S256x84 : Shape := ⟨2, ![256, 84]⟩
abbrev S256x256 : Shape := ⟨2, ![256, 256]⟩
abbrev S256x4096 : Shape := ⟨2, ![256, 4096]⟩
abbrev S256x768 : Shape := ⟨2, ![256, 768]⟩
abbrev S256x1792 : Shape := ⟨2, ![256, 1792]⟩
abbrev S16384x10 : Shape := ⟨2, ![16384, 10]⟩

abbrev nBuf : Space → Nat
  | .hbm => 475
  | .vmem => 12
  | .smem => 0
  | _ => 0

abbrev hbmTy0_0 (i : Nat) : BufTy := match i % 128 with
  | 0 => ⟨S16384x1x28x28, .f32⟩
  | 1 => ⟨S9x16, .f32⟩
  | 2 => ⟨S16, .f32⟩
  | 3 => ⟨S144x32, .f32⟩
  | 4 => ⟨S32, .f32⟩
  | 5 => ⟨S1568x128, .f32⟩
  | 6 => ⟨S128, .f32⟩
  | 7 => ⟨S128x128, .f32⟩
  | 8 => ⟨S128, .f32⟩
  | 9 => ⟨S27x1, .i32⟩
  | 10 => ⟨S27x1, .i1⟩
  | 11 => ⟨S27x16, .i32⟩
  | 12 => ⟨S27x16, .i1⟩
  | 13 => ⟨S28x1, .i32⟩
  | 14 => ⟨S28x1, .i1⟩
  | 15 => ⟨S28x16, .i32⟩
  | 16 => ⟨S28x16, .i1⟩
  | 17 => ⟨S27x1, .i32⟩
  | 18 => ⟨S27x1, .i1⟩
  | 19 => ⟨S27x16, .i32⟩
  | 20 => ⟨S27x16, .i1⟩
  | 21 => ⟨S27x1, .i32⟩
  | 22 => ⟨S27x1, .i1⟩
  | 23 => ⟨S27x16, .i32⟩
  | 24 => ⟨S27x16, .i1⟩
  | 25 => ⟨S28x1, .i32⟩
  | 26 => ⟨S28x1, .i1⟩
  | 27 => ⟨S28x16, .i32⟩
  | 28 => ⟨S28x16, .i1⟩
  | 29 => ⟨S27x1, .i32⟩
  | 30 => ⟨S27x1, .i1⟩
  | 31 => ⟨S27x16, .i32⟩
  | 32 => ⟨S27x16, .i1⟩
  | 33 => ⟨S27x1, .i32⟩
  | 34 => ⟨S27x1, .i1⟩
  | 35 => ⟨S27x16, .i32⟩
  | 36 => ⟨S27x16, .i1⟩
  | 37 => ⟨S28x1, .i32⟩
  | 38 => ⟨S28x1, .i1⟩
  | 39 => ⟨S28x16, .i32⟩
  | 40 => ⟨S28x16, .i1⟩
  | 41 => ⟨S27x1, .i32⟩
  | 42 => ⟨S27x1, .i1⟩
  | 43 => ⟨S27x16, .i32⟩
  | 44 => ⟨S27x16, .i1⟩
  | 45 => ⟨S13x16x1, .i32⟩
  | 46 => ⟨S13x16x1, .i1⟩
  | 47 => ⟨S13x1x32, .i32⟩
  | 48 => ⟨S13x1x32, .i1⟩
  | 49 => ⟨S14x16x1, .i32⟩
  | 50 => ⟨S14x16x1, .i1⟩
  | 51 => ⟨S14x1x32, .i32⟩
  | 52 => ⟨S14x1x32, .i1⟩
  | 53 => ⟨S13x16x1, .i32⟩
  | 54 => ⟨S13x16x1, .i1⟩
  | 55 => ⟨S13x1x32, .i32⟩
  | 56 => ⟨S13x1x32, .i1⟩
  | 57 => ⟨S13x16x1, .i32⟩
  | 58 => ⟨S13x16x1, .i1⟩
  | 59 => ⟨S13x1x32, .i32⟩
  | 60 => ⟨S13x1x32, .i1⟩
  | 61 => ⟨S14x16x1, .i32⟩
  | 62 => ⟨S14x16x1, .i1⟩
  | 63 => ⟨S14x1x32, .i32⟩
  | 64 => ⟨S14x1x32, .i1⟩
  | 65 => ⟨S13x16x1, .i32⟩
  | 66 => ⟨S13x16x1, .i1⟩
  | 67 => ⟨S13x1x32, .i32⟩
  | 68 => ⟨S13x1x32, .i1⟩
  | 69 => ⟨S13x16x1, .i32⟩
  | 70 => ⟨S13x16x1, .i1⟩
  | 71 => ⟨S13x1x32, .i32⟩
  | 72 => ⟨S13x1x32, .i1⟩
  | 73 => ⟨S14x16x1, .i32⟩
  | 74 => ⟨S14x16x1, .i1⟩
  | 75 => ⟨S14x1x32, .i32⟩
  | 76 => ⟨S14x1x32, .i1⟩
  | 77 => ⟨S13x16x1, .i32⟩
  | 78 => ⟨S13x16x1, .i1⟩
  | 79 => ⟨S13x1x32, .i32⟩
  | 80 => ⟨S13x1x32, .i1⟩
  | 81 => ⟨S16384x784, .f32⟩
  | 82 => ⟨S_, .f32⟩
  | 83 => ⟨S3x28x512, .f32⟩
  | 84 => ⟨S1x16, .f32⟩
  | 85 => ⟨S16, .f32⟩
  | 86 => ⟨S27x16, .f32⟩
  | 87 => ⟨S_, .i32⟩
  | 88 => ⟨S27x1, .i32⟩
  | 89 => ⟨S27x1, .i32⟩
  | 90 => ⟨S27x1, .i32⟩
  | 91 => ⟨S_, .i32⟩
  | 92 => ⟨S27x16, .i32⟩
  | 93 => ⟨S27x16, .i32⟩
  | 94 => ⟨S27x16, .i32⟩
  | 95 => ⟨S_, .i32⟩
  | 96 => ⟨S27x16, .i32⟩
  | 97 => ⟨S27x16, .i32⟩
  | 98 => ⟨S27x16, .i32⟩
  | 99 => ⟨S27x16x1, .i32⟩
  | 100 => ⟨S27x16x1, .i32⟩
  | 101 => ⟨S27x16x1, .i32⟩
  | 102 => ⟨S27x16x3, .i32⟩
  | 103 => ⟨S3x28x512, .f32⟩
  | 104 => ⟨S1x16, .f32⟩
  | 105 => ⟨S16, .f32⟩
  | 106 => ⟨S28x16, .f32⟩
  | 107 => ⟨S_, .i32⟩
  | 108 => ⟨S28x1, .i32⟩
  | 109 => ⟨S28x1, .i32⟩
  | 110 => ⟨S28x1, .i32⟩
  | 111 => ⟨S_, .i32⟩
  | 112 => ⟨S28x16, .i32⟩
  | 113 => ⟨S28x16, .i32⟩
  | 114 => ⟨S28x16, .i32⟩
  | 115 => ⟨S_, .i32⟩
  | 116 => ⟨S28x16, .i32⟩
  | 117 => ⟨S28x16, .i32⟩
  | 118 => ⟨S28x16, .i32⟩
  | 119 => ⟨S28x16x1, .i32⟩
  | 120 => ⟨S28x16x1, .i32⟩
  | 121 => ⟨S28x16x1, .i32⟩
  | 122 => ⟨S28x16x3, .i32⟩
  | 123 => ⟨S3x28x512, .f32⟩
  | 124 => ⟨S1x16, .f32⟩
  | 125 => ⟨S16, .f32⟩
  | 126 => ⟨S27x16, .f32⟩
  | 127 => ⟨S_, .i32⟩
  | _ => ⟨S16384x1x28x28, .f32⟩

abbrev hbmTy0_1 (i : Nat) : BufTy := match i % 128 with
  | 0 => ⟨S27x1, .i32⟩
  | 1 => ⟨S27x1, .i32⟩
  | 2 => ⟨S27x1, .i32⟩
  | 3 => ⟨S_, .i32⟩
  | 4 => ⟨S27x16, .i32⟩
  | 5 => ⟨S27x16, .i32⟩
  | 6 => ⟨S27x16, .i32⟩
  | 7 => ⟨S_, .i32⟩
  | 8 => ⟨S27x16, .i32⟩
  | 9 => ⟨S27x16, .i32⟩
  | 10 => ⟨S27x16, .i32⟩
  | 11 => ⟨S27x16x1, .i32⟩
  | 12 => ⟨S27x16x1, .i32⟩
  | 13 => ⟨S27x16x1, .i32⟩
  | 14 => ⟨S27x16x3, .i32⟩
  | 15 => ⟨S3x28x512, .f32⟩
  | 16 => ⟨S1x16, .f32⟩
  | 17 => ⟨S16, .f32⟩
  | 18 => ⟨S27x16, .f32⟩
  | 19 => ⟨S_, .i32⟩
  | 20 => ⟨S27x1, .i32⟩
  | 21 => ⟨S27x1, .i32⟩
  | 22 => ⟨S27x1, .i32⟩
  | 23 => ⟨S_, .i32⟩
  | 24 => ⟨S27x16, .i32⟩
  | 25 => ⟨S27x16, .i32⟩
  | 26 => ⟨S27x16, .i32⟩
  | 27 => ⟨S_, .i32⟩
  | 28 => ⟨S27x16, .i32⟩
  | 29 => ⟨S27x16, .i32⟩
  | 30 => ⟨S27x16, .i32⟩
  | 31 => ⟨S27x16x1, .i32⟩
  | 32 => ⟨S27x16x1, .i32⟩
  | 33 => ⟨S27x16x1, .i32⟩
  | 34 => ⟨S27x16x3, .i32⟩
  | 35 => ⟨S3x28x512, .f32⟩
  | 36 => ⟨S1x16, .f32⟩
  | 37 => ⟨S16, .f32⟩
  | 38 => ⟨S28x16, .f32⟩
  | 39 => ⟨S_, .i32⟩
  | 40 => ⟨S28x1, .i32⟩
  | 41 => ⟨S28x1, .i32⟩
  | 42 => ⟨S28x1, .i32⟩
  | 43 => ⟨S_, .i32⟩
  | 44 => ⟨S28x16, .i32⟩
  | 45 => ⟨S28x16, .i32⟩
  | 46 => ⟨S28x16, .i32⟩
  | 47 => ⟨S_, .i32⟩
  | 48 => ⟨S28x16, .i32⟩
  | 49 => ⟨S28x16, .i32⟩
  | 50 => ⟨S28x16, .i32⟩
  | 51 => ⟨S28x16x1, .i32⟩
  | 52 => ⟨S28x16x1, .i32⟩
  | 53 => ⟨S28x16x1, .i32⟩
  | 54 => ⟨S28x16x3, .i32⟩
  | 55 => ⟨S3x28x512, .f32⟩
  | 56 => ⟨S1x16, .f32⟩
  | 57 => ⟨S16, .f32⟩
  | 58 => ⟨S27x16, .f32⟩
  | 59 => ⟨S_, .i32⟩
  | 60 => ⟨S27x1, .i32⟩
  | 61 => ⟨S27x1, .i32⟩
  | 62 => ⟨S27x1, .i32⟩
  | 63 => ⟨S_, .i32⟩
  | 64 => ⟨S27x16, .i32⟩
  | 65 => ⟨S27x16, .i32⟩
  | 66 => ⟨S27x16, .i32⟩
  | 67 => ⟨S_, .i32⟩
  | 68 => ⟨S27x16, .i32⟩
  | 69 => ⟨S27x16, .i32⟩
  | 70 => ⟨S27x16, .i32⟩
  | 71 => ⟨S27x16x1, .i32⟩
  | 72 => ⟨S27x16x1, .i32⟩
  | 73 => ⟨S27x16x1, .i32⟩
  | 74 => ⟨S27x16x3, .i32⟩
  | 75 => ⟨S3x28x512, .f32⟩
  | 76 => ⟨S1x16, .f32⟩
  | 77 => ⟨S16, .f32⟩
  | 78 => ⟨S27x16, .f32⟩
  | 79 => ⟨S_, .i32⟩
  | 80 => ⟨S27x1, .i32⟩
  | 81 => ⟨S27x1, .i32⟩
  | 82 => ⟨S27x1, .i32⟩
  | 83 => ⟨S_, .i32⟩
  | 84 => ⟨S27x16, .i32⟩
  | 85 => ⟨S27x16, .i32⟩
  | 86 => ⟨S27x16, .i32⟩
  | 87 => ⟨S_, .i32⟩
  | 88 => ⟨S27x16, .i32⟩
  | 89 => ⟨S27x16, .i32⟩
  | 90 => ⟨S27x16, .i32⟩
  | 91 => ⟨S27x16x1, .i32⟩
  | 92 => ⟨S27x16x1, .i32⟩
  | 93 => ⟨S27x16x1, .i32⟩
  | 94 => ⟨S27x16x3, .i32⟩
  | 95 => ⟨S3x28x512, .f32⟩
  | 96 => ⟨S1x16, .f32⟩
  | 97 => ⟨S16, .f32⟩
  | 98 => ⟨S28x16, .f32⟩
  | 99 => ⟨S_, .i32⟩
  | 100 => ⟨S28x1, .i32⟩
  | 101 => ⟨S28x1, .i32⟩
  | 102 => ⟨S28x1, .i32⟩
  | 103 => ⟨S_, .i32⟩
  | 104 => ⟨S28x16, .i32⟩
  | 105 => ⟨S28x16, .i32⟩
  | 106 => ⟨S28x16, .i32⟩
  | 107 => ⟨S_, .i32⟩
  | 108 => ⟨S28x16, .i32⟩
  | 109 => ⟨S28x16, .i32⟩
  | 110 => ⟨S28x16, .i32⟩
  | 111 => ⟨S28x16x1, .i32⟩
  | 112 => ⟨S28x16x1, .i32⟩
  | 113 => ⟨S28x16x1, .i32⟩
  | 114 => ⟨S28x16x3, .i32⟩
  | 115 => ⟨S3x28x512, .f32⟩
  | 116 => ⟨S1x16, .f32⟩
  | 117 => ⟨S16, .f32⟩
  | 118 => ⟨S27x16, .f32⟩
  | 119 => ⟨S_, .i32⟩
  | 120 => ⟨S27x1, .i32⟩
  | 121 => ⟨S27x1, .i32⟩
  | 122 => ⟨S27x1, .i32⟩
  | 123 => ⟨S_, .i32⟩
  | 124 => ⟨S27x16, .i32⟩
  | 125 => ⟨S27x16, .i32⟩
  | 126 => ⟨S27x16, .i32⟩
  | 127 => ⟨S_, .i32⟩
  | _ => ⟨S16384x1x28x28, .f32⟩

abbrev hbmTy0_2 (i : Nat) : BufTy := match i % 128 with
  | 0 => ⟨S27x16, .i32⟩
  | 1 => ⟨S27x16, .i32⟩
  | 2 => ⟨S27x16, .i32⟩
  | 3 => ⟨S27x16x1, .i32⟩
  | 4 => ⟨S27x16x1, .i32⟩
  | 5 => ⟨S27x16x1, .i32⟩
  | 6 => ⟨S27x16x3, .i32⟩
  | 7 => ⟨S3x28x512, .f32⟩
  | 8 => ⟨S84x512, .f32⟩
  | 9 => ⟨S84x512, .bf16⟩
  | 10 => ⟨S_, .f32⟩
  | 11 => ⟨S3x256x512, .f32⟩
  | 12 => ⟨S16x32, .f32⟩
  | 13 => ⟨S13x16x32, .f32⟩
  | 14 => ⟨S_, .i32⟩
  | 15 => ⟨S13x16x1, .i32⟩
  | 16 => ⟨S13x16x1, .i32⟩
  | 17 => ⟨S13x16x1, .i32⟩
  | 18 => ⟨S_, .i32⟩
  | 19 => ⟨S13x1x32, .i32⟩
  | 20 => ⟨S13x1x32, .i32⟩
  | 21 => ⟨S13x1x32, .i32⟩
  | 22 => ⟨S_, .i32⟩
  | 23 => ⟨S13x16x32, .i32⟩
  | 24 => ⟨S13x16x32, .i32⟩
  | 25 => ⟨S13x16x32, .i32⟩
  | 26 => ⟨S13x16x32, .i32⟩
  | 27 => ⟨S13x16x32x1, .i32⟩
  | 28 => ⟨S13x16x32x1, .i32⟩
  | 29 => ⟨S13x16x32x1, .i32⟩
  | 30 => ⟨S13x16x32x3, .i32⟩
  | 31 => ⟨S3x256x512, .f32⟩
  | 32 => ⟨S16x32, .f32⟩
  | 33 => ⟨S14x16x32, .f32⟩
  | 34 => ⟨S_, .i32⟩
  | 35 => ⟨S14x16x1, .i32⟩
  | 36 => ⟨S14x16x1, .i32⟩
  | 37 => ⟨S14x16x1, .i32⟩
  | 38 => ⟨S_, .i32⟩
  | 39 => ⟨S14x1x32, .i32⟩
  | 40 => ⟨S14x1x32, .i32⟩
  | 41 => ⟨S14x1x32, .i32⟩
  | 42 => ⟨S_, .i32⟩
  | 43 => ⟨S14x16x32, .i32⟩
  | 44 => ⟨S14x16x32, .i32⟩
  | 45 => ⟨S14x16x32, .i32⟩
  | 46 => ⟨S14x16x32, .i32⟩
  | 47 => ⟨S14x16x32x1, .i32⟩
  | 48 => ⟨S14x16x32x1, .i32⟩
  | 49 => ⟨S14x16x32x1, .i32⟩
  | 50 => ⟨S14x16x32x3, .i32⟩
  | 51 => ⟨S3x256x512, .f32⟩
  | 52 => ⟨S16x32, .f32⟩
  | 53 => ⟨S13x16x32, .f32⟩
  | 54 => ⟨S_, .i32⟩
  | 55 => ⟨S13x16x1, .i32⟩
  | 56 => ⟨S13x16x1, .i32⟩
  | 57 => ⟨S13x16x1, .i32⟩
  | 58 => ⟨S_, .i32⟩
  | 59 => ⟨S13x1x32, .i32⟩
  | 60 => ⟨S13x1x32, .i32⟩
  | 61 => ⟨S13x1x32, .i32⟩
  | 62 => ⟨S_, .i32⟩
  | 63 => ⟨S13x16x32, .i32⟩
  | 64 => ⟨S13x16x32, .i32⟩
  | 65 => ⟨S13x16x32, .i32⟩
  | 66 => ⟨S13x16x32, .i32⟩
  | 67 => ⟨S13x16x32x1, .i32⟩
  | 68 => ⟨S13x16x32x1, .i32⟩
  | 69 => ⟨S13x16x32x1, .i32⟩
  | 70 => ⟨S13x16x32x3, .i32⟩
  | 71 => ⟨S3x256x512, .f32⟩
  | 72 => ⟨S16x32, .f32⟩
  | 73 => ⟨S13x16x32, .f32⟩
  | 74 => ⟨S_, .i32⟩
  | 75 => ⟨S13x16x1, .i32⟩
  | 76 => ⟨S13x16x1, .i32⟩
  | 77 => ⟨S13x16x1, .i32⟩
  | 78 => ⟨S_, .i32⟩
  | 79 => ⟨S13x1x32, .i32⟩
  | 80 => ⟨S13x1x32, .i32⟩
  | 81 => ⟨S13x1x32, .i32⟩
  | 82 => ⟨S_, .i32⟩
  | 83 => ⟨S13x16x32, .i32⟩
  | 84 => ⟨S13x16x32, .i32⟩
  | 85 => ⟨S13x16x32, .i32⟩
  | 86 => ⟨S13x16x32, .i32⟩
  | 87 => ⟨S13x16x32x1, .i32⟩
  | 88 => ⟨S13x16x32x1, .i32⟩
  | 89 => ⟨S13x16x32x1, .i32⟩
  | 90 => ⟨S13x16x32x3, .i32⟩
  | 91 => ⟨S3x256x512, .f32⟩
  | 92 => ⟨S16x32, .f32⟩
  | 93 => ⟨S14x16x32, .f32⟩
  | 94 => ⟨S_, .i32⟩
  | 95 => ⟨S14x16x1, .i32⟩
  | 96 => ⟨S14x16x1, .i32⟩
  | 97 => ⟨S14x16x1, .i32⟩
  | 98 => ⟨S_, .i32⟩
  | 99 => ⟨S14x1x32, .i32⟩
  | 100 => ⟨S14x1x32, .i32⟩
  | 101 => ⟨S14x1x32, .i32⟩
  | 102 => ⟨S_, .i32⟩
  | 103 => ⟨S14x16x32, .i32⟩
  | 104 => ⟨S14x16x32, .i32⟩
  | 105 => ⟨S14x16x32, .i32⟩
  | 106 => ⟨S14x16x32, .i32⟩
  | 107 => ⟨S14x16x32x1, .i32⟩
  | 108 => ⟨S14x16x32x1, .i32⟩
  | 109 => ⟨S14x16x32x1, .i32⟩
  | 110 => ⟨S14x16x32x3, .i32⟩
  | 111 => ⟨S3x256x512, .f32⟩
  | 112 => ⟨S16x32, .f32⟩
  | 113 => ⟨S13x16x32, .f32⟩
  | 114 => ⟨S_, .i32⟩
  | 115 => ⟨S13x16x1, .i32⟩
  | 116 => ⟨S13x16x1, .i32⟩
  | 117 => ⟨S13x16x1, .i32⟩
  | 118 => ⟨S_, .i32⟩
  | 119 => ⟨S13x1x32, .i32⟩
  | 120 => ⟨S13x1x32, .i32⟩
  | 121 => ⟨S13x1x32, .i32⟩
  | 122 => ⟨S_, .i32⟩
  | 123 => ⟨S13x16x32, .i32⟩
  | 124 => ⟨S13x16x32, .i32⟩
  | 125 => ⟨S13x16x32, .i32⟩
  | 126 => ⟨S13x16x32, .i32⟩
  | 127 => ⟨S13x16x32x1, .i32⟩
  | _ => ⟨S16384x1x28x28, .f32⟩

abbrev hbmTy0_3 (i : Nat) : BufTy := match i % 128 with
  | 0 => ⟨S13x16x32x1, .i32⟩
  | 1 => ⟨S13x16x32x1, .i32⟩
  | 2 => ⟨S13x16x32x3, .i32⟩
  | 3 => ⟨S3x256x512, .f32⟩
  | 4 => ⟨S16x32, .f32⟩
  | 5 => ⟨S13x16x32, .f32⟩
  | 6 => ⟨S_, .i32⟩
  | 7 => ⟨S13x16x1, .i32⟩
  | 8 => ⟨S13x16x1, .i32⟩
  | 9 => ⟨S13x16x1, .i32⟩
  | 10 => ⟨S_, .i32⟩
  | 11 => ⟨S13x1x32, .i32⟩
  | 12 => ⟨S13x1x32, .i32⟩
  | 13 => ⟨S13x1x32, .i32⟩
  | 14 => ⟨S_, .i32⟩
  | 15 => ⟨S13x16x32, .i32⟩
  | 16 => ⟨S13x16x32, .i32⟩
  | 17 => ⟨S13x16x32, .i32⟩
  | 18 => ⟨S13x16x32, .i32⟩
  | 19 => ⟨S13x16x32x1, .i32⟩
  | 20 => ⟨S13x16x32x1, .i32⟩
  | 21 => ⟨S13x16x32x1, .i32⟩
  | 22 => ⟨S13x16x32x3, .i32⟩
  | 23 => ⟨S3x256x512, .f32⟩
  | 24 => ⟨S16x32, .f32⟩
  | 25 => ⟨S14x16x32, .f32⟩
  | 26 => ⟨S_, .i32⟩
  | 27 => ⟨S14x16x1, .i32⟩
  | 28 => ⟨S14x16x1, .i32⟩
  | 29 => ⟨S14x16x1, .i32⟩
  | 30 => ⟨S_, .i32⟩
  | 31 => ⟨S14x1x32, .i32⟩
  | 32 => ⟨S14x1x32, .i32⟩
  | 33 => ⟨S14x1x32, .i32⟩
  | 34 => ⟨S_, .i32⟩
  | 35 => ⟨S14x16x32, .i32⟩
  | 36 => ⟨S14x16x32, .i32⟩
  | 37 => ⟨S14x16x32, .i32⟩
  | 38 => ⟨S14x16x32, .i32⟩
  | 39 => ⟨S14x16x32x1, .i32⟩
  | 40 => ⟨S14x16x32x1, .i32⟩
  | 41 => ⟨S14x16x32x1, .i32⟩
  | 42 => ⟨S14x16x32x3, .i32⟩
  | 43 => ⟨S3x256x512, .f32⟩
  | 44 => ⟨S16x32, .f32⟩
  | 45 => ⟨S13x16x32, .f32⟩
  | 46 => ⟨S_, .i32⟩
  | 47 => ⟨S13x16x1, .i32⟩
  | 48 => ⟨S13x16x1, .i32⟩
  | 49 => ⟨S13x16x1, .i32⟩
  | 50 => ⟨S_, .i32⟩
  | 51 => ⟨S13x1x32, .i32⟩
  | 52 => ⟨S13x1x32, .i32⟩
  | 53 => ⟨S13x1x32, .i32⟩
  | 54 => ⟨S_, .i32⟩
  | 55 => ⟨S13x16x32, .i32⟩
  | 56 => ⟨S13x16x32, .i32⟩
  | 57 => ⟨S13x16x32, .i32⟩
  | 58 => ⟨S13x16x32, .i32⟩
  | 59 => ⟨S13x16x32x1, .i32⟩
  | 60 => ⟨S13x16x32x1, .i32⟩
  | 61 => ⟨S13x16x32x1, .i32⟩
  | 62 => ⟨S13x16x32x3, .i32⟩
  | 63 => ⟨S3x256x512, .f32⟩
  | 64 => ⟨S768x512, .f32⟩
  | 65 => ⟨S768x512, .bf16⟩
  | 66 => ⟨S1x16, .f32⟩
  | 67 => ⟨S14x16, .f32⟩
  | 68 => ⟨S224, .f32⟩
  | 69 => ⟨S_, .f32⟩
  | 70 => ⟨S32, .f32⟩
  | 71 => ⟨S256, .f32⟩
  | 72 => ⟨S1x256, .f32⟩
  | 73 => ⟨S1x32, .f32⟩
  | 74 => ⟨S7x32, .f32⟩
  | 75 => ⟨S224, .f32⟩
  | 76 => ⟨S_, .f32⟩
  | 77 => ⟨S32, .f32⟩
  | 78 => ⟨S256, .f32⟩
  | 79 => ⟨S1x256, .f32⟩
  | 80 => ⟨S7x224x128, .f32⟩
  | 81 => ⟨S_, .f32⟩
  | 82 => ⟨S7x32x128, .f32⟩
  | 83 => ⟨S7x256x128, .f32⟩
  | 84 => ⟨S1792x128, .f32⟩
  | 85 => ⟨S1792x128, .bf16⟩
  | 86 => ⟨S128x128, .bf16⟩
  | 87 => ⟨S1x128, .f32⟩
  | 88 => ⟨S1x128, .f32⟩
  | 89 => ⟨S16384x128, .f32⟩
  | 90 => ⟨S16384x10, .f32⟩
  | _ => ⟨S16384x1x28x28, .f32⟩

abbrev hbmTy (i : Nat) : BufTy := match i / 128 with
  | 0 => hbmTy0_0 i
  | 1 => hbmTy0_1 i
  | 2 => hbmTy0_2 i
  | 3 => hbmTy0_3 i
  | _ => ⟨S16384x1x28x28, .f32⟩

abbrev bufTy : (tb : Table) → Fin (tcTables nBuf tb) → BufTy
  | .hbm, ⟨i, _⟩ => hbmTy i
  | .local _ .vmem, ⟨0, _⟩ => ⟨S256x784, .f32⟩
  | .local _ .vmem, ⟨1, _⟩ => ⟨S256x784, .f32⟩
  | .local _ .vmem, ⟨2, _⟩ => ⟨S84x512, .bf16⟩
  | .local _ .vmem, ⟨3, _⟩ => ⟨S1x256, .f32⟩
  | .local _ .vmem, ⟨4, _⟩ => ⟨S768x512, .bf16⟩
  | .local _ .vmem, ⟨5, _⟩ => ⟨S1x256, .f32⟩
  | .local _ .vmem, ⟨6, _⟩ => ⟨S1792x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S256x128, .f32⟩
  | .local _ .vmem, ⟨11, _⟩ => ⟨S256x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_c_18 : Ref sig .tc := ⟨.hbm, 28, rfl⟩
abbrev main_c_19 : Ref sig .tc := ⟨.hbm, 29, rfl⟩
abbrev main_c_20 : Ref sig .tc := ⟨.hbm, 30, rfl⟩
abbrev main_c_21 : Ref sig .tc := ⟨.hbm, 31, rfl⟩
abbrev main_c_22 : Ref sig .tc := ⟨.hbm, 32, rfl⟩
abbrev main_c_23 : Ref sig .tc := ⟨.hbm, 33, rfl⟩
abbrev main_c_24 : Ref sig .tc := ⟨.hbm, 34, rfl⟩
abbrev main_c_25 : Ref sig .tc := ⟨.hbm, 35, rfl⟩
abbrev main_c_26 : Ref sig .tc := ⟨.hbm, 36, rfl⟩
abbrev main_c_27 : Ref sig .tc := ⟨.hbm, 37, rfl⟩
abbrev main_c_28 : Ref sig .tc := ⟨.hbm, 38, rfl⟩
abbrev main_c_29 : Ref sig .tc := ⟨.hbm, 39, rfl⟩
abbrev main_c_30 : Ref sig .tc := ⟨.hbm, 40, rfl⟩
abbrev main_c_31 : Ref sig .tc := ⟨.hbm, 41, rfl⟩
abbrev main_c_32 : Ref sig .tc := ⟨.hbm, 42, rfl⟩
abbrev main_c_33 : Ref sig .tc := ⟨.hbm, 43, rfl⟩
abbrev main_c_34 : Ref sig .tc := ⟨.hbm, 44, rfl⟩
abbrev main_c_35 : Ref sig .tc := ⟨.hbm, 45, rfl⟩
abbrev main_c_36 : Ref sig .tc := ⟨.hbm, 46, rfl⟩
abbrev main_c_37 : Ref sig .tc := ⟨.hbm, 47, rfl⟩
abbrev main_c_38 : Ref sig .tc := ⟨.hbm, 48, rfl⟩
abbrev main_c_39 : Ref sig .tc := ⟨.hbm, 49, rfl⟩
abbrev main_c_40 : Ref sig .tc := ⟨.hbm, 50, rfl⟩
abbrev main_c_41 : Ref sig .tc := ⟨.hbm, 51, rfl⟩
abbrev main_c_42 : Ref sig .tc := ⟨.hbm, 52, rfl⟩
abbrev main_c_43 : Ref sig .tc := ⟨.hbm, 53, rfl⟩
abbrev main_c_44 : Ref sig .tc := ⟨.hbm, 54, rfl⟩
abbrev main_c_45 : Ref sig .tc := ⟨.hbm, 55, rfl⟩
abbrev main_c_46 : Ref sig .tc := ⟨.hbm, 56, rfl⟩
abbrev main_c_47 : Ref sig .tc := ⟨.hbm, 57, rfl⟩
abbrev main_c_48 : Ref sig .tc := ⟨.hbm, 58, rfl⟩
abbrev main_c_49 : Ref sig .tc := ⟨.hbm, 59, rfl⟩
abbrev main_c_50 : Ref sig .tc := ⟨.hbm, 60, rfl⟩
abbrev main_c_51 : Ref sig .tc := ⟨.hbm, 61, rfl⟩
abbrev main_c_52 : Ref sig .tc := ⟨.hbm, 62, rfl⟩
abbrev main_c_53 : Ref sig .tc := ⟨.hbm, 63, rfl⟩
abbrev main_c_54 : Ref sig .tc := ⟨.hbm, 64, rfl⟩
abbrev main_c_55 : Ref sig .tc := ⟨.hbm, 65, rfl⟩
abbrev main_c_56 : Ref sig .tc := ⟨.hbm, 66, rfl⟩
abbrev main_c_57 : Ref sig .tc := ⟨.hbm, 67, rfl⟩
abbrev main_c_58 : Ref sig .tc := ⟨.hbm, 68, rfl⟩
abbrev main_c_59 : Ref sig .tc := ⟨.hbm, 69, rfl⟩
abbrev main_c_60 : Ref sig .tc := ⟨.hbm, 70, rfl⟩
abbrev main_c_61 : Ref sig .tc := ⟨.hbm, 71, rfl⟩
abbrev main_c_62 : Ref sig .tc := ⟨.hbm, 72, rfl⟩
abbrev main_c_63 : Ref sig .tc := ⟨.hbm, 73, rfl⟩
abbrev main_c_64 : Ref sig .tc := ⟨.hbm, 74, rfl⟩
abbrev main_c_65 : Ref sig .tc := ⟨.hbm, 75, rfl⟩
abbrev main_c_66 : Ref sig .tc := ⟨.hbm, 76, rfl⟩
abbrev main_c_67 : Ref sig .tc := ⟨.hbm, 77, rfl⟩
abbrev main_c_68 : Ref sig .tc := ⟨.hbm, 78, rfl⟩
abbrev main_c_69 : Ref sig .tc := ⟨.hbm, 79, rfl⟩
abbrev main_c_70 : Ref sig .tc := ⟨.hbm, 80, rfl⟩
abbrev main_v0 : Ref sig .tc := ⟨.hbm, 81, rfl⟩
abbrev main_cst : Ref sig .tc := ⟨.hbm, 82, rfl⟩
abbrev main_v1 : Ref sig .tc := ⟨.hbm, 83, rfl⟩
abbrev main_v2 : Ref sig .tc := ⟨.hbm, 84, rfl⟩
abbrev main_v3 : Ref sig .tc := ⟨.hbm, 85, rfl⟩
abbrev main_v4 : Ref sig .tc := ⟨.hbm, 86, rfl⟩
abbrev main_c_71 : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_c_72 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_c_73 : Ref sig .tc := ⟨.hbm, 95, rfl⟩
abbrev main_v11 : Ref sig .tc := ⟨.hbm, 96, rfl⟩
abbrev main_v12 : Ref sig .tc := ⟨.hbm, 97, rfl⟩
abbrev main_v13 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_c_74 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_c_75 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_c_76 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_c_77 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_c_78 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_c_79 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_c_80 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_c_81 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_c_82 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_c_83 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_c_84 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_c_85 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_c_86 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_c_87 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_c_88 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_c_89 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_c_90 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_c_91 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_c_92 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_c_93 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_c_94 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_c_95 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_c_96 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_c_97 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_cst_98 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_c_99 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_c_100 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_c_101 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_c_102 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_c_103 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_c_104 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_c_105 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_c_106 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_c_107 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_c_108 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_c_109 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_c_110 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_c_111 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_c_112 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_c_113 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_c_114 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_c_115 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_c_116 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_c_117 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_c_118 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_c_119 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_c_120 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_c_121 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_c_122 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_c_123 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_c_124 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_c_125 : Ref sig .tc := ⟨.hbm, 438, rfl⟩
abbrev main_v302 : Ref sig .tc := ⟨.hbm, 439, rfl⟩
abbrev main_v303 : Ref sig .tc := ⟨.hbm, 440, rfl⟩
abbrev main_v304 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_cst_126 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_cst_127 : Ref sig .tc := ⟨.hbm, 460, rfl⟩
abbrev main_v322 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_cst_128 : Ref sig .tc := ⟨.hbm, 465, rfl⟩
abbrev main_v326 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩
abbrev main_v330 : Ref sig .tc := ⟨.hbm, 470, rfl⟩
abbrev main_v331 : Ref sig .tc := ⟨.hbm, 471, rfl⟩
abbrev main_v332 : Ref sig .tc := ⟨.hbm, 472, rfl⟩
abbrev main_v333 : Ref sig .tc := ⟨.hbm, 473, rfl⟩
abbrev main_v334 : Ref sig .tc := ⟨.hbm, 474, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1792x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16384x1x28x28_S16384x784 : S16384x1x28x28.ShapeCasts S16384x784
  bcast_S_S3x28x512 : S_.BroadcastsInDim S3x28x512 (![] : Fin 0 → Fin S3x28x512.rank)
  slices_S9x16_S1x16_0_0 : S9x16.Slices ![0, 0] S1x16
  shapeCasts_S1x16_S16 : S1x16.ShapeCasts S16
  bcast_S16_S27x16_1 : S16.BroadcastsInDim S27x16 (![1] : Fin 1 → Fin S27x16.rank)
  bcast_S_S27x1 : S_.BroadcastsInDim S27x1 (![] : Fin 0 → Fin S27x1.rank)
  bcast_S_S27x16 : S_.BroadcastsInDim S27x16 (![] : Fin 0 → Fin S27x16.rank)
  bcast_S27x1_S27x16_0_1 : S27x1.BroadcastsInDim S27x16 (![0, 1] : Fin 2 → Fin S27x16.rank)
  bcast_S27x16_S27x16x1_0_1 : S27x16.BroadcastsInDim S27x16x1 (![0, 1] : Fin 2 → Fin S27x16x1.rank)
  concatenates_S27x16x1_S27x16x1_S27x16x1_S27x16x3_d2 : Shape.Concatenates [S27x16x1, S27x16x1, S27x16x1] S27x16x3 2
  slices_S9x16_S1x16_1_0 : S9x16.Slices ![1, 0] S1x16
  bcast_S16_S28x16_1 : S16.BroadcastsInDim S28x16 (![1] : Fin 1 → Fin S28x16.rank)
  bcast_S_S28x1 : S_.BroadcastsInDim S28x1 (![] : Fin 0 → Fin S28x1.rank)
  bcast_S_S28x16 : S_.BroadcastsInDim S28x16 (![] : Fin 0 → Fin S28x16.rank)
  bcast_S28x1_S28x16_0_1 : S28x1.BroadcastsInDim S28x16 (![0, 1] : Fin 2 → Fin S28x16.rank)
  bcast_S28x16_S28x16x1_0_1 : S28x16.BroadcastsInDim S28x16x1 (![0, 1] : Fin 2 → Fin S28x16x1.rank)
  concatenates_S28x16x1_S28x16x1_S28x16x1_S28x16x3_d2 : Shape.Concatenates [S28x16x1, S28x16x1, S28x16x1] S28x16x3 2
  slices_S9x16_S1x16_2_0 : S9x16.Slices ![2, 0] S1x16
  slices_S9x16_S1x16_3_0 : S9x16.Slices ![3, 0] S1x16
  slices_S9x16_S1x16_4_0 : S9x16.Slices ![4, 0] S1x16
  slices_S9x16_S1x16_5_0 : S9x16.Slices ![5, 0] S1x16
  slices_S9x16_S1x16_6_0 : S9x16.Slices ![6, 0] S1x16
  slices_S9x16_S1x16_7_0 : S9x16.Slices ![7, 0] S1x16
  slices_S9x16_S1x16_8_0 : S9x16.Slices ![8, 0] S1x16
  shapeCasts_S3x28x512_S84x512 : S3x28x512.ShapeCasts S84x512
  bitsLt_bf16_f32 : FTy.bits .bf16 < FTy.bits .f32
  bcast_S_S3x256x512 : S_.BroadcastsInDim S3x256x512 (![] : Fin 0 → Fin S3x256x512.rank)
  slices_S144x32_S16x32_0_0 : S144x32.Slices ![0, 0] S16x32
  bcast_S16x32_S13x16x32_1_2 : S16x32.BroadcastsInDim S13x16x32 (![1, 2] : Fin 2 → Fin S13x16x32.rank)
  bcast_S_S13x16x1 : S_.BroadcastsInDim S13x16x1 (![] : Fin 0 → Fin S13x16x1.rank)
  bcast_S_S13x1x32 : S_.BroadcastsInDim S13x1x32 (![] : Fin 0 → Fin S13x1x32.rank)
  bcast_S_S13x16x32 : S_.BroadcastsInDim S13x16x32 (![] : Fin 0 → Fin S13x16x32.rank)
  bcast_S13x16x1_S13x16x32_0_1_2 : S13x16x1.BroadcastsInDim S13x16x32 (![0, 1, 2] : Fin 3 → Fin S13x16x32.rank)
  bcast_S13x1x32_S13x16x32_0_1_2 : S13x1x32.BroadcastsInDim S13x16x32 (![0, 1, 2] : Fin 3 → Fin S13x16x32.rank)
  bcast_S13x16x32_S13x16x32x1_0_1_2 : S13x16x32.BroadcastsInDim S13x16x32x1 (![0, 1, 2] : Fin 3 → Fin S13x16x32x1.rank)
  concatenates_S13x16x32x1_S13x16x32x1_S13x16x32x1_S13x16x32x3_d3 : Shape.Concatenates [S13x16x32x1, S13x16x32x1, S13x16x32x1] S13x16x32x3 3
  slices_S144x32_S16x32_16_0 : S144x32.Slices ![16, 0] S16x32
  bcast_S16x32_S14x16x32_1_2 : S16x32.BroadcastsInDim S14x16x32 (![1, 2] : Fin 2 → Fin S14x16x32.rank)
  bcast_S_S14x16x1 : S_.BroadcastsInDim S14x16x1 (![] : Fin 0 → Fin S14x16x1.rank)
  bcast_S_S14x1x32 : S_.BroadcastsInDim S14x1x32 (![] : Fin 0 → Fin S14x1x32.rank)
  bcast_S_S14x16x32 : S_.BroadcastsInDim S14x16x32 (![] : Fin 0 → Fin S14x16x32.rank)
  bcast_S14x16x1_S14x16x32_0_1_2 : S14x16x1.BroadcastsInDim S14x16x32 (![0, 1, 2] : Fin 3 → Fin S14x16x32.rank)
  bcast_S14x1x32_S14x16x32_0_1_2 : S14x1x32.BroadcastsInDim S14x16x32 (![0, 1, 2] : Fin 3 → Fin S14x16x32.rank)
  bcast_S14x16x32_S14x16x32x1_0_1_2 : S14x16x32.BroadcastsInDim S14x16x32x1 (![0, 1, 2] : Fin 3 → Fin S14x16x32x1.rank)
  concatenates_S14x16x32x1_S14x16x32x1_S14x16x32x1_S14x16x32x3_d3 : Shape.Concatenates [S14x16x32x1, S14x16x32x1, S14x16x32x1] S14x16x32x3 3
  slices_S144x32_S16x32_32_0 : S144x32.Slices ![32, 0] S16x32
  slices_S144x32_S16x32_48_0 : S144x32.Slices ![48, 0] S16x32
  slices_S144x32_S16x32_64_0 : S144x32.Slices ![64, 0] S16x32
  slices_S144x32_S16x32_80_0 : S144x32.Slices ![80, 0] S16x32
  slices_S144x32_S16x32_96_0 : S144x32.Slices ![96, 0] S16x32
  slices_S144x32_S16x32_112_0 : S144x32.Slices ![112, 0] S16x32
  slices_S144x32_S16x32_128_0 : S144x32.Slices ![128, 0] S16x32
  shapeCasts_S3x256x512_S768x512 : S3x256x512.ShapeCasts S768x512
  shapeCasts_S16_S1x16 : S16.ShapeCasts S1x16
  bcast_S1x16_S14x16_0_1 : S1x16.BroadcastsInDim S14x16 (![0, 1] : Fin 2 → Fin S14x16.rank)
  shapeCasts_S14x16_S224 : S14x16.ShapeCasts S224
  bcast_S_S32 : S_.BroadcastsInDim S32 (![] : Fin 0 → Fin S32.rank)
  concatenates_S224_S32_S256_d0 : Shape.Concatenates [S224, S32] S256 0
  shapeCasts_S256_S1x256 : S256.ShapeCasts S1x256
  shapeCasts_S32_S1x32 : S32.ShapeCasts S1x32
  bcast_S1x32_S7x32_0_1 : S1x32.BroadcastsInDim S7x32 (![0, 1] : Fin 2 → Fin S7x32.rank)
  shapeCasts_S7x32_S224 : S7x32.ShapeCasts S224
  shapeCasts_S1568x128_S7x224x128 : S1568x128.ShapeCasts S7x224x128
  bcast_S_S7x32x128 : S_.BroadcastsInDim S7x32x128 (![] : Fin 0 → Fin S7x32x128.rank)
  concatenates_S7x224x128_S7x32x128_S7x256x128_d1 : Shape.Concatenates [S7x224x128, S7x32x128] S7x256x128 1
  shapeCasts_S7x256x128_S1792x128 : S7x256x128.ShapeCasts S1792x128
  shapeCasts_S128_S1x128 : S128.ShapeCasts S1x128
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S84x512_S84x512_0_0 : ∀ a, (![0, 0] : Fin 2 → Nat) a + S84x512.size a ≤ S84x512.size a
  h_S84x512 : 0 < S84x512.numel
  shapeCasts_S84x512_S84x512 : S84x512.ShapeCasts S84x512
  slices_S256x784_o0_0_S256x56 : S256x784.Slices ![0, 0] S256x56
  slices_S84x512_o28_0_S56x512 : S84x512.Slices ![28, 0] S56x512
  slices_S256x784_o0_0_S256x84 : S256x784.Slices ![0, 0] S256x84
  slices_S256x512_o0_0_S256x256 : S256x512.Slices ![0, 0] S256x256
  slices_S256x512_o0_256_S256x256 : S256x512.Slices ![0, 256] S256x256
  broadcasts_S1x256_S256x256 : S1x256.Broadcasts S256x256
  slices_S256x784_o0_28_S256x84 : S256x784.Slices ![0, 28] S256x84
  slices_S256x784_o0_56_S256x84 : S256x784.Slices ![0, 56] S256x84
  slices_S256x784_o0_84_S256x84 : S256x784.Slices ![0, 84] S256x84
  slices_S256x784_o0_112_S256x84 : S256x784.Slices ![0, 112] S256x84
  slices_S256x784_o0_140_S256x84 : S256x784.Slices ![0, 140] S256x84
  slices_S256x784_o0_168_S256x84 : S256x784.Slices ![0, 168] S256x84
  slices_S256x784_o0_196_S256x84 : S256x784.Slices ![0, 196] S256x84
  slices_S256x784_o0_224_S256x84 : S256x784.Slices ![0, 224] S256x84
  slices_S256x784_o0_252_S256x84 : S256x784.Slices ![0, 252] S256x84
  slices_S256x784_o0_280_S256x84 : S256x784.Slices ![0, 280] S256x84
  slices_S256x784_o0_308_S256x84 : S256x784.Slices ![0, 308] S256x84
  slices_S256x784_o0_336_S256x84 : S256x784.Slices ![0, 336] S256x84
  slices_S256x784_o0_364_S256x84 : S256x784.Slices ![0, 364] S256x84
  slices_S256x784_o0_392_S256x84 : S256x784.Slices ![0, 392] S256x84
  slices_S256x784_o0_420_S256x84 : S256x784.Slices ![0, 420] S256x84
  slices_S256x784_o0_448_S256x84 : S256x784.Slices ![0, 448] S256x84
  slices_S256x784_o0_476_S256x84 : S256x784.Slices ![0, 476] S256x84
  slices_S256x784_o0_504_S256x84 : S256x784.Slices ![0, 504] S256x84
  slices_S256x784_o0_532_S256x84 : S256x784.Slices ![0, 532] S256x84
  slices_S256x784_o0_560_S256x84 : S256x784.Slices ![0, 560] S256x84
  slices_S256x784_o0_588_S256x84 : S256x784.Slices ![0, 588] S256x84
  slices_S256x784_o0_616_S256x84 : S256x784.Slices ![0, 616] S256x84
  slices_S256x784_o0_644_S256x84 : S256x784.Slices ![0, 644] S256x84
  slices_S256x784_o0_672_S256x84 : S256x784.Slices ![0, 672] S256x84
  slices_S256x784_o0_700_S256x84 : S256x784.Slices ![0, 700] S256x84
  slices_S256x784_o0_728_S256x56 : S256x784.Slices ![0, 728] S256x56
  slices_S84x512_o0_0_S56x512 : S84x512.Slices ![0, 0] S56x512
  concatenates_S256x256_S256x256_S256x256_S256x256_S256x256_S256x256_S256x256_S256x256_S256x256_S256x256_S256x256_S256x256_S256x256_S256x256_S256x256_S256x256_S256x4096_d1 : Shape.Concatenates [S256x256, S256x256, S256x256, S256x256, S256x256, S256x256, S256x256, S256x256, S256x256, S256x256, S256x256, S256x256, S256x256, S256x256, S256x256, S256x256] S256x4096 1
  slices_S256x4096_o0_0_S256x768 : S256x4096.Slices ![0, 0] S256x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  slices_S256x4096_o0_256_S256x768 : S256x4096.Slices ![0, 256] S256x768
  slices_S256x4096_o0_512_S256x768 : S256x4096.Slices ![0, 512] S256x768
  slices_S256x4096_o0_768_S256x768 : S256x4096.Slices ![0, 768] S256x768
  slices_S256x4096_o0_1024_S256x768 : S256x4096.Slices ![0, 1024] S256x768
  slices_S256x4096_o0_1280_S256x768 : S256x4096.Slices ![0, 1280] S256x768
  slices_S256x4096_o0_1536_S256x768 : S256x4096.Slices ![0, 1536] S256x768
  slices_S256x4096_o0_1792_S256x768 : S256x4096.Slices ![0, 1792] S256x768
  slices_S256x4096_o0_2048_S256x768 : S256x4096.Slices ![0, 2048] S256x768
  slices_S256x4096_o0_2304_S256x768 : S256x4096.Slices ![0, 2304] S256x768
  slices_S256x4096_o0_2560_S256x768 : S256x4096.Slices ![0, 2560] S256x768
  slices_S256x4096_o0_2816_S256x768 : S256x4096.Slices ![0, 2816] S256x768
  slices_S256x4096_o0_3072_S256x768 : S256x4096.Slices ![0, 3072] S256x768
  slices_S256x4096_o0_3328_S256x768 : S256x4096.Slices ![0, 3328] S256x768
  concatenates_S256x256_S256x256_S256x256_S256x256_S256x256_S256x256_S256x256_S256x1792_d1 : Shape.Concatenates [S256x256, S256x256, S256x256, S256x256, S256x256, S256x256, S256x256] S256x1792 1
  inb_S1792x128_S1792x128_0_0 : ∀ a, (![0, 0] : Fin 2 → Nat) a + S1792x128.size a ≤ S1792x128.size a
  h_S1792x128 : 0 < S1792x128.numel
  shapeCasts_S1792x128_S1792x128 : S1792x128.ShapeCasts S1792x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  slices_S16384x128_S16384x10_0_0 : S16384x128.Slices ![0, 0] S16384x10
  scatter_S3x28x512_S27x16x3_S27x16_n_012_012_2_wf : ScatterDims.WF S3x28x512 S27x16x3 S27x16 [] [0, 1, 2] [0, 1, 2] 2
  scatter_S3x28x512_S28x16x3_S28x16_n_012_012_2_wf : ScatterDims.WF S3x28x512 S28x16x3 S28x16 [] [0, 1, 2] [0, 1, 2] 2
  scatter_S3x256x512_S13x16x32x3_S13x16x32_n_012_012_3_wf : ScatterDims.WF S3x256x512 S13x16x32x3 S13x16x32 [] [0, 1, 2] [0, 1, 2] 3
  scatter_S3x256x512_S14x16x32x3_S14x16x32_n_012_012_3_wf : ScatterDims.WF S3x256x512 S14x16x32x3 S14x16x32 [] [0, 1, 2] [0, 1, 2] 3
  dot_S256x56_S56x512_S256x512_1_0_0_1_n_n_wf : DotDims.WF S256x56 S56x512 S256x512 [1] [0] [0] [1] [] []
  dot_S256x84_S84x512_S256x512_1_0_0_1_n_n_wf : DotDims.WF S256x84 S84x512 S256x512 [1] [0] [0] [1] [] []
  dot_S256x768_S768x512_S256x512_1_0_0_1_n_n_wf : DotDims.WF S256x768 S768x512 S256x512 [1] [0] [0] [1] [] []
  dot_S256x1792_S1792x128_S256x128_1_0_0_1_n_n_wf : DotDims.WF S256x1792 S1792x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S16384x784.size a
  hwx0_0 : ∀ i : grid0.Coords, EltTy.bits .f32 = 32 ∨ (Rect.block (s := S16384x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x512.size a ≤ S84x512.size a
  hwx0_1 : ∀ i : grid0.Coords, EltTy.bits .bf16 = 32 ∨ (Rect.block (s := S84x512) S84x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1792x128.size a ≤ S1792x128.size a
  hwx0_5 : ∀ i : grid0.Coords, EltTy.bits .bf16 = 32 ∨ (Rect.block (s := S1792x128) S1792x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S16384x128.size a
  hwx0_9 : ∀ i : grid0.Coords, EltTy.bits .f32 = 32 ∨ (Rect.block (s := S16384x128) S256x128.size (cc0_transform_9 i) (hinb0_9 i)).WholeWords (EltTy.packing .f32)

variable [Facts₀]

def scatter_S3x28x512_S27x16x3_S27x16_n_012_012_2 : ScatterDims S3x28x512 S27x16x3 S27x16 where
  updateWindowDims := []
  insertedWindowDims := [0, 1, 2]
  scatterDimsToOperandDims := [0, 1, 2]
  indexVectorDim := 2
  wf := scatter_S3x28x512_S27x16x3_S27x16_n_012_012_2_wf
def scatter_S3x28x512_S28x16x3_S28x16_n_012_012_2 : ScatterDims S3x28x512 S28x16x3 S28x16 where
  updateWindowDims := []
  insertedWindowDims := [0, 1, 2]
  scatterDimsToOperandDims := [0, 1, 2]
  indexVectorDim := 2
  wf := scatter_S3x28x512_S28x16x3_S28x16_n_012_012_2_wf
def scatter_S3x256x512_S13x16x32x3_S13x16x32_n_012_012_3 : ScatterDims S3x256x512 S13x16x32x3 S13x16x32 where
  updateWindowDims := []
  insertedWindowDims := [0, 1, 2]
  scatterDimsToOperandDims := [0, 1, 2]
  indexVectorDim := 3
  wf := scatter_S3x256x512_S13x16x32x3_S13x16x32_n_012_012_3_wf
def scatter_S3x256x512_S14x16x32x3_S14x16x32_n_012_012_3 : ScatterDims S3x256x512 S14x16x32x3 S14x16x32 where
  updateWindowDims := []
  insertedWindowDims := [0, 1, 2]
  scatterDimsToOperandDims := [0, 1, 2]
  indexVectorDim := 3
  wf := scatter_S3x256x512_S14x16x32x3_S14x16x32_n_012_012_3_wf
def dot_S256x56_S56x512_S256x512_1_0_0_1_n_n : DotDims S256x56 S56x512 S256x512 where
  lhsContracting := [1]
  rhsContracting := [0]
  lhsNonContracting := [0]
  rhsNonContracting := [1]
  lhsBatch := []
  rhsBatch := []
  wf := dot_S256x56_S56x512_S256x512_1_0_0_1_n_n_wf
def dot_S256x84_S84x512_S256x512_1_0_0_1_n_n : DotDims S256x84 S84x512 S256x512 where
  lhsContracting := [1]
  rhsContracting := [0]
  lhsNonContracting := [0]
  rhsNonContracting := [1]
  lhsBatch := []
  rhsBatch := []
  wf := dot_S256x84_S84x512_S256x512_1_0_0_1_n_n_wf
def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S256x1792_S1792x128_S256x128_1_0_0_1_n_n : DotDims S256x1792 S1792x128 S256x128 where
  lhsContracting := [1]
  rhsContracting := [0]
  lhsNonContracting := [0]
  rhsNonContracting := [1]
  lhsBatch := []
  rhsBatch := []
  wf := dot_S256x1792_S1792x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v156) S84x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v318) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v312) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v324) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v329) S1792x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v331) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v330) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v332) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v333) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S9x16 : Shape := ⟨2, ![9, 16]⟩
abbrev S16 : Shape := ⟨1, ![16]⟩
abbrev S144x32 : Shape := ⟨2, ![144, 32]⟩
abbrev S32 : Shape := ⟨1, ![32]⟩
abbrev S1568x128 : Shape := ⟨2, ![1568, 128]⟩
abbrev S128 : Shape := ⟨1, ![128]⟩
abbrev S128x128 : Shape := ⟨2, ![128, 128]⟩
abbrev S16384x28x28x1 : Shape := ⟨4, ![16384, 28, 28, 1]⟩
abbrev S_ : Shape := ⟨0, ![]⟩
abbrev S16384x30x30x1 : Shape := ⟨4, ![16384, 30, 30, 1]⟩
abbrev S1x16 : Shape := ⟨2, ![1, 16]⟩
abbrev S16384x16x16x16 : Shape := ⟨4, ![16384, 16, 16, 16]⟩
abbrev S8x30x30x1 : Shape := ⟨4, ![8, 30, 30, 1]⟩
abbrev S8x16x16x16 : Shape := ⟨4, ![8, 16, 16, 16]⟩
abbrev S8x28x28x1 : Shape := ⟨4, ![8, 28, 28, 1]⟩
abbrev S8x28x28x9 : Shape := ⟨4, ![8, 28, 28, 9]⟩
abbrev S6272x9 : Shape := ⟨2, ![6272, 9]⟩
abbrev S6272x16 : Shape := ⟨2, ![6272, 16]⟩
abbrev S8x14x2x28x16 : Shape := ⟨5, ![8, 14, 2, 28, 16]⟩
abbrev S8x14x1x28x16 : Shape := ⟨5, ![8, 14, 1, 28, 16]⟩
abbrev S8x14x28x16 : Shape := ⟨4, ![8, 14, 28, 16]⟩
abbrev S8x14x14x2x16 : Shape := ⟨5, ![8, 14, 14, 2, 16]⟩
abbrev S8x14x14x1x16 : Shape := ⟨5, ![8, 14, 14, 1, 16]⟩
abbrev S8x14x14x16 : Shape := ⟨4, ![8, 14, 14, 16]⟩
abbrev S1x32 : Shape := ⟨2, ![1, 32]⟩
abbrev S16384x7x7x32 : Shape := ⟨4, ![16384, 7, 7, 32]⟩
abbrev S8x7x7x32 : Shape := ⟨4, ![8, 7, 7, 32]⟩
abbrev S8x14x14x144 : Shape := ⟨4, ![8, 14, 14, 144]⟩
abbrev S1568x144 : Shape := ⟨2, ![1568, 144]⟩
abbrev S1568x32 : Shape := ⟨2, ![1568, 32]⟩
abbrev S8x7x2x14x32 : Shape := ⟨5, ![8, 7, 2, 14, 32]⟩
abbrev S8x7x1x14x32 : Shape := ⟨5, ![8, 7, 1, 14, 32]⟩
abbrev S8x7x14x32 : Shape := ⟨4, ![8, 7, 14, 32]⟩
abbrev S8x7x7x2x32 : Shape := ⟨5, ![8, 7, 7, 2, 32]⟩
abbrev S8x7x7x1x32 : Shape := ⟨5, ![8, 7, 7, 1, 32]⟩
abbrev S16384x1568 : Shape := ⟨2, ![16384, 1568]⟩
abbrev S1x128 : Shape := ⟨2, ![1, 128]⟩
abbrev S16384x128 : Shape := ⟨2, ![16384, 128]⟩
abbrev S512x1568 : Shape := ⟨2, ![512, 1568]⟩
abbrev S512x128 : Shape := ⟨2, ![512, 128]⟩
abbrev S16384x10 : Shape := ⟨2, ![16384, 10]⟩

abbrev nBuf : Space → Nat
  | .hbm => 22
  | .vmem => 20
  | .smem => 0
  | _ => 0

abbrev bufTy : (tb : Table) → Fin (tcTables nBuf tb) → BufTy
  | .hbm, ⟨0, _⟩ => ⟨S16384x1x28x28, .f32⟩
  | .hbm, ⟨1, _⟩ => ⟨S9x16, .f32⟩
  | .hbm, ⟨2, _⟩ => ⟨S16, .f32⟩
  | .hbm, ⟨3, _⟩ => ⟨S144x32, .f32⟩
  | .hbm, ⟨4, _⟩ => ⟨S32, .f32⟩
  | .hbm, ⟨5, _⟩ => ⟨S1568x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S16384x28x28x1, .f32⟩
  | .hbm, ⟨10, _⟩ => ⟨S_, .i32⟩
  | .hbm, ⟨11, _⟩ => ⟨S_, .f32⟩
  | .hbm, ⟨12, _⟩ => ⟨S16384x30x30x1, .f32⟩
  | .hbm, ⟨13, _⟩ => ⟨S1x16, .f32⟩
  | .hbm, ⟨14, _⟩ => ⟨S16384x16x16x16, .f32⟩
  | .hbm, ⟨15, _⟩ => ⟨S1x32, .f32⟩
  | .hbm, ⟨16, _⟩ => ⟨S16384x7x7x32, .f32⟩
  | .hbm, ⟨17, _⟩ => ⟨S16384x1568, .f32⟩
  | .hbm, ⟨18, _⟩ => ⟨S1x128, .f32⟩
  | .hbm, ⟨19, _⟩ => ⟨S1x128, .f32⟩
  | .hbm, ⟨20, _⟩ => ⟨S16384x128, .f32⟩
  | .hbm, ⟨21, _⟩ => ⟨S16384x10, .f32⟩
  | .local _ .vmem, ⟨0, _⟩ => ⟨S8x30x30x1, .f32⟩
  | .local _ .vmem, ⟨1, _⟩ => ⟨S8x30x30x1, .f32⟩
  | .local _ .vmem, ⟨2, _⟩ => ⟨S9x16, .f32⟩
  | .local _ .vmem, ⟨3, _⟩ => ⟨S1x16, .f32⟩
  | .local _ .vmem, ⟨4, _⟩ => ⟨S8x16x16x16, .f32⟩
  | .local _ .vmem, ⟨5, _⟩ => ⟨S8x16x16x16, .f32⟩
  | .local _ .vmem, ⟨6, _⟩ => ⟨S8x16x16x16, .f32⟩
  | .local _ .vmem, ⟨7, _⟩ => ⟨S8x16x16x16, .f32⟩
  | .local _ .vmem, ⟨8, _⟩ => ⟨S144x32, .f32⟩
  | .local _ .vmem, ⟨9, _⟩ => ⟨S1x32, .f32⟩
  | .local _ .vmem, ⟨10, _⟩ => ⟨S8x7x7x32, .f32⟩
  | .local _ .vmem, ⟨11, _⟩ => ⟨S8x7x7x32, .f32⟩
  | .local _ .vmem, ⟨12, _⟩ => ⟨S512x1568, .f32⟩
  | .local _ .vmem, ⟨13, _⟩ => ⟨S512x1568, .f32⟩
  | .local _ .vmem, ⟨14, _⟩ => ⟨S1568x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S512x128, .f32⟩
  | .local _ .vmem, ⟨19, _⟩ => ⟨S512x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![2048], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x30x30x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2048], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8x16x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S144x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x7x7x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1568 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1568x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S16384x1x28x28_S16384x28x28x1_0_2_3_1 : S16384x1x28x28.Transposes [0, 2, 3, 1] S16384x28x28x1
  pads_S16384x28x28x1_S16384x30x30x1_000_110_110_000 : S16384x28x28x1.Pads (![0, 1, 1, 0] : Fin 4 → Nat) ![0, 1, 1, 0] ![0, 0, 0, 0] S16384x30x30x1
  h_S_ : 0 < S_.numel
  shapeCasts_S16_S1x16 : S16.ShapeCasts S1x16
  inb_S8x30x30x1_S8x28x28x1_0_0_0_0 : ∀ a, (![0, 0, 0, 0] : Fin 4 → Nat) a + S8x28x28x1.size a ≤ S8x30x30x1.size a
  h_S8x28x28x1 : 0 < S8x28x28x1.numel
  shapeCasts_S8x28x28x1_S8x28x28x1 : S8x28x28x1.ShapeCasts S8x28x28x1
  inb_S8x30x30x1_S8x28x28x1_0_0_1_0 : ∀ a, (![0, 0, 1, 0] : Fin 4 → Nat) a + S8x28x28x1.size a ≤ S8x30x30x1.size a
  inb_S8x30x30x1_S8x28x28x1_0_0_2_0 : ∀ a, (![0, 0, 2, 0] : Fin 4 → Nat) a + S8x28x28x1.size a ≤ S8x30x30x1.size a
  inb_S8x30x30x1_S8x28x28x1_0_1_0_0 : ∀ a, (![0, 1, 0, 0] : Fin 4 → Nat) a + S8x28x28x1.size a ≤ S8x30x30x1.size a
  inb_S8x30x30x1_S8x28x28x1_0_1_1_0 : ∀ a, (![0, 1, 1, 0] : Fin 4 → Nat) a + S8x28x28x1.size a ≤ S8x30x30x1.size a
  inb_S8x30x30x1_S8x28x28x1_0_1_2_0 : ∀ a, (![0, 1, 2, 0] : Fin 4 → Nat) a + S8x28x28x1.size a ≤ S8x30x30x1.size a
  inb_S8x30x30x1_S8x28x28x1_0_2_0_0 : ∀ a, (![0, 2, 0, 0] : Fin 4 → Nat) a + S8x28x28x1.size a ≤ S8x30x30x1.size a
  inb_S8x30x30x1_S8x28x28x1_0_2_1_0 : ∀ a, (![0, 2, 1, 0] : Fin 4 → Nat) a + S8x28x28x1.size a ≤ S8x30x30x1.size a
  inb_S8x30x30x1_S8x28x28x1_0_2_2_0 : ∀ a, (![0, 2, 2, 0] : Fin 4 → Nat) a + S8x28x28x1.size a ≤ S8x30x30x1.size a
  concatenates_S8x28x28x1_S8x28x28x1_S8x28x28x1_S8x28x28x1_S8x28x28x1_S8x28x28x1_S8x28x28x1_S8x28x28x1_S8x28x28x1_S8x28x28x9_d3 : Shape.Concatenates [S8x28x28x1, S8x28x28x1, S8x28x28x1, S8x28x28x1, S8x28x28x1, S8x28x28x1, S8x28x28x1, S8x28x28x1, S8x28x28x1] S8x28x28x9 3
  shapeCasts_S8x28x28x9_S6272x9 : S8x28x28x9.ShapeCasts S6272x9
  inb_S9x16_S9x16_0_0 : ∀ a, (![0, 0] : Fin 2 → Nat) a + S9x16.size a ≤ S9x16.size a
  h_S9x16 : 0 < S9x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6272x16 : S1x16.Broadcasts S6272x16
  shapeCasts_S6272x16_S8x14x2x28x16 : S6272x16.ShapeCasts S8x14x2x28x16
  slices_S8x14x2x28x16_o0_0_0_0_0_S8x14x1x28x16 : S8x14x2x28x16.Slices ![0, 0, 0, 0, 0] S8x14x1x28x16
  shapeCasts_S8x14x1x28x16_S8x14x28x16 : S8x14x1x28x16.ShapeCasts S8x14x28x16
  slices_S8x14x2x28x16_o0_0_1_0_0_S8x14x1x28x16 : S8x14x2x28x16.Slices ![0, 0, 1, 0, 0] S8x14x1x28x16
  shapeCasts_S8x14x28x16_S8x14x14x2x16 : S8x14x28x16.ShapeCasts S8x14x14x2x16
  slices_S8x14x14x2x16_o0_0_0_0_0_S8x14x14x1x16 : S8x14x14x2x16.Slices ![0, 0, 0, 0, 0] S8x14x14x1x16
  shapeCasts_S8x14x14x1x16_S8x14x14x16 : S8x14x14x1x16.ShapeCasts S8x14x14x16
  slices_S8x14x14x2x16_o0_0_0_1_0_S8x14x14x1x16 : S8x14x14x2x16.Slices ![0, 0, 0, 1, 0] S8x14x14x1x16
  inb_S8x16x16x16_S8x16x16x16_0_0_0_0 : ∀ a, (![0, 0, 0, 0] : Fin 4 → Nat) a + S8x16x16x16.size a ≤ S8x16x16x16.size a
  h_S8x16x16x16 : 0 < S8x16x16x16.numel
  inb_S8x16x16x16_S8x14x14x16_0_1_1_0 : ∀ a, (![0, 1, 1, 0] : Fin 4 → Nat) a + S8x14x14x16.size a ≤ S8x16x16x16.size a
  h_S8x14x14x16 : 0 < S8x14x14x16.numel
  shapeCasts_S32_S1x32 : S32.ShapeCasts S1x32
  inb_S8x16x16x16_S8x14x14x16_0_0_0_0 : ∀ a, (![0, 0, 0, 0] : Fin 4 → Nat) a + S8x14x14x16.size a ≤ S8x16x16x16.size a
  shapeCasts_S8x14x14x16_S8x14x14x16 : S8x14x14x16.ShapeCasts S8x14x14x16
  inb_S8x16x16x16_S8x14x14x16_0_0_1_0 : ∀ a, (![0, 0, 1, 0] : Fin 4 → Nat) a + S8x14x14x16.size a ≤ S8x16x16x16.size a
  inb_S8x16x16x16_S8x14x14x16_0_0_2_0 : ∀ a, (![0, 0, 2, 0] : Fin 4 → Nat) a + S8x14x14x16.size a ≤ S8x16x16x16.size a
  inb_S8x16x16x16_S8x14x14x16_0_1_0_0 : ∀ a, (![0, 1, 0, 0] : Fin 4 → Nat) a + S8x14x14x16.size a ≤ S8x16x16x16.size a
  inb_S8x16x16x16_S8x14x14x16_0_1_2_0 : ∀ a, (![0, 1, 2, 0] : Fin 4 → Nat) a + S8x14x14x16.size a ≤ S8x16x16x16.size a
  inb_S8x16x16x16_S8x14x14x16_0_2_0_0 : ∀ a, (![0, 2, 0, 0] : Fin 4 → Nat) a + S8x14x14x16.size a ≤ S8x16x16x16.size a
  inb_S8x16x16x16_S8x14x14x16_0_2_1_0 : ∀ a, (![0, 2, 1, 0] : Fin 4 → Nat) a + S8x14x14x16.size a ≤ S8x16x16x16.size a
  inb_S8x16x16x16_S8x14x14x16_0_2_2_0 : ∀ a, (![0, 2, 2, 0] : Fin 4 → Nat) a + S8x14x14x16.size a ≤ S8x16x16x16.size a
  concatenates_S8x14x14x16_S8x14x14x16_S8x14x14x16_S8x14x14x16_S8x14x14x16_S8x14x14x16_S8x14x14x16_S8x14x14x16_S8x14x14x16_S8x14x14x144_d3 : Shape.Concatenates [S8x14x14x16, S8x14x14x16, S8x14x14x16, S8x14x14x16, S8x14x14x16, S8x14x14x16, S8x14x14x16, S8x14x14x16, S8x14x14x16] S8x14x14x144 3
  shapeCasts_S8x14x14x144_S1568x144 : S8x14x14x144.ShapeCasts S1568x144
  inb_S144x32_S144x32_0_0 : ∀ a, (![0, 0] : Fin 2 → Nat) a + S144x32.size a ≤ S144x32.size a
  h_S144x32 : 0 < S144x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1568x32 : S1x32.Broadcasts S1568x32
  shapeCasts_S1568x32_S8x7x2x14x32 : S1568x32.ShapeCasts S8x7x2x14x32
  slices_S8x7x2x14x32_o0_0_0_0_0_S8x7x1x14x32 : S8x7x2x14x32.Slices ![0, 0, 0, 0, 0] S8x7x1x14x32
  shapeCasts_S8x7x1x14x32_S8x7x14x32 : S8x7x1x14x32.ShapeCasts S8x7x14x32
  slices_S8x7x2x14x32_o0_0_1_0_0_S8x7x1x14x32 : S8x7x2x14x32.Slices ![0, 0, 1, 0, 0] S8x7x1x14x32
  shapeCasts_S8x7x14x32_S8x7x7x2x32 : S8x7x14x32.ShapeCasts S8x7x7x2x32
  slices_S8x7x7x2x32_o0_0_0_0_0_S8x7x7x1x32 : S8x7x7x2x32.Slices ![0, 0, 0, 0, 0] S8x7x7x1x32
  shapeCasts_S8x7x7x1x32_S8x7x7x32 : S8x7x7x1x32.ShapeCasts S8x7x7x32
  slices_S8x7x7x2x32_o0_0_0_1_0_S8x7x7x1x32 : S8x7x7x2x32.Slices ![0, 0, 0, 1, 0] S8x7x7x1x32
  inb_S8x7x7x32_S8x7x7x32_0_0_0_0 : ∀ a, (![0, 0, 0, 0] : Fin 4 → Nat) a + S8x7x7x32.size a ≤ S8x7x7x32.size a
  h_S8x7x7x32 : 0 < S8x7x7x32.numel
  shapeCasts_S16384x7x7x32_S16384x1568 : S16384x7x7x32.ShapeCasts S16384x1568
  shapeCasts_S128_S1x128 : S128.ShapeCasts S1x128
  inb_S512x1568_S512x1568_0_0 : ∀ a, (![0, 0] : Fin 2 → Nat) a + S512x1568.size a ≤ S512x1568.size a
  h_S512x1568 : 0 < S512x1568.numel
  shapeCasts_S512x1568_S512x1568 : S512x1568.ShapeCasts S512x1568
  inb_S1568x128_S1568x128_0_0 : ∀ a, (![0, 0] : Fin 2 → Nat) a + S1568x128.size a ≤ S1568x128.size a
  h_S1568x128 : 0 < S1568x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  slices_S16384x128_S16384x10_0_0 : S16384x128.Slices ![0, 0] S16384x10
  dot_S6272x9_S9x16_S6272x16_1_0_0_1_n_n_wf : DotDims.WF S6272x9 S9x16 S6272x16 [1] [0] [0] [1] [] []
  dot_S1568x144_S144x32_S1568x32_1_0_0_1_n_n_wf : DotDims.WF S1568x144 S144x32 S1568x32 [1] [0] [0] [1] [] []
  dot_S512x1568_S1568x128_S512x128_1_0_0_1_n_n_wf : DotDims.WF S512x1568 S1568x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x30x30x1.size a ≤ S16384x30x30x1.size a
  hwx0_0 : ∀ i : grid0.Coords, EltTy.bits .f32 = 32 ∨ (Rect.block (s := S16384x30x30x1) S8x30x30x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x16.size a ≤ S9x16.size a
  hwx0_1 : ∀ i : grid0.Coords, EltTy.bits .f32 = 32 ∨ (Rect.block (s := S9x16) S9x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x16x16.size a ≤ S16384x16x16x16.size a
  hwx0_3 : ∀ i : grid0.Coords, EltTy.bits .f32 = 32 ∨ (Rect.block (s := S16384x16x16x16) S8x16x16x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16x16x16.size a ≤ S16384x16x16x16.size a
  hwx1_0 : ∀ i : grid1.Coords, EltTy.bits .f32 = 32 ∨ (Rect.block (s := S16384x16x16x16) S8x16x16x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S144x32.size a ≤ S144x32.size a
  hwx1_1 : ∀ i : grid1.Coords, EltTy.bits .f32 = 32 ∨ (Rect.block (s := S144x32) S144x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x7x7x32.size a ≤ S16384x7x7x32.size a
  hwx1_3 : ∀ i : grid1.Coords, EltTy.bits .f32 = 32 ∨ (Rect.block (s := S16384x7x7x32) S8x7x7x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1568.size a ≤ S16384x1568.size a
  hwx2_0 : ∀ i : grid2.Coords, EltTy.bits .f32 = 32 ∨ (Rect.block (s := S16384x1568) S512x1568.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1568x128.size a ≤ S1568x128.size a
  hwx2_1 : ∀ i : grid2.Coords, EltTy.bits .f32 = 32 ∨ (Rect.block (s := S1568x128) S1568x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S16384x128.size a
  hwx2_5 : ∀ i : grid2.Coords, EltTy.bits .f32 = 32 ∨ (Rect.block (s := S16384x128) S512x128.size (cc2_transform_5 i) (hinb2_5 i)).WholeWords (EltTy.packing .f32)

variable [Facts₀]

def dot_S6272x9_S9x16_S6272x16_1_0_0_1_n_n : DotDims S6272x9 S9x16 S6272x16 where
  lhsContracting := [1]
  rhsContracting := [0]
  lhsNonContracting := [0]
  rhsNonContracting := [1]
  lhsBatch := []
  rhsBatch := []
  wf := dot_S6272x9_S9x16_S6272x16_1_0_0_1_n_n_wf
def dot_S1568x144_S144x32_S1568x32_1_0_0_1_n_n : DotDims S1568x144 S144x32 S1568x32 where
  lhsContracting := [1]
  rhsContracting := [0]
  lhsNonContracting := [0]
  rhsNonContracting := [1]
  lhsBatch := []
  rhsBatch := []
  wf := dot_S1568x144_S144x32_S1568x32_1_0_0_1_n_n_wf
def dot_S512x1568_S1568x128_S512x128_1_0_0_1_n_n : DotDims S512x1568 S1568x128 S512x128 where
  lhsContracting := [1]
  rhsContracting := [0]
  lhsNonContracting := [0]
  rhsNonContracting := [1]
  lhsBatch := []
  rhsBatch := []
  wf := dot_S512x1568_S1568x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v1) S8x30x30x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x16x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x16x16x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S144x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x7x7x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1568.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1568x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== Proof.KBodyTermBits.lean ====
/-
  The fused kernel's result block as ONE term over the nine blocks its body loads: the image rows `x`, the banded
  first-convolution matrix `t1` with its bias row `b1`, the banded second-convolution matrix `t2` with its bias
  row `b2`, the padded first dense matrix `w1` with its bias `fb1`, the second dense matrix `w2` with its bias
  `fb2`.  The body's printed parts hand values to one another; composing their named payloads in the order the
  parts run gives the value the one store writes.  It is cut here where the mathematics cuts it: the fourteen
  pooled row groups of the first layer, the seven pooled row groups of the second layer laid side by side, and the
  two dense layers.
-/
import proofs.«150178_g2000205257289275_pallasbulk_739_9_alg».proof.Proof.Gen.Kernel.Skeleton

noncomputable section

namespace Cert.Kernel.Hand

open Idealize.ShloMosaic Cert.Kernel Cert.Kernel.Gen

variable {F : FTy → Type} [FloatOps F]

/-- Pooled output rows 0, 1 of the first convolution (before the 2 × 2 maximum over columns is re-laid: 256 lanes, 14 column pairs × 16 channels and 32 idle lanes), biased and cut at zero. -/
def grp0 (x : Vec F S256x784 .f32) (t1 : Vec F S84x512 .bf16) (b1 : Vec F S1x256 .f32) : FVec F S256x256 .bf16 :=
  k0_pay6 x b1 t1

/-- Pooled output rows 2, 3 of the first convolution (before the 2 × 2 maximum over columns is re-laid: 256 lanes, 14 column pairs × 16 channels and 32 idle lanes), biased and cut at zero. -/
def grp1 (x : Vec F S256x784 .f32) (t1 : Vec F S84x512 .bf16) (b1 : Vec F S1x256 .f32) : FVec F S256x256 .bf16 :=
  k0_pay7 x b1 t1

/-- Pooled output rows 4, 5 of the first convolution (before the 2 × 2 maximum over columns is re-laid: 256 lanes, 14 column pairs × 16 channels and 32 idle lanes), biased and cut at zero. -/
def grp2 (x : Vec F S256x784 .f32) (t1 : Vec F S84x512 .bf16) (b1 : Vec F S1x256 .f32) : FVec F S256x256 .bf16 :=
  k0_pay11 (k0_pay3 b1) (k0_pay9 x t1) (k0_pay10 x t1)

/-- Pooled output rows 6, 7 of the first convolution (before the 2 × 2 maximum over columns is re-laid: 256 lanes, 14 column pairs × 16 channels and 32 idle lanes), biased and cut at zero. -/
def grp3 (x : Vec F S256x784 .f32) (t1 : Vec F S84x512 .bf16) (b1 : Vec F S1x256 .f32) : FVec F S256x256 .bf16 :=
  k0_pay12 (k0_pay2 x) (k0_pay3 b1) (k0_pay5 t1)

/-- Pooled output rows 8, 9 of the first convolution (before the 2 × 2 maximum over columns is re-laid: 256 lanes, 14 column pairs × 16 channels and 32 idle lanes), biased and cut at zero. -/
def grp4 (x : Vec F S256x784 .f32) (t1 : Vec F S84x512 .bf16) (b1 : Vec F S1x256 .f32) : FVec F S256x256 .bf16 :=
  k0_pay13 (k0_pay2 x) (k0_pay3 b1) (k0_pay5 t1)

/-- Pooled output rows 10, 11 of the first convolution (before the 2 × 2 maximum over columns is re-laid: 256 lanes, 14 column pairs × 16 channels and 32 idle lanes), biased and cut at zero. -/
def grp5 (x : Vec F S256x784 .f32) (t1 : Vec F S84x512 .bf16) (b1 : Vec F S1x256 .f32) : FVec F S256x256 .bf16 :=
  k0_pay14 (k0_pay2 x) (k0_pay3 b1) (k0_pay5 t1)

/-- Pooled output rows 12, 13 of the first convolution (before the 2 × 2 maximum over columns is re-laid: 256 lanes, 14 column pairs × 16 channels and 32 idle lanes), biased and cut at zero. -/
def grp6 (x : Vec F S256x784 .f32) (t1 : Vec F S84x512 .bf16) (b1 : Vec F S1x256 .f32) : FVec F S256x256 .bf16 :=
  k0_pay17 (k0_pay3 b1) (k0_pay5 t1) (k0_pay15 (k0_pay2 x) (k0_pay5 t1)) (k0_pay16 (k0_pay2 x)) (constant S256x512 .f32 0x00000000#32)

/-- Pooled output rows 14, 15 of the first convolution (before the 2 × 2 maximum over columns is re-laid: 256 lanes, 14 column pairs × 16 channels and 32 idle lanes), biased and cut at zero. -/
def grp7 (x : Vec F S256x784 .f32) (t1 : Vec F S84x512 .bf16) (b1 : Vec F S1x256 .f32) : FVec F S256x256 .bf16 :=
  k0_pay18 (k0_pay2 x) (k0_pay3 b1) (k0_pay5 t1)

/-- Pooled output rows 16, 17 of the first convolution (before the 2 × 2 maximum over columns is re-laid: 256 lanes, 14 column pairs × 16 channels and 32 idle lanes), biased and cut at zero. -/
def grp8 (x : Vec F S256x784 .f32) (t1 : Vec F S84x512 .bf16) (b1 : Vec F S1x256 .f32) : FVec F S256x256 .bf16 :=
  k0_pay19 (k0_pay2 x) (k0_pay3 b1) (k0_pay5 t1)

/-- Pooled output rows 18, 19 of the first convolution (before the 2 × 2 maximum over columns is re-laid: 256 lanes, 14 column pairs × 16 channels and 32 idle lanes), biased and cut at zero. -/
def grp9 (x : Vec F S256x784 .f32) (t1 : Vec F S84x512 .bf16) (b1 : Vec F S1x256 .f32) : FVec F S256x256 .bf16 :=
  k0_pay20 (k0_pay2 x) (k0_pay3 b1) (k0_pay5 t1)

/-- Pooled output rows 20, 21 of the first convolution (before the 2 × 2 maximum over columns is re-laid: 256 lanes, 14 column pairs × 16 channels and 32 idle lanes), biased and cut at zero. -/
def grp10 (x : Vec F S256x784 .f32) (t1 : Vec F S84x512 .bf16) (b1 : Vec F S1x256 .f32) : FVec F S256x256 .bf16 :=
  k0_pay22 (k0_pay2 x) (k0_pay3 b1) (k0_pay5 t1) (k0_pay21 (k0_pay2 x))

/-- Pooled output rows 22, 23 of the first convolution (before the 2 × 2 maximum over columns is re-laid: 256 lanes, 14 column pairs × 16 channels and 32 idle lanes), biased and cut at zero. -/
def grp11 (x : Vec F S256x784 .f32) (t1 : Vec F S84x512 .bf16) (b1 : Vec F S1x256 .f32) : FVec F S256x256 .bf16 :=
  k0_pay23 (k0_pay2 x) (k0_pay3 b1) (k0_pay5 t1)

/-- Pooled output rows 24, 25 of the first convolution (before the 2 × 2 maximum over columns is re-laid: 256 lanes, 14 column pairs × 16 channels and 32 idle lanes), biased and cut at zero. -/
def grp12 (x : Vec F S256x784 .f32) (t1 : Vec F S84x512 .bf16) (b1 : Vec F S1x256 .f32) : FVec F S256x256 .bf16 :=
  k0_pay24 (k0_pay2 x) (k0_pay3 b1) (k0_pay5 t1)

/-- The last pair of rows (26, 27) of the first convolution, pooled and biased but NOT yet cut at zero (the cut is made
    where the groups are laid side by side). -/
def grp13 (x : Vec F S256x784 .f32) (t1 : Vec F S84x512 .bf16) (b1 : Vec F S1x256 .f32) : FVec F S256x256 .f32 :=
  k0_pay25 (k0_pay2 x) (k0_pay3 b1) (k0_pay5 t1)

/-- The fourteen groups laid side by side between two zero groups: 16 × 256 lanes. -/
def packed (g0 g1 g2 g3 g4 g5 g6 g7 g8 g9 g10 g11 g12 : FVec F S256x256 .bf16) (g13 : FVec F S256x256 .f32) : FVec F S256x4096 .bf16 :=
  k0_pay26 g0 g1 g2 g3 g4 g5 g6 g7 g8 g9 g10 g11 g12 g13

/-- The second layer: the seven pooled row groups (7 × 256 lanes), from the fourteen first-layer groups, the banded
    matrix `t2` and the bias row `b2`. -/
def featsOf (b2 : Vec F S1x256 .f32) (t2 : Vec F S768x512 .bf16) (g0 g1 g2 g3 g4 g5 g6 g7 g8 g9 g10 g11 g12 : FVec F S256x256 .bf16) (g13 : FVec F S256x256 .f32) : FVec F S256x1792 .bf16 :=
  let v6 := k0_pay4 b2
  let v194 := k0_pay26 g0 g1 g2 g3 g4 g5 g6 g7 g8 g9 g10 g11 g12 g13
  let v211 := k0_pay27 v6 g0 g1 g2 g3 g4 g5 g6 g7 g8 g9 g10 g11 g12 g13 t2 t2
  let v228 := k0_pay28 v6 g0 g1 g2 g3 g4 g5 g6 g7 g8 g9 g10 g11 g12 g13 t2 t2
  let v229 := k0_pay29 g0 g1 g2 g3 g4 g5 g6 g7 g8 g9 g10 g11 g12 g13
  let v231 := k0_pay30 t2
  let v245 := k0_pay31 v6 v194 v229 v231 t2
  let v262 := k0_pay32 v6 v194 t2 t2
  let v272 := k0_pay34 v194 t2 t2
  let v273 := k0_pay35 v194 t2 t2
  k0_pay36 v6 v194 v211 v228 v245 v262 v272 v273 t2 t2 t2 t2

/-- The two dense layers over the 1792 lanes. -/
def headOf (ff : FVec F S256x1792 .bf16) (w1 : Vec F S1792x128 .bf16) (fb1 : Vec F S1x128 .f32) (w2 : Vec F S128x128 .bf16)
    (fb2 : Vec F S1x128 .f32) : FVec F S256x128 .f32 :=
  k0_pay1 ff (k0_pay37 w1) fb1 w2 fb2

/-- The value the body's one store writes, from the nine loaded blocks. -/
def bodyOut (x : Vec F S256x784 .f32) (t1 : Vec F S84x512 .bf16) (b1 : Vec F S1x256 .f32) (t2 : Vec F S768x512 .bf16)
    (b2 : Vec F S1x256 .f32) (w1 : Vec F S1792x128 .bf16) (fb1 : Vec F S1x128 .f32) (w2 : Vec F S128x128 .bf16)
    (fb2 : Vec F S1x128 .f32) : FVec F S256x128 .f32 :=
  headOf (featsOf b2 t2 (grp0 x t1 b1) (grp1 x t1 b1) (grp2 x t1 b1) (grp3 x t1 b1) (grp4 x t1 b1) (grp5 x t1 b1)
    (grp6 x t1 b1) (grp7 x t1 b1) (grp8 x t1 b1) (grp9 x t1 b1) (grp10 x t1 b1) (grp11 x t1 b1) (grp12 x t1 b1)
    (grp13 x t1 b1)) w1 fb1 w2 fb2

end Cert.Kernel.Hand

end
-- ==== Proof.KRunBits.lean ====
/-
  The frame run of the fused kernel program: the host lines before the one region leave the nine argument arrays
  as launched; at every grid point the body finds each input window's block in its staging buffer, reads the nine
  blocks whole and stores one value over the whole output block; the host line after the region writes only its own
  result.  From these: the region's run to the library's frame post, and the frame claim.
-/
import proofs.«150178_g2000205257289275_pallasbulk_739_9_alg».proof.Proof.Gen.Kernel.Launch
import proofs.«150178_g2000205257289275_pallasbulk_739_9_alg».proof.Proof.Gen.Kernel.Skeleton
import proofs.«150178_g2000205257289275_pallasbulk_739_9_alg».proof.Proof.Gen.Kernel.Points
import proofs.«150178_g2000205257289275_pallasbulk_739_9_alg».proof.Proof.KBodyTermBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The arrays when the region is entered -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A host line is tame when it allocates nothing and writes exactly one reference, one whose slot comes after the nine
    argument arrays' (slots 0 … 8). -/
def Tame (op : HloOp τ sig (Elt F)) : Prop :=
  op.fresh = ∅ ∧ ∃ y : Ref sig .tc, op.writes = {Proc.devRef (τ := τ) .tc y} ∧ 9 ≤ y.idx.val

theorem tame_of {op : HloOp τ sig (Elt F)} (y : Ref sig .tc) (hf : op.fresh = ∅)
    (hw : op.writes = {Proc.devRef (τ := τ) .tc y}) (hy : 9 ≤ y.idx.val) : Tame op := ⟨hf, y, hw, hy⟩

/-- A tame line leaves a reference in one of the first nine slots alone. -/
theorem Tame.not_mem {op : HloOp τ sig (Elt F)} (h : Tame op) (r : Ref sig .tc) (hr : r.idx.val < 9) :
    Proc.devRef (τ := τ) .tc r ∉ op.writes := by
  obtain ⟨_, y, hw, hy⟩ := h
  rw [hw, Finset.mem_singleton]
  intro e
  have hry : r = y := Proc.devRef_injective _ e
  subst hry
  omega

/-! The host lines before the region, stretch by stretch (the stretches @main is printed in): every line is tame — each
    writes its own result, and the results' slots follow the arguments'. -/

set_option maxHeartbeats 1000000 in
theorem tame0 : (main_part0_ops0 : List (HloOp τ sig (Elt F))).Forall Tame :=
  ⟨
    tame_of main_c rfl rfl (by decide), tame_of main_c_0 rfl rfl (by decide), tame_of main_c_1 rfl rfl (by decide), tame_of main_c_2 rfl rfl (by decide),
    tame_of main_c_3 rfl rfl (by decide), tame_of main_c_4 rfl rfl (by decide), tame_of main_c_5 rfl rfl (by decide), tame_of main_c_6 rfl rfl (by decide),
    tame_of main_c_7 rfl rfl (by decide), tame_of main_c_8 rfl rfl (by decide), tame_of main_c_9 rfl rfl (by decide), tame_of main_c_10 rfl rfl (by decide),
    tame_of main_c_11 rfl rfl (by decide), tame_of main_c_12 rfl rfl (by decide), tame_of main_c_13 rfl rfl (by decide), tame_of main_c_14 rfl rfl (by decide),
    tame_of main_c_15 rfl rfl (by decide), tame_of main_c_16 rfl rfl (by decide), tame_of main_c_17 rfl rfl (by decide), tame_of main_c_18 rfl rfl (by decide),
    tame_of main_c_19 rfl rfl (by decide), tame_of main_c_20 rfl rfl (by decide), tame_of main_c_21 rfl rfl (by decide), tame_of main_c_22 rfl rfl (by decide),
    tame_of main_c_23 rfl rfl (by decide), tame_of main_c_24 rfl rfl (by decide), tame_of main_c_25 rfl rfl (by decide), tame_of main_c_26 rfl rfl (by decide),
    tame_of main_c_27 rfl rfl (by decide), tame_of main_c_28 rfl rfl (by decide), tame_of main_c_29 rfl rfl (by decide), tame_of main_c_30 rfl rfl (by decide),
    tame_of main_c_31 rfl rfl (by decide), tame_of main_c_32 rfl rfl (by decide), tame_of main_c_33 rfl rfl (by decide), tame_of main_c_34 rfl rfl (by decide),
    tame_of main_c_35 rfl rfl (by decide), tame_of main_c_36 rfl rfl (by decide), tame_of main_c_37 rfl rfl (by decide), tame_of main_c_38 rfl rfl (by decide),
    tame_of main_c_39 rfl rfl (by decide), tame_of main_c_40 rfl rfl (by decide), tame_of main_c_41 rfl rfl (by decide), tame_of main_c_42 rfl rfl (by decide),
    tame_of main_c_43 rfl rfl (by decide), tame_of main_c_44 rfl rfl (by decide), tame_of main_c_45 rfl rfl (by decide), tame_of main_c_46 rfl rfl (by decide),
    tame_of main_c_47 rfl rfl (by decide), tame_of main_c_48 rfl rfl (by decide), tame_of main_c_49 rfl rfl (by decide), tame_of main_c_50 rfl rfl (by decide),
    tame_of main_c_51 rfl rfl (by decide), tame_of main_c_52 rfl rfl (by decide), tame_of main_c_53 rfl rfl (by decide), tame_of main_c_54 rfl rfl (by decide),
    tame_of main_c_55 rfl rfl (by decide), tame_of main_c_56 rfl rfl (by decide), tame_of main_c_57 rfl rfl (by decide), tame_of main_c_58 rfl rfl (by decide)⟩
set_option maxHeartbeats 1000000 in
theorem tame1 : (main_part1_ops0 : List (HloOp τ sig (Elt F))).Forall Tame :=
  ⟨
    tame_of main_c_59 rfl rfl (by decide), tame_of main_c_60 rfl rfl (by decide), tame_of main_c_61 rfl rfl (by decide), tame_of main_c_62 rfl rfl (by decide),
    tame_of main_c_63 rfl rfl (by decide), tame_of main_c_64 rfl rfl (by decide), tame_of main_c_65 rfl rfl (by decide), tame_of main_c_66 rfl rfl (by decide),
    tame_of main_c_67 rfl rfl (by decide), tame_of main_c_68 rfl rfl (by decide), tame_of main_c_69 rfl rfl (by decide), tame_of main_c_70 rfl rfl (by decide),
    tame_of main_v0 rfl rfl (by decide), tame_of main_cst rfl rfl (by decide), tame_of main_v1 rfl rfl (by decide), tame_of main_v2 rfl rfl (by decide),
    tame_of main_v3 rfl rfl (by decide), tame_of main_v4 rfl rfl (by decide), tame_of main_c_71 rfl rfl (by decide), tame_of main_v5 rfl rfl (by decide),
    tame_of main_v6 rfl rfl (by decide), tame_of main_v7 rfl rfl (by decide), tame_of main_c_72 rfl rfl (by decide), tame_of main_v8 rfl rfl (by decide),
    tame_of main_v9 rfl rfl (by decide), tame_of main_v10 rfl rfl (by decide), tame_of main_c_73 rfl rfl (by decide), tame_of main_v11 rfl rfl (by decide),
    tame_of main_v12 rfl rfl (by decide), tame_of main_v13 rfl rfl (by decide), tame_of main_v14 rfl rfl (by decide), tame_of main_v15 rfl rfl (by decide),
    tame_of main_v16 rfl rfl (by decide), tame_of main_v17 rfl rfl (by decide), tame_of main_v18 rfl rfl (by decide), tame_of main_v19 rfl rfl (by decide),
    tame_of main_v20 rfl rfl (by decide), tame_of main_v21 rfl rfl (by decide), tame_of main_c_74 rfl rfl (by decide), tame_of main_v22 rfl rfl (by decide),
    tame_of main_v23 rfl rfl (by decide), tame_of main_v24 rfl rfl (by decide), tame_of main_c_75 rfl rfl (by decide), tame_of main_v25 rfl rfl (by decide),
    tame_of main_v26 rfl rfl (by decide), tame_of main_v27 rfl rfl (by decide), tame_of main_c_76 rfl rfl (by decide), tame_of main_v28 rfl rfl (by decide),
    tame_of main_v29 rfl rfl (by decide), tame_of main_v30 rfl rfl (by decide), tame_of main_v31 rfl rfl (by decide), tame_of main_v32 rfl rfl (by decide),
    tame_of main_v33 rfl rfl (by decide), tame_of main_v34 rfl rfl (by decide), tame_of main_v35 rfl rfl (by decide), tame_of main_v36 rfl rfl (by decide),
    tame_of main_v37 rfl rfl (by decide), tame_of main_v38 rfl rfl (by decide), tame_of main_c_77 rfl rfl (by decide), tame_of main_v39 rfl rfl (by decide)⟩
set_option maxHeartbeats 1000000 in
theorem tame2 : (main_part2_ops0 : List (HloOp τ sig (Elt F))).Forall Tame :=
  ⟨
    tame_of main_v40 rfl rfl (by decide), tame_of main_v41 rfl rfl (by decide), tame_of main_c_78 rfl rfl (by decide), tame_of main_v42 rfl rfl (by decide),
    tame_of main_v43 rfl rfl (by decide), tame_of main_v44 rfl rfl (by decide), tame_of main_c_79 rfl rfl (by decide), tame_of main_v45 rfl rfl (by decide),
    tame_of main_v46 rfl rfl (by decide), tame_of main_v47 rfl rfl (by decide), tame_of main_v48 rfl rfl (by decide), tame_of main_v49 rfl rfl (by decide),
    tame_of main_v50 rfl rfl (by decide), tame_of main_v51 rfl rfl (by decide), tame_of main_v52 rfl rfl (by decide), tame_of main_v53 rfl rfl (by decide),
    tame_of main_v54 rfl rfl (by decide), tame_of main_v55 rfl rfl (by decide), tame_of main_c_80 rfl rfl (by decide), tame_of main_v56 rfl rfl (by decide),
    tame_of main_v57 rfl rfl (by decide), tame_of main_v58 rfl rfl (by decide), tame_of main_c_81 rfl rfl (by decide), tame_of main_v59 rfl rfl (by decide),
    tame_of main_v60 rfl rfl (by decide), tame_of main_v61 rfl rfl (by decide), tame_of main_c_82 rfl rfl (by decide), tame_of main_v62 rfl rfl (by decide),
    tame_of main_v63 rfl rfl (by decide), tame_of main_v64 rfl rfl (by decide), tame_of main_v65 rfl rfl (by decide), tame_of main_v66 rfl rfl (by decide),
    tame_of main_v67 rfl rfl (by decide), tame_of main_v68 rfl rfl (by decide), tame_of main_v69 rfl rfl (by decide), tame_of main_v70 rfl rfl (by decide),
    tame_of main_v71 rfl rfl (by decide), tame_of main_v72 rfl rfl (by decide), tame_of main_c_83 rfl rfl (by decide), tame_of main_v73 rfl rfl (by decide),
    tame_of main_v74 rfl rfl (by decide), tame_of main_v75 rfl rfl (by decide), tame_of main_c_84 rfl rfl (by decide), tame_of main_v76 rfl rfl (by decide),
    tame_of main_v77 rfl rfl (by decide), tame_of main_v78 rfl rfl (by decide), tame_of main_c_85 rfl rfl (by decide), tame_of main_v79 rfl rfl (by decide),
    tame_of main_v80 rfl rfl (by decide), tame_of main_v81 rfl rfl (by decide), tame_of main_v82 rfl rfl (by decide), tame_of main_v83 rfl rfl (by decide),
    tame_of main_v84 rfl rfl (by decide), tame_of main_v85 rfl rfl (by decide), tame_of main_v86 rfl rfl (by decide), tame_of main_v87 rfl rfl (by decide),
    tame_of main_v88 rfl rfl (by decide), tame_of main_v89 rfl rfl (by decide), tame_of main_c_86 rfl rfl (by decide), tame_of main_v90 rfl rfl (by decide)⟩
set_option maxHeartbeats 1000000 in
theorem tame3 : (main_part3_ops0 : List (HloOp τ sig (Elt F))).Forall Tame :=
  ⟨
    tame_of main_v91 rfl rfl (by decide), tame_of main_v92 rfl rfl (by decide), tame_of main_c_87 rfl rfl (by decide), tame_of main_v93 rfl rfl (by decide),
    tame_of main_v94 rfl rfl (by decide), tame_of main_v95 rfl rfl (by decide), tame_of main_c_88 rfl rfl (by decide), tame_of main_v96 rfl rfl (by decide),
    tame_of main_v97 rfl rfl (by decide), tame_of main_v98 rfl rfl (by decide), tame_of main_v99 rfl rfl (by decide), tame_of main_v100 rfl rfl (by decide),
    tame_of main_v101 rfl rfl (by decide), tame_of main_v102 rfl rfl (by decide), tame_of main_v103 rfl rfl (by decide), tame_of main_v104 rfl rfl (by decide),
    tame_of main_v105 rfl rfl (by decide), tame_of main_v106 rfl rfl (by decide), tame_of main_c_89 rfl rfl (by decide), tame_of main_v107 rfl rfl (by decide),
    tame_of main_v108 rfl rfl (by decide), tame_of main_v109 rfl rfl (by decide), tame_of main_c_90 rfl rfl (by decide), tame_of main_v110 rfl rfl (by decide),
    tame_of main_v111 rfl rfl (by decide), tame_of main_v112 rfl rfl (by decide), tame_of main_c_91 rfl rfl (by decide), tame_of main_v113 rfl rfl (by decide),
    tame_of main_v114 rfl rfl (by decide), tame_of main_v115 rfl rfl (by decide), tame_of main_v116 rfl rfl (by decide), tame_of main_v117 rfl rfl (by decide),
    tame_of main_v118 rfl rfl (by decide), tame_of main_v119 rfl rfl (by decide), tame_of main_v120 rfl rfl (by decide), tame_of main_v121 rfl rfl (by decide),
    tame_of main_v122 rfl rfl (by decide), tame_of main_v123 rfl rfl (by decide), tame_of main_c_92 rfl rfl (by decide), tame_of main_v124 rfl rfl (by decide),
    tame_of main_v125 rfl rfl (by decide), tame_of main_v126 rfl rfl (by decide), tame_of main_c_93 rfl rfl (by decide), tame_of main_v127 rfl rfl (by decide),
    tame_of main_v128 rfl rfl (by decide), tame_of main_v129 rfl rfl (by decide), tame_of main_c_94 rfl rfl (by decide), tame_of main_v130 rfl rfl (by decide),
    tame_of main_v131 rfl rfl (by decide), tame_of main_v132 rfl rfl (by decide), tame_of main_v133 rfl rfl (by decide), tame_of main_v134 rfl rfl (by decide),
    tame_of main_v135 rfl rfl (by decide), tame_of main_v136 rfl rfl (by decide), tame_of main_v137 rfl rfl (by decide), tame_of main_v138 rfl rfl (by decide),
    tame_of main_v139 rfl rfl (by decide), tame_of main_v140 rfl rfl (by decide), tame_of main_c_95 rfl rfl (by decide), tame_of main_v141 rfl rfl (by decide)⟩
set_option maxHeartbeats 1000000 in
theorem tame4 : (main_part4_ops0 : List (HloOp τ sig (Elt F))).Forall Tame :=
  ⟨
    tame_of main_v142 rfl rfl (by decide), tame_of main_v143 rfl rfl (by decide), tame_of main_c_96 rfl rfl (by decide), tame_of main_v144 rfl rfl (by decide),
    tame_of main_v145 rfl rfl (by decide), tame_of main_v146 rfl rfl (by decide), tame_of main_c_97 rfl rfl (by decide), tame_of main_v147 rfl rfl (by decide),
    tame_of main_v148 rfl rfl (by decide), tame_of main_v149 rfl rfl (by decide), tame_of main_v150 rfl rfl (by decide), tame_of main_v151 rfl rfl (by decide),
    tame_of main_v152 rfl rfl (by decide), tame_of main_v153 rfl rfl (by decide), tame_of main_v154 rfl rfl (by decide), tame_of main_v155 rfl rfl (by decide),
    tame_of main_v156 rfl rfl (by decide), tame_of main_cst_98 rfl rfl (by decide), tame_of main_v157 rfl rfl (by decide), tame_of main_v158 rfl rfl (by decide),
    tame_of main_v159 rfl rfl (by decide), tame_of main_c_99 rfl rfl (by decide), tame_of main_v160 rfl rfl (by decide), tame_of main_v161 rfl rfl (by decide),
    tame_of main_v162 rfl rfl (by decide), tame_of main_c_100 rfl rfl (by decide), tame_of main_v163 rfl rfl (by decide), tame_of main_v164 rfl rfl (by decide),
    tame_of main_v165 rfl rfl (by decide), tame_of main_c_101 rfl rfl (by decide), tame_of main_v166 rfl rfl (by decide), tame_of main_v167 rfl rfl (by decide),
    tame_of main_v168 rfl rfl (by decide), tame_of main_v169 rfl rfl (by decide), tame_of main_v170 rfl rfl (by decide), tame_of main_v171 rfl rfl (by decide),
    tame_of main_v172 rfl rfl (by decide), tame_of main_v173 rfl rfl (by decide), tame_of main_v174 rfl rfl (by decide), tame_of main_v175 rfl rfl (by decide),
    tame_of main_v176 rfl rfl (by decide), tame_of main_c_102 rfl rfl (by decide), tame_of main_v177 rfl rfl (by decide), tame_of main_v178 rfl rfl (by decide),
    tame_of main_v179 rfl rfl (by decide), tame_of main_c_103 rfl rfl (by decide), tame_of main_v180 rfl rfl (by decide), tame_of main_v181 rfl rfl (by decide),
    tame_of main_v182 rfl rfl (by decide), tame_of main_c_104 rfl rfl (by decide), tame_of main_v183 rfl rfl (by decide), tame_of main_v184 rfl rfl (by decide),
    tame_of main_v185 rfl rfl (by decide), tame_of main_v186 rfl rfl (by decide), tame_of main_v187 rfl rfl (by decide), tame_of main_v188 rfl rfl (by decide),
    tame_of main_v189 rfl rfl (by decide), tame_of main_v190 rfl rfl (by decide), tame_of main_v191 rfl rfl (by decide), tame_of main_v192 rfl rfl (by decide)⟩
set_option maxHeartbeats 1000000 in
theorem tame5 : (main_part5_ops0 : List (HloOp τ sig (Elt F))).Forall Tame :=
  ⟨
    tame_of main_v193 rfl rfl (by decide), tame_of main_c_105 rfl rfl (by decide), tame_of main_v194 rfl rfl (by decide), tame_of main_v195 rfl rfl (by decide),
    tame_of main_v196 rfl rfl (by decide), tame_of main_c_106 rfl rfl (by decide), tame_of main_v197 rfl rfl (by decide), tame_of main_v198 rfl rfl (by decide),
    tame_of main_v199 rfl rfl (by decide), tame_of main_c_107 rfl rfl (by decide), tame_of main_v200 rfl rfl (by decide), tame_of main_v201 rfl rfl (by decide),
    tame_of main_v202 rfl rfl (by decide), tame_of main_v203 rfl rfl (by decide), tame_of main_v204 rfl rfl (by decide), tame_of main_v205 rfl rfl (by decide),
    tame_of main_v206 rfl rfl (by decide), tame_of main_v207 rfl rfl (by decide), tame_of main_v208 rfl rfl (by decide), tame_of main_v209 rfl rfl (by decide),
    tame_of main_v210 rfl rfl (by decide), tame_of main_c_108 rfl rfl (by decide), tame_of main_v211 rfl rfl (by decide), tame_of main_v212 rfl rfl (by decide),
    tame_of main_v213 rfl rfl (by decide), tame_of main_c_109 rfl rfl (by decide), tame_of main_v214 rfl rfl (by decide), tame_of main_v215 rfl rfl (by decide),
    tame_of main_v216 rfl rfl (by decide), tame_of main_c_110 rfl rfl (by decide), tame_of main_v217 rfl rfl (by decide), tame_of main_v218 rfl rfl (by decide),
    tame_of main_v219 rfl rfl (by decide), tame_of main_v220 rfl rfl (by decide), tame_of main_v221 rfl rfl (by decide), tame_of main_v222 rfl rfl (by decide),
    tame_of main_v223 rfl rfl (by decide), tame_of main_v224 rfl rfl (by decide), tame_of main_v225 rfl rfl (by decide), tame_of main_v226 rfl rfl (by decide),
    tame_of main_v227 rfl rfl (by decide), tame_of main_c_111 rfl rfl (by decide), tame_of main_v228 rfl rfl (by decide), tame_of main_v229 rfl rfl (by decide),
    tame_of main_v230 rfl rfl (by decide), tame_of main_c_112 rfl rfl (by decide), tame_of main_v231 rfl rfl (by decide), tame_of main_v232 rfl rfl (by decide),
    tame_of main_v233 rfl rfl (by decide), tame_of main_c_113 rfl rfl (by decide), tame_of main_v234 rfl rfl (by decide), tame_of main_v235 rfl rfl (by decide),
    tame_of main_v236 rfl rfl (by decide), tame_of main_v237 rfl rfl (by decide), tame_of main_v238 rfl rfl (by decide), tame_of main_v239 rfl rfl (by decide),
    tame_of main_v240 rfl rfl (by decide), tame_of main_v241 rfl rfl (by decide), tame_of main_v242 rfl rfl (by decide), tame_of main_v243 rfl rfl (by decide)⟩
set_option maxHeartbeats 1000000 in
theorem tame6 : (main_part6_ops0 : List (HloOp τ sig (Elt F))).Forall Tame :=
  ⟨
    tame_of main_v244 rfl rfl (by decide), tame_of main_c_114 rfl rfl (by decide), tame_of main_v245 rfl rfl (by decide), tame_of main_v246 rfl rfl (by decide),
    tame_of main_v247 rfl rfl (by decide), tame_of main_c_115 rfl rfl (by decide), tame_of main_v248 rfl rfl (by decide), tame_of main_v249 rfl rfl (by decide),
    tame_of main_v250 rfl rfl (by decide), tame_of main_c_116 rfl rfl (by decide), tame_of main_v251 rfl rfl (by decide), tame_of main_v252 rfl rfl (by decide),
    tame_of main_v253 rfl rfl (by decide), tame_of main_v254 rfl rfl (by decide), tame_of main_v255 rfl rfl (by decide), tame_of main_v256 rfl rfl (by decide),
    tame_of main_v257 rfl rfl (by decide), tame_of main_v258 rfl rfl (by decide), tame_of main_v259 rfl rfl (by decide), tame_of main_v260 rfl rfl (by decide),
    tame_of main_v261 rfl rfl (by decide), tame_of main_c_117 rfl rfl (by decide), tame_of main_v262 rfl rfl (by decide), tame_of main_v263 rfl rfl (by decide),
    tame_of main_v264 rfl rfl (by decide), tame_of main_c_118 rfl rfl (by decide), tame_of main_v265 rfl rfl (by decide), tame_of main_v266 rfl rfl (by decide),
    tame_of main_v267 rfl rfl (by decide), tame_of main_c_119 rfl rfl (by decide), tame_of main_v268 rfl rfl (by decide), tame_of main_v269 rfl rfl (by decide),
    tame_of main_v270 rfl rfl (by decide), tame_of main_v271 rfl rfl (by decide), tame_of main_v272 rfl rfl (by decide), tame_of main_v273 rfl rfl (by decide),
    tame_of main_v274 rfl rfl (by decide), tame_of main_v275 rfl rfl (by decide), tame_of main_v276 rfl rfl (by decide), tame_of main_v277 rfl rfl (by decide),
    tame_of main_v278 rfl rfl (by decide), tame_of main_c_120 rfl rfl (by decide), tame_of main_v279 rfl rfl (by decide), tame_of main_v280 rfl rfl (by decide),
    tame_of main_v281 rfl rfl (by decide), tame_of main_c_121 rfl rfl (by decide), tame_of main_v282 rfl rfl (by decide), tame_of main_v283 rfl rfl (by decide),
    tame_of main_v284 rfl rfl (by decide), tame_of main_c_122 rfl rfl (by decide), tame_of main_v285 rfl rfl (by decide), tame_of main_v286 rfl rfl (by decide),
    tame_of main_v287 rfl rfl (by decide), tame_of main_v288 rfl rfl (by decide), tame_of main_v289 rfl rfl (by decide), tame_of main_v290 rfl rfl (by decide),
    tame_of main_v291 rfl rfl (by decide), tame_of main_v292 rfl rfl (by decide), tame_of main_v293 rfl rfl (by decide), tame_of main_v294 rfl rfl (by decide)⟩
set_option maxHeartbeats 1000000 in
theorem tame7 : (main_part7_ops0 : List (HloOp τ sig (Elt F))).Forall Tame :=
  ⟨
    tame_of main_v295 rfl rfl (by decide), tame_of main_c_123 rfl rfl (by decide), tame_of main_v296 rfl rfl (by decide), tame_of main_v297 rfl rfl (by decide),
    tame_of main_v298 rfl rfl (by decide), tame_of main_c_124 rfl rfl (by decide), tame_of main_v299 rfl rfl (by decide), tame_of main_v300 rfl rfl (by decide),
    tame_of main_v301 rfl rfl (by decide), tame_of main_c_125 rfl rfl (by decide), tame_of main_v302 rfl rfl (by decide), tame_of main_v303 rfl rfl (by decide),
    tame_of main_v304 rfl rfl (by decide), tame_of main_v305 rfl rfl (by decide), tame_of main_v306 rfl rfl (by decide), tame_of main_v307 rfl rfl (by decide),
    tame_of main_v308 rfl rfl (by decide), tame_of main_v309 rfl rfl (by decide), tame_of main_v310 rfl rfl (by decide), tame_of main_v311 rfl rfl (by decide),
    tame_of main_v312 rfl rfl (by decide), tame_of main_v313 rfl rfl (by decide), tame_of main_v314 rfl rfl (by decide), tame_of main_v315 rfl rfl (by decide),
    tame_of main_cst_126 rfl rfl (by decide), tame_of main_v316 rfl rfl (by decide), tame_of main_v317 rfl rfl (by decide), tame_of main_v318 rfl rfl (by decide),
    tame_of main_v319 rfl rfl (by decide), tame_of main_v320 rfl rfl (by decide), tame_of main_v321 rfl rfl (by decide), tame_of main_cst_127 rfl rfl (by decide),
    tame_of main_v322 rfl rfl (by decide), tame_of main_v323 rfl rfl (by decide), tame_of main_v324 rfl rfl (by decide), tame_of main_v325 rfl rfl (by decide),
    tame_of main_cst_128 rfl rfl (by decide), tame_of main_v326 rfl rfl (by decide), tame_of main_v327 rfl rfl (by decide), tame_of main_v328 rfl rfl (by decide),
    tame_of main_v329 rfl rfl (by decide), tame_of main_v330 rfl rfl (by decide), tame_of main_v331 rfl rfl (by decide), tame_of main_v332 rfl rfl (by decide)⟩

set_option maxHeartbeats 4000000 in
/-- The host lines before the region are those stretches one after the other. -/
theorem hostOps0_parts : (hostOps0 : List (HloOp τ sig (Elt F))) = main_part0_ops0 ++ (main_part1_ops0 ++ (main_part2_ops0 ++ (main_part3_ops0
    ++ (main_part4_ops0 ++ (main_part5_ops0 ++ (main_part6_ops0 ++ main_part7_ops0)))))) := rfl

/-- So every host line before the region is tame. -/
theorem tame_of_mem {op : HloOp τ sig (Elt F)} (h : op ∈ (hostOps0 : List (HloOp τ sig (Elt F)))) : Tame op := by
  rw [hostOps0_parts] at h
  simp only [List.mem_append] at h
  rcases h with h | h | h | h | h | h | h | h
  · exact List.forall_iff_forall_mem.mp tame0 op h
  · exact List.forall_iff_forall_mem.mp tame1 op h
  · exact List.forall_iff_forall_mem.mp tame2 op h
  · exact List.forall_iff_forall_mem.mp tame3 op h
  · exact List.forall_iff_forall_mem.mp tame4 op h
  · exact List.forall_iff_forall_mem.mp tame5 op h
  · exact List.forall_iff_forall_mem.mp tame6 op h
  · exact List.forall_iff_forall_mem.mp tame7 op h

/-- None of them allocates. -/
theorem hostOps0_fresh : (hostOps0 : List (HloOp τ sig (Elt F))).Forall fun op => op.fresh = ∅ :=
  List.forall_iff_forall_mem.mpr fun _ h => (tame_of_mem h).1

/-- A reference in one of the first nine slots is found by the region as launched: no host line before it writes it. -/
theorem V_of (c : Dev nD) (r : Ref sig .tc) (hr : r.idx.val < 9) : V m c r = m ((c : Thread nD τ).loc r) := by
  show StableHlo.after (List.flatten [hostOps0]) (fun b => m (c, b)) (Proc.devRef .tc r) = _
  rw [List.flatten_cons, List.flatten_nil, List.append_nil]
  exact StableHlo.after_of_forall_not_mem hostOps0 _ fun op hop => (tame_of_mem hop).not_mem r hr

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)

/-! ## @main around the region -/

/-- @main is the host lines before the region, the region, and the one host line after it; it reduces to the region
    continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The one host line after the region: it slices the region's result array into its own result. -/
theorem mem_hostOps1 {op : HloOp τ sig (Elt F)} {ops : List (HloOp τ sig (Elt F))} (hops : ops ∈ ([hostOps1] : List (List (HloOp τ sig (Elt F)))))
    (hop : op ∈ ops) : op ∈ (hostOps1 : List (HloOp τ sig (Elt F))) := by
  rw [List.mem_singleton] at hops; exact hops ▸ hop

/-- It touches the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  exact Pipeline.sub_ucRefs op ((List.forall_iff_forall_mem.mp hostOps1_sub) op (mem_hostOps1 hops hop))
/-- allocates nothing, -/
theorem sfx_fresh : ∀ ops ∈ ([hostOps1] : List (List (HloOp τ sig (Elt F)))), ∀ op ∈ ops, op.fresh = ∅ := by
  intro ops hops op hop
  have h := mem_hostOps1 hops hop
  rw [List.mem_singleton] at h
  subst h; rfl
/-- and writes no array of the pipeline: its result is none of the ten. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  have h := mem_hostOps1 hops hop
  rw [List.mem_singleton] at h
  subst h
  rw [StableHlo.unary_writes, Finset.mem_singleton]
  exact StableHlo.devRef_ne_of_ne ((by decide : ∀ w, Pipeline.arrRef spec0 w ≠ main_v334) w)

/-! ## The windows' blocks and the stored value -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rIn0 : Rect S256x784 := Rect.unit (s := S256x784) ![0, 0] S256x784.size inb_S256x784_S256x784_0_0
abbrev rIn1 : Rect S84x512 := Rect.unit (s := S84x512) ![0, 0] S84x512.size inb_S84x512_S84x512_0_0
abbrev rIn2 : Rect S1x256 := Rect.unit (s := S1x256) ![0, 0] S1x256.size inb_S1x256_S1x256_0_0
abbrev rIn3 : Rect S768x512 := Rect.unit (s := S768x512) ![0, 0] S768x512.size inb_S768x512_S768x512_0_0
abbrev rIn4 : Rect S1x256 := Rect.unit (s := S1x256) ![0, 0] S1x256.size inb_S1x256_S1x256_0_0
abbrev rIn5 : Rect S1792x128 := Rect.unit (s := S1792x128) ![0, 0] S1792x128.size inb_S1792x128_S1792x128_0_0
abbrev rIn6 : Rect S1x128 := Rect.unit (s := S1x128) ![0, 0] S1x128.size inb_S1x128_S1x128_0_0
abbrev rIn7 : Rect S128x128 := Rect.unit (s := S128x128) ![0, 0] S128x128.size inb_S128x128_S128x128_0_0
abbrev rIn8 : Rect S1x128 := Rect.unit (s := S1x128) ![0, 0] S1x128.size inb_S1x128_S1x128_0_0
abbrev rOut : Rect S256x128 := Rect.unit (s := S256x128) ![0, 0] S256x128.size inb_S256x128_S256x128_0_0

/-- The output window's staging buffer after the body, from the nine input blocks: the one store, over the whole block. -/
def out9 (x0 : Vec F S256x784 .f32) (x1 : Vec F S84x512 .bf16) (x2 : Vec F S1x256 .f32) (x3 : Vec F S768x512 .bf16) (x4 : Vec F S1x256 .f32) (x5 : Vec F S1792x128 .bf16) (x6 : Vec F S1x128 .f32) (x7 : Vec F S128x128 .bf16) (x8 : Vec F S1x128 .f32) : Vec F S256x128 .f32 :=
  View.canon [⟨rOut, bodyOut (View.ld x0 rIn0) (View.ld x1 rIn1) (View.ld x2 rIn2) (View.ld x3 rIn3) (View.ld x4 rIn4) (View.ld x5 rIn5) (View.ld x6 rIn6) (View.ld x7 rIn7) (View.ld x8 rIn8)⟩]

/-- The one store is over the whole block, so it covers it. -/
theorem cover9 (p : rOut.shape.Idx → Elt F .f32) (y : S256x128.Idx) :
    ∃ pc ∈ ([⟨rOut, p⟩] : List (View.Piece (Elt F) S256x128 .f32)), y ∈ pc.1.set :=
  View.cover_of_tiled [⟨rOut, p⟩] S256x128.size (by rfl) y

/-! ## The body's triple -/

set_option maxHeartbeats 1000000 in
/-- The body on whole staging memrefs — the nine inputs' at contents read `x0 … x8`, the output's at anything — runs to the
    continuation with the inputs' as they were and the output's at `out9` of them. -/
theorem sound_kernel (c : Dev nD) (E : Set ℕ) (i : grid0.Coords) (a0 : Memref sig .tc .vmem S256x784 .f32) (h0 : a0.IsWhole) (a1 : Memref sig .tc .vmem S84x512 .bf16) (h1 : a1.IsWhole) (a2 : Memref sig .tc .vmem S1x256 .f32) (h2 : a2.IsWhole) (a3 : Memref sig .tc .vmem S768x512 .bf16) (h3 : a3.IsWhole) (a4 : Memref sig .tc .vmem S1x256 .f32) (h4 : a4.IsWhole) (a5 : Memref sig .tc .vmem S1792x128 .bf16) (h5 : a5.IsWhole) (a6 : Memref sig .tc .vmem S1x128 .f32) (h6 : a6.IsWhole) (a7 : Memref sig .tc .vmem S128x128 .bf16) (h7 : a7.IsWhole) (a8 : Memref sig .tc .vmem S1x128 .f32) (h8 : a8.IsWhole) (a9 : Memref sig .tc .vmem S256x128 .f32) (h9 : a9.IsWhole)
    (x0 : Vec F S256x784 .f32) (x1 : Vec F S84x512 .bf16) (x2 : Vec F S1x256 .f32) (x3 : Vec F S768x512 .bf16) (x4 : Vec F S1x256 .f32) (x5 : Vec F S1792x128 .bf16) (x6 : Vec F S1x128 .f32) (x7 : Vec F S128x128 .bf16) (x8 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__fused_cnn_body i a0 h0 a1 h1 a2 h2 a3 h3 a4 h4 a5 h5 a6 h6 a7 h7 a8 h8 a9 h9) K := by
  simp only [cc0__fused_cnn_body_eq_skeleton]; unfold cc0__fused_cnn_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  iexists _; isplitr
  swap; · iexact H9
  ipureintro
  exact View.read_writes_eq_canon _ _ _ (cover9 _)

/-! ## The proof data -/

/-- The pipeline's proof data on core `c`: the arrays as the region finds them; after the body at point `t` each input's
    buffer at its block and the output's at `out9` of the nine blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

/-- The block a fetch reads is the block of the array as the region finds it. -/
theorem blockOf_eq (c : Dev nD) (w : Fin cfg0.W) (t : Fin cfg0.N) : (dats m 0 c).blockOf w t = iblk m c w t := by
  unfold Dat.blockOf iblk; rw [A_eq]

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0, blockOf_eq]; try rfl) t d).trans (by unfold Dat.fetched; rw [blockOf_eq]; try rfl)
/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1, blockOf_eq]; try rfl) t d).trans (by unfold Dat.fetched; rw [blockOf_eq]; try rfl)
/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2, blockOf_eq]; try rfl) t d).trans (by unfold Dat.fetched; rw [blockOf_eq]; try rfl)
/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3, blockOf_eq]; try rfl) t d).trans (by unfold Dat.fetched; rw [blockOf_eq]; try rfl)
/-- Input window 4's current staging buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4, blockOf_eq]; try rfl) t d).trans (by unfold Dat.fetched; rw [blockOf_eq]; try rfl)
/-- Input window 5's current staging buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5, blockOf_eq]; try rfl) t d).trans (by unfold Dat.fetched; rw [blockOf_eq]; try rfl)
/-- Input window 6's current staging buffer holds its block at every point, fetched there or not. -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6, blockOf_eq]; try rfl) t d).trans (by unfold Dat.fetched; rw [blockOf_eq]; try rfl)
/-- Input window 7's current staging buffer holds its block at every point, fetched there or not. -/
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7, blockOf_eq]; try rfl) t d).trans (by unfold Dat.fetched; rw [blockOf_eq]; try rfl)
/-- Input window 8's current staging buffer holds its block at every point, fetched there or not. -/
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8, blockOf_eq]; try rfl) t d).trans (by unfold Dat.fetched; rw [blockOf_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the library computes from the proof data and every other unscoped
    buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A reference that is no array of the pipeline and not the last line's result ends as the region found it. -/
theorem W_of (c : Dev nD) (r : Ref sig .tc) (h1 : r ≠ main_v334) (h2 : ∀ w, Pipeline.arrRef spec0 w ≠ r) :
    Pipeline.afterTail₀ cfgs (dats m) 0 (V0 m) [hostOps1] c r = V m c r := by
  unfold Pipeline.afterTail₀
  rw [StableHlo.after_of_forall_not_mem (b := Proc.devRef .tc r) _ _ (by
      intro op hop
      rw [List.flatten_cons, List.flatten_nil, List.append_nil, List.mem_singleton] at hop
      subst hop
      rw [StableHlo.unary_writes, Finset.mem_singleton]
      exact StableHlo.devRef_ne_of_ne h1),
    Pipeline.withArrays_of_ne _ c (V0 m c) _ r (by exact h2)]

theorem W_main_arg0 (c : Dev nD) : Pipeline.afterTail₀ cfgs (dats m) 0 (V0 m) [hostOps1] c main_arg0 = m ((c : Thread nD τ).loc main_arg0) :=
  (W_of m c main_arg0 (by decide) (by decide)).trans (V_main_arg0 m c)
theorem W_main_arg1 (c : Dev nD) : Pipeline.afterTail₀ cfgs (dats m) 0 (V0 m) [hostOps1] c main_arg1 = m ((c : Thread nD τ).loc main_arg1) :=
  (W_of m c main_arg1 (by decide) (by decide)).trans (V_main_arg1 m c)
theorem W_main_arg2 (c : Dev nD) : Pipeline.afterTail₀ cfgs (dats m) 0 (V0 m) [hostOps1] c main_arg2 = m ((c : Thread nD τ).loc main_arg2) :=
  (W_of m c main_arg2 (by decide) (by decide)).trans (V_main_arg2 m c)
theorem W_main_arg3 (c : Dev nD) : Pipeline.afterTail₀ cfgs (dats m) 0 (V0 m) [hostOps1] c main_arg3 = m ((c : Thread nD τ).loc main_arg3) :=
  (W_of m c main_arg3 (by decide) (by decide)).trans (V_main_arg3 m c)
theorem W_main_arg4 (c : Dev nD) : Pipeline.afterTail₀ cfgs (dats m) 0 (V0 m) [hostOps1] c main_arg4 = m ((c : Thread nD τ).loc main_arg4) :=
  (W_of m c main_arg4 (by decide) (by decide)).trans (V_main_arg4 m c)
theorem W_main_arg5 (c : Dev nD) : Pipeline.afterTail₀ cfgs (dats m) 0 (V0 m) [hostOps1] c main_arg5 = m ((c : Thread nD τ).loc main_arg5) :=
  (W_of m c main_arg5 (by decide) (by decide)).trans (V_main_arg5 m c)
theorem W_main_arg6 (c : Dev nD) : Pipeline.afterTail₀ cfgs (dats m) 0 (V0 m) [hostOps1] c main_arg6 = m ((c : Thread nD τ).loc main_arg6) :=
  (W_of m c main_arg6 (by decide) (by decide)).trans (V_main_arg6 m c)
theorem W_main_arg7 (c : Dev nD) : Pipeline.afterTail₀ cfgs (dats m) 0 (V0 m) [hostOps1] c main_arg7 = m ((c : Thread nD τ).loc main_arg7) :=
  (W_of m c main_arg7 (by decide) (by decide)).trans (V_main_arg7 m c)
theorem W_main_arg8 (c : Dev nD) : Pipeline.afterTail₀ cfgs (dats m) 0 (V0 m) [hostOps1] c main_arg8 = m ((c : Thread nD τ).loc main_arg8) :=
  (W_of m c main_arg8 (by decide) (by decide)).trans (V_main_arg8 m c)

/-- The frame: @main runs, and the nine argument arrays end as launched — none is an array of the pipeline, none is
    scoped, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have hb : ∀ b : Ref sig .tc, b.isScoped = false → (∀ w, (spec0 w).arr.view.ref ≠ b) →
        r.2.mem ((c.tc : Thread nD τ).loc b) = Pipeline.afterTail₀ cfgs (dats m) 0 (V0 m) [hostOps1] c b :=
      fun b hs ha => (h c).2 b (Pipeline.mem_restRefs_of b hs ha)
    ⟨(hb main_arg0 (by decide) (by decide)).trans (W_main_arg0 m c),
     (hb main_arg1 (by decide) (by decide)).trans (W_main_arg1 m c),
     (hb main_arg2 (by decide) (by decide)).trans (W_main_arg2 m c),
     (hb main_arg3 (by decide) (by decide)).trans (W_main_arg3 m c),
     (hb main_arg4 (by decide) (by decide)).trans (W_main_arg4 m c),
     (hb main_arg5 (by decide) (by decide)).trans (W_main_arg5 m c),
     (hb main_arg6 (by decide) (by decide)).trans (W_main_arg6 m c),
     (hb main_arg7 (by decide) (by decide)).trans (W_main_arg7 m c),
     (hb main_arg8 (by decide) (by decide)).trans (W_main_arg8 m c)⟩) (run_main m ρ)

end Cert.Kernel.Hand

end
-- ==== Proof.KBodyTerm.lean ====
/-
  The fused kernel's result block as ONE term over the nine blocks its body loads: the image rows `x`, the banded
  first-convolution matrix `t1` with its bias row `b1`, the banded second-convolution matrix `t2` with its bias
  row `b2`, the padded first dense matrix `w1` with its bias `fb1`, the second dense matrix `w2` with its bias
  `fb2`.  The body's printed parts hand values to one another; composing their named payloads in the order the
  parts run gives the value the one store writes.  It is cut here where the mathematics cuts it: the fourteen
  pooled row groups of the first layer, the seven pooled row groups of the second layer laid side by side, and the
  two dense layers.
-/
import proofs.«150178_g2000205257289275_pallasbulk_739_9_alg».proof.Proof.Gen.KernelIdeal.Skeleton

noncomputable section

namespace Cert.KernelIdeal.Hand

open Idealize.ShloMosaic Cert.KernelIdeal Cert.KernelIdeal.Gen

variable {F : FTy → Type} [FloatOps F]

/-- Pooled output rows 0, 1 of the first convolution (before the 2 × 2 maximum over columns is re-laid: 256 lanes, 14 column pairs × 16 channels and 32 idle lanes), biased and cut at zero. -/
def grp0 (x : Vec F S256x784 .f32) (t1 : Vec F S84x512 .bf16) (b1 : Vec F S1x256 .f32) : FVec F S256x256 .bf16 :=
  k0_pay6 x b1 t1

/-- Pooled output rows 2, 3 of the first convolution (before the 2 × 2 maximum over columns is re-laid: 256 lanes, 14 column pairs × 16 channels and 32 idle lanes), biased and cut at zero. -/
def grp1 (x : Vec F S256x784 .f32) (t1 : Vec F S84x512 .bf16) (b1 : Vec F S1x256 .f32) : FVec F S256x256 .bf16 :=
  k0_pay7 x b1 t1

/-- Pooled output rows 4, 5 of the first convolution (before the 2 × 2 maximum over columns is re-laid: 256 lanes, 14 column pairs × 16 channels and 32 idle lanes), biased and cut at zero. -/
def grp2 (x : Vec F S256x784 .f32) (t1 : Vec F S84x512 .bf16) (b1 : Vec F S1x256 .f32) : FVec F S256x256 .bf16 :=
  k0_pay11 (k0_pay3 b1) (k0_pay9 x t1) (k0_pay10 x t1)

/-- Pooled output rows 6, 7 of the first convolution (before the 2 × 2 maximum over columns is re-laid: 256 lanes, 14 column pairs × 16 channels and 32 idle lanes), biased and cut at zero. -/
def grp3 (x : Vec F S256x784 .f32) (t1 : Vec F S84x512 .bf16) (b1 : Vec F S1x256 .f32) : FVec F S256x256 .bf16 :=
  k0_pay12 (k0_pay2 x) (k0_pay3 b1) (k0_pay5 t1)

/-- Pooled output rows 8, 9 of the first convolution (before the 2 × 2 maximum over columns is re-laid: 256 lanes, 14 column pairs × 16 channels and 32 idle lanes), biased and cut at zero. -/
def grp4 (x : Vec F S256x784 .f32) (t1 : Vec F S84x512 .bf16) (b1 : Vec F S1x256 .f32) : FVec F S256x256 .bf16 :=
  k0_pay13 (k0_pay2 x) (k0_pay3 b1) (k0_pay5 t1)

/-- Pooled output rows 10, 11 of the first convolution (before the 2 × 2 maximum over columns is re-laid: 256 lanes, 14 column pairs × 16 channels and 32 idle lanes), biased and cut at zero. -/
def grp5 (x : Vec F S256x784 .f32) (t1 : Vec F S84x512 .bf16) (b1 : Vec F S1x256 .f32) : FVec F S256x256 .bf16 :=
  k0_pay14 (k0_pay2 x) (k0_pay3 b1) (k0_pay5 t1)

/-- Pooled output rows 12, 13 of the first convolution (before the 2 × 2 maximum over columns is re-laid: 256 lanes, 14 column pairs × 16 channels and 32 idle lanes), biased and cut at zero. -/
def grp6 (x : Vec F S256x784 .f32) (t1 : Vec F S84x512 .bf16) (b1 : Vec F S1x256 .f32) : FVec F S256x256 .bf16 :=
  k0_pay17 (k0_pay3 b1) (k0_pay5 t1) (k0_pay15 (k0_pay2 x) (k0_pay5 t1)) (k0_pay16 (k0_pay2 x)) (constant S256x512 .f32 0x00000000#32)

/-- Pooled output rows 14, 15 of the first convolution (before the 2 × 2 maximum over columns is re-laid: 256 lanes, 14 column pairs × 16 channels and 32 idle lanes), biased and cut at zero. -/
def grp7 (x : Vec F S256x784 .f32) (t1 : Vec F S84x512 .bf16) (b1 : Vec F S1x256 .f32) : FVec F S256x256 .bf16 :=
  k0_pay18 (k0_pay2 x) (k0_pay3 b1) (k0_pay5 t1)

/-- Pooled output rows 16, 17 of the first convolution (before the 2 × 2 maximum over columns is re-laid: 256 lanes, 14 column pairs × 16 channels and 32 idle lanes), biased and cut at zero. -/
def grp8 (x : Vec F S256x784 .f32) (t1 : Vec F S84x512 .bf16) (b1 : Vec F S1x256 .f32) : FVec F S256x256 .bf16 :=
  k0_pay19 (k0_pay2 x) (k0_pay3 b1) (k0_pay5 t1)

/-- Pooled output rows 18, 19 of the first convolution (before the 2 × 2 maximum over columns is re-laid: 256 lanes, 14 column pairs × 16 channels and 32 idle lanes), biased and cut at zero. -/
def grp9 (x : Vec F S256x784 .f32) (t1 : Vec F S84x512 .bf16) (b1 : Vec F S1x256 .f32) : FVec F S256x256 .bf16 :=
  k0_pay20 (k0_pay2 x) (k0_pay3 b1) (k0_pay5 t1)

/-- Pooled output rows 20, 21 of the first convolution (before the 2 × 2 maximum over columns is re-laid: 256 lanes, 14 column pairs × 16 channels and 32 idle lanes), biased and cut at zero. -/
def grp10 (x : Vec F S256x784 .f32) (t1 : Vec F S84x512 .bf16) (b1 : Vec F S1x256 .f32) : FVec F S256x256 .bf16 :=
  k0_pay22 (k0_pay2 x) (k0_pay3 b1) (k0_pay5 t1) (k0_pay21 (k0_pay2 x))

/-- Pooled output rows 22, 23 of the first convolution (before the 2 × 2 maximum over columns is re-laid: 256 lanes, 14 column pairs × 16 channels and 32 idle lanes), biased and cut at zero. -/
def grp11 (x : Vec F S256x784 .f32) (t1 : Vec F S84x512 .bf16) (b1 : Vec F S1x256 .f32) : FVec F S256x256 .bf16 :=
  k0_pay23 (k0_pay2 x) (k0_pay3 b1) (k0_pay5 t1)

/-- Pooled output rows 24, 25 of the first convolution (before the 2 × 2 maximum over columns is re-laid: 256 lanes, 14 column pairs × 16 channels and 32 idle lanes), biased and cut at zero. -/
def grp12 (x : Vec F S256x784 .f32) (t1 : Vec F S84x512 .bf16) (b1 : Vec F S1x256 .f32) : FVec F S256x256 .bf16 :=
  k0_pay24 (k0_pay2 x) (k0_pay3 b1) (k0_pay5 t1)

/-- The last pair of rows (26, 27) of the first convolution, pooled and biased but NOT yet cut at zero (the cut is made
    where the groups are laid side by side). -/
def grp13 (x : Vec F S256x784 .f32) (t1 : Vec F S84x512 .bf16) (b1 : Vec F S1x256 .f32) : FVec F S256x256 .f32 :=
  k0_pay25 (k0_pay2 x) (k0_pay3 b1) (k0_pay5 t1)

/-- The fourteen groups laid side by side between two zero groups: 16 × 256 lanes. -/
def packed (g0 g1 g2 g3 g4 g5 g6 g7 g8 g9 g10 g11 g12 : FVec F S256x256 .bf16) (g13 : FVec F S256x256 .f32) : FVec F S256x4096 .bf16 :=
  k0_pay26 g0 g1 g2 g3 g4 g5 g6 g7 g8 g9 g10 g11 g12 g13

/-- The second layer: the seven pooled row groups (7 × 256 lanes), from the fourteen first-layer groups, the banded
    matrix `t2` and the bias row `b2`. -/
def featsOf (b2 : Vec F S1x256 .f32) (t2 : Vec F S768x512 .bf16) (g0 g1 g2 g3 g4 g5 g6 g7 g8 g9 g10 g11 g12 : FVec F S256x256 .bf16) (g13 : FVec F S256x256 .f32) : FVec F S256x1792 .bf16 :=
  let v6 := k0_pay4 b2
  let v194 := k0_pay26 g0 g1 g2 g3 g4 g5 g6 g7 g8 g9 g10 g11 g12 g13
  let v211 := k0_pay27 v6 g0 g1 g2 g3 g4 g5 g6 g7 g8 g9 g10 g11 g12 g13 t2 t2
  let v228 := k0_pay28 v6 g0 g1 g2 g3 g4 g5 g6 g7 g8 g9 g10 g11 g12 g13 t2 t2
  let v229 := k0_pay29 g0 g1 g2 g3 g4 g5 g6 g7 g8 g9 g10 g11 g12 g13
  let v231 := k0_pay30 t2
  let v245 := k0_pay31 v6 v194 v229 v231 t2
  let v262 := k0_pay32 v6 v194 t2 t2
  let v272 := k0_pay34 v194 t2 t2
  let v273 := k0_pay35 v194 t2 t2
  k0_pay36 v6 v194 v211 v228 v245 v262 v272 v273 t2 t2 t2 t2

/-- The two dense layers over the 1792 lanes. -/
def headOf (ff : FVec F S256x1792 .bf16) (w1 : Vec F S1792x128 .bf16) (fb1 : Vec F S1x128 .f32) (w2 : Vec F S128x128 .bf16)
    (fb2 : Vec F S1x128 .f32) : FVec F S256x128 .f32 :=
  k0_pay1 ff (k0_pay37 w1) fb1 w2 fb2

/-- The value the body's one store writes, from the nine loaded blocks. -/
def bodyOut (x : Vec F S256x784 .f32) (t1 : Vec F S84x512 .bf16) (b1 : Vec F S1x256 .f32) (t2 : Vec F S768x512 .bf16)
    (b2 : Vec F S1x256 .f32) (w1 : Vec F S1792x128 .bf16) (fb1 : Vec F S1x128 .f32) (w2 : Vec F S128x128 .bf16)
    (fb2 : Vec F S1x128 .f32) : FVec F S256x128 .f32 :=
  headOf (featsOf b2 t2 (grp0 x t1 b1) (grp1 x t1 b1) (grp2 x t1 b1) (grp3 x t1 b1) (grp4 x t1 b1) (grp5 x t1 b1)
    (grp6 x t1 b1) (grp7 x t1 b1) (grp8 x t1 b1) (grp9 x t1 b1) (grp10 x t1 b1) (grp11 x t1 b1) (grp12 x t1 b1)
    (grp13 x t1 b1)) w1 fb1 w2 fb2

end Cert.KernelIdeal.Hand

end
-- ==== Proof.KRun.lean ====
/-
  The frame run of the fused kernel program: the host lines before the one region leave the nine argument arrays
  as launched; at every grid point the body finds each input window's block in its staging buffer, reads the nine
  blocks whole and stores one value over the whole output block; the host line after the region writes only its own
  result.  From these: the region's run to the library's frame post, and the frame claim.
-/
import proofs.«150178_g2000205257289275_pallasbulk_739_9_alg».proof.Proof.Gen.KernelIdeal.Launch
import proofs.«150178_g2000205257289275_pallasbulk_739_9_alg».proof.Proof.Gen.KernelIdeal.Skeleton
import proofs.«150178_g2000205257289275_pallasbulk_739_9_alg».proof.Proof.Gen.KernelIdeal.Points
import proofs.«150178_g2000205257289275_pallasbulk_739_9_alg».proof.Proof.KBodyTerm
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The arrays when the region is entered -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A host line is tame when it allocates nothing and writes exactly one reference, one whose slot comes after the nine
    argument arrays' (slots 0 … 8). -/
def Tame (op : HloOp τ sig (Elt F)) : Prop :=
  op.fresh = ∅ ∧ ∃ y : Ref sig .tc, op.writes = {Proc.devRef (τ := τ) .tc y} ∧ 9 ≤ y.idx.val

theorem tame_of {op : HloOp τ sig (Elt F)} (y : Ref sig .tc) (hf : op.fresh = ∅)
    (hw : op.writes = {Proc.devRef (τ := τ) .tc y}) (hy : 9 ≤ y.idx.val) : Tame op := ⟨hf, y, hw, hy⟩

/-- A tame line leaves a reference in one of the first nine slots alone. -/
theorem Tame.not_mem {op : HloOp τ sig (Elt F)} (h : Tame op) (r : Ref sig .tc) (hr : r.idx.val < 9) :
    Proc.devRef (τ := τ) .tc r ∉ op.writes := by
  obtain ⟨_, y, hw, hy⟩ := h
  rw [hw, Finset.mem_singleton]
  intro e
  have hry : r = y := Proc.devRef_injective _ e
  subst hry
  omega

/-! The host lines before the region, stretch by stretch (the stretches @main is printed in): every line is tame — each
    writes its own result, and the results' slots follow the arguments'. -/

set_option maxHeartbeats 1000000 in
theorem tame0 : (main_part0_ops0 : List (HloOp τ sig (Elt F))).Forall Tame :=
  ⟨
    tame_of main_c rfl rfl (by decide), tame_of main_c_0 rfl rfl (by decide), tame_of main_c_1 rfl rfl (by decide), tame_of main_c_2 rfl rfl (by decide),
    tame_of main_c_3 rfl rfl (by decide), tame_of main_c_4 rfl rfl (by decide), tame_of main_c_5 rfl rfl (by decide), tame_of main_c_6 rfl rfl (by decide),
    tame_of main_c_7 rfl rfl (by decide), tame_of main_c_8 rfl rfl (by decide), tame_of main_c_9 rfl rfl (by decide), tame_of main_c_10 rfl rfl (by decide),
    tame_of main_c_11 rfl rfl (by decide), tame_of main_c_12 rfl rfl (by decide), tame_of main_c_13 rfl rfl (by decide), tame_of main_c_14 rfl rfl (by decide),
    tame_of main_c_15 rfl rfl (by decide), tame_of main_c_16 rfl rfl (by decide), tame_of main_c_17 rfl rfl (by decide), tame_of main_c_18 rfl rfl (by decide),
    tame_of main_c_19 rfl rfl (by decide), tame_of main_c_20 rfl rfl (by decide), tame_of main_c_21 rfl rfl (by decide), tame_of main_c_22 rfl rfl (by decide),
    tame_of main_c_23 rfl rfl (by decide), tame_of main_c_24 rfl rfl (by decide), tame_of main_c_25 rfl rfl (by decide), tame_of main_c_26 rfl rfl (by decide),
    tame_of main_c_27 rfl rfl (by decide), tame_of main_c_28 rfl rfl (by decide), tame_of main_c_29 rfl rfl (by decide), tame_of main_c_30 rfl rfl (by decide),
    tame_of main_c_31 rfl rfl (by decide), tame_of main_c_32 rfl rfl (by decide), tame_of main_c_33 rfl rfl (by decide), tame_of main_c_34 rfl rfl (by decide),
    tame_of main_c_35 rfl rfl (by decide), tame_of main_c_36 rfl rfl (by decide), tame_of main_c_37 rfl rfl (by decide), tame_of main_c_38 rfl rfl (by decide),
    tame_of main_c_39 rfl rfl (by decide), tame_of main_c_40 rfl rfl (by decide), tame_of main_c_41 rfl rfl (by decide), tame_of main_c_42 rfl rfl (by decide),
    tame_of main_c_43 rfl rfl (by decide), tame_of main_c_44 rfl rfl (by decide), tame_of main_c_45 rfl rfl (by decide), tame_of main_c_46 rfl rfl (by decide),
    tame_of main_c_47 rfl rfl (by decide), tame_of main_c_48 rfl rfl (by decide), tame_of main_c_49 rfl rfl (by decide), tame_of main_c_50 rfl rfl (by decide),
    tame_of main_c_51 rfl rfl (by decide), tame_of main_c_52 rfl rfl (by decide), tame_of main_c_53 rfl rfl (by decide), tame_of main_c_54 rfl rfl (by decide),
    tame_of main_c_55 rfl rfl (by decide), tame_of main_c_56 rfl rfl (by decide), tame_of main_c_57 rfl rfl (by decide), tame_of main_c_58 rfl rfl (by decide)⟩
set_option maxHeartbeats 1000000 in
theorem tame1 : (main_part1_ops0 : List (HloOp τ sig (Elt F))).Forall Tame :=
  ⟨
    tame_of main_c_59 rfl rfl (by decide), tame_of main_c_60 rfl rfl (by decide), tame_of main_c_61 rfl rfl (by decide), tame_of main_c_62 rfl rfl (by decide),
    tame_of main_c_63 rfl rfl (by decide), tame_of main_c_64 rfl rfl (by decide), tame_of main_c_65 rfl rfl (by decide), tame_of main_c_66 rfl rfl (by decide),
    tame_of main_c_67 rfl rfl (by decide), tame_of main_c_68 rfl rfl (by decide), tame_of main_c_69 rfl rfl (by decide), tame_of main_c_70 rfl rfl (by decide),
    tame_of main_v0 rfl rfl (by decide), tame_of main_cst rfl rfl (by decide), tame_of main_v1 rfl rfl (by decide), tame_of main_v2 rfl rfl (by decide),
    tame_of main_v3 rfl rfl (by decide), tame_of main_v4 rfl rfl (by decide), tame_of main_c_71 rfl rfl (by decide), tame_of main_v5 rfl rfl (by decide),
    tame_of main_v6 rfl rfl (by decide), tame_of main_v7 rfl rfl (by decide), tame_of main_c_72 rfl rfl (by decide), tame_of main_v8 rfl rfl (by decide),
    tame_of main_v9 rfl rfl (by decide), tame_of main_v10 rfl rfl (by decide), tame_of main_c_73 rfl rfl (by decide), tame_of main_v11 rfl rfl (by decide),
    tame_of main_v12 rfl rfl (by decide), tame_of main_v13 rfl rfl (by decide), tame_of main_v14 rfl rfl (by decide), tame_of main_v15 rfl rfl (by decide),
    tame_of main_v16 rfl rfl (by decide), tame_of main_v17 rfl rfl (by decide), tame_of main_v18 rfl rfl (by decide), tame_of main_v19 rfl rfl (by decide),
    tame_of main_v20 rfl rfl (by decide), tame_of main_v21 rfl rfl (by decide), tame_of main_c_74 rfl rfl (by decide), tame_of main_v22 rfl rfl (by decide),
    tame_of main_v23 rfl rfl (by decide), tame_of main_v24 rfl rfl (by decide), tame_of main_c_75 rfl rfl (by decide), tame_of main_v25 rfl rfl (by decide),
    tame_of main_v26 rfl rfl (by decide), tame_of main_v27 rfl rfl (by decide), tame_of main_c_76 rfl rfl (by decide), tame_of main_v28 rfl rfl (by decide),
    tame_of main_v29 rfl rfl (by decide), tame_of main_v30 rfl rfl (by decide), tame_of main_v31 rfl rfl (by decide), tame_of main_v32 rfl rfl (by decide),
    tame_of main_v33 rfl rfl (by decide), tame_of main_v34 rfl rfl (by decide), tame_of main_v35 rfl rfl (by decide), tame_of main_v36 rfl rfl (by decide),
    tame_of main_v37 rfl rfl (by decide), tame_of main_v38 rfl rfl (by decide), tame_of main_c_77 rfl rfl (by decide), tame_of main_v39 rfl rfl (by decide)⟩
set_option maxHeartbeats 1000000 in
theorem tame2 : (main_part2_ops0 : List (HloOp τ sig (Elt F))).Forall Tame :=
  ⟨
    tame_of main_v40 rfl rfl (by decide), tame_of main_v41 rfl rfl (by decide), tame_of main_c_78 rfl rfl (by decide), tame_of main_v42 rfl rfl (by decide),
    tame_of main_v43 rfl rfl (by decide), tame_of main_v44 rfl rfl (by decide), tame_of main_c_79 rfl rfl (by decide), tame_of main_v45 rfl rfl (by decide),
    tame_of main_v46 rfl rfl (by decide), tame_of main_v47 rfl rfl (by decide), tame_of main_v48 rfl rfl (by decide), tame_of main_v49 rfl rfl (by decide),
    tame_of main_v50 rfl rfl (by decide), tame_of main_v51 rfl rfl (by decide), tame_of main_v52 rfl rfl (by decide), tame_of main_v53 rfl rfl (by decide),
    tame_of main_v54 rfl rfl (by decide), tame_of main_v55 rfl rfl (by decide), tame_of main_c_80 rfl rfl (by decide), tame_of main_v56 rfl rfl (by decide),
    tame_of main_v57 rfl rfl (by decide), tame_of main_v58 rfl rfl (by decide), tame_of main_c_81 rfl rfl (by decide), tame_of main_v59 rfl rfl (by decide),
    tame_of main_v60 rfl rfl (by decide), tame_of main_v61 rfl rfl (by decide), tame_of main_c_82 rfl rfl (by decide), tame_of main_v62 rfl rfl (by decide),
    tame_of main_v63 rfl rfl (by decide), tame_of main_v64 rfl rfl (by decide), tame_of main_v65 rfl rfl (by decide), tame_of main_v66 rfl rfl (by decide),
    tame_of main_v67 rfl rfl (by decide), tame_of main_v68 rfl rfl (by decide), tame_of main_v69 rfl rfl (by decide), tame_of main_v70 rfl rfl (by decide),
    tame_of main_v71 rfl rfl (by decide), tame_of main_v72 rfl rfl (by decide), tame_of main_c_83 rfl rfl (by decide), tame_of main_v73 rfl rfl (by decide),
    tame_of main_v74 rfl rfl (by decide), tame_of main_v75 rfl rfl (by decide), tame_of main_c_84 rfl rfl (by decide), tame_of main_v76 rfl rfl (by decide),
    tame_of main_v77 rfl rfl (by decide), tame_of main_v78 rfl rfl (by decide), tame_of main_c_85 rfl rfl (by decide), tame_of main_v79 rfl rfl (by decide),
    tame_of main_v80 rfl rfl (by decide), tame_of main_v81 rfl rfl (by decide), tame_of main_v82 rfl rfl (by decide), tame_of main_v83 rfl rfl (by decide),
    tame_of main_v84 rfl rfl (by decide), tame_of main_v85 rfl rfl (by decide), tame_of main_v86 rfl rfl (by decide), tame_of main_v87 rfl rfl (by decide),
    tame_of main_v88 rfl rfl (by decide), tame_of main_v89 rfl rfl (by decide), tame_of main_c_86 rfl rfl (by decide), tame_of main_v90 rfl rfl (by decide)⟩
set_option maxHeartbeats 1000000 in
theorem tame3 : (main_part3_ops0 : List (HloOp τ sig (Elt F))).Forall Tame :=
  ⟨
    tame_of main_v91 rfl rfl (by decide), tame_of main_v92 rfl rfl (by decide), tame_of main_c_87 rfl rfl (by decide), tame_of main_v93 rfl rfl (by decide),
    tame_of main_v94 rfl rfl (by decide), tame_of main_v95 rfl rfl (by decide), tame_of main_c_88 rfl rfl (by decide), tame_of main_v96 rfl rfl (by decide),
    tame_of main_v97 rfl rfl (by decide), tame_of main_v98 rfl rfl (by decide), tame_of main_v99 rfl rfl (by decide), tame_of main_v100 rfl rfl (by decide),
    tame_of main_v101 rfl rfl (by decide), tame_of main_v102 rfl rfl (by decide), tame_of main_v103 rfl rfl (by decide), tame_of main_v104 rfl rfl (by decide),
    tame_of main_v105 rfl rfl (by decide), tame_of main_v106 rfl rfl (by decide), tame_of main_c_89 rfl rfl (by decide), tame_of main_v107 rfl rfl (by decide),
    tame_of main_v108 rfl rfl (by decide), tame_of main_v109 rfl rfl (by decide), tame_of main_c_90 rfl rfl (by decide), tame_of main_v110 rfl rfl (by decide),
    tame_of main_v111 rfl rfl (by decide), tame_of main_v112 rfl rfl (by decide), tame_of main_c_91 rfl rfl (by decide), tame_of main_v113 rfl rfl (by decide),
    tame_of main_v114 rfl rfl (by decide), tame_of main_v115 rfl rfl (by decide), tame_of main_v116 rfl rfl (by decide), tame_of main_v117 rfl rfl (by decide),
    tame_of main_v118 rfl rfl (by decide), tame_of main_v119 rfl rfl (by decide), tame_of main_v120 rfl rfl (by decide), tame_of main_v121 rfl rfl (by decide),
    tame_of main_v122 rfl rfl (by decide), tame_of main_v123 rfl rfl (by decide), tame_of main_c_92 rfl rfl (by decide), tame_of main_v124 rfl rfl (by decide),
    tame_of main_v125 rfl rfl (by decide), tame_of main_v126 rfl rfl (by decide), tame_of main_c_93 rfl rfl (by decide), tame_of main_v127 rfl rfl (by decide),
    tame_of main_v128 rfl rfl (by decide), tame_of main_v129 rfl rfl (by decide), tame_of main_c_94 rfl rfl (by decide), tame_of main_v130 rfl rfl (by decide),
    tame_of main_v131 rfl rfl (by decide), tame_of main_v132 rfl rfl (by decide), tame_of main_v133 rfl rfl (by decide), tame_of main_v134 rfl rfl (by decide),
    tame_of main_v135 rfl rfl (by decide), tame_of main_v136 rfl rfl (by decide), tame_of main_v137 rfl rfl (by decide), tame_of main_v138 rfl rfl (by decide),
    tame_of main_v139 rfl rfl (by decide), tame_of main_v140 rfl rfl (by decide), tame_of main_c_95 rfl rfl (by decide), tame_of main_v141 rfl rfl (by decide)⟩
set_option maxHeartbeats 1000000 in
theorem tame4 : (main_part4_ops0 : List (HloOp τ sig (Elt F))).Forall Tame :=
  ⟨
    tame_of main_v142 rfl rfl (by decide), tame_of main_v143 rfl rfl (by decide), tame_of main_c_96 rfl rfl (by decide), tame_of main_v144 rfl rfl (by decide),
    tame_of main_v145 rfl rfl (by decide), tame_of main_v146 rfl rfl (by decide), tame_of main_c_97 rfl rfl (by decide), tame_of main_v147 rfl rfl (by decide),
    tame_of main_v148 rfl rfl (by decide), tame_of main_v149 rfl rfl (by decide), tame_of main_v150 rfl rfl (by decide), tame_of main_v151 rfl rfl (by decide),
    tame_of main_v152 rfl rfl (by decide), tame_of main_v153 rfl rfl (by decide), tame_of main_v154 rfl rfl (by decide), tame_of main_v155 rfl rfl (by decide),
    tame_of main_v156 rfl rfl (by decide), tame_of main_cst_98 rfl rfl (by decide), tame_of main_v157 rfl rfl (by decide), tame_of main_v158 rfl rfl (by decide),
    tame_of main_v159 rfl rfl (by decide), tame_of main_c_99 rfl rfl (by decide), tame_of main_v160 rfl rfl (by decide), tame_of main_v161 rfl rfl (by decide),
    tame_of main_v162 rfl rfl (by decide), tame_of main_c_100 rfl rfl (by decide), tame_of main_v163 rfl rfl (by decide), tame_of main_v164 rfl rfl (by decide),
    tame_of main_v165 rfl rfl (by decide), tame_of main_c_101 rfl rfl (by decide), tame_of main_v166 rfl rfl (by decide), tame_of main_v167 rfl rfl (by decide),
    tame_of main_v168 rfl rfl (by decide), tame_of main_v169 rfl rfl (by decide), tame_of main_v170 rfl rfl (by decide), tame_of main_v171 rfl rfl (by decide),
    tame_of main_v172 rfl rfl (by decide), tame_of main_v173 rfl rfl (by decide), tame_of main_v174 rfl rfl (by decide), tame_of main_v175 rfl rfl (by decide),
    tame_of main_v176 rfl rfl (by decide), tame_of main_c_102 rfl rfl (by decide), tame_of main_v177 rfl rfl (by decide), tame_of main_v178 rfl rfl (by decide),
    tame_of main_v179 rfl rfl (by decide), tame_of main_c_103 rfl rfl (by decide), tame_of main_v180 rfl rfl (by decide), tame_of main_v181 rfl rfl (by decide),
    tame_of main_v182 rfl rfl (by decide), tame_of main_c_104 rfl rfl (by decide), tame_of main_v183 rfl rfl (by decide), tame_of main_v184 rfl rfl (by decide),
    tame_of main_v185 rfl rfl (by decide), tame_of main_v186 rfl rfl (by decide), tame_of main_v187 rfl rfl (by decide), tame_of main_v188 rfl rfl (by decide),
    tame_of main_v189 rfl rfl (by decide), tame_of main_v190 rfl rfl (by decide), tame_of main_v191 rfl rfl (by decide), tame_of main_v192 rfl rfl (by decide)⟩
set_option maxHeartbeats 1000000 in
theorem tame5 : (main_part5_ops0 : List (HloOp τ sig (Elt F))).Forall Tame :=
  ⟨
    tame_of main_v193 rfl rfl (by decide), tame_of main_c_105 rfl rfl (by decide), tame_of main_v194 rfl rfl (by decide), tame_of main_v195 rfl rfl (by decide),
    tame_of main_v196 rfl rfl (by decide), tame_of main_c_106 rfl rfl (by decide), tame_of main_v197 rfl rfl (by decide), tame_of main_v198 rfl rfl (by decide),
    tame_of main_v199 rfl rfl (by decide), tame_of main_c_107 rfl rfl (by decide), tame_of main_v200 rfl rfl (by decide), tame_of main_v201 rfl rfl (by decide),
    tame_of main_v202 rfl rfl (by decide), tame_of main_v203 rfl rfl (by decide), tame_of main_v204 rfl rfl (by decide), tame_of main_v205 rfl rfl (by decide),
    tame_of main_v206 rfl rfl (by decide), tame_of main_v207 rfl rfl (by decide), tame_of main_v208 rfl rfl (by decide), tame_of main_v209 rfl rfl (by decide),
    tame_of main_v210 rfl rfl (by decide), tame_of main_c_108 rfl rfl (by decide), tame_of main_v211 rfl rfl (by decide), tame_of main_v212 rfl rfl (by decide),
    tame_of main_v213 rfl rfl (by decide), tame_of main_c_109 rfl rfl (by decide), tame_of main_v214 rfl rfl (by decide), tame_of main_v215 rfl rfl (by decide),
    tame_of main_v216 rfl rfl (by decide), tame_of main_c_110 rfl rfl (by decide), tame_of main_v217 rfl rfl (by decide), tame_of main_v218 rfl rfl (by decide),
    tame_of main_v219 rfl rfl (by decide), tame_of main_v220 rfl rfl (by decide), tame_of main_v221 rfl rfl (by decide), tame_of main_v222 rfl rfl (by decide),
    tame_of main_v223 rfl rfl (by decide), tame_of main_v224 rfl rfl (by decide), tame_of main_v225 rfl rfl (by decide), tame_of main_v226 rfl rfl (by decide),
    tame_of main_v227 rfl rfl (by decide), tame_of main_c_111 rfl rfl (by decide), tame_of main_v228 rfl rfl (by decide), tame_of main_v229 rfl rfl (by decide),
    tame_of main_v230 rfl rfl (by decide), tame_of main_c_112 rfl rfl (by decide), tame_of main_v231 rfl rfl (by decide), tame_of main_v232 rfl rfl (by decide),
    tame_of main_v233 rfl rfl (by decide), tame_of main_c_113 rfl rfl (by decide), tame_of main_v234 rfl rfl (by decide), tame_of main_v235 rfl rfl (by decide),
    tame_of main_v236 rfl rfl (by decide), tame_of main_v237 rfl rfl (by decide), tame_of main_v238 rfl rfl (by decide), tame_of main_v239 rfl rfl (by decide),
    tame_of main_v240 rfl rfl (by decide), tame_of main_v241 rfl rfl (by decide), tame_of main_v242 rfl rfl (by decide), tame_of main_v243 rfl rfl (by decide)⟩
set_option maxHeartbeats 1000000 in
theorem tame6 : (main_part6_ops0 : List (HloOp τ sig (Elt F))).Forall Tame :=
  ⟨
    tame_of main_v244 rfl rfl (by decide), tame_of main_c_114 rfl rfl (by decide), tame_of main_v245 rfl rfl (by decide), tame_of main_v246 rfl rfl (by decide),
    tame_of main_v247 rfl rfl (by decide), tame_of main_c_115 rfl rfl (by decide), tame_of main_v248 rfl rfl (by decide), tame_of main_v249 rfl rfl (by decide),
    tame_of main_v250 rfl rfl (by decide), tame_of main_c_116 rfl rfl (by decide), tame_of main_v251 rfl rfl (by decide), tame_of main_v252 rfl rfl (by decide),
    tame_of main_v253 rfl rfl (by decide), tame_of main_v254 rfl rfl (by decide), tame_of main_v255 rfl rfl (by decide), tame_of main_v256 rfl rfl (by decide),
    tame_of main_v257 rfl rfl (by decide), tame_of main_v258 rfl rfl (by decide), tame_of main_v259 rfl rfl (by decide), tame_of main_v260 rfl rfl (by decide),
    tame_of main_v261 rfl rfl (by decide), tame_of main_c_117 rfl rfl (by decide), tame_of main_v262 rfl rfl (by decide), tame_of main_v263 rfl rfl (by decide),
    tame_of main_v264 rfl rfl (by decide), tame_of main_c_118 rfl rfl (by decide), tame_of main_v265 rfl rfl (by decide), tame_of main_v266 rfl rfl (by decide),
    tame_of main_v267 rfl rfl (by decide), tame_of main_c_119 rfl rfl (by decide), tame_of main_v268 rfl rfl (by decide), tame_of main_v269 rfl rfl (by decide),
    tame_of main_v270 rfl rfl (by decide), tame_of main_v271 rfl rfl (by decide), tame_of main_v272 rfl rfl (by decide), tame_of main_v273 rfl rfl (by decide),
    tame_of main_v274 rfl rfl (by decide), tame_of main_v275 rfl rfl (by decide), tame_of main_v276 rfl rfl (by decide), tame_of main_v277 rfl rfl (by decide),
    tame_of main_v278 rfl rfl (by decide), tame_of main_c_120 rfl rfl (by decide), tame_of main_v279 rfl rfl (by decide), tame_of main_v280 rfl rfl (by decide),
    tame_of main_v281 rfl rfl (by decide), tame_of main_c_121 rfl rfl (by decide), tame_of main_v282 rfl rfl (by decide), tame_of main_v283 rfl rfl (by decide),
    tame_of main_v284 rfl rfl (by decide), tame_of main_c_122 rfl rfl (by decide), tame_of main_v285 rfl rfl (by decide), tame_of main_v286 rfl rfl (by decide),
    tame_of main_v287 rfl rfl (by decide), tame_of main_v288 rfl rfl (by decide), tame_of main_v289 rfl rfl (by decide), tame_of main_v290 rfl rfl (by decide),
    tame_of main_v291 rfl rfl (by decide), tame_of main_v292 rfl rfl (by decide), tame_of main_v293 rfl rfl (by decide), tame_of main_v294 rfl rfl (by decide)⟩
set_option maxHeartbeats 1000000 in
theorem tame7 : (main_part7_ops0 : List (HloOp τ sig (Elt F))).Forall Tame :=
  ⟨
    tame_of main_v295 rfl rfl (by decide), tame_of main_c_123 rfl rfl (by decide), tame_of main_v296 rfl rfl (by decide), tame_of main_v297 rfl rfl (by decide),
    tame_of main_v298 rfl rfl (by decide), tame_of main_c_124 rfl rfl (by decide), tame_of main_v299 rfl rfl (by decide), tame_of main_v300 rfl rfl (by decide),
    tame_of main_v301 rfl rfl (by decide), tame_of main_c_125 rfl rfl (by decide), tame_of main_v302 rfl rfl (by decide), tame_of main_v303 rfl rfl (by decide),
    tame_of main_v304 rfl rfl (by decide), tame_of main_v305 rfl rfl (by decide), tame_of main_v306 rfl rfl (by decide), tame_of main_v307 rfl rfl (by decide),
    tame_of main_v308 rfl rfl (by decide), tame_of main_v309 rfl rfl (by decide), tame_of main_v310 rfl rfl (by decide), tame_of main_v311 rfl rfl (by decide),
    tame_of main_v312 rfl rfl (by decide), tame_of main_v313 rfl rfl (by decide), tame_of main_v314 rfl rfl (by decide), tame_of main_v315 rfl rfl (by decide),
    tame_of main_cst_126 rfl rfl (by decide), tame_of main_v316 rfl rfl (by decide), tame_of main_v317 rfl rfl (by decide), tame_of main_v318 rfl rfl (by decide),
    tame_of main_v319 rfl rfl (by decide), tame_of main_v320 rfl rfl (by decide), tame_of main_v321 rfl rfl (by decide), tame_of main_cst_127 rfl rfl (by decide),
    tame_of main_v322 rfl rfl (by decide), tame_of main_v323 rfl rfl (by decide), tame_of main_v324 rfl rfl (by decide), tame_of main_v325 rfl rfl (by decide),
    tame_of main_cst_128 rfl rfl (by decide), tame_of main_v326 rfl rfl (by decide), tame_of main_v327 rfl rfl (by decide), tame_of main_v328 rfl rfl (by decide),
    tame_of main_v329 rfl rfl (by decide), tame_of main_v330 rfl rfl (by decide), tame_of main_v331 rfl rfl (by decide), tame_of main_v332 rfl rfl (by decide)⟩

set_option maxHeartbeats 4000000 in
/-- The host lines before the region are those stretches one after the other. -/
theorem hostOps0_parts : (hostOps0 : List (HloOp τ sig (Elt F))) = main_part0_ops0 ++ (main_part1_ops0 ++ (main_part2_ops0 ++ (main_part3_ops0
    ++ (main_part4_ops0 ++ (main_part5_ops0 ++ (main_part6_ops0 ++ main_part7_ops0)))))) := rfl

/-- So every host line before the region is tame. -/
theorem tame_of_mem {op : HloOp τ sig (Elt F)} (h : op ∈ (hostOps0 : List (HloOp τ sig (Elt F)))) : Tame op := by
  rw [hostOps0_parts] at h
  simp only [List.mem_append] at h
  rcases h with h | h | h | h | h | h | h | h
  · exact List.forall_iff_forall_mem.mp tame0 op h
  · exact List.forall_iff_forall_mem.mp tame1 op h
  · exact List.forall_iff_forall_mem.mp tame2 op h
  · exact List.forall_iff_forall_mem.mp tame3 op h
  · exact List.forall_iff_forall_mem.mp tame4 op h
  · exact List.forall_iff_forall_mem.mp tame5 op h
  · exact List.forall_iff_forall_mem.mp tame6 op h
  · exact List.forall_iff_forall_mem.mp tame7 op h

/-- None of them allocates. -/
theorem hostOps0_fresh : (hostOps0 : List (HloOp τ sig (Elt F))).Forall fun op => op.fresh = ∅ :=
  List.forall_iff_forall_mem.mpr fun _ h => (tame_of_mem h).1

/-- A reference in one of the first nine slots is found by the region as launched: no host line before it writes it. -/
theorem V_of (c : Dev nD) (r : Ref sig .tc) (hr : r.idx.val < 9) : V m c r = m ((c : Thread nD τ).loc r) := by
  show StableHlo.after (List.flatten [hostOps0]) (fun b => m (c, b)) (Proc.devRef .tc r) = _
  rw [List.flatten_cons, List.flatten_nil, List.append_nil]
  exact StableHlo.after_of_forall_not_mem hostOps0 _ fun op hop => (tame_of_mem hop).not_mem r hr

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)

/-! ## @main around the region -/

/-- @main is the host lines before the region, the region, and the one host line after it; it reduces to the region
    continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The one host line after the region: it slices the region's result array into its own result. -/
theorem mem_hostOps1 {op : HloOp τ sig (Elt F)} {ops : List (HloOp τ sig (Elt F))} (hops : ops ∈ ([hostOps1] : List (List (HloOp τ sig (Elt F)))))
    (hop : op ∈ ops) : op ∈ (hostOps1 : List (HloOp τ sig (Elt F))) := by
  rw [List.mem_singleton] at hops; exact hops ▸ hop

/-- It touches the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  exact Pipeline.sub_ucRefs op ((List.forall_iff_forall_mem.mp hostOps1_sub) op (mem_hostOps1 hops hop))
/-- allocates nothing, -/
theorem sfx_fresh : ∀ ops ∈ ([hostOps1] : List (List (HloOp τ sig (Elt F)))), ∀ op ∈ ops, op.fresh = ∅ := by
  intro ops hops op hop
  have h := mem_hostOps1 hops hop
  rw [List.mem_singleton] at h
  subst h; rfl
/-- and writes no array of the pipeline: its result is none of the ten. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  have h := mem_hostOps1 hops hop
  rw [List.mem_singleton] at h
  subst h
  rw [StableHlo.unary_writes, Finset.mem_singleton]
  exact StableHlo.devRef_ne_of_ne ((by decide : ∀ w, Pipeline.arrRef spec0 w ≠ main_v334) w)

/-! ## The windows' blocks and the stored value -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rIn0 : Rect S256x784 := Rect.unit (s := S256x784) ![0, 0] S256x784.size inb_S256x784_S256x784_0_0
abbrev rIn1 : Rect S84x512 := Rect.unit (s := S84x512) ![0, 0] S84x512.size inb_S84x512_S84x512_0_0
abbrev rIn2 : Rect S1x256 := Rect.unit (s := S1x256) ![0, 0] S1x256.size inb_S1x256_S1x256_0_0
abbrev rIn3 : Rect S768x512 := Rect.unit (s := S768x512) ![0, 0] S768x512.size inb_S768x512_S768x512_0_0
abbrev rIn4 : Rect S1x256 := Rect.unit (s := S1x256) ![0, 0] S1x256.size inb_S1x256_S1x256_0_0
abbrev rIn5 : Rect S1792x128 := Rect.unit (s := S1792x128) ![0, 0] S1792x128.size inb_S1792x128_S1792x128_0_0
abbrev rIn6 : Rect S1x128 := Rect.unit (s := S1x128) ![0, 0] S1x128.size inb_S1x128_S1x128_0_0
abbrev rIn7 : Rect S128x128 := Rect.unit (s := S128x128) ![0, 0] S128x128.size inb_S128x128_S128x128_0_0
abbrev rIn8 : Rect S1x128 := Rect.unit (s := S1x128) ![0, 0] S1x128.size inb_S1x128_S1x128_0_0
abbrev rOut : Rect S256x128 := Rect.unit (s := S256x128) ![0, 0] S256x128.size inb_S256x128_S256x128_0_0

/-- The output window's staging buffer after the body, from the nine input blocks: the one store, over the whole block. -/
def out9 (x0 : Vec F S256x784 .f32) (x1 : Vec F S84x512 .bf16) (x2 : Vec F S1x256 .f32) (x3 : Vec F S768x512 .bf16) (x4 : Vec F S1x256 .f32) (x5 : Vec F S1792x128 .bf16) (x6 : Vec F S1x128 .f32) (x7 : Vec F S128x128 .bf16) (x8 : Vec F S1x128 .f32) : Vec F S256x128 .f32 :=
  View.canon [⟨rOut, bodyOut (View.ld x0 rIn0) (View.ld x1 rIn1) (View.ld x2 rIn2) (View.ld x3 rIn3) (View.ld x4 rIn4) (View.ld x5 rIn5) (View.ld x6 rIn6) (View.ld x7 rIn7) (View.ld x8 rIn8)⟩]

/-- The one store is over the whole block, so it covers it. -/
theorem cover9 (p : rOut.shape.Idx → Elt F .f32) (y : S256x128.Idx) :
    ∃ pc ∈ ([⟨rOut, p⟩] : List (View.Piece (Elt F) S256x128 .f32)), y ∈ pc.1.set :=
  View.cover_of_tiled [⟨rOut, p⟩] S256x128.size (by rfl) y

/-! ## The body's triple -/

set_option maxHeartbeats 1000000 in
/-- The body on whole staging memrefs — the nine inputs' at contents read `x0 … x8`, the output's at anything — runs to the
    continuation with the inputs' as they were and the output's at `out9` of them. -/
theorem sound_kernel (c : Dev nD) (E : Set ℕ) (i : grid0.Coords) (a0 : Memref sig .tc .vmem S256x784 .f32) (h0 : a0.IsWhole) (a1 : Memref sig .tc .vmem S84x512 .bf16) (h1 : a1.IsWhole) (a2 : Memref sig .tc .vmem S1x256 .f32) (h2 : a2.IsWhole) (a3 : Memref sig .tc .vmem S768x512 .bf16) (h3 : a3.IsWhole) (a4 : Memref sig .tc .vmem S1x256 .f32) (h4 : a4.IsWhole) (a5 : Memref sig .tc .vmem S1792x128 .bf16) (h5 : a5.IsWhole) (a6 : Memref sig .tc .vmem S1x128 .f32) (h6 : a6.IsWhole) (a7 : Memref sig .tc .vmem S128x128 .bf16) (h7 : a7.IsWhole) (a8 : Memref sig .tc .vmem S1x128 .f32) (h8 : a8.IsWhole) (a9 : Memref sig .tc .vmem S256x128 .f32) (h9 : a9.IsWhole)
    (x0 : Vec F S256x784 .f32) (x1 : Vec F S84x512 .bf16) (x2 : Vec F S1x256 .f32) (x3 : Vec F S768x512 .bf16) (x4 : Vec F S1x256 .f32) (x5 : Vec F S1792x128 .bf16) (x6 : Vec F S1x128 .f32) (x7 : Vec F S128x128 .bf16) (x8 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__fused_cnn_body i a0 h0 a1 h1 a2 h2 a3 h3 a4 h4 a5 h5 a6 h6 a7 h7 a8 h8 a9 h9) K := by
  simp only [cc0__fused_cnn_body_eq_skeleton]; unfold cc0__fused_cnn_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  iexists _; isplitr
  swap; · iexact H9
  ipureintro
  exact View.read_writes_eq_canon _ _ _ (cover9 _)

/-! ## The proof data -/

/-- The pipeline's proof data on core `c`: the arrays as the region finds them; after the body at point `t` each input's
    buffer at its block and the output's at `out9` of the nine blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

/-- The block a fetch reads is the block of the array as the region finds it. -/
theorem blockOf_eq (c : Dev nD) (w : Fin cfg0.W) (t : Fin cfg0.N) : (dats m 0 c).blockOf w t = iblk m c w t := by
  unfold Dat.blockOf iblk; rw [A_eq]

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0, blockOf_eq]; try rfl) t d).trans (by unfold Dat.fetched; rw [blockOf_eq]; try rfl)
/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1, blockOf_eq]; try rfl) t d).trans (by unfold Dat.fetched; rw [blockOf_eq]; try rfl)
/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2, blockOf_eq]; try rfl) t d).trans (by unfold Dat.fetched; rw [blockOf_eq]; try rfl)
/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3, blockOf_eq]; try rfl) t d).trans (by unfold Dat.fetched; rw [blockOf_eq]; try rfl)
/-- Input window 4's current staging buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4, blockOf_eq]; try rfl) t d).trans (by unfold Dat.fetched; rw [blockOf_eq]; try rfl)
/-- Input window 5's current staging buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5, blockOf_eq]; try rfl) t d).trans (by unfold Dat.fetched; rw [blockOf_eq]; try rfl)
/-- Input window 6's current staging buffer holds its block at every point, fetched there or not. -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6, blockOf_eq]; try rfl) t d).trans (by unfold Dat.fetched; rw [blockOf_eq]; try rfl)
/-- Input window 7's current staging buffer holds its block at every point, fetched there or not. -/
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7, blockOf_eq]; try rfl) t d).trans (by unfold Dat.fetched; rw [blockOf_eq]; try rfl)
/-- Input window 8's current staging buffer holds its block at every point, fetched there or not. -/
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8, blockOf_eq]; try rfl) t d).trans (by unfold Dat.fetched; rw [blockOf_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the library computes from the proof data and every other unscoped
    buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A reference that is no array of the pipeline and not the last line's result ends as the region found it. -/
theorem W_of (c : Dev nD) (r : Ref sig .tc) (h1 : r ≠ main_v334) (h2 : ∀ w, Pipeline.arrRef spec0 w ≠ r) :
    Pipeline.afterTail₀ cfgs (dats m) 0 (V0 m) [hostOps1] c r = V m c r := by
  unfold Pipeline.afterTail₀
  rw [StableHlo.after_of_forall_not_mem (b := Proc.devRef .tc r) _ _ (by
      intro op hop
      rw [List.flatten_cons, List.flatten_nil, List.append_nil, List.mem_singleton] at hop
      subst hop
      rw [StableHlo.unary_writes, Finset.mem_singleton]
      exact StableHlo.devRef_ne_of_ne h1),
    Pipeline.withArrays_of_ne _ c (V0 m c) _ r (by exact h2)]

theorem W_main_arg0 (c : Dev nD) : Pipeline.afterTail₀ cfgs (dats m) 0 (V0 m) [hostOps1] c main_arg0 = m ((c : Thread nD τ).loc main_arg0) :=
  (W_of m c main_arg0 (by decide) (by decide)).trans (V_main_arg0 m c)
theorem W_main_arg1 (c : Dev nD) : Pipeline.afterTail₀ cfgs (dats m) 0 (V0 m) [hostOps1] c main_arg1 = m ((c : Thread nD τ).loc main_arg1) :=
  (W_of m c main_arg1 (by decide) (by decide)).trans (V_main_arg1 m c)
theorem W_main_arg2 (c : Dev nD) : Pipeline.afterTail₀ cfgs (dats m) 0 (V0 m) [hostOps1] c main_arg2 = m ((c : Thread nD τ).loc main_arg2) :=
  (W_of m c main_arg2 (by decide) (by decide)).trans (V_main_arg2 m c)
theorem W_main_arg3 (c : Dev nD) : Pipeline.afterTail₀ cfgs (dats m) 0 (V0 m) [hostOps1] c main_arg3 = m ((c : Thread nD τ).loc main_arg3) :=
  (W_of m c main_arg3 (by decide) (by decide)).trans (V_main_arg3 m c)
theorem W_main_arg4 (c : Dev nD) : Pipeline.afterTail₀ cfgs (dats m) 0 (V0 m) [hostOps1] c main_arg4 = m ((c : Thread nD τ).loc main_arg4) :=
  (W_of m c main_arg4 (by decide) (by decide)).trans (V_main_arg4 m c)
theorem W_main_arg5 (c : Dev nD) : Pipeline.afterTail₀ cfgs (dats m) 0 (V0 m) [hostOps1] c main_arg5 = m ((c : Thread nD τ).loc main_arg5) :=
  (W_of m c main_arg5 (by decide) (by decide)).trans (V_main_arg5 m c)
theorem W_main_arg6 (c : Dev nD) : Pipeline.afterTail₀ cfgs (dats m) 0 (V0 m) [hostOps1] c main_arg6 = m ((c : Thread nD τ).loc main_arg6) :=
  (W_of m c main_arg6 (by decide) (by decide)).trans (V_main_arg6 m c)
theorem W_main_arg7 (c : Dev nD) : Pipeline.afterTail₀ cfgs (dats m) 0 (V0 m) [hostOps1] c main_arg7 = m ((c : Thread nD τ).loc main_arg7) :=
  (W_of m c main_arg7 (by decide) (by decide)).trans (V_main_arg7 m c)
theorem W_main_arg8 (c : Dev nD) : Pipeline.afterTail₀ cfgs (dats m) 0 (V0 m) [hostOps1] c main_arg8 = m ((c : Thread nD τ).loc main_arg8) :=
  (W_of m c main_arg8 (by decide) (by decide)).trans (V_main_arg8 m c)

/-- The frame: @main runs, and the nine argument arrays end as launched — none is an array of the pipeline, none is
    scoped, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have hb : ∀ b : Ref sig .tc, b.isScoped = false → (∀ w, (spec0 w).arr.view.ref ≠ b) →
        r.2.mem ((c.tc : Thread nD τ).loc b) = Pipeline.afterTail₀ cfgs (dats m) 0 (V0 m) [hostOps1] c b :=
      fun b hs ha => (h c).2 b (Pipeline.mem_restRefs_of b hs ha)
    ⟨(hb main_arg0 (by decide) (by decide)).trans (W_main_arg0 m c),
     (hb main_arg1 (by decide) (by decide)).trans (W_main_arg1 m c),
     (hb main_arg2 (by decide) (by decide)).trans (W_main_arg2 m c),
     (hb main_arg3 (by decide) (by decide)).trans (W_main_arg3 m c),
     (hb main_arg4 (by decide) (by decide)).trans (W_main_arg4 m c),
     (hb main_arg5 (by decide) (by decide)).trans (W_main_arg5 m c),
     (hb main_arg6 (by decide) (by decide)).trans (W_main_arg6 m c),
     (hb main_arg7 (by decide) (by decide)).trans (W_main_arg7 m c),
     (hb main_arg8 (by decide) (by decide)).trans (W_main_arg8 m c)⟩) (run_main m ρ)

end Cert.KernelIdeal.Hand

end
-- ==== Proof.Spec.lean ====
/-
  The network both programs compute, as ONE function of the argument arrays over the extended reals.

  An image is a 28 × 28 array.  Padded with a zero border it is convolved with a 3 × 3 stencil of 16 channels (the
  nine taps are the rows of a [9, 16] matrix, tap `q` reading the padded image at row offset `q / 3` and column offset
  `q % 3`), a bias is added, negatives are cut to zero, and each 2 × 2 square of positions is replaced by its largest
  entry: a 14 × 14 × 16 array.  That array, again with a zero border, goes through the same three steps with a stencil
  of 144 = 9 · 16 rows (row `q` is tap `q / 16`, input channel `q % 16`) and 32 channels: a 7 × 7 × 32 array.  Read
  row-major as 1568 numbers it is multiplied by a [1568, 128] matrix, biased and cut at zero, then multiplied by a
  [128, 128] matrix and biased; the result keeps the first ten of the 128 columns.

  Positions are natural numbers here and the zero border is an `if`: no index arithmetic is hidden in a type.
-/
import Idealize.ShloMosaic.PureOps.Ideal
import Idealize.ShloMosaic.Lib.ValueIdx

noncomputable section

open scoped BigOperators

namespace Cert.Cnn

open Idealize.ShloMosaic Idealize.ShloMosaic.ValueIdx

/-- The image with a zero border: position `(i, j)` of the 30 × 30 padded image (zero outside it as well). -/
def xpad (img : Fin 28 → Fin 28 → EReal) (i j : ℕ) : EReal :=
  if h : (1 ≤ i ∧ i ≤ 28) ∧ (1 ≤ j ∧ j ≤ 28) then img ⟨i - 1, by omega⟩ ⟨j - 1, by omega⟩ else 0

/-- The first convolution at output position `(h, v)`, channel `c`: nine taps of the padded image. -/
def conv1 (img : Fin 28 → Fin 28 → EReal) (w : Fin 9 → Fin 16 → EReal) (h v : ℕ) (c : Fin 16) : EReal :=
  ∑ q : Fin 9, xpad img (h + q.val / 3) (v + q.val % 3) * w q c

/-- Bias, then the cut at zero. -/
def act1 (img : Fin 28 → Fin 28 → EReal) (w : Fin 9 → Fin 16 → EReal) (b : Fin 16 → EReal) (h v : ℕ) (c : Fin 16) : EReal :=
  max (conv1 img w h v c + b c) 0

/-- The largest of the 2 × 2 square at `(2i, 2j)`: first down each column of the square, then across. -/
def pool1 (img : Fin 28 → Fin 28 → EReal) (w : Fin 9 → Fin 16 → EReal) (b : Fin 16 → EReal) (i j : ℕ) (c : Fin 16) : EReal :=
  max (max (act1 img w b (2 * i) (2 * j) c) (act1 img w b (2 * i + 1) (2 * j) c))
    (max (act1 img w b (2 * i) (2 * j + 1) c) (act1 img w b (2 * i + 1) (2 * j + 1) c))

/-- The pooled 14 × 14 × 16 array with a zero border: position `(i, j)` of the 16 × 16 padded array. -/
def p1pad (img : Fin 28 → Fin 28 → EReal) (w : Fin 9 → Fin 16 → EReal) (b : Fin 16 → EReal) (i j : ℕ) (c : Fin 16) : EReal :=
  if (1 ≤ i ∧ i ≤ 14) ∧ (1 ≤ j ∧ j ≤ 14) then pool1 img w b (i - 1) (j - 1) c else 0

/-- The first layer's parameters and the image, bundled: what the second layer reads. -/
structure L1 where
  img : Fin 28 → Fin 28 → EReal
  w : Fin 9 → Fin 16 → EReal
  b : Fin 16 → EReal

/-- The second convolution at output position `(h, v)`, channel `co`: 144 = nine taps × sixteen input channels. -/
def conv2 (l : L1) (w2 : Fin 144 → Fin 32 → EReal) (h v : ℕ) (co : Fin 32) : EReal :=
  ∑ q : Fin 144, p1pad l.img l.w l.b (h + q.val / 16 / 3) (v + q.val / 16 % 3) ⟨q.val % 16, Nat.mod_lt _ (by norm_num)⟩ * w2 q co

def act2 (l : L1) (w2 : Fin 144 → Fin 32 → EReal) (b2 : Fin 32 → EReal) (h v : ℕ) (co : Fin 32) : EReal :=
  max (conv2 l w2 h v co + b2 co) 0

def pool2 (l : L1) (w2 : Fin 144 → Fin 32 → EReal) (b2 : Fin 32 → EReal) (i j : ℕ) (co : Fin 32) : EReal :=
  max (max (act2 l w2 b2 (2 * i) (2 * j) co) (act2 l w2 b2 (2 * i + 1) (2 * j) co))
    (max (act2 l w2 b2 (2 * i) (2 * j + 1) co) (act2 l w2 b2 (2 * i + 1) (2 * j + 1) co))

/-- The 7 × 7 × 32 pooled array read row-major: entry `f = i · 224 + j · 32 + co`. -/
def feat (l : L1) (w2 : Fin 144 → Fin 32 → EReal) (b2 : Fin 32 → EReal) (f : Fin 1568) : EReal :=
  pool2 l w2 b2 (f.val / 224) (f.val % 224 / 32) ⟨f.val % 32, Nat.mod_lt _ (by norm_num)⟩

/-- The first dense layer, biased and cut at zero. -/
def hid (l : L1) (w2 : Fin 144 → Fin 32 → EReal) (b2 : Fin 32 → EReal) (f1w : Fin 1568 → Fin 128 → EReal)
    (f1b : Fin 128 → EReal) (k : Fin 128) : EReal :=
  max (∑ f : Fin 1568, feat l w2 b2 f * f1w f k + f1b k) 0

/-- The second dense layer. -/
def logit (l : L1) (w2 : Fin 144 → Fin 32 → EReal) (b2 : Fin 32 → EReal) (f1w : Fin 1568 → Fin 128 → EReal)
    (f1b : Fin 128 → EReal) (f2w : Fin 128 → Fin 128 → EReal) (f2b : Fin 128 → EReal) (j : Fin 128) : EReal :=
  ∑ k : Fin 128, hid l w2 b2 f1w f1b k * f2w k j + f2b j

/-! ## The same, over the argument arrays -/

abbrev SX : Shape := ⟨4, ![16384, 1, 28, 28]⟩
abbrev SW1 : Shape := ⟨2, ![9, 16]⟩
abbrev SB1 : Shape := ⟨1, ![16]⟩
abbrev SW2 : Shape := ⟨2, ![144, 32]⟩
abbrev SB2 : Shape := ⟨1, ![32]⟩
abbrev SF1 : Shape := ⟨2, ![1568, 128]⟩
abbrev SV128 : Shape := ⟨1, ![128]⟩
abbrev SF2 : Shape := ⟨2, ![128, 128]⟩
abbrev SOut128 : Shape := ⟨2, ![16384, 128]⟩
abbrev SOut : Shape := ⟨2, ![16384, 10]⟩

/-- Image `n` of the batch with the first layer's parameters. -/
def l1Of (x : SX.Idx → EReal) (w1 : SW1.Idx → EReal) (b1 : SB1.Idx → EReal) (n : Fin 16384) : L1 where
  img := fun a b => x (ix4 n (0 : Fin 1) a b)
  w := fun q c => w1 (ix2 q c)
  b := fun c => b1 (ix1 c)

/-- All 128 columns of the last layer for image `n`, from the nine argument arrays. -/
def net (x : SX.Idx → EReal) (w1 : SW1.Idx → EReal) (b1 : SB1.Idx → EReal) (w2 : SW2.Idx → EReal) (b2 : SB2.Idx → EReal)
    (f1w : SF1.Idx → EReal) (f1b : SV128.Idx → EReal) (f2w : SF2.Idx → EReal) (f2b : SV128.Idx → EReal)
    (n : Fin 16384) (j : Fin 128) : EReal :=
  logit (l1Of x w1 b1 n) (fun q c => w2 (ix2 q c)) (fun c => b2 (ix1 c)) (fun f k => f1w (ix2 f k)) (fun k => f1b (ix1 k))
    (fun k j => f2w (ix2 k j)) (fun j => f2b (ix1 j)) j

/-- The [16384, 128] array both programs' last pallas_call leaves. -/
def G128 (x : SX.Idx → EReal) (w1 : SW1.Idx → EReal) (b1 : SB1.Idx → EReal) (w2 : SW2.Idx → EReal) (b2 : SB2.Idx → EReal)
    (f1w : SF1.Idx → EReal) (f1b : SV128.Idx → EReal) (f2w : SF2.Idx → EReal) (f2b : SV128.Idx → EReal) :
    SOut128.Idx → EReal :=
  fun i => net x w1 b1 w2 b2 f1w f1b f2w f2b (i 0) (i 1)

/-- The result: its first ten columns. -/
def G (x : SX.Idx → EReal) (w1 : SW1.Idx → EReal) (b1 : SB1.Idx → EReal) (w2 : SW2.Idx → EReal) (b2 : SB2.Idx → EReal)
    (f1w : SF1.Idx → EReal) (f1b : SV128.Idx → EReal) (f2w : SF2.Idx → EReal) (f2b : SV128.Idx → EReal) :
    SOut.Idx → EReal :=
  fun i => net x w1 b1 w2 b2 f1w f1b f2w f2b (i 0) ⟨(i 1).val, lt_trans (i 1).isLt (by norm_num)⟩

end Cert.Cnn

end
-- ==== Proof.KTables.lean ====
/-
  The kernel's host-built tables in closed form, and the rows of its block read as images.

  The fused kernel turns each 3 × 3 convolution into matrix products with a BANDED matrix: for the first layer the
  84 = 3 · 28 rows are (tap row `dy`, input column `wi`), the 512 columns are (parity of the output column, then
  output-column pair `jj`, then channel), 224 of every 256 lanes in use; entry (`dy`, `wi`; `wo`, `c`) is the
  stencil's tap (`dy`, `dx`) with `dx = wi + 1 - wo` when that is 0, 1 or 2, and zero otherwise.  The second layer's
  matrix is the same with sixteen input channels per input column.  The bias rows repeat the bias over the column
  pairs; the first dense matrix is padded from 224 to 256 rows per pooled image row.
-/
import proofs.«150178_g2000205257289275_pallasbulk_739_9_alg».proof.Proof.Spec

noncomputable section

namespace Cert.Cnn

/-- The first layer's banded matrix: row `k = dy · 28 + wi`, column `l = par · 256 + jj · 16 + c` with `wo = 2 jj + par`. -/
def T1 (w : Fin 9 → Fin 16 → EReal) (k : Fin 84) (l : Fin 512) : EReal :=
  if h : l.val % 256 < 224 ∧ 2 * (l.val % 256 / 16) + l.val / 256 ≤ k.val % 28 + 1
      ∧ k.val % 28 ≤ 2 * (l.val % 256 / 16) + l.val / 256 + 1 then
    w ⟨k.val / 28 * 3 + (k.val % 28 + 1 - (2 * (l.val % 256 / 16) + l.val / 256)), by have := k.isLt; omega⟩
      ⟨l.val % 256 % 16, Nat.mod_lt _ (by norm_num)⟩
  else 0

/-- The first layer's bias row: the bias repeated over the 14 column pairs, 32 idle lanes at zero. -/
def B1 (b : Fin 16 → EReal) (l : Fin 256) : EReal :=
  if l.val < 224 then b ⟨l.val % 16, Nat.mod_lt _ (by norm_num)⟩ else 0

/-- The second layer's banded matrix: row `k = dy · 256 + wi · 16 + ci`, column `l = par · 256 + jj · 32 + co` with
    `wo = 2 jj + par`. -/
def T2 (w : Fin 144 → Fin 32 → EReal) (k : Fin 768) (l : Fin 512) : EReal :=
  if h : k.val % 256 < 224 ∧ l.val % 256 < 224 ∧ 2 * (l.val % 256 / 32) + l.val / 256 ≤ k.val % 256 / 16 + 1
      ∧ k.val % 256 / 16 ≤ 2 * (l.val % 256 / 32) + l.val / 256 + 1 then
    w ⟨(k.val / 256 * 3 + (k.val % 256 / 16 + 1 - (2 * (l.val % 256 / 32) + l.val / 256))) * 16 + k.val % 256 % 16,
        by have := k.isLt; omega⟩
      ⟨l.val % 256 % 32, Nat.mod_lt _ (by norm_num)⟩
  else 0

/-- The second layer's bias row: the bias repeated over the 7 column pairs, 32 idle lanes at zero. -/
def B2 (b : Fin 32 → EReal) (l : Fin 256) : EReal :=
  if l.val < 224 then b ⟨l.val % 32, Nat.mod_lt _ (by norm_num)⟩ else 0

/-- The first dense matrix, each pooled image row's 224 rows padded to 256 with zero rows. -/
def W1p (f : Fin 1568 → Fin 128 → EReal) (k : Fin 1792) (l : Fin 128) : EReal :=
  if h : k.val % 256 < 224 then f ⟨k.val / 256 * 224 + k.val % 256, by have := k.isLt; omega⟩ l else 0

/-- Row `r` of a [256, 784] block as a 28 × 28 image: lane `28 a + b`. -/
def rowImg (x : (⟨2, ![256, 784]⟩ : Idealize.ShloMosaic.Shape).Idx → EReal) (r : Fin 256) : Fin 28 → Fin 28 → EReal :=
  fun a b => x (Idealize.ShloMosaic.ValueIdx.ix2 r ⟨28 * a.val + b.val, by have := a.isLt; have := b.isLt; omega⟩)

/-- What lane `L` of the sixteen side-by-side groups holds for one image: group `L / 256` is padded row `L / 256` of
    the pooled first layer, lane `jj · 16 + c` of it column `jj`, channel `c`; the last 32 lanes of a group are zero. -/
def packedSpec (img : Fin 28 → Fin 28 → EReal) (w : Fin 9 → Fin 16 → EReal) (b : Fin 16 → EReal) (L : Fin 4096) : EReal :=
  if L.val % 256 < 224 then p1pad img w b (L.val / 256) (L.val % 256 / 16 + 1) ⟨L.val % 256 % 16, Nat.mod_lt _ (by norm_num)⟩
  else 0

/-- What lane `M` of the seven side-by-side second-layer groups holds: group `M / 256` is pooled row `M / 256`, lane
    `jj · 32 + co` of it column `jj`, channel `co`; the last 32 lanes of a group are zero. -/
def featsSpec (l : L1) (w2 : Fin 144 → Fin 32 → EReal) (b2 : Fin 32 → EReal) (M : Fin 1792) : EReal :=
  if M.val % 256 < 224 then pool2 l w2 b2 (M.val / 256) (M.val % 256 / 32) ⟨M.val % 256 % 32, Nat.mod_lt _ (by norm_num)⟩
  else 0

end Cert.Cnn

end
-- ==== Proof.KHead.lean ====
/-
  The two dense layers of the fused kernel, read at one entry of the result.

  The kernel multiplies the 1792 lanes of the second layer's seven side-by-side groups by the first dense matrix
  padded to 1792 rows, adds the bias row, cuts at zero, multiplies by the second dense matrix and adds its bias row.
  Of every 256 lanes only 224 carry a feature; on the other 32 both the lanes and the padded matrix rows are zero, so
  the 1792-term sum is the 1568-term sum of the specification: lane `h · 256 + p` with `p < 224` is feature
  `h · 224 + p`.
-/
import proofs.«150178_g2000205257289275_pallasbulk_739_9_alg».proof.Proof.KBodyTerm
import proofs.«150178_g2000205257289275_pallasbulk_739_9_alg».proof.Proof.KTables
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic

noncomputable section

open scoped BigOperators

namespace Cert.KernelIdeal.Hand

open Cert.Cnn Idealize.ShloMosaic Idealize.ShloMosaic.ValueIdx Cert.KernelIdeal

/-! ## The operand indices of the two products

Both products are plain: rows × contraction times contraction × columns.  At result index `(r, c)` and contraction
position `k` the left operand is read at `(r, k)` and the right one at `(k, c)`; one statement per operand axis. -/

theorem lhs_dense1_0 (i : S256x128.Idx) (q : dot_S256x1792_S1792x128_S256x128_1_0_0_1_n_n.contr.Idx) :
    (dot_S256x1792_S1792x128_S256x128_1_0_0_1_n_n.lhsIdx i q 0).val = (i 0).val := by
  unfold DotDims.lhsIdx
  rw [dif_neg (show ¬(0 : Fin S256x1792.rank) ∈ dot_S256x1792_S1792x128_S256x128_1_0_0_1_n_n.lhsBatch by decide),
    dif_pos (show (0 : Fin S256x1792.rank) ∈ dot_S256x1792_S1792x128_S256x128_1_0_0_1_n_n.lhsNonContracting by decide)]
  rfl

theorem lhs_dense1_1 (i : S256x128.Idx) (q : dot_S256x1792_S1792x128_S256x128_1_0_0_1_n_n.contr.Idx) :
    (dot_S256x1792_S1792x128_S256x128_1_0_0_1_n_n.lhsIdx i q 1).val = (q ⟨0, by decide⟩).val :=
  dot_S256x1792_S1792x128_S256x128_1_0_0_1_n_n.lhsIdx_val_of_single rfl i q

theorem rhs_dense1_0 (i : S256x128.Idx) (q : dot_S256x1792_S1792x128_S256x128_1_0_0_1_n_n.contr.Idx) :
    (dot_S256x1792_S1792x128_S256x128_1_0_0_1_n_n.rhsIdx i q 0).val = (q ⟨0, by decide⟩).val :=
  dot_S256x1792_S1792x128_S256x128_1_0_0_1_n_n.rhsIdx_val_of_single rfl i q

theorem rhs_dense1_1 (i : S256x128.Idx) (q : dot_S256x1792_S1792x128_S256x128_1_0_0_1_n_n.contr.Idx) :
    (dot_S256x1792_S1792x128_S256x128_1_0_0_1_n_n.rhsIdx i q 1).val = (i 1).val := by
  unfold DotDims.rhsIdx
  rw [dif_neg (show ¬(1 : Fin S1792x128.rank) ∈ dot_S256x1792_S1792x128_S256x128_1_0_0_1_n_n.rhsBatch by decide),
    dif_pos (show (1 : Fin S1792x128.rank) ∈ dot_S256x1792_S1792x128_S256x128_1_0_0_1_n_n.rhsNonContracting by decide)]
  rfl

theorem lhs_dense2_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl

theorem lhs_dense2_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q

theorem rhs_dense2_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q

theorem rhs_dense2_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-! ## Each product into the zero accumulator, as a plain sum -/

/-- The [256, 1792] · [1792, 128] product at `(r, c)`: the sum over the 1792 lanes. -/
theorem dense1_apply (a : FVec Ideal S256x1792 .bf16) (b : FVec Ideal S1792x128 .bf16) (r : Fin 256) (c : Fin 128) :
    matmul dot_S256x1792_S1792x128_S256x128_1_0_0_1_n_n none a b (constant (F := Ideal) S256x128 .f32 0x00000000#32) (ix2 r c)
      = ∑ k : Fin 1792, a (ix2 r k) * b (ix2 k c) := by
  simp only [matmul]
  rw [Ideal.matmul_constant_zero_apply,
    ← Equiv.sum_comp (contrEquiv1 dot_S256x1792_S1792x128_S256x128_1_0_0_1_n_n 1792 rfl rfl).symm]
  refine Finset.sum_congr rfl fun k _ => ?_
  have hk := contrEquiv1_symm_val dot_S256x1792_S1792x128_S256x128_1_0_0_1_n_n 1792 rfl rfl k
  have el : dot_S256x1792_S1792x128_S256x128_1_0_0_1_n_n.lhsIdx (ix2 r c) ((contrEquiv1 dot_S256x1792_S1792x128_S256x128_1_0_0_1_n_n 1792 rfl rfl).symm k) = ix2 r k :=
    funext fun ax => Fin.ext (by
      match ax with
      | ⟨0, _⟩ => exact lhs_dense1_0 _ _
      | ⟨1, _⟩ => exact (lhs_dense1_1 _ _).trans hk)
  have er : dot_S256x1792_S1792x128_S256x128_1_0_0_1_n_n.rhsIdx (ix2 r c) ((contrEquiv1 dot_S256x1792_S1792x128_S256x128_1_0_0_1_n_n 1792 rfl rfl).symm k) = ix2 k c :=
    funext fun ax => Fin.ext (by
      match ax with
      | ⟨0, _⟩ => exact (rhs_dense1_0 _ _).trans hk
      | ⟨1, _⟩ => exact rhs_dense1_1 _ _)
  rw [el, er]

/-- The [256, 128] · [128, 128] product at `(r, c)`: the sum over the 128 hidden units. -/
theorem dense2_apply (a : FVec Ideal S256x128 .bf16) (b : FVec Ideal S128x128 .bf16) (r : Fin 256) (c : Fin 128) :
    matmul dot_S256x128_S128x128_S256x128_1_0_0_1_n_n none a b (constant (F := Ideal) S256x128 .f32 0x00000000#32) (ix2 r c)
      = ∑ k : Fin 128, a (ix2 r k) * b (ix2 k c) := by
  simp only [matmul]
  rw [Ideal.matmul_constant_zero_apply,
    ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r c) ((contrEquiv1 dot_S256x128_S128x128_S256x128_1_0_0_1_n_n 128 rfl rfl).symm k) = ix2 r k :=
    funext fun ax => Fin.ext (by
      match ax with
      | ⟨0, _⟩ => exact lhs_dense2_0 _ _
      | ⟨1, _⟩ => exact (lhs_dense2_1 _ _).trans hk)
  have er : dot_S256x128_S128x128_S256x128_1_0_0_1_n_n.rhsIdx (ix2 r c) ((contrEquiv1 dot_S256x128_S128x128_S256x128_1_0_0_1_n_n 128 rfl rfl).symm k) = ix2 k c :=
    funext fun ax => Fin.ext (by
      match ax with
      | ⟨0, _⟩ => exact (rhs_dense2_0 _ _).trans hk
      | ⟨1, _⟩ => exact rhs_dense2_1 _ _)
  rw [el, er]

/-! ## The stored value at an entry, over the loaded blocks as they are -/

/-- Entry `(r, j)` of the two dense layers in terms of the blocks' own entries: nothing is known yet about what the
    blocks hold. -/
theorem headOf_raw (ff : FVec Ideal S256x1792 .bf16) (w1 : Vec Ideal S1792x128 .bf16) (fb1 : Vec Ideal S1x128 .f32)
    (w2 : Vec Ideal S128x128 .bf16) (fb2 : Vec Ideal S1x128 .f32) (r : Fin 256) (j : Fin 128) :
    headOf (F := Ideal) ff w1 fb1 w2 fb2 (ix2 r j)
      = ∑ k : Fin 128, max (∑ M : Fin 1792, ff (ix2 r M) * w1 (ix2 M k) + fb1 (ix2 (0 : Fin 1) k)) 0 * w2 (ix2 k j)
        + fb2 (ix2 (0 : Fin 1) j) := by
  unfold headOf Gen.k0_pay1 Gen.k0_pay37
  simp only [shapeCast_self]
  rw [addf_apply, dense2_apply, broadcastTo_1b_ab_apply]
  refine congrArg (· + fb2 (ix2 (0 : Fin 1) j)) (Finset.sum_congr rfl fun k _ => ?_)
  rw [truncf_apply, maximumf_apply, addf_apply, dense1_apply, broadcastTo_1b_ab_apply, broadcast_apply]
  show max _ (Ideal.ofBits .f32 0x00000000#32) * _ = _
  rw [Ideal.ofBits_zero_f32]

/-! ## From 1792 lanes to 1568 features -/

/-- Feature `f = h · 224 + p` sits in lane `h · 256 + p`. -/
def laneOf (f : Fin 1568) : Fin 1792 := ⟨f.val / 224 * 256 + f.val % 224, by have := f.isLt; omega⟩

theorem laneOf_val (f : Fin 1568) : (laneOf f).val = f.val / 224 * 256 + f.val % 224 := rfl

theorem laneOf_injective : Function.Injective laneOf := by
  intro f g h
  have h' : f.val / 224 * 256 + f.val % 224 = g.val / 224 * 256 + g.val % 224 := congrArg Fin.val h
  exact Fin.ext (by omega)

/-- A lane outside the image of the features is one of the 32 idle lanes of its group. -/
theorem idle_of_not_mem_range (M : Fin 1792) (hM : M ∉ Set.range laneOf) : ¬ M.val % 256 < 224 := by
  intro hlt
  refine hM ⟨⟨M.val / 256 * 224 + M.val % 256, by have := M.isLt; omega⟩, Fin.ext ?_⟩
  rw [laneOf_val]
  show (M.val / 256 * 224 + M.val % 256) / 224 * 256 + (M.val / 256 * 224 + M.val % 256) % 224 = M.val
  omega

/-- The sum over the lanes of a row that holds the features (zero on the idle lanes) against the padded matrix is
    the sum over the features against the matrix itself. -/
theorem sum_lanes_eq_sum_feats (fr : Fin 1792 → EReal) (wc : Fin 1792 → EReal)
    (fv : Fin 1568 → EReal) (f1w : Fin 1568 → Fin 128 → EReal) (k : Fin 128)
    (hfr : ∀ M : Fin 1792, fr M = if h : M.val % 256 < 224 then
      fv ⟨M.val / 256 * 224 + M.val % 256, by have := M.isLt; omega⟩ else 0)
    (hwc : ∀ M : Fin 1792, wc M = W1p f1w M k) :
    ∑ M : Fin 1792, fr M * wc M = ∑ f : Fin 1568, fv f * f1w f k := by
  refine (Fintype.sum_of_injective laneOf laneOf_injective (fun f => fv f * f1w f k) (fun M => fr M * wc M) ?_ ?_).symm
  · intro M hM
    show fr M * wc M = 0
    rw [hfr M, dif_neg (idle_of_not_mem_range M hM), zero_mul]
  · intro f
    show fv f * f1w f k = fr (laneOf f) * wc (laneOf f)
    have hlt : (laneOf f).val % 256 < 224 := by rw [laneOf_val]; have := f.isLt; omega
    have hf : (⟨(laneOf f).val / 256 * 224 + (laneOf f).val % 256, by have := (laneOf f).isLt; omega⟩ : Fin 1568) = f :=
      Fin.ext (by show (laneOf f).val / 256 * 224 + (laneOf f).val % 256 = f.val; rw [laneOf_val]; have := f.isLt; omega)
    rw [hfr (laneOf f), hwc (laneOf f), dif_pos hlt, W1p, dif_pos hlt, hf]

/-! ## The dense layers over what the blocks hold -/

theorem headOf_apply (ff : FVec Ideal S256x1792 .bf16) (w1 : Vec Ideal S1792x128 .bf16) (fb1 : Vec Ideal S1x128 .f32) (w2 : Vec Ideal S128x128 .bf16) (fb2 : Vec Ideal S1x128 .f32)
    (fv : Fin 1568 → EReal) (f1w : Fin 1568 → Fin 128 → EReal) (f1b : Fin 128 → EReal) (f2w : Fin 128 → Fin 128 → EReal) (f2b : Fin 128 → EReal)
    (r : Fin 256)
    (hff : ∀ M : Fin 1792, ff (ix2 r M) = if h : M.val % 256 < 224 then fv ⟨M.val / 256 * 224 + M.val % 256, by have := M.isLt; omega⟩ else 0)
    (hw1 : ∀ (k : Fin 1792) (c : Fin 128), w1 (ix2 k c) = W1p f1w k c) (hfb1 : ∀ c : Fin 128, fb1 (ix2 (0 : Fin 1) c) = f1b c)
    (hw2 : ∀ (k c : Fin 128), w2 (ix2 k c) = f2w k c) (hfb2 : ∀ c : Fin 128, fb2 (ix2 (0 : Fin 1) c) = f2b c) (j : Fin 128) :
    headOf (F := Ideal) ff w1 fb1 w2 fb2 (ix2 r j) = ∑ k : Fin 128, max (∑ f : Fin 1568, fv f * f1w f k + f1b k) 0 * f2w k j + f2b j := by
  rw [headOf_raw, hfb2 j]
  refine congrArg (· + f2b j) (Finset.sum_congr rfl fun k _ => ?_)
  rw [hfb1 k, hw2 k j,
    sum_lanes_eq_sum_feats (fun M => ff (ix2 r M)) (fun M => w1 (ix2 M k)) fv f1w k hff (fun M => hw1 M k)]

end Cert.KernelIdeal.Hand

end
-- ==== Proof.KGroupSpec.lean ====
/-
  What one of the kernel's fourteen first-layer groups holds for one image: group `i` is pooled row `i`, lane
  `jj · 16 + c` of it column `jj`, channel `c`; the last 32 of its 256 lanes are zero.
-/
import proofs.«150178_g2000205257289275_pallasbulk_739_9_alg».proof.Proof.KTables

noncomputable section

namespace Cert.Cnn

/-- Lane `p` of first-layer group `i`. -/
def grpSpec (img : Fin 28 → Fin 28 → EReal) (w : Fin 9 → Fin 16 → EReal) (b : Fin 16 → EReal) (i : ℕ) (p : Fin 256) : EReal :=
  if p.val < 224 then pool1 img w b i (p.val / 16) ⟨p.val % 16, Nat.mod_lt _ (by norm_num)⟩ else 0

end Cert.Cnn

end
-- ==== Proof.KGroupsA.lean ====
/-
  The first convolution as the fused kernel computes it, row by row, against the specification's nine taps.

  One output row of the convolution is a product of a window of the image's lanes (three consecutive image rows, 84
  lanes; two rows, 56 lanes, at the top and bottom edge) with the banded matrix. Splitting the contraction index into
  (tap row, input column), the band's condition on the input column turns the sum over the 28 input columns into the
  sum over the three taps of that row, the taps that fall outside the image meeting the zero border; the three tap rows
  together are the nine taps. Two such rows pooled, then the two 256-lane halves pooled, the bias row added and the
  result cut at zero, is the pooled first layer at one lane: adding a bias and cutting at zero is monotone, so it
  commutes with taking a maximum.
-/
import proofs.«150178_g2000205257289275_pallasbulk_739_9_alg».proof.Proof.KGroupSpec
import Idealize.ShloMosaic.Lib.ValueLayout
import Mathlib.Algebra.BigOperators.Fin
import Mathlib.Logic.Equiv.Fin.Basic

noncomputable section

open scoped BigOperators

namespace Cert.Cnn

open Idealize.ShloMosaic Idealize.ShloMosaic.ValueIdx

/-! ## The banded product along one image row -/

/-- One row of the image against one tap row of the stencil: summing over the input column with the band's
    condition is summing over the three taps with the zero border's condition. -/
theorem band_inner (ρ : Fin 28 → EReal) (u : Fin 3 → EReal) (v : ℕ) :
    ∑ wi : Fin 28, ρ wi * (if h : v ≤ wi.val + 1 ∧ wi.val ≤ v + 1 then u ⟨wi.val + 1 - v, by omega⟩ else 0)
      = ∑ dx : Fin 3, (if h : 1 ≤ v + dx.val ∧ v + dx.val ≤ 28 then ρ ⟨v + dx.val - 1, by omega⟩ else 0) * u dx := by
  have key : ∀ wi : Fin 28,
      ρ wi * (if h : v ≤ wi.val + 1 ∧ wi.val ≤ v + 1 then u ⟨wi.val + 1 - v, by omega⟩ else 0)
        = ∑ dx : Fin 3, if wi.val + 1 = v + dx.val then ρ wi * u dx else 0 := by
    intro wi
    rw [Fin.sum_univ_three]
    simp only [Fin.val_zero, Fin.val_one, Fin.val_two]
    by_cases h : v ≤ wi.val + 1 ∧ wi.val ≤ v + 1
    · rw [dif_pos h]
      rcases (by omega : wi.val + 1 = v + 0 ∨ wi.val + 1 = v + 1 ∨ wi.val + 1 = v + 2) with e | e | e
      · rw [if_pos e, if_neg (by omega), if_neg (by omega), add_zero, add_zero]
        exact congrArg (fun t => ρ wi * u t) (Fin.ext (by show wi.val + 1 - v = 0; omega))
      · rw [if_neg (by omega), if_pos e, if_neg (by omega), zero_add, add_zero]
        exact congrArg (fun t => ρ wi * u t) (Fin.ext (by show wi.val + 1 - v = 1; omega))
      · rw [if_neg (by omega), if_neg (by omega), if_pos e, zero_add, zero_add]
        exact congrArg (fun t => ρ wi * u t) (Fin.ext (by show wi.val + 1 - v = 2; omega))
    · rw [dif_neg h, mul_zero, if_neg (by omega), if_neg (by omega), if_neg (by omega), add_zero, add_zero]
  rw [Finset.sum_congr rfl fun wi _ => key wi, Finset.sum_comm]
  refine Finset.sum_congr rfl fun dx _ => ?_
  by_cases h : 1 ≤ v + dx.val ∧ v + dx.val ≤ 28
  · rw [dif_pos h, Finset.sum_eq_single (⟨v + dx.val - 1, by omega⟩ : Fin 28)]
    · rw [if_pos (by show v + dx.val - 1 + 1 = v + dx.val; omega)]
    · intro b _ hb
      rw [if_neg]
      intro e
      exact hb (Fin.ext (by show b.val = v + dx.val - 1; omega))
    · intro hn; exact absurd (Finset.mem_univ _) hn
  · rw [dif_neg h, zero_mul]
    refine Finset.sum_eq_zero fun wi _ => ?_
    rw [if_neg]
    have := wi.isLt
    omega

/-- The output column a lane of the banded matrix belongs to. -/
def colOf (l : Fin 512) : ℕ := 2 * (l.val % 256 / 16) + l.val / 256

/-- The channel a lane belongs to. -/
def chOf (l : Fin 512) : Fin 16 := ⟨l.val % 256 % 16, Nat.mod_lt _ (by norm_num)⟩

/-- The banded matrix at row (tap row, input column). -/
theorem T1_at (w : Fin 9 → Fin 16 → EReal) (dy : Fin 3) (wi : Fin 28) (l : Fin 512) (hk : wi.val + 28 * dy.val < 84) :
    T1 w ⟨wi.val + 28 * dy.val, hk⟩ l
      = if l.val % 256 < 224 then
          (if h : colOf l ≤ wi.val + 1 ∧ wi.val ≤ colOf l + 1 then
            w ⟨wi.val + 1 - colOf l + 3 * dy.val, by have := dy.isLt; omega⟩ (chOf l) else 0)
        else 0 := by
  have e1 : (wi.val + 28 * dy.val) % 28 = wi.val := by have := wi.isLt; omega
  have e2 : (wi.val + 28 * dy.val) / 28 = dy.val := by have := wi.isLt; omega
  unfold T1 colOf chOf
  simp only [e1, e2]
  by_cases hl : l.val % 256 < 224
  · rw [if_pos hl]
    by_cases hc : 2 * (l.val % 256 / 16) + l.val / 256 ≤ wi.val + 1 ∧ wi.val ≤ 2 * (l.val % 256 / 16) + l.val / 256 + 1
    · rw [dif_pos ⟨hl, hc.1, hc.2⟩, dif_pos hc]
      exact congrArg (fun t => w t _) (Fin.ext (by simp only []; omega))
    · rw [dif_neg (fun h => hc ⟨h.2.1, h.2.2⟩), dif_neg hc]
  · rw [if_neg hl, dif_neg (fun h => hl h.1)]

/-- Off the lanes in use the banded matrix is zero. -/
theorem T1_idle (w : Fin 9 → Fin 16 → EReal) (k : Fin 84) (l : Fin 512) (hl : ¬ l.val % 256 < 224) : T1 w k l = 0 := by
  unfold T1; rw [dif_neg (fun h => hl h.1)]

/-- The nine taps as three rows of three. -/
theorem conv1_split (img : Fin 28 → Fin 28 → EReal) (w : Fin 9 → Fin 16 → EReal) (h v : ℕ) (c : Fin 16) :
    conv1 img w h v c
      = ∑ dy : Fin 3, ∑ dx : Fin 3, xpad img (h + dy.val) (v + dx.val) * w ⟨dx.val + 3 * dy.val, by have := dy.isLt; have := dx.isLt; omega⟩ c := by
  unfold conv1
  rw [← Equiv.sum_comp (finProdFinEquiv (m := 3) (n := 3)) (fun q : Fin 9 => xpad img (h + q.val / 3) (v + q.val % 3) * w q c),
    Fintype.sum_prod_type]
  refine Finset.sum_congr rfl fun dy _ => Finset.sum_congr rfl fun dx _ => ?_
  have e1 : (dx.val + 3 * dy.val) / 3 = dy.val := by have := dx.isLt; omega
  have e2 : (dx.val + 3 * dy.val) % 3 = dx.val := by have := dx.isLt; omega
  show xpad img (h + (dx.val + 3 * dy.val) / 3) (v + (dx.val + 3 * dy.val) % 3) * w ⟨dx.val + 3 * dy.val, _⟩ c = _
  rw [e1, e2]

/-- Outside the image's rows the padded image is zero. -/
theorem xpad_row_out (img : Fin 28 → Fin 28 → EReal) (i j : ℕ) (hi : ¬ (1 ≤ i ∧ i ≤ 28)) : xpad img i j = 0 := by
  unfold xpad; rw [dif_neg (fun h => hi h.1)]

/-- One image row against one tap row of the banded matrix, on a lane in use: the three taps of that row. -/
theorem band_row (img : Fin 28 → Fin 28 → EReal) (w : Fin 9 → Fin 16 → EReal) (l : Fin 512) (hl : l.val % 256 < 224)
    (i : ℕ) (dy : Fin 3) (hi : 1 ≤ i ∧ i ≤ 28) :
    ∑ wi : Fin 28, img ⟨i - 1, by omega⟩ wi * T1 w ⟨wi.val + 28 * dy.val, by have := wi.isLt; have := dy.isLt; omega⟩ l
      = ∑ dx : Fin 3, xpad img i (colOf l + dx.val) * w ⟨dx.val + 3 * dy.val, by have := dy.isLt; have := dx.isLt; omega⟩ (chOf l) := by
  simp only [T1_at, if_pos hl]
  rw [band_inner (img ⟨i - 1, by omega⟩) (fun dx => w ⟨dx.val + 3 * dy.val, by have := dy.isLt; have := dx.isLt; omega⟩ (chOf l)) (colOf l)]
  refine Finset.sum_congr rfl fun dx _ => ?_
  unfold xpad
  by_cases hc : 1 ≤ colOf l + dx.val ∧ colOf l + dx.val ≤ 28
  · rw [dif_pos hc, dif_pos ⟨hi, hc⟩]
  · rw [dif_neg hc, dif_neg (fun h => hc h.2)]

/-- The value a lane of one convolution row holds: the convolution at that row, the lane's column and channel, and
    zero on the idle lanes. -/
def rowSpec (img : Fin 28 → Fin 28 → EReal) (w : Fin 9 → Fin 16 → EReal) (h : ℕ) (l : Fin 512) : EReal :=
  if l.val % 256 < 224 then conv1 img w h (colOf l) (chOf l) else 0

/-- AN INTERIOR ROW: the 84 lanes from 28 i (image rows i, i + 1, i + 2) against the whole banded matrix give
    output row i + 1. -/
theorem window_mid (x : (⟨2, ![256, 784]⟩ : Shape).Idx → EReal) (w : Fin 9 → Fin 16 → EReal) (r : Fin 256) (l : Fin 512)
    (i : ℕ) (hi : i ≤ 25) :
    ∑ k : Fin 84, x (ix2 r ⟨28 * i + k.val, by have := k.isLt; omega⟩) * T1 w k l = rowSpec (rowImg x r) w (i + 1) l := by
  unfold rowSpec
  by_cases hl : l.val % 256 < 224
  · rw [if_pos hl, conv1_split,
      ← Equiv.sum_comp (finProdFinEquiv (m := 3) (n := 28))
        (fun k : Fin 84 => x (ix2 r ⟨28 * i + k.val, by have := k.isLt; omega⟩) * T1 w k l),
      Fintype.sum_prod_type]
    refine Finset.sum_congr rfl fun dy _ => ?_
    have hd := dy.isLt
    rw [← band_row (rowImg x r) w l hl (i + 1 + dy.val) dy ⟨by omega, by omega⟩]
    refine Finset.sum_congr rfl fun wi _ => ?_
    have hw := wi.isLt
    refine congrArg (· * _) ?_
    show x (ix2 r ⟨28 * i + (wi.val + 28 * dy.val), _⟩) = x (ix2 r ⟨28 * (i + 1 + dy.val - 1) + wi.val, _⟩)
    exact congrArg (fun t => x (ix2 r t)) (Fin.ext (by show 28 * i + (wi.val + 28 * dy.val) = 28 * (i + 1 + dy.val - 1) + wi.val; omega))
  · rw [if_neg hl]
    exact Finset.sum_eq_zero fun k _ => by rw [T1_idle w k l hl, mul_zero]

/-- THE TOP ROW: the first 56 lanes (image rows 0, 1) against the banded matrix's last 56 rows (tap rows 1, 2) give
    output row 0; the tap row above the image meets the zero border. -/
theorem window_top (x : (⟨2, ![256, 784]⟩ : Shape).Idx → EReal) (w : Fin 9 → Fin 16 → EReal) (r : Fin 256) (l : Fin 512) :
    ∑ k : Fin 56, x (ix2 r ⟨k.val, by have := k.isLt; omega⟩) * T1 w ⟨28 + k.val, by have := k.isLt; omega⟩ l
      = rowSpec (rowImg x r) w 0 l := by
  unfold rowSpec
  by_cases hl : l.val % 256 < 224
  · have hz : ∑ dx : Fin 3, xpad (rowImg x r) (0 + (0 : Fin 3).val) (colOf l + dx.val)
        * w ⟨dx.val + 3 * (0 : Fin 3).val, by have := dx.isLt; simp only [Fin.val_zero]; omega⟩ (chOf l) = 0 :=
      Finset.sum_eq_zero fun dx _ => by rw [xpad_row_out _ _ _ (by simp), zero_mul]
    rw [if_pos hl, conv1_split]
    conv_rhs => rw [Fin.sum_univ_succ]
    rw [hz, zero_add,
      ← Equiv.sum_comp (finProdFinEquiv (m := 2) (n := 28))
        (fun k : Fin 56 => x (ix2 r ⟨k.val, by have := k.isLt; omega⟩) * T1 w ⟨28 + k.val, by have := k.isLt; omega⟩ l),
      Fintype.sum_prod_type]
    refine Finset.sum_congr rfl fun dy _ => ?_
    have hd := dy.isLt
    have hs : dy.succ.val = dy.val + 1 := Fin.val_succ dy
    rw [← band_row (rowImg x r) w l hl (0 + dy.succ.val) dy.succ ⟨by omega, by omega⟩]
    refine Finset.sum_congr rfl fun wi _ => ?_
    have hw := wi.isLt
    show x (ix2 r ⟨wi.val + 28 * dy.val, _⟩) * T1 w ⟨28 + (wi.val + 28 * dy.val), _⟩ l
      = x (ix2 r ⟨28 * (0 + dy.succ.val - 1) + wi.val, _⟩) * T1 w ⟨wi.val + 28 * dy.succ.val, _⟩ l
    rw [show (⟨wi.val + 28 * dy.val, by omega⟩ : Fin 784) = ⟨28 * (0 + dy.succ.val - 1) + wi.val, by omega⟩ from Fin.ext (by simp only []; omega),
      show (⟨28 + (wi.val + 28 * dy.val), by omega⟩ : Fin 84) = ⟨wi.val + 28 * dy.succ.val, by omega⟩ from Fin.ext (by simp only []; omega)]
  · rw [if_neg hl]
    exact Finset.sum_eq_zero fun k _ => by rw [T1_idle w _ l hl, mul_zero]

/-- THE BOTTOM ROW: the last 56 lanes (image rows 26, 27) against the banded matrix's first 56 rows (tap rows 0, 1)
    give output row 27; the tap row below the image meets the zero border. -/
theorem window_bot (x : (⟨2, ![256, 784]⟩ : Shape).Idx → EReal) (w : Fin 9 → Fin 16 → EReal) (r : Fin 256) (l : Fin 512) :
    ∑ k : Fin 56, x (ix2 r ⟨728 + k.val, by have := k.isLt; omega⟩) * T1 w ⟨k.val, by have := k.isLt; omega⟩ l
      = rowSpec (rowImg x r) w 27 l := by
  unfold rowSpec
  by_cases hl : l.val % 256 < 224
  · have hz : ∑ dx : Fin 3, xpad (rowImg x r) (27 + (Fin.last 2).val) (colOf l + dx.val)
        * w ⟨dx.val + 3 * (Fin.last 2).val, by have := dx.isLt; simp only [Fin.val_last]; omega⟩ (chOf l) = 0 :=
      Finset.sum_eq_zero fun dx _ => by rw [xpad_row_out _ _ _ (by simp), zero_mul]
    rw [if_pos hl, conv1_split]
    conv_rhs => rw [Fin.sum_univ_castSucc]
    rw [hz, add_zero,
      ← Equiv.sum_comp (finProdFinEquiv (m := 2) (n := 28))
        (fun k : Fin 56 => x (ix2 r ⟨728 + k.val, by have := k.isLt; omega⟩) * T1 w ⟨k.val, by have := k.isLt; omega⟩ l),
      Fintype.sum_prod_type]
    refine Finset.sum_congr rfl fun dy _ => ?_
    have hd := dy.isLt
    have hs : dy.castSucc.val = dy.val := Fin.val_castSucc dy
    rw [← band_row (rowImg x r) w l hl (27 + dy.castSucc.val) dy.castSucc ⟨by omega, by omega⟩]
    refine Finset.sum_congr rfl fun wi _ => ?_
    have hw := wi.isLt
    show x (ix2 r ⟨728 + (wi.val + 28 * dy.val), _⟩) * T1 w ⟨wi.val + 28 * dy.val, _⟩ l
      = x (ix2 r ⟨28 * (27 + dy.castSucc.val - 1) + wi.val, _⟩) * T1 w ⟨wi.val + 28 * dy.castSucc.val, _⟩ l
    rw [show (⟨728 + (wi.val + 28 * dy.val), by omega⟩ : Fin 784) = ⟨28 * (27 + dy.castSucc.val - 1) + wi.val, by omega⟩ from Fin.ext (by simp only []; omega),
      show (⟨wi.val + 28 * dy.val, by omega⟩ : Fin 84) = ⟨wi.val + 28 * dy.castSucc.val, by omega⟩ from Fin.ext (by simp only []; omega)]
  · rw [if_neg hl]
    exact Finset.sum_eq_zero fun k _ => by rw [T1_idle w _ l hl, mul_zero]

/-! ## Two rows pooled, biased and cut at zero -/

/-- Adding a bias and cutting at zero is monotone, so it goes inside a maximum. -/
theorem relu_max (a a' b : EReal) : max (max a a' + b) 0 = max (max (a + b) 0) (max (a' + b) 0) := by
  rcases le_total a a' with h | h
  · rw [max_eq_right h, max_eq_right (max_le_max (add_le_add h le_rfl) le_rfl)]
  · rw [max_eq_left h, max_eq_left (max_le_max (add_le_add h le_rfl) le_rfl)]

/-- The same over the four entries of a 2 × 2 square. -/
theorem relu_max4 (a1 a2 a3 a4 b : EReal) :
    max (max (max a1 a2) (max a3 a4) + b) 0
      = max (max (max (a1 + b) 0) (max (a2 + b) 0)) (max (max (a3 + b) 0) (max (a4 + b) 0)) := by
  rw [relu_max, relu_max, relu_max]

/-- A lane of the first half of a convolution row: an even output column. -/
theorem rowSpec_even (img : Fin 28 → Fin 28 → EReal) (w : Fin 9 → Fin 16 → EReal) (h : ℕ) (p : Fin 256) (hp : p.val < 224) :
    rowSpec img w h ⟨p.val, by have := p.isLt; omega⟩ = conv1 img w h (2 * (p.val / 16)) ⟨p.val % 16, Nat.mod_lt _ (by norm_num)⟩ := by
  have e1 : p.val % 256 = p.val := Nat.mod_eq_of_lt p.isLt
  have e2 : p.val / 256 = 0 := Nat.div_eq_of_lt p.isLt
  unfold rowSpec colOf chOf
  simp only [e1, e2, if_pos hp, Nat.add_zero]

/-- A lane of the second half: an odd output column. -/
theorem rowSpec_odd (img : Fin 28 → Fin 28 → EReal) (w : Fin 9 → Fin 16 → EReal) (h : ℕ) (p : Fin 256) (hp : p.val < 224) :
    rowSpec img w h ⟨256 + p.val, by have := p.isLt; omega⟩ = conv1 img w h (2 * (p.val / 16) + 1) ⟨p.val % 16, Nat.mod_lt _ (by norm_num)⟩ := by
  have e1 : (256 + p.val) % 256 = p.val := by have := p.isLt; omega
  have e2 : (256 + p.val) / 256 = 1 := by have := p.isLt; omega
  unfold rowSpec colOf chOf
  simp only [e1, e2, if_pos hp]

/-- An idle lane of a convolution row is zero. -/
theorem rowSpec_idle (img : Fin 28 → Fin 28 → EReal) (w : Fin 9 → Fin 16 → EReal) (h : ℕ) (l : Fin 512) (hl : ¬ l.val % 256 < 224) :
    rowSpec img w h l = 0 := by
  unfold rowSpec; rw [if_neg hl]

/-- TWO CONSECUTIVE ROWS POOLED: the larger of rows 2i and 2i + 1, then of the two halves, plus the bias row, cut at
    zero, is lane p of pooled row i. -/
theorem pool_lane (img : Fin 28 → Fin 28 → EReal) (w : Fin 9 → Fin 16 → EReal) (b : Fin 16 → EReal) (i : ℕ) (p : Fin 256) :
    max (max (max (rowSpec img w (2 * i) ⟨p.val, by have := p.isLt; omega⟩) (rowSpec img w (2 * i + 1) ⟨p.val, by have := p.isLt; omega⟩))
        (max (rowSpec img w (2 * i) ⟨256 + p.val, by have := p.isLt; omega⟩) (rowSpec img w (2 * i + 1) ⟨256 + p.val, by have := p.isLt; omega⟩))
        + B1 b p) 0
      = grpSpec img w b i p := by
  unfold grpSpec B1
  by_cases hp : p.val < 224
  · rw [if_pos hp, if_pos hp, rowSpec_even _ _ _ _ hp, rowSpec_even _ _ _ _ hp, rowSpec_odd _ _ _ _ hp, rowSpec_odd _ _ _ _ hp,
      relu_max4]
    rfl
  · have hq : ∀ q : Fin 512, q.val % 256 = p.val → ¬ q.val % 256 < 224 := fun q hq => by rw [hq]; exact hp
    rw [if_neg hp, if_neg hp, rowSpec_idle _ _ _ _ (hq _ (Nat.mod_eq_of_lt p.isLt)), rowSpec_idle _ _ _ _ (hq _ (Nat.mod_eq_of_lt p.isLt)),
      rowSpec_idle _ _ _ _ (hq _ (by have := p.isLt; show (256 + p.val) % 256 = p.val; omega)),
      rowSpec_idle _ _ _ _ (hq _ (by have := p.isLt; show (256 + p.val) % 256 = p.val; omega))]
    simp

end Cert.Cnn

end
-- ==== Proof.KGroups.lean ====
/-
  The first layer of the fused kernel, group by group, read at a lane.

  Each of the fourteen groups is built the same way: two matrix products of a window of the image block's lanes with
  the banded matrix (one per output row of the convolution), the larger of the two, the larger of its two 256-lane
  halves, the bias row added, the cut at zero. A matrix product into a zero accumulator is, at an entry, the sum over
  the contracted coordinate of the products of the operands' entries; a window is a slice, read at the shifted lane;
  with the banded matrix's closed form that sum is one row of the convolution, and two such rows pooled are one lane of
  the pooled first layer. The first group's first row and the last group's second row use the 56-lane windows at the
  image's edges; the last group is left before its cut at zero.
-/
import proofs.«150178_g2000205257289275_pallasbulk_739_9_alg».proof.Proof.KBodyTerm
import proofs.«150178_g2000205257289275_pallasbulk_739_9_alg».proof.Proof.KGroupsA
import Idealize.ShloMosaic.Lib.ValueLayout
import Idealize.ShloMosaic.PureOps.Ideal.Laws

noncomputable section

open scoped BigOperators

namespace Cert.KernelIdeal.Hand

open Cert.Cnn Idealize.ShloMosaic Idealize.ShloMosaic.ValueIdx Cert.KernelIdeal Cert.KernelIdeal.Gen

/-! ## A matrix product read at an entry -/

/-- A plain matrix product into the zero accumulator, read at an entry: the sum over the contracted coordinate. -/
theorem matmul_zero_ix2 {m k n : ℕ} {φ₁ φ₂ : FTy}
    (wf : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], wf⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The loaded blocks as the body reads them -/

/-- The image block narrowed to the matrix unit's format: the same extended reals. -/
theorem pay2_apply (x : Vec Ideal S256x784 .f32) (r : Fin 256) (c : Fin 784) : k0_pay2 x (ix2 r c) = x (ix2 r c) := by
  unfold k0_pay2
  rw [truncf_apply, shapeCast_self]

/-- The banded matrix as loaded. -/
theorem pay5_eq (t1 : Vec Ideal S84x512 .bf16) : k0_pay5 t1 = t1 := by
  unfold k0_pay5; exact shapeCast_self _ _

/-- The bias row as loaded. -/
theorem pay3_eq (b1 : Vec Ideal S1x256 .f32) : k0_pay3 b1 = b1 := by
  unfold k0_pay3; exact shapeCast_self _ _

/-! ## One convolution row as a matrix product -/

/-- A window of 84 lanes from lane `o` against the banded matrix. -/
def mm84 (x2 : FVec Ideal S256x784 .bf16) (t : FVec Ideal S84x512 .bf16) (o : ℕ) (hs : S256x784.Slices ![0, o] S256x84) :
    FVec Ideal S256x512 .f32 :=
  matmul dot_S256x84_S84x512_S256x512_1_0_0_1_n_n none (extractStridedSlice S256x84 ![0, o] x2 hs) t
    (constant (F := Ideal) S256x512 .f32 0x00000000#32)

theorem mm84_apply (x : Vec Ideal S256x784 .f32) (t1 : Vec Ideal S84x512 .bf16) (o : ℕ) (hs : S256x784.Slices ![0, o] S256x84)
    (ho : o + 84 ≤ 784) (r : Fin 256) (l : Fin 512) :
    mm84 (k0_pay2 x) (k0_pay5 t1) o hs (ix2 r l)
      = ∑ k : Fin 84, x (ix2 r ⟨o + k.val, by have := k.isLt; omega⟩) * t1 (ix2 k l) := by
  unfold mm84
  refine (matmul_zero_ix2 (m := 256) (k := 84) (n := 512) _ _ _ r l).trans ?_
  refine Finset.sum_congr rfl fun k _ => ?_
  rw [slice2_axis1_eq, pay2_apply, pay5_eq]

/-- A window of 56 lanes from lane `o` against 56 rows of the banded matrix from row `q`. -/
def mm56 (x2 : FVec Ideal S256x784 .bf16) (t : FVec Ideal S84x512 .bf16) (o : ℕ) (hs : S256x784.Slices ![0, o] S256x56)
    (q : ℕ) (ht : S84x512.Slices ![q, 0] S56x512) : FVec Ideal S256x512 .f32 :=
  matmul dot_S256x56_S56x512_S256x512_1_0_0_1_n_n none (extractStridedSlice S256x56 ![0, o] x2 hs)
    (extractStridedSlice S56x512 ![q, 0] t ht) (constant (F := Ideal) S256x512 .f32 0x00000000#32)

theorem mm56_apply (x : Vec Ideal S256x784 .f32) (t1 : Vec Ideal S84x512 .bf16) (o : ℕ) (hs : S256x784.Slices ![0, o] S256x56)
    (q : ℕ) (ht : S84x512.Slices ![q, 0] S56x512) (ho : o + 56 ≤ 784) (hq : q + 56 ≤ 84) (r : Fin 256) (l : Fin 512) :
    mm56 (k0_pay2 x) (k0_pay5 t1) o hs q ht (ix2 r l)
      = ∑ k : Fin 56, x (ix2 r ⟨o + k.val, by have := k.isLt; omega⟩) * t1 (ix2 ⟨q + k.val, by have := k.isLt; omega⟩ l) := by
  unfold mm56
  refine (matmul_zero_ix2 (m := 256) (k := 56) (n := 512) _ _ _ r l).trans ?_
  refine Finset.sum_congr rfl fun k _ => ?_
  rw [slice2_axis1_eq, slice2_axis0_eq, pay2_apply, pay5_eq]

/-! ## Two rows pooled -/

/-- The larger of two row results, then of its two 256-lane halves, plus the bias row. -/
def pooled (A B : FVec Ideal S256x512 .f32) (bv : FVec Ideal S1x256 .f32) : FVec Ideal S256x256 .f32 :=
  addf (maximumf (extractStridedSlice S256x256 ![0, 0] (maximumf A B) slices_S256x512_o0_0_S256x256)
      (extractStridedSlice S256x256 ![0, 256] (maximumf A B) slices_S256x512_o0_256_S256x256))
    (broadcastTo S256x256 bv broadcasts_S1x256_S256x256)

theorem pooled_apply (A B : FVec Ideal S256x512 .f32) (bv : FVec Ideal S1x256 .f32) (r p : Fin 256) :
    pooled A B bv (ix2 r p)
      = max (max (A (ix2 r ⟨p.val, by have := p.isLt; omega⟩)) (B (ix2 r ⟨p.val, by have := p.isLt; omega⟩)))
          (max (A (ix2 r ⟨256 + p.val, by have := p.isLt; omega⟩)) (B (ix2 r ⟨256 + p.val, by have := p.isLt; omega⟩)))
        + bv (ix2 (0 : Fin 1) p) := by
  unfold pooled
  have e0 := slice2_axis1_apply 0 (maximumf A B) slices_S256x512_o0_0_S256x256 r p ⟨p.val, by have := p.isLt; omega⟩
    (Nat.zero_add _).symm
  have e1 := slice2_axis1_apply 256 (maximumf A B) slices_S256x512_o0_256_S256x256 r p ⟨256 + p.val, by have := p.isLt; omega⟩ rfl
  rw [addf_apply, maximumf_apply, broadcastTo_1b_ab_apply, e0, e1, maximumf_apply, maximumf_apply]

/-- The cut at zero, in the matrix unit's format. -/
def cut (v : FVec Ideal S256x256 .f32) : FVec Ideal S256x256 .bf16 :=
  truncf .bf16 (maximumf v (broadcast S256x256 (Scalar.ofBits .f32 0x00000000#32))) bitsLt_bf16_f32

theorem cut_apply (v : FVec Ideal S256x256 .f32) (j : S256x256.Idx) : cut v j = max (v j) 0 := by
  unfold cut
  rw [truncf_apply, maximumf_apply, broadcast_apply]
  show max (v j) (Ideal.ofBits .f32 0x00000000#32) = _
  rw [Ideal.ofBits_zero_f32]

/-! ## The fourteen groups -/

section Groups

variable (x : Vec Ideal S256x784 .f32) (t1 : Vec Ideal S84x512 .bf16) (b1 : Vec Ideal S1x256 .f32)
  (w : Fin 9 → Fin 16 → EReal) (b : Fin 16 → EReal)
  (ht1 : ∀ (k : Fin 84) (l : Fin 512), t1 (ix2 k l) = T1 w k l) (hb1 : ∀ l : Fin 256, b1 (ix2 (0 : Fin 1) l) = B1 b l)
  (r : Fin 256) (p : Fin 256)

include ht1 in
/-- An interior window: lanes from 28 i give output row i + 1. -/
theorem mm84_row (i : ℕ) (hi : i ≤ 25) (o : ℕ) (hs : S256x784.Slices ![0, o] S256x84) (ho : o = 28 * i) (l : Fin 512) :
    mm84 (k0_pay2 x) (k0_pay5 t1) o hs (ix2 r l) = rowSpec (rowImg x r) w (i + 1) l := by
  subst ho
  rw [mm84_apply x t1 _ hs (by omega) r l]
  simp only [ht1]
  exact window_mid x w r l i hi

include ht1 in
/-- The top window: the first 56 lanes against the matrix's last 56 rows give output row 0. -/
theorem mm56_top (hs : S256x784.Slices ![0, 0] S256x56) (ht : S84x512.Slices ![28, 0] S56x512) (l : Fin 512) :
    mm56 (k0_pay2 x) (k0_pay5 t1) 0 hs 28 ht (ix2 r l) = rowSpec (rowImg x r) w 0 l := by
  rw [mm56_apply x t1 0 hs 28 ht (by norm_num) (by norm_num) r l]
  simp only [ht1, Nat.zero_add]
  exact window_top x w r l

include ht1 in
/-- The bottom window: the last 56 lanes against the matrix's first 56 rows give output row 27. -/
theorem mm56_bot (hs : S256x784.Slices ![0, 728] S256x56) (ht : S84x512.Slices ![0, 0] S56x512) (l : Fin 512) :
    mm56 (k0_pay2 x) (k0_pay5 t1) 728 hs 0 ht (ix2 r l) = rowSpec (rowImg x r) w 27 l := by
  rw [mm56_apply x t1 728 hs 0 ht (by norm_num) (by norm_num) r l]
  simp only [ht1, Nat.zero_add]
  exact window_bot x w r l

include hb1 in
/-- Two rows' results pooled, biased and cut at zero: one lane of the pooled first layer. -/
theorem cut_pooled_lane (A B : FVec Ideal S256x512 .f32) (i : ℕ)
    (hA : ∀ l, A (ix2 r l) = rowSpec (rowImg x r) w (2 * i) l) (hB : ∀ l, B (ix2 r l) = rowSpec (rowImg x r) w (2 * i + 1) l) :
    max (pooled A B (k0_pay3 b1) (ix2 r p)) 0 = grpSpec (rowImg x r) w b i p := by
  rw [pooled_apply, hA, hA, hB, hB, pay3_eq, hb1]
  exact pool_lane (rowImg x r) w b i p

include ht1 hb1 in
/-- An interior group: windows from lanes 28 (2i − 1) and 28 · 2i give pooled row i. -/
theorem mid_group (i : ℕ) (hi : 1 ≤ i ∧ i ≤ 12) (o1 o2 : ℕ) (hs1 : S256x784.Slices ![0, o1] S256x84)
    (hs2 : S256x784.Slices ![0, o2] S256x84) (ho1 : o1 = 28 * (2 * i - 1)) (ho2 : o2 = 28 * (2 * i)) :
    cut (pooled (mm84 (k0_pay2 x) (k0_pay5 t1) o1 hs1) (mm84 (k0_pay2 x) (k0_pay5 t1) o2 hs2) (k0_pay3 b1)) (ix2 r p)
      = grpSpec (rowImg x r) w b i p := by
  rw [cut_apply]
  refine cut_pooled_lane x b1 w b hb1 r p _ _ i (fun l => ?_) (fun l => ?_)
  · rw [mm84_row x t1 w ht1 r (2 * i - 1) (by omega) o1 hs1 ho1 l, show 2 * i - 1 + 1 = 2 * i by omega]
  · exact mm84_row x t1 w ht1 r (2 * i) (by omega) o2 hs2 ho2 l

include ht1 hb1 in
/-- Group 0: output rows 0 (the top window) and 1. -/
theorem grp0_apply : grp0 (F := Ideal) x t1 b1 (ix2 r p) = grpSpec (rowImg x r) w b 0 p := by
  show cut (pooled (mm56 (k0_pay2 x) (k0_pay5 t1) 0 slices_S256x784_o0_0_S256x56 28 slices_S84x512_o28_0_S56x512)
    (mm84 (k0_pay2 x) (k0_pay5 t1) 0 slices_S256x784_o0_0_S256x84) (k0_pay3 b1)) (ix2 r p) = _
  rw [cut_apply]
  exact cut_pooled_lane x b1 w b hb1 r p _ _ 0 (fun l => mm56_top x t1 w ht1 r _ _ l)
    (fun l => mm84_row x t1 w ht1 r 0 (by norm_num) 0 _ rfl l)

include ht1 hb1

/-- Group 1: output rows 2 and 3 (windows from lanes 28 and 56). -/
theorem grp1_apply : grp1 (F := Ideal) x t1 b1 (ix2 r p) = grpSpec (rowImg x r) w b 1 p :=
  mid_group x t1 b1 w b ht1 hb1 r p 1 (by norm_num) 28 56 slices_S256x784_o0_28_S256x84 slices_S256x784_o0_56_S256x84 rfl rfl

/-- Group 2: output rows 4 and 5 (windows from lanes 84 and 112). -/
theorem grp2_apply : grp2 (F := Ideal) x t1 b1 (ix2 r p) = grpSpec (rowImg x r) w b 2 p :=
  mid_group x t1 b1 w b ht1 hb1 r p 2 (by norm_num) 84 112 slices_S256x784_o0_84_S256x84 slices_S256x784_o0_112_S256x84 rfl rfl

/-- Group 3: output rows 6 and 7 (windows from lanes 140 and 168). -/
theorem grp3_apply : grp3 (F := Ideal) x t1 b1 (ix2 r p) = grpSpec (rowImg x r) w b 3 p :=
  mid_group x t1 b1 w b ht1 hb1 r p 3 (by norm_num) 140 168 slices_S256x784_o0_140_S256x84 slices_S256x784_o0_168_S256x84 rfl rfl

/-- Group 4: output rows 8 and 9 (windows from lanes 196 and 224). -/
theorem grp4_apply : grp4 (F := Ideal) x t1 b1 (ix2 r p) = grpSpec (rowImg x r) w b 4 p :=
  mid_group x t1 b1 w b ht1 hb1 r p 4 (by norm_num) 196 224 slices_S256x784_o0_196_S256x84 slices_S256x784_o0_224_S256x84 rfl rfl

/-- Group 5: output rows 10 and 11 (windows from lanes 252 and 280). -/
theorem grp5_apply : grp5 (F := Ideal) x t1 b1 (ix2 r p) = grpSpec (rowImg x r) w b 5 p :=
  mid_group x t1 b1 w b ht1 hb1 r p 5 (by norm_num) 252 280 slices_S256x784_o0_252_S256x84 slices_S256x784_o0_280_S256x84 rfl rfl

/-- Group 6: output rows 12 and 13 (windows from lanes 308 and 336). -/
theorem grp6_apply : grp6 (F := Ideal) x t1 b1 (ix2 r p) = grpSpec (rowImg x r) w b 6 p :=
  mid_group x t1 b1 w b ht1 hb1 r p 6 (by norm_num) 308 336 slices_S256x784_o0_308_S256x84 slices_S256x784_o0_336_S256x84 rfl rfl

/-- Group 7: output rows 14 and 15 (windows from lanes 364 and 392). -/
theorem grp7_apply : grp7 (F := Ideal) x t1 b1 (ix2 r p) = grpSpec (rowImg x r) w b 7 p :=
  mid_group x t1 b1 w b ht1 hb1 r p 7 (by norm_num) 364 392 slices_S256x784_o0_364_S256x84 slices_S256x784_o0_392_S256x84 rfl rfl

/-- Group 8: output rows 16 and 17 (windows from lanes 420 and 448). -/
theorem grp8_apply : grp8 (F := Ideal) x t1 b1 (ix2 r p) = grpSpec (rowImg x r) w b 8 p :=
  mid_group x t1 b1 w b ht1 hb1 r p 8 (by norm_num) 420 448 slices_S256x784_o0_420_S256x84 slices_S256x784_o0_448_S256x84 rfl rfl

/-- Group 9: output rows 18 and 19 (windows from lanes 476 and 504). -/
theorem grp9_apply : grp9 (F := Ideal) x t1 b1 (ix2 r p) = grpSpec (rowImg x r) w b 9 p :=
  mid_group x t1 b1 w b ht1 hb1 r p 9 (by norm_num) 476 504 slices_S256x784_o0_476_S256x84 slices_S256x784_o0_504_S256x84 rfl rfl

/-- Group 10: output rows 20 and 21 (windows from lanes 532 and 560). -/
theorem grp10_apply : grp10 (F := Ideal) x t1 b1 (ix2 r p) = grpSpec (rowImg x r) w b 10 p :=
  mid_group x t1 b1 w b ht1 hb1 r p 10 (by norm_num) 532 560 slices_S256x784_o0_532_S256x84 slices_S256x784_o0_560_S256x84 rfl rfl

/-- Group 11: output rows 22 and 23 (windows from lanes 588 and 616). -/
theorem grp11_apply : grp11 (F := Ideal) x t1 b1 (ix2 r p) = grpSpec (rowImg x r) w b 11 p :=
  mid_group x t1 b1 w b ht1 hb1 r p 11 (by norm_num) 588 616 slices_S256x784_o0_588_S256x84 slices_S256x784_o0_616_S256x84 rfl rfl

/-- Group 12: output rows 24 and 25 (windows from lanes 644 and 672). -/
theorem grp12_apply : grp12 (F := Ideal) x t1 b1 (ix2 r p) = grpSpec (rowImg x r) w b 12 p :=
  mid_group x t1 b1 w b ht1 hb1 r p 12 (by norm_num) 644 672 slices_S256x784_o0_644_S256x84 slices_S256x784_o0_672_S256x84 rfl rfl

/-- Group 13: output rows 26 and 27 (the bottom window), before its cut at zero. -/
theorem grp13_apply : max (grp13 (F := Ideal) x t1 b1 (ix2 r p)) 0 = grpSpec (rowImg x r) w b 13 p := by
  show max (pooled (mm84 (k0_pay2 x) (k0_pay5 t1) 700 slices_S256x784_o0_700_S256x84)
    (mm56 (k0_pay2 x) (k0_pay5 t1) 728 slices_S256x784_o0_728_S256x56 0 slices_S84x512_o0_0_S56x512) (k0_pay3 b1) (ix2 r p)) 0 = _
  exact cut_pooled_lane x b1 w b hb1 r p _ _ 13 (fun l => mm84_row x t1 w ht1 r 25 (by norm_num) 700 _ rfl l)
    (fun l => mm56_bot x t1 w ht1 r _ _ l)

end Groups

end Cert.KernelIdeal.Hand

end
-- ==== Proof.KPacked.lean ====
/-
  The packing of the fused kernel's fourteen first-layer groups.

  The kernel lays sixteen [256, 256] pieces side by side along the lanes: a zero piece, the thirteen groups that
  are already cut at zero, the fourteenth group cut at zero on the spot, and a zero piece.  Lane `L` of the result
  therefore reads piece `L / 256` at lane `L % 256`.  If, for one image (one row `r` of the block), group `i` holds
  pooled row `i` of the first layer — column pair `jj` and channel `c` at lane `16 jj + c`, the last 32 lanes
  zero —, then the sixteen pieces hold the pooled array WITH ITS ZERO BORDER, padded row `L / 256`: the two zero
  pieces are the border rows, and the border columns are supplied by the reader, which shifts by one column.
-/
import proofs.«150178_g2000205257289275_pallasbulk_739_9_alg».proof.Proof.KBodyTerm
import proofs.«150178_g2000205257289275_pallasbulk_739_9_alg».proof.Proof.KGroupSpec
import Idealize.ShloMosaic.Lib.Pipeline.Value
import Idealize.ShloMosaic.Lib.ValueIdx
import Idealize.ShloMosaic.PureOps.Ideal.Laws

noncomputable section

namespace Cert.KernelIdeal.Hand

open Cert.Cnn Idealize.ShloMosaic Idealize.ShloMosaic.ValueIdx Cert.KernelIdeal Cert.KernelIdeal.Gen

/-- The bf16 zero word denotes zero. -/
theorem ofBits_zero_bf16 : Ideal.ofBits .bf16 0x0000#16 = 0 := by simp [Ideal.ofBits, Ideal.ieee]

/-- The zero piece: the bf16 zero word in every lane. -/
def zeroPiece : FVec Ideal S256x256 .bf16 := broadcast S256x256 (Scalar.ofBits (F := Ideal) .bf16 0x0000#16)

/-- The fourteenth group as it is packed: cut at zero, then narrowed (the identity on extended reals). -/
def cutPiece (g13 : FVec Ideal S256x256 .f32) : FVec Ideal S256x256 .bf16 :=
  truncf .bf16 (maximumf g13 (broadcast S256x256 (Scalar.ofBits (F := Ideal) .f32 0x00000000#32))) bitsLt_bf16_f32

theorem zeroPiece_apply (j : S256x256.Idx) : zeroPiece j = 0 := ofBits_zero_bf16

theorem cutPiece_apply (g13 : FVec Ideal S256x256 .f32) (j : S256x256.Idx) : cutPiece g13 j = max (g13 j) 0 := by
  show max (g13 j) (Ideal.ofBits .f32 0x00000000#32) = max (g13 j) 0
  rw [Ideal.ofBits_zero_f32]

/-- The sixteen pieces in lane order. -/
def pieces (g0 g1 g2 g3 g4 g5 g6 g7 g8 g9 g10 g11 g12 : FVec Ideal S256x256 .bf16) (g13 : FVec Ideal S256x256 .f32) :
    Fin 16 → (S256x256.Idx → Ideal .bf16) :=
  ![zeroPiece, g0, g1, g2, g3, g4, g5, g6, g7, g8, g9, g10, g11, g12, cutPiece g13, zeroPiece]

/-- The packed value is the concatenation of the sixteen pieces along the lanes. -/
theorem packed_eq (g0 g1 g2 g3 g4 g5 g6 g7 g8 g9 g10 g11 g12 : FVec Ideal S256x256 .bf16) (g13 : FVec Ideal S256x256 .f32) :
    packed (F := Ideal) g0 g1 g2 g3 g4 g5 g6 g7 g8 g9 g10 g11 g12 g13
      = concatenate S256x4096 1 (List.ofFn fun n : Fin 16 =>
          (⟨S256x256, pieces g0 g1 g2 g3 g4 g5 g6 g7 g8 g9 g10 g11 g12 g13 n⟩ : (s : Shape) × (s.Idx → Ideal .bf16)))
        concatenates_S256x256_S256x256_S256x256_S256x256_S256x256_S256x256_S256x256_S256x256_S256x256_S256x256_S256x256_S256x256_S256x256_S256x256_S256x256_S256x256_S256x4096_d1 :=
  rfl

/-- The packed value at lane `L` of row `r`: piece `L / 256` at lane `L % 256` of the same row. -/
theorem packed_lane (g0 g1 g2 g3 g4 g5 g6 g7 g8 g9 g10 g11 g12 : FVec Ideal S256x256 .bf16) (g13 : FVec Ideal S256x256 .f32)
    (r : Fin 256) (L : Fin 4096) :
    packed (F := Ideal) g0 g1 g2 g3 g4 g5 g6 g7 g8 g9 g10 g11 g12 g13 (ix2 r L)
      = pieces g0 g1 g2 g3 g4 g5 g6 g7 g8 g9 g10 g11 g12 g13 ⟨L.val / 256, by have := L.isLt; omega⟩
          (ix2 r ⟨L.val % 256, Nat.mod_lt _ (by norm_num)⟩) := by
  rw [packed_eq]
  refine concatenate_ofFn_apply (t := S256x4096) (s₁ := S256x256) 1 (pieces g0 g1 g2 g3 g4 g5 g6 g7 g8 g9 g10 g11 g12 g13) _ rfl 256 rfl
    (ix2 r L) ⟨L.val / 256, by have := L.isLt; omega⟩ rfl (ix2 r ⟨L.val % 256, Nat.mod_lt _ (by norm_num)⟩) rfl ?_
  -- off the lane axis there is only the row axis, and both indices have row `r`
  intro a ha
  have ha0 : a = ⟨0, by decide⟩ := by
    apply Fin.ext
    have hlt : a.val < 2 := a.isLt
    have hne : a.val ≠ 1 := fun e => ha (Fin.ext e)
    show a.val = 0
    omega
  subst ha0
  rfl

/-- What piece `n` holds in row `r`, given what the fourteen groups hold there: pieces 1 … 14 are the groups
    0 … 13, the two outer pieces are zero. -/
theorem pieces_row (g0 g1 g2 g3 g4 g5 g6 g7 g8 g9 g10 g11 g12 : FVec Ideal S256x256 .bf16) (g13 : FVec Ideal S256x256 .f32)
    (img : Fin 28 → Fin 28 → EReal) (w : Fin 9 → Fin 16 → EReal) (b : Fin 16 → EReal) (r : Fin 256)
    (h0 : ∀ p : Fin 256, g0 (ix2 r p) = grpSpec img w b 0 p) (h1 : ∀ p : Fin 256, g1 (ix2 r p) = grpSpec img w b 1 p)
    (h2 : ∀ p : Fin 256, g2 (ix2 r p) = grpSpec img w b 2 p) (h3 : ∀ p : Fin 256, g3 (ix2 r p) = grpSpec img w b 3 p)
    (h4 : ∀ p : Fin 256, g4 (ix2 r p) = grpSpec img w b 4 p) (h5 : ∀ p : Fin 256, g5 (ix2 r p) = grpSpec img w b 5 p)
    (h6 : ∀ p : Fin 256, g6 (ix2 r p) = grpSpec img w b 6 p) (h7 : ∀ p : Fin 256, g7 (ix2 r p) = grpSpec img w b 7 p)
    (h8 : ∀ p : Fin 256, g8 (ix2 r p) = grpSpec img w b 8 p) (h9 : ∀ p : Fin 256, g9 (ix2 r p) = grpSpec img w b 9 p)
    (h10 : ∀ p : Fin 256, g10 (ix2 r p) = grpSpec img w b 10 p) (h11 : ∀ p : Fin 256, g11 (ix2 r p) = grpSpec img w b 11 p)
    (h12 : ∀ p : Fin 256, g12 (ix2 r p) = grpSpec img w b 12 p)
    (h13 : ∀ p : Fin 256, max (g13 (ix2 r p)) 0 = grpSpec img w b 13 p) (n : Fin 16) (p : Fin 256) :
    pieces g0 g1 g2 g3 g4 g5 g6 g7 g8 g9 g10 g11 g12 g13 n (ix2 r p)
      = if 1 ≤ n.val ∧ n.val ≤ 14 then grpSpec img w b (n.val - 1) p else 0 := by
  match n with
  | ⟨0, _⟩ => rw [if_neg (by simp)]; exact zeroPiece_apply (ix2 r p)
  | ⟨1, _⟩ => rw [if_pos (by simp)]; exact h0 p
  | ⟨2, _⟩ => rw [if_pos (by simp)]; exact h1 p
  | ⟨3, _⟩ => rw [if_pos (by simp)]; exact h2 p
  | ⟨4, _⟩ => rw [if_pos (by simp)]; exact h3 p
  | ⟨5, _⟩ => rw [if_pos (by simp)]; exact h4 p
  | ⟨6, _⟩ => rw [if_pos (by simp)]; exact h5 p
  | ⟨7, _⟩ => rw [if_pos (by simp)]; exact h6 p
  | ⟨8, _⟩ => rw [if_pos (by simp)]; exact h7 p
  | ⟨9, _⟩ => rw [if_pos (by simp)]; exact h8 p
  | ⟨10, _⟩ => rw [if_pos (by simp)]; exact h9 p
  | ⟨11, _⟩ => rw [if_pos (by simp)]; exact h10 p
  | ⟨12, _⟩ => rw [if_pos (by simp)]; exact h11 p
  | ⟨13, _⟩ => rw [if_pos (by simp)]; exact h12 p
  | ⟨14, _⟩ => rw [if_pos (by simp)]; exact (cutPiece_apply g13 (ix2 r p)).trans (h13 p)
  | ⟨15, _⟩ => rw [if_neg (by simp)]; exact zeroPiece_apply (ix2 r p)
  | ⟨k + 16, hk⟩ => exact absurd hk (by omega)

/-- A group's lanes against the padded array's: for a lane `p` of a piece `n`, "pooled row `n - 1` if the piece is
    a group, else zero" is the pooled array with its zero border at padded row `n`, padded column `p / 16 + 1`. -/
theorem border_row (img : Fin 28 → Fin 28 → EReal) (w : Fin 9 → Fin 16 → EReal) (b : Fin 16 → EReal) (n : ℕ) (p : Fin 256) :
    (if 1 ≤ n ∧ n ≤ 14 then grpSpec img w b (n - 1) p else 0)
      = if p.val < 224 then p1pad img w b n (p.val / 16 + 1) ⟨p.val % 16, Nat.mod_lt _ (by norm_num)⟩ else 0 := by
  unfold grpSpec p1pad
  by_cases hp : p.val < 224
  · have hcol : 1 ≤ p.val / 16 + 1 ∧ p.val / 16 + 1 ≤ 14 := by omega
    by_cases hn : 1 ≤ n ∧ n ≤ 14
    · rw [if_pos hn, if_pos hp, if_pos hp, if_pos ⟨hn, hcol⟩, Nat.add_sub_cancel]
    · rw [if_neg hn, if_pos hp, if_neg (fun h => hn h.1)]
  · rw [if_neg hp, if_neg hp, ite_self]

/-- THE PACKING. If in row `r` the thirteen cut groups and the fourteenth group once cut hold the pooled rows of
    one image, the packed value's row `r` holds that image's pooled first layer with its zero border, sixteen padded
    rows of 256 lanes. -/
theorem packed_of_groups (g0 g1 g2 g3 g4 g5 g6 g7 g8 g9 g10 g11 g12 : FVec Ideal S256x256 .bf16) (g13 : FVec Ideal S256x256 .f32)
    (img : Fin 28 → Fin 28 → EReal) (w : Fin 9 → Fin 16 → EReal) (b : Fin 16 → EReal) (r : Fin 256)
    (h0 : ∀ p : Fin 256, g0 (ix2 r p) = grpSpec img w b 0 p) (h1 : ∀ p : Fin 256, g1 (ix2 r p) = grpSpec img w b 1 p)
    (h2 : ∀ p : Fin 256, g2 (ix2 r p) = grpSpec img w b 2 p) (h3 : ∀ p : Fin 256, g3 (ix2 r p) = grpSpec img w b 3 p)
    (h4 : ∀ p : Fin 256, g4 (ix2 r p) = grpSpec img w b 4 p) (h5 : ∀ p : Fin 256, g5 (ix2 r p) = grpSpec img w b 5 p)
    (h6 : ∀ p : Fin 256, g6 (ix2 r p) = grpSpec img w b 6 p) (h7 : ∀ p : Fin 256, g7 (ix2 r p) = grpSpec img w b 7 p)
    (h8 : ∀ p : Fin 256, g8 (ix2 r p) = grpSpec img w b 8 p) (h9 : ∀ p : Fin 256, g9 (ix2 r p) = grpSpec img w b 9 p)
    (h10 : ∀ p : Fin 256, g10 (ix2 r p) = grpSpec img w b 10 p) (h11 : ∀ p : Fin 256, g11 (ix2 r p) = grpSpec img w b 11 p)
    (h12 : ∀ p : Fin 256, g12 (ix2 r p) = grpSpec img w b 12 p)
    (h13 : ∀ p : Fin 256, max (g13 (ix2 r p)) 0 = grpSpec img w b 13 p) (L : Fin 4096) :
    packed (F := Ideal) g0 g1 g2 g3 g4 g5 g6 g7 g8 g9 g10 g11 g12 g13 (ix2 r L) = packedSpec img w b L := by
  rw [packed_lane, pieces_row g0 g1 g2 g3 g4 g5 g6 g7 g8 g9 g10 g11 g12 g13 img w b r h0 h1 h2 h3 h4 h5 h6 h7 h8 h9 h10 h11 h12 h13,
    border_row]
  unfold packedSpec
  rfl

end Cert.KernelIdeal.Hand

end
-- ==== Proof.KPackedApply.lean ====
/-
  The kernel's first layer, assembled: every one of the fourteen groups holds its pooled row of the specification
  (one lemma per group), so the sixteen groups laid side by side hold the zero-bordered pooled array.
-/
import proofs.«150178_g2000205257289275_pallasbulk_739_9_alg».proof.Proof.KGroups
import proofs.«150178_g2000205257289275_pallasbulk_739_9_alg».proof.Proof.KPacked

noncomputable section

namespace Cert.KernelIdeal.Hand

open Cert.Cnn Idealize.ShloMosaic Idealize.ShloMosaic.ValueIdx Cert.KernelIdeal

/-- Row `r`, lane `L` of the packed first layer is the specification's padded pooled array for the image in row `r`. -/
theorem packed_apply (x : Vec Ideal S256x784 .f32) (t1 : Vec Ideal S84x512 .bf16) (b1 : Vec Ideal S1x256 .f32)
    (w : Fin 9 → Fin 16 → EReal) (b : Fin 16 → EReal)
    (ht1 : ∀ (k : Fin 84) (l : Fin 512), t1 (ix2 k l) = T1 w k l) (hb1 : ∀ l : Fin 256, b1 (ix2 (0 : Fin 1) l) = B1 b l)
    (r : Fin 256) (L : Fin 4096) :
    packed (F := Ideal) (grp0 x t1 b1) (grp1 x t1 b1) (grp2 x t1 b1) (grp3 x t1 b1) (grp4 x t1 b1) (grp5 x t1 b1) (grp6 x t1 b1) (grp7 x t1 b1) (grp8 x t1 b1) (grp9 x t1 b1) (grp10 x t1 b1) (grp11 x t1 b1) (grp12 x t1 b1) (grp13 x t1 b1) (ix2 r L)
      = packedSpec (rowImg x r) w b L :=
  packed_of_groups _ _ _ _ _ _ _ _ _ _ _ _ _ _ (rowImg x r) w b r
    (fun p => grp0_apply x t1 b1 w b ht1 hb1 r p)
    (fun p => grp1_apply x t1 b1 w b ht1 hb1 r p)
    (fun p => grp2_apply x t1 b1 w b ht1 hb1 r p)
    (fun p => grp3_apply x t1 b1 w b ht1 hb1 r p)
    (fun p => grp4_apply x t1 b1 w b ht1 hb1 r p)
    (fun p => grp5_apply x t1 b1 w b ht1 hb1 r p)
    (fun p => grp6_apply x t1 b1 w b ht1 hb1 r p)
    (fun p => grp7_apply x t1 b1 w b ht1 hb1 r p)
    (fun p => grp8_apply x t1 b1 w b ht1 hb1 r p)
    (fun p => grp9_apply x t1 b1 w b ht1 hb1 r p)
    (fun p => grp10_apply x t1 b1 w b ht1 hb1 r p)
    (fun p => grp11_apply x t1 b1 w b ht1 hb1 r p)
    (fun p => grp12_apply x t1 b1 w b ht1 hb1 r p)
    (fun p => grp13_apply x t1 b1 w b ht1 hb1 r p)
    L

end Cert.KernelIdeal.Hand

end
-- ==== Proof.KFeatsSum.lean ====
/-
  The arithmetic of the second layer's banded product.

  A window of 768 lanes of the packed first layer (three padded rows of sixteen columns by sixteen channels, the last
  two columns idle) times one column of the banded matrix is a sum of 768 products.  Cut by row of the stencil,
  input column and input channel it is, for each row and channel, a sum over sixteen input columns of which the band
  keeps three: the three taps of that stencil row.  Together they are the 144 terms of the second convolution at the
  output position the column names; the padded array's own zero border supplies the taps that fall off the image.
-/
import proofs.«150178_g2000205257289275_pallasbulk_739_9_alg».proof.Proof.KTables

noncomputable section

open scoped BigOperators

namespace Cert.Cnn

/-- A sum over `Fin (m * n)` of a function of the number is the double sum over quotient `a` and remainder `b`. -/
theorem sum_fin_mul_nat {M : Type*} [AddCommMonoid M] (m n : ℕ) (f : ℕ → M) :
    ∑ k : Fin (m * n), f k.val = ∑ a : Fin m, ∑ b : Fin n, f (b.val + n * a.val) := by
  rw [← Equiv.sum_comp finProdFinEquiv (fun k : Fin (m * n) => f k.val), Fintype.sum_prod_type]
  rfl

/-- The pooled first layer with its channel a number (zero from channel 16 on). -/
def p1n (l : L1) (i j ci : ℕ) : EReal :=
  if h : ci < 16 then p1pad l.img l.w l.b i j ⟨ci, h⟩ else 0

/-- One output channel's column of the second stencil with its row a number (zero from row 144 on). -/
def w2n (w2 : Fin 144 → Fin 32 → EReal) (co : Fin 32) (q : ℕ) : EReal :=
  if h : q < 144 then w2 ⟨q, h⟩ co else 0

theorem p1n_col_zero (l : L1) (i ci : ℕ) : p1n l i 0 ci = 0 := by
  unfold p1n p1pad; split_ifs <;> first | rfl | omega

theorem p1n_col_fifteen (l : L1) (i ci : ℕ) : p1n l i 15 ci = 0 := by
  unfold p1n p1pad; split_ifs <;> first | rfl | omega

/-- The three taps of one stencil row against one padded row: the band of the matrix picks, for output column `wo`,
    the input columns `wo - 1, wo, wo + 1` (padded columns `wo, wo + 1, wo + 2`); the padded columns 0 and 15 are zero. -/
theorem band (A u : ℕ → EReal) (wo : ℕ) (hwo : wo ≤ 13) (hA0 : A 0 = 0) (hA15 : A 15 = 0) :
    ∑ wi : Fin 16, (if wi.val < 14 then A (wi.val + 1) else 0) *
        (if wi.val < 14 ∧ wo ≤ wi.val + 1 ∧ wi.val ≤ wo + 1 then u (wi.val + 1 - wo) else 0)
      = ∑ dx : Fin 3, A (wo + dx.val) * u dx.val := by
  rw [Fin.sum_univ_eq_sum_range (fun wi => (if wi < 14 then A (wi + 1) else 0) *
        (if wi < 14 ∧ wo ≤ wi + 1 ∧ wi ≤ wo + 1 then u (wi + 1 - wo) else 0)) 16,
    Fin.sum_univ_eq_sum_range (fun dx => A (wo + dx) * u dx) 3]
  interval_cases wo <;> simp [Finset.sum_range_succ, hA0, hA15]

theorem packedSpec_window (l : L1) (g k : ℕ) (h : 256 * g + k < 4096) :
    packedSpec l.img l.w l.b ⟨256 * g + k, h⟩
      = if k % 256 < 224 then p1n l (g + k / 256) (k % 256 / 16 + 1) (k % 256 % 16) else 0 := by
  have h1 : (256 * g + k) % 256 = k % 256 := Nat.mul_add_mod 256 g k
  have h2 : (256 * g + k) / 256 = g + k / 256 := Nat.mul_add_div (by norm_num) g k
  unfold packedSpec p1n
  simp only [h1, h2]
  rw [dif_pos (Nat.mod_lt _ (by norm_num))]

theorem T2_eq (w2 : Fin 144 → Fin 32 → EReal) (k : Fin 768) (c : Fin 512) (hc : c.val % 256 < 224) :
    T2 w2 k c = if k.val % 256 < 224 ∧ 2 * (c.val % 256 / 32) + c.val / 256 ≤ k.val % 256 / 16 + 1
          ∧ k.val % 256 / 16 ≤ 2 * (c.val % 256 / 32) + c.val / 256 + 1 then
        w2n w2 ⟨c.val % 256 % 32, Nat.mod_lt _ (by norm_num)⟩
          ((k.val / 256 * 3 + (k.val % 256 / 16 + 1 - (2 * (c.val % 256 / 32) + c.val / 256))) * 16 + k.val % 256 % 16)
      else 0 := by
  unfold T2 w2n
  by_cases h : k.val % 256 < 224 ∧ 2 * (c.val % 256 / 32) + c.val / 256 ≤ k.val % 256 / 16 + 1
          ∧ k.val % 256 / 16 ≤ 2 * (c.val % 256 / 32) + c.val / 256 + 1
  · rw [dif_pos ⟨h.1, hc, h.2.1, h.2.2⟩, if_pos h, dif_pos (by have := k.isLt; omega)]
  · rw [dif_neg (fun h' => h ⟨h'.1, h'.2.2.1, h'.2.2.2⟩), if_neg h]

theorem conv2_eq (l : L1) (w2 : Fin 144 → Fin 32 → EReal) (h v : ℕ) (co : Fin 32) :
    conv2 l w2 h v co = ∑ q : Fin 144, p1n l (h + q.val / 16 / 3) (v + q.val / 16 % 3) (q.val % 16) * w2n w2 co q.val := by
  unfold conv2 p1n w2n
  refine Finset.sum_congr rfl fun q _ => ?_
  rw [dif_pos (Nat.mod_lt _ (by norm_num)), dif_pos q.isLt]

/-- Entry `k` of a window of three padded rows from row `g` times entry `k` of the banded matrix's column for output
    column `wo`. -/
def winTerm (l : L1) (w2 : Fin 144 → Fin 32 → EReal) (co : Fin 32) (g wo k : ℕ) : EReal :=
  (if k % 256 < 224 then p1n l (g + k / 256) (k % 256 / 16 + 1) (k % 256 % 16) else 0) *
    (if k % 256 < 224 ∧ wo ≤ k % 256 / 16 + 1 ∧ k % 256 / 16 ≤ wo + 1 then
      w2n w2 co ((k / 256 * 3 + (k % 256 / 16 + 1 - wo)) * 16 + k % 256 % 16) else 0)

/-- Term `q` of the second convolution at output position `(g, wo)`. -/
def convTerm (l : L1) (w2 : Fin 144 → Fin 32 → EReal) (co : Fin 32) (g wo q : ℕ) : EReal :=
  p1n l (g + q / 16 / 3) (wo + q / 16 % 3) (q % 16) * w2n w2 co q

theorem winTerm_sum (l : L1) (w2 : Fin 144 → Fin 32 → EReal) (co : Fin 32) (g wo : ℕ) (hwo : wo ≤ 13) :
    ∑ k : Fin 768, winTerm l w2 co g wo k.val = ∑ q : Fin 144, convTerm l w2 co g wo q.val := by
  have h1 : ∑ k : Fin 768, winTerm l w2 co g wo k.val
      = ∑ dy : Fin 3, ∑ m : Fin 256, winTerm l w2 co g wo (m.val + 256 * dy.val) :=
    sum_fin_mul_nat 3 256 _
  have h2 : ∀ dy : Fin 3, ∑ m : Fin 256, winTerm l w2 co g wo (m.val + 256 * dy.val)
      = ∑ wi : Fin 16, ∑ ci : Fin 16, winTerm l w2 co g wo (ci.val + 16 * wi.val + 256 * dy.val) :=
    fun dy => sum_fin_mul_nat 16 16 (fun m => winTerm l w2 co g wo (m + 256 * dy.val))
  have h3 : ∑ q : Fin 144, convTerm l w2 co g wo q.val
      = ∑ t : Fin 9, ∑ ci : Fin 16, convTerm l w2 co g wo (ci.val + 16 * t.val) :=
    sum_fin_mul_nat 9 16 _
  have h4 : ∑ t : Fin 9, ∑ ci : Fin 16, convTerm l w2 co g wo (ci.val + 16 * t.val)
      = ∑ dy : Fin 3, ∑ dx : Fin 3, ∑ ci : Fin 16, convTerm l w2 co g wo (ci.val + 16 * (dx.val + 3 * dy.val)) :=
    sum_fin_mul_nat 3 3 (fun t => ∑ ci : Fin 16, convTerm l w2 co g wo (ci.val + 16 * t))
  rw [h1, h3, h4]
  refine Finset.sum_congr rfl fun dy _ => ?_
  rw [h2 dy, Finset.sum_comm]
  conv_rhs => rw [Finset.sum_comm]
  refine Finset.sum_congr rfl fun ci _ => ?_
  have hb := band (fun j => p1n l (g + dy.val) j ci.val) (fun dx => w2n w2 co ((dy.val * 3 + dx) * 16 + ci.val)) wo hwo
    (p1n_col_zero _ _ _) (p1n_col_fifteen _ _ _)
  have hci := ci.isLt
  have hdy := dy.isLt
  refine (Finset.sum_congr rfl fun wi _ => ?_).trans (hb.trans (Finset.sum_congr rfl fun dx _ => ?_))
  · have hwi := wi.isLt
    have e1 : (ci.val + 16 * wi.val + 256 * dy.val) % 256 = ci.val + 16 * wi.val := by omega
    have e2 : (ci.val + 16 * wi.val + 256 * dy.val) / 256 = dy.val := by omega
    have e3 : (ci.val + 16 * wi.val) / 16 = wi.val := by omega
    have e4 : (ci.val + 16 * wi.val) % 16 = ci.val := by omega
    have e5 : (ci.val + 16 * wi.val < 224) = (wi.val < 14) := propext ⟨fun _ => by omega, fun _ => by omega⟩
    unfold winTerm
    simp only [e1, e2, e3, e4, e5]
  · have hdx := dx.isLt
    have e1 : (ci.val + 16 * (dx.val + 3 * dy.val)) / 16 = dx.val + 3 * dy.val := by omega
    have e2 : (dx.val + 3 * dy.val) / 3 = dy.val := by omega
    have e3 : (dx.val + 3 * dy.val) % 3 = dx.val := by omega
    have e4 : (ci.val + 16 * (dx.val + 3 * dy.val)) % 16 = ci.val := by omega
    have e5 : ci.val + 16 * (dx.val + 3 * dy.val) = (dy.val * 3 + dx.val) * 16 + ci.val := by omega
    unfold convTerm
    simp only [e1, e2, e3, e4]
    rw [e5]

/-- A window of three padded rows starting at row `g`, against column `c` of the banded matrix, is the second
    convolution at output row `g`, the output column and channel that `c` names; the idle columns give zero. -/
theorem window_sum (l : L1) (w2 : Fin 144 → Fin 32 → EReal) (g : ℕ) (hg : g ≤ 13) (c : Fin 512) :
    ∑ k : Fin 768, packedSpec l.img l.w l.b ⟨256 * g + k.val, by have := k.isLt; omega⟩ * T2 w2 k c
      = if c.val % 256 < 224 then
          conv2 l w2 g (2 * (c.val % 256 / 32) + c.val / 256) ⟨c.val % 256 % 32, Nat.mod_lt _ (by norm_num)⟩
        else 0 := by
  by_cases hc : c.val % 256 < 224
  · rw [if_pos hc, conv2_eq]
    have e : ∀ k : Fin 768, packedSpec l.img l.w l.b ⟨256 * g + k.val, by have := k.isLt; omega⟩ * T2 w2 k c
        = winTerm l w2 ⟨c.val % 256 % 32, Nat.mod_lt _ (by norm_num)⟩ g (2 * (c.val % 256 / 32) + c.val / 256) k.val :=
      fun k => by rw [packedSpec_window, T2_eq w2 k c hc]; rfl
    rw [Finset.sum_congr rfl fun k _ => e k]
    exact winTerm_sum l w2 _ g _ (by have := c.isLt; omega)
  · rw [if_neg hc]
    refine Finset.sum_eq_zero fun k _ => ?_
    rw [T2, dif_neg (fun h => hc h.2.1), mul_zero]

end Cert.Cnn

end
-- ==== Proof.KFeats.lean ====
/-
  The second layer of the fused kernel: the seven pooled row groups it lays side by side are the specification's
  second-layer pooled array.

  Each group comes from two windows of 768 lanes of the packed first layer (three padded rows each, one row apart).
  A window times the banded matrix is, column by column, the second convolution at one output row (the arithmetic is
  in the sum module); the maximum of the two products pools the rows, the maximum of the two 256-lane halves pools the
  columns (the matrix puts even output columns in the first half and odd ones in the second), and adding the bias
  and cutting at zero, being monotone, may be done after the maxima instead of before.
-/
import proofs.«150178_g2000205257289275_pallasbulk_739_9_alg».proof.Proof.KBodyTerm
import proofs.«150178_g2000205257289275_pallasbulk_739_9_alg».proof.Proof.KFeatsSum
import Idealize.ShloMosaic.PureOps.Ideal.Laws
import Idealize.ShloMosaic.Lib.ValueLayout

noncomputable section

open scoped BigOperators

namespace Cert.KernelIdeal.Hand

open Cert.Cnn Idealize.ShloMosaic Idealize.ShloMosaic.ValueIdx Cert.KernelIdeal Cert.KernelIdeal.Gen

/-! ## The product of a window with the banded matrix, read at an index -/

theorem lhs_axis0 (i : S256x512.Idx) (q : dot_S256x768_S768x512_S256x512_1_0_0_1_n_n.contr.Idx) :
    (dot_S256x768_S768x512_S256x512_1_0_0_1_n_n.lhsIdx i q 0).val = (i 0).val := by
  unfold DotDims.lhsIdx
  rw [dif_neg (show ¬(0 : Fin S256x768.rank) ∈ dot_S256x768_S768x512_S256x512_1_0_0_1_n_n.lhsBatch by decide),
    dif_pos (show (0 : Fin S256x768.rank) ∈ dot_S256x768_S768x512_S256x512_1_0_0_1_n_n.lhsNonContracting by decide)]
  rfl

theorem lhs_axis1 (i : S256x512.Idx) (q : dot_S256x768_S768x512_S256x512_1_0_0_1_n_n.contr.Idx) :
    (dot_S256x768_S768x512_S256x512_1_0_0_1_n_n.lhsIdx i q 1).val = (q ⟨0, by decide⟩).val :=
  dot_S256x768_S768x512_S256x512_1_0_0_1_n_n.lhsIdx_val_of_single rfl i q

theorem rhs_axis0 (i : S256x512.Idx) (q : dot_S256x768_S768x512_S256x512_1_0_0_1_n_n.contr.Idx) :
    (dot_S256x768_S768x512_S256x512_1_0_0_1_n_n.rhsIdx i q 0).val = (q ⟨0, by decide⟩).val :=
  dot_S256x768_S768x512_S256x512_1_0_0_1_n_n.rhsIdx_val_of_single rfl i q

theorem rhs_axis1 (i : S256x512.Idx) (q : dot_S256x768_S768x512_S256x512_1_0_0_1_n_n.contr.Idx) :
    (dot_S256x768_S768x512_S256x512_1_0_0_1_n_n.rhsIdx i q 1).val = (i 1).val := by
  unfold DotDims.rhsIdx
  rw [dif_neg (show ¬(1 : Fin S768x512.rank) ∈ dot_S256x768_S768x512_S256x512_1_0_0_1_n_n.rhsBatch by decide),
    dif_pos (show (1 : Fin S768x512.rank) ∈ dot_S256x768_S768x512_S256x512_1_0_0_1_n_n.rhsNonContracting by decide)]
  rfl

/-- The product into a zero accumulator at row `r`, column `c`: the sum over the 768 contracted positions. -/
theorem matmul_apply_ix (A : FVec Ideal S256x768 .bf16) (B : FVec Ideal S768x512 .bf16) (r : Fin 256) (c : Fin 512) :
    matmul dot_S256x768_S768x512_S256x512_1_0_0_1_n_n none A B (constant (F := Ideal) S256x512 .f32 0x00000000#32) (ix2 r c)
      = ∑ k : Fin 768, A (ix2 r k) * B (ix2 k c) := by
  simp only [matmul]
  rw [Ideal.matmul_constant_zero_apply, ← Equiv.sum_comp (contrEquiv1 dot_S256x768_S768x512_S256x512_1_0_0_1_n_n 768 rfl rfl).symm]
  refine Finset.sum_congr rfl fun k _ => ?_
  have hk := contrEquiv1_symm_val dot_S256x768_S768x512_S256x512_1_0_0_1_n_n 768 rfl rfl k
  have el : dot_S256x768_S768x512_S256x512_1_0_0_1_n_n.lhsIdx (ix2 r c) ((contrEquiv1 dot_S256x768_S768x512_S256x512_1_0_0_1_n_n 768 rfl rfl).symm k) = ix2 r k :=
    funext fun a => Fin.ext (by
      match a with
      | ⟨0, _⟩ => exact lhs_axis0 _ _
      | ⟨1, _⟩ => exact (lhs_axis1 _ _).trans hk)
  have er : dot_S256x768_S768x512_S256x512_1_0_0_1_n_n.rhsIdx (ix2 r c) ((contrEquiv1 dot_S256x768_S768x512_S256x512_1_0_0_1_n_n 768 rfl rfl).symm k) = ix2 k c :=
    funext fun a => Fin.ext (by
      match a with
      | ⟨0, _⟩ => exact (rhs_axis0 _ _).trans hk
      | ⟨1, _⟩ => exact rhs_axis1 _ _)
  rw [el, er]

/-- A window of the packed first layer starting at group `g` (lane `o = 256 g`) times the banded matrix: the second
    convolution's output row `g`, at the output column and channel the matrix column names. -/
theorem dot_window (l : L1) (w2 : Fin 144 → Fin 32 → EReal) (A : FVec Ideal S256x768 .bf16) (B : FVec Ideal S768x512 .bf16)
    (r : Fin 256) (o g : ℕ) (ho : o = 256 * g) (hg : g ≤ 13)
    (hA : ∀ (k : Fin 768) (h : o + k.val < 4096), A (ix2 r k) = packedSpec l.img l.w l.b ⟨o + k.val, h⟩)
    (hB : ∀ (k : Fin 768) (c : Fin 512), B (ix2 k c) = T2 w2 k c) (c : Fin 512) :
    matmul dot_S256x768_S768x512_S256x512_1_0_0_1_n_n none A (shapeCast S768x512 B shapeCasts_S768x512_S768x512)
        (constant (F := Ideal) S256x512 .f32 0x00000000#32) (ix2 r c)
      = if c.val % 256 < 224 then
          conv2 l w2 g (2 * (c.val % 256 / 32) + c.val / 256) ⟨c.val % 256 % 32, Nat.mod_lt _ (by norm_num)⟩
        else 0 := by
  subst ho
  rw [shapeCast_self, matmul_apply_ix, ← window_sum l w2 g hg c]
  exact Finset.sum_congr rfl fun k _ => by rw [hA k, hB k c]

/-! ## One pooled row group -/

/-- One pooled row group as the body computes it: the two windows' products, their maximum, the maximum of its two
    256-lane halves, the bias row added, the cut at zero. -/
def pooledGroup (v6 : FVec Ideal S1x256 .f32) (A0 A1 : FVec Ideal S256x768 .bf16) (ta tb : FVec Ideal S768x512 .bf16) :
    FVec Ideal S256x256 .bf16 :=
  truncf .bf16
    (maximumf
      (addf
        (maximumf
          (extractStridedSlice S256x256 ![0, 0]
            (maximumf
              (matmul dot_S256x768_S768x512_S256x512_1_0_0_1_n_n none A0 (shapeCast S768x512 ta shapeCasts_S768x512_S768x512)
                (constant S256x512 .f32 0x00000000#32))
              (matmul dot_S256x768_S768x512_S256x512_1_0_0_1_n_n none A1 (shapeCast S768x512 tb shapeCasts_S768x512_S768x512)
                (constant S256x512 .f32 0x00000000#32)))
            slices_S256x512_o0_0_S256x256)
          (extractStridedSlice S256x256 ![0, 256]
            (maximumf
              (matmul dot_S256x768_S768x512_S256x512_1_0_0_1_n_n none A0 (shapeCast S768x512 ta shapeCasts_S768x512_S768x512)
                (constant S256x512 .f32 0x00000000#32))
              (matmul dot_S256x768_S768x512_S256x512_1_0_0_1_n_n none A1 (shapeCast S768x512 tb shapeCasts_S768x512_S768x512)
                (constant S256x512 .f32 0x00000000#32)))
            slices_S256x512_o0_256_S256x256))
        (broadcastTo S256x256 v6 broadcasts_S1x256_S256x256))
      (broadcast S256x256 (Scalar.ofBits .f32 0x00000000#32)))
    bitsLt_bf16_f32

/-- Adding a bias and cutting at zero is monotone, so it goes inside a maximum. -/
theorem relu_bias_max (β a b : EReal) : max (max a b + β) 0 = max (max (a + β) 0) (max (b + β) 0) := by
  have hm : Monotone fun x : EReal => max (x + β) 0 := fun x y h => max_le_max (add_le_add h le_rfl) le_rfl
  exact hm.map_max

theorem relu_bias_max4 (β a b c d : EReal) :
    max (max (max a b) (max c d) + β) 0
      = max (max (max (a + β) 0) (max (b + β) 0)) (max (max (c + β) 0) (max (d + β) 0)) := by
  rw [relu_bias_max β (max a b) (max c d), relu_bias_max β a b, relu_bias_max β c d]

theorem pooledGroup_apply (l : L1) (w2 : Fin 144 → Fin 32 → EReal) (bb : Fin 32 → EReal) (v6 : FVec Ideal S1x256 .f32)
    (A0 A1 : FVec Ideal S256x768 .bf16) (ta tb : FVec Ideal S768x512 .bf16) (r : Fin 256) (i : ℕ) (hi : i ≤ 6)
    (o0 o1 : ℕ) (ho0 : o0 = 256 * (2 * i)) (ho1 : o1 = 256 * (2 * i + 1))
    (hA0 : ∀ (k : Fin 768) (h : o0 + k.val < 4096), A0 (ix2 r k) = packedSpec l.img l.w l.b ⟨o0 + k.val, h⟩)
    (hA1 : ∀ (k : Fin 768) (h : o1 + k.val < 4096), A1 (ix2 r k) = packedSpec l.img l.w l.b ⟨o1 + k.val, h⟩)
    (hta : ∀ (k : Fin 768) (c : Fin 512), ta (ix2 k c) = T2 w2 k c)
    (htb : ∀ (k : Fin 768) (c : Fin 512), tb (ix2 k c) = T2 w2 k c)
    (hv6 : ∀ c : Fin 256, v6 (ix2 (0 : Fin 1) c) = B2 bb c) (p : Fin 256) :
    pooledGroup v6 A0 A1 ta tb (ix2 r p)
      = if p.val < 224 then pool2 l w2 bb i (p.val / 32) ⟨p.val % 32, Nat.mod_lt _ (by norm_num)⟩ else 0 := by
  unfold pooledGroup
  simp only [truncf_apply, maximumf_apply, addf_apply, broadcast_apply, slice2_axis1_eq, broadcastTo_1b_ab_apply]
  simp only [dot_window l w2 A0 ta r o0 (2 * i) ho0 (by omega) hA0 hta,
    dot_window l w2 A1 tb r o1 (2 * i + 1) ho1 (by omega) hA1 htb, hv6]
  have hp := p.isLt
  have e0 : (0 + p.val) % 256 = p.val := by omega
  have e1 : (0 + p.val) / 256 = 0 := by omega
  have e2 : (256 + p.val) % 256 = p.val := by omega
  have e3 : (256 + p.val) / 256 = 1 := by omega
  have hz : (FloatOps.ofBits FTy.f32 0x00000000#32 : Ideal .f32) = (0 : EReal) := Ideal.ofBits_zero_f32
  simp only [e0, e1, e2, e3, Nat.add_zero]
  rw [hz]
  unfold B2
  by_cases h : p.val < 224
  · simp only [if_pos h]
    rw [relu_bias_max4]
    rfl
  · simp only [if_neg h]
    simp

/-! ## The seven groups side by side -/

theorem slices_lo (n : Fin 7) : S256x4096.Slices ![0, 512 * n.val] S256x768 := by revert n; decide

theorem slices_hi (n : Fin 7) : S256x4096.Slices ![0, 512 * n.val + 256] S256x768 := by revert n; decide

/-- Pooled row group `n`: its two windows start at lanes `512 n` (padded rows `2n, 2n+1, 2n+2`) and `512 n + 256`. -/
def groupAt (v6 : FVec Ideal S1x256 .f32) (P : FVec Ideal S256x4096 .bf16) (t2 : FVec Ideal S768x512 .bf16) (n : Fin 7) :
    FVec Ideal S256x256 .bf16 :=
  pooledGroup v6 (extractStridedSlice S256x768 ![0, 512 * n.val] P (slices_lo n))
    (extractStridedSlice S256x768 ![0, 512 * n.val + 256] P (slices_hi n)) t2 t2

/-- The second layer's value is the seven groups laid side by side. -/
theorem featsOf_eq (b2 : Vec Ideal S1x256 .f32) (t2 : Vec Ideal S768x512 .bf16)
    (g0 g1 g2 g3 g4 g5 g6 g7 g8 g9 g10 g11 g12 : FVec Ideal S256x256 .bf16) (g13 : FVec Ideal S256x256 .f32) :
    featsOf (F := Ideal) b2 t2 g0 g1 g2 g3 g4 g5 g6 g7 g8 g9 g10 g11 g12 g13
      = concatenate S256x1792 1
          [⟨S256x256, groupAt (k0_pay4 b2) (packed g0 g1 g2 g3 g4 g5 g6 g7 g8 g9 g10 g11 g12 g13) t2 0⟩,
           ⟨S256x256, groupAt (k0_pay4 b2) (packed g0 g1 g2 g3 g4 g5 g6 g7 g8 g9 g10 g11 g12 g13) t2 1⟩,
           ⟨S256x256, groupAt (k0_pay4 b2) (packed g0 g1 g2 g3 g4 g5 g6 g7 g8 g9 g10 g11 g12 g13) t2 2⟩,
           ⟨S256x256, groupAt (k0_pay4 b2) (packed g0 g1 g2 g3 g4 g5 g6 g7 g8 g9 g10 g11 g12 g13) t2 3⟩,
           ⟨S256x256, groupAt (k0_pay4 b2) (packed g0 g1 g2 g3 g4 g5 g6 g7 g8 g9 g10 g11 g12 g13) t2 4⟩,
           ⟨S256x256, groupAt (k0_pay4 b2) (packed g0 g1 g2 g3 g4 g5 g6 g7 g8 g9 g10 g11 g12 g13) t2 5⟩,
           ⟨S256x256, groupAt (k0_pay4 b2) (packed g0 g1 g2 g3 g4 g5 g6 g7 g8 g9 g10 g11 g12 g13) t2 6⟩]
          concatenates_S256x256_S256x256_S256x256_S256x256_S256x256_S256x256_S256x256_S256x1792_d1 := rfl

/-- Seven pieces of 256 lanes side by side, read at lane `M`: piece `M / 256` at lane `M % 256`. -/
theorem concat7_apply {α : Type} (x : Fin 7 → (S256x256.Idx → α)) (r : Fin 256) (M : Fin 1792) :
    concatenate S256x1792 1
        [⟨S256x256, x 0⟩, ⟨S256x256, x 1⟩, ⟨S256x256, x 2⟩, ⟨S256x256, x 3⟩, ⟨S256x256, x 4⟩, ⟨S256x256, x 5⟩, ⟨S256x256, x 6⟩]
        concatenates_S256x256_S256x256_S256x256_S256x256_S256x256_S256x256_S256x256_S256x1792_d1 (ix2 r M)
      = x ⟨M.val / 256, by have := M.isLt; omega⟩ (ix2 r ⟨M.val % 256, Nat.mod_lt _ (by norm_num)⟩) := by
  show concatenate S256x1792 1 (List.ofFn fun n : Fin 7 => (⟨S256x256, x n⟩ : (s : Shape) × (s.Idx → α))) _ (ix2 r M) = _
  refine concatenate_ofFn_apply (1 : Fin S256x1792.rank) x _ rfl 256 rfl (ix2 r M) ⟨M.val / 256, by have := M.isLt; omega⟩ rfl
    (ix2 r ⟨M.val % 256, Nat.mod_lt _ (by norm_num)⟩) rfl (fun b hb => ?_)
  match b with
  | ⟨0, _⟩ => rfl
  | ⟨1, _⟩ => exact absurd (Fin.ext rfl) hb

/-- A group read at a lane: the pooled second layer at row `n`, the column and channel the lane names; zero in the idle
    lanes. -/
theorem groupAt_apply (l : L1) (w2 : Fin 144 → Fin 32 → EReal) (bb : Fin 32 → EReal) (v6 : FVec Ideal S1x256 .f32)
    (P : FVec Ideal S256x4096 .bf16) (t2 : FVec Ideal S768x512 .bf16) (r : Fin 256)
    (hP : ∀ L : Fin 4096, P (ix2 r L) = packedSpec l.img l.w l.b L)
    (ht2 : ∀ (k : Fin 768) (c : Fin 512), t2 (ix2 k c) = T2 w2 k c)
    (hv6 : ∀ c : Fin 256, v6 (ix2 (0 : Fin 1) c) = B2 bb c) (n : Fin 7) (p : Fin 256) :
    groupAt v6 P t2 n (ix2 r p)
      = if p.val < 224 then pool2 l w2 bb n.val (p.val / 32) ⟨p.val % 32, Nat.mod_lt _ (by norm_num)⟩ else 0 :=
  pooledGroup_apply l w2 bb v6 _ _ t2 t2 r n.val (by have := n.isLt; omega) (512 * n.val) (512 * n.val + 256) (by omega) (by omega)
    (fun k _ => (slice2_axis1_eq _ P _ r k).trans (hP _)) (fun k _ => (slice2_axis1_eq _ P _ r k).trans (hP _)) ht2 ht2 hv6 p

/-- The second layer of the kernel: the seven groups side by side are the specification's second-layer pooled array. -/
theorem featsOf_apply (b2 : Vec Ideal S1x256 .f32) (t2 : Vec Ideal S768x512 .bf16)
    (g0 g1 g2 g3 g4 g5 g6 g7 g8 g9 g10 g11 g12 : FVec Ideal S256x256 .bf16) (g13 : FVec Ideal S256x256 .f32)
    (l : L1) (w2 : Fin 144 → Fin 32 → EReal) (bb : Fin 32 → EReal)
    (ht2 : ∀ (k : Fin 768) (c : Fin 512), t2 (ix2 k c) = T2 w2 k c) (hb2 : ∀ c : Fin 256, b2 (ix2 (0 : Fin 1) c) = B2 bb c)
    (r : Fin 256)
    (hP : ∀ L : Fin 4096, packed (F := Ideal) g0 g1 g2 g3 g4 g5 g6 g7 g8 g9 g10 g11 g12 g13 (ix2 r L) = packedSpec l.img l.w l.b L)
    (M : Fin 1792) :
    featsOf (F := Ideal) b2 t2 g0 g1 g2 g3 g4 g5 g6 g7 g8 g9 g10 g11 g12 g13 (ix2 r M) = featsSpec l w2 bb M := by
  have hv6 : ∀ c : Fin 256, k0_pay4 (F := Ideal) b2 (ix2 (0 : Fin 1) c) = B2 bb c := fun c => by
    unfold k0_pay4
    rw [shapeCast_self]
    exact hb2 c
  rw [featsOf_eq, concat7_apply (groupAt (k0_pay4 b2) (packed g0 g1 g2 g3 g4 g5 g6 g7 g8 g9 g10 g11 g12 g13) t2) r M,
    groupAt_apply l w2 bb (k0_pay4 b2) (packed g0 g1 g2 g3 g4 g5 g6 g7 g8 g9 g10 g11 g12 g13) t2 r hP ht2 hv6]
  rfl

end Cert.KernelIdeal.Hand

end
-- ==== Proof.KBodyApply.lean ====
/-
  The fused kernel's stored block read at an entry is the network of the specification.

  Row `r` of the block is one image.  The fourteen first-layer groups laid side by side hold its pooled first layer,
  the seven second-layer groups its pooled second layer, lane `h · 256 + p` (`p < 224`) being feature `h · 224 + p`
  of the row-major 7 × 7 × 32 array; the two dense layers over those lanes are then the specification's dense layers
  over the features.
-/
import proofs.«150178_g2000205257289275_pallasbulk_739_9_alg».proof.Proof.KHead
import proofs.«150178_g2000205257289275_pallasbulk_739_9_alg».proof.Proof.KPackedApply
import proofs.«150178_g2000205257289275_pallasbulk_739_9_alg».proof.Proof.KFeats

noncomputable section

open scoped BigOperators

namespace Cert.KernelIdeal.Hand

open Cert.Cnn Idealize.ShloMosaic Idealize.ShloMosaic.ValueIdx Cert.KernelIdeal

/-- The pooled second layer depends on its position and channel only through their values. -/
theorem pool2_congr (l : L1) (w2 : Fin 144 → Fin 32 → EReal) (b2 : Fin 32 → EReal) {i i' j j' : ℕ} {c c' : Fin 32}
    (hi : i = i') (hj : j = j') (hc : c.val = c'.val) : pool2 l w2 b2 i j c = pool2 l w2 b2 i' j' c' := by
  subst hi hj
  rw [Fin.ext hc]

/-- Lane `M = h · 256 + p` of the seven second-layer groups, `p < 224`, holds feature `h · 224 + p`; the idle lanes
    hold zero. -/
theorem featsSpec_eq_feat (l : L1) (w2 : Fin 144 → Fin 32 → EReal) (b2 : Fin 32 → EReal) (M : Fin 1792) :
    featsSpec l w2 b2 M = if h : M.val % 256 < 224 then
      feat l w2 b2 ⟨M.val / 256 * 224 + M.val % 256, by have := M.isLt; omega⟩ else 0 := by
  by_cases h : M.val % 256 < 224
  · rw [dif_pos h, featsSpec, if_pos h, feat]
    refine pool2_congr l w2 b2 ?_ ?_ ?_
    · show M.val / 256 = (M.val / 256 * 224 + M.val % 256) / 224
      omega
    · show M.val % 256 / 32 = (M.val / 256 * 224 + M.val % 256) % 224 / 32
      omega
    · show M.val % 256 % 32 = (M.val / 256 * 224 + M.val % 256) % 32
      omega
  · rw [dif_neg h, featsSpec, if_neg h]

theorem bodyOut_apply (x : Vec Ideal S256x784 .f32) (t1 : Vec Ideal S84x512 .bf16) (b1 : Vec Ideal S1x256 .f32) (t2 : Vec Ideal S768x512 .bf16) (b2 : Vec Ideal S1x256 .f32) (w1 : Vec Ideal S1792x128 .bf16) (fb1 : Vec Ideal S1x128 .f32) (w2 : Vec Ideal S128x128 .bf16) (fb2 : Vec Ideal S1x128 .f32)
    (cw : Fin 9 → Fin 16 → EReal) (cb : Fin 16 → EReal) (cw2 : Fin 144 → Fin 32 → EReal) (cb2 : Fin 32 → EReal) (f1w : Fin 1568 → Fin 128 → EReal) (f1b : Fin 128 → EReal) (f2w : Fin 128 → Fin 128 → EReal) (f2b : Fin 128 → EReal)
    (ht1 : ∀ (k : Fin 84) (l : Fin 512), t1 (ix2 k l) = T1 cw k l) (hb1 : ∀ l : Fin 256, b1 (ix2 (0 : Fin 1) l) = B1 cb l)
    (ht2 : ∀ (k : Fin 768) (c : Fin 512), t2 (ix2 k c) = T2 cw2 k c) (hb2 : ∀ c : Fin 256, b2 (ix2 (0 : Fin 1) c) = B2 cb2 c)
    (hw1 : ∀ (k : Fin 1792) (c : Fin 128), w1 (ix2 k c) = W1p f1w k c) (hfb1 : ∀ c : Fin 128, fb1 (ix2 (0 : Fin 1) c) = f1b c)
    (hw2 : ∀ (k c : Fin 128), w2 (ix2 k c) = f2w k c) (hfb2 : ∀ c : Fin 128, fb2 (ix2 (0 : Fin 1) c) = f2b c)
    (r : Fin 256) (j : Fin 128) :
    bodyOut (F := Ideal) x t1 b1 t2 b2 w1 fb1 w2 fb2 (ix2 r j) = logit ⟨rowImg x r, cw, cb⟩ cw2 cb2 f1w f1b f2w f2b j := by
  unfold bodyOut
  have hff : ∀ M : Fin 1792,
      featsOf (F := Ideal) b2 t2 (grp0 x t1 b1) (grp1 x t1 b1) (grp2 x t1 b1) (grp3 x t1 b1) (grp4 x t1 b1) (grp5 x t1 b1)
        (grp6 x t1 b1) (grp7 x t1 b1) (grp8 x t1 b1) (grp9 x t1 b1) (grp10 x t1 b1) (grp11 x t1 b1) (grp12 x t1 b1)
        (grp13 x t1 b1) (ix2 r M)
      = if h : M.val % 256 < 224 then
          feat ⟨rowImg x r, cw, cb⟩ cw2 cb2 ⟨M.val / 256 * 224 + M.val % 256, by have := M.isLt; omega⟩ else 0 := by
    intro M
    rw [featsOf_apply b2 t2 _ _ _ _ _ _ _ _ _ _ _ _ _ _ ⟨rowImg x r, cw, cb⟩ cw2 cb2 ht2 hb2 r
      (fun L => packed_apply x t1 b1 cw cb ht1 hb1 r L) M]
    exact featsSpec_eq_feat _ cw2 cb2 M
  rw [headOf_apply _ w1 fb1 w2 fb2 (feat ⟨rowImg x r, cw, cb⟩ cw2 cb2) f1w f1b f2w f2b r hff hw1 hfb1 hw2 hfb2 j]
  rfl

end Cert.KernelIdeal.Hand

end
-- ==== Proof.KHostParts.lean ====
/-
  The host lines before the region, cut into the eight stretches @main is printed in: the whole line is the stretches one
  after the other; each line of a stretch allocates nothing and writes exactly one reference, its own result; the
  results' slots follow the nine arguments' in program order, so each stretch's results fill one interval of slots and a
  reference outside that interval passes through the stretch unchanged.
-/
import proofs.«150178_g2000205257289275_pallasbulk_739_9_alg».proof.Proof.Gen.KernelIdeal.Launch
import Idealize.ShloMosaic.Lib.Pipeline.Frame

set_option maxRecDepth 16384
-- one declaration at a time: each stretch's lines are checked against the whole reference table
set_option Elab.async false

noncomputable section

namespace Cert.KernelIdeal.Hand

open Idealize.ShloMosaic Idealize.ShloMosaic.TcCoe
open Cert.KernelIdeal Cert.KernelIdeal.Gen

variable {F : FTy → Type} [FloatOps F]

/-! ## The stretches in turn -/

set_option maxHeartbeats 4000000 in
/-- The host lines before the region are the eight stretches one after the other. -/
theorem hostOps0_split : (hostOps0 : List (HloOp τ sig (Elt F))) = main_part0_ops0 ++ (main_part1_ops0 ++ (main_part2_ops0 ++ (main_part3_ops0
    ++ (main_part4_ops0 ++ (main_part5_ops0 ++ (main_part6_ops0 ++ main_part7_ops0)))))) := rfl

/-- So the contents after them are the contents after the stretches in turn. -/
theorem after_hostOps0 (V : Valuation τ sig (Elt F)) :
    StableHlo.after hostOps0 V = StableHlo.after main_part7_ops0 (StableHlo.after main_part6_ops0 (StableHlo.after main_part5_ops0 (StableHlo.after main_part4_ops0 (StableHlo.after main_part3_ops0 (StableHlo.after main_part2_ops0 (StableHlo.after main_part1_ops0 (StableHlo.after main_part0_ops0 V))))))) := by
  rw [hostOps0_split]
  simp only [StableHlo.after_append]

/-! ## What one line does -/

/-- A line allocates nothing and writes exactly one reference, one of the list `W`. -/
def Own (W : List (Ref sig .tc)) (op : HloOp τ sig (Elt F)) : Prop :=
  op.fresh = ∅ ∧ ∃ y : Ref sig .tc, op.writes = {Proc.devRef (τ := τ) .tc y} ∧ y ∈ W

theorem own_of {W : List (Ref sig .tc)} {op : HloOp τ sig (Elt F)} (y : Ref sig .tc) (hf : op.fresh = ∅)
    (hw : op.writes = {Proc.devRef (τ := τ) .tc y}) (hy : y ∈ W) : Own W op := ⟨hf, y, hw, hy⟩

theorem Own.fresh {W : List (Ref sig .tc)} {op : HloOp τ sig (Elt F)} (h : Own W op) : op.fresh = ∅ := h.1

theorem Own.writes_sub {W : List (Ref sig .tc)} {op : HloOp τ sig (Elt F)} (h : Own W op) :
    op.writes ⊆ (W.map (Proc.devRef (τ := τ) .tc)).toFinset := by
  obtain ⟨_, y, hw, hy⟩ := h
  rw [hw, Finset.singleton_subset_iff, List.mem_toFinset]; exact List.mem_map_of_mem hy

/-! ## Stretch 0 (results in slots 9 … 68) -/

/-- The references stretch 0 writes: each line's own result, in order. -/
abbrev part0_W : List (Ref sig .tc) := [
  main_c, main_c_0, main_c_1, main_c_2, main_c_3, main_c_4, main_c_5, main_c_6, main_c_7, main_c_8, main_c_9, main_c_10,
  main_c_11, main_c_12, main_c_13, main_c_14, main_c_15, main_c_16, main_c_17, main_c_18, main_c_19, main_c_20, main_c_21, main_c_22,
  main_c_23, main_c_24, main_c_25, main_c_26, main_c_27, main_c_28, main_c_29, main_c_30, main_c_31, main_c_32, main_c_33, main_c_34,
  main_c_35, main_c_36, main_c_37, main_c_38, main_c_39, main_c_40, main_c_41, main_c_42, main_c_43, main_c_44, main_c_45, main_c_46,
  main_c_47, main_c_48, main_c_49, main_c_50, main_c_51, main_c_52, main_c_53, main_c_54, main_c_55, main_c_56, main_c_57, main_c_58]

set_option maxHeartbeats 1000000 in
/-- Line by line: nothing allocated, the line's own result written. -/
theorem part0_lines : (main_part0_ops0 : List (HloOp τ sig (Elt F))).Forall (Own part0_W) :=
  ⟨
    own_of main_c rfl rfl (by decide), own_of main_c_0 rfl rfl (by decide), own_of main_c_1 rfl rfl (by decide), own_of main_c_2 rfl rfl (by decide),
    own_of main_c_3 rfl rfl (by decide), own_of main_c_4 rfl rfl (by decide), own_of main_c_5 rfl rfl (by decide), own_of main_c_6 rfl rfl (by decide),
    own_of main_c_7 rfl rfl (by decide), own_of main_c_8 rfl rfl (by decide), own_of main_c_9 rfl rfl (by decide), own_of main_c_10 rfl rfl (by decide),
    own_of main_c_11 rfl rfl (by decide), own_of main_c_12 rfl rfl (by decide), own_of main_c_13 rfl rfl (by decide), own_of main_c_14 rfl rfl (by decide),
    own_of main_c_15 rfl rfl (by decide), own_of main_c_16 rfl rfl (by decide), own_of main_c_17 rfl rfl (by decide), own_of main_c_18 rfl rfl (by decide),
    own_of main_c_19 rfl rfl (by decide), own_of main_c_20 rfl rfl (by decide), own_of main_c_21 rfl rfl (by decide), own_of main_c_22 rfl rfl (by decide),
    own_of main_c_23 rfl rfl (by decide), own_of main_c_24 rfl rfl (by decide), own_of main_c_25 rfl rfl (by decide), own_of main_c_26 rfl rfl (by decide),
    own_of main_c_27 rfl rfl (by decide), own_of main_c_28 rfl rfl (by decide), own_of main_c_29 rfl rfl (by decide), own_of main_c_30 rfl rfl (by decide),
    own_of main_c_31 rfl rfl (by decide), own_of main_c_32 rfl rfl (by decide), own_of main_c_33 rfl rfl (by decide), own_of main_c_34 rfl rfl (by decide),
    own_of main_c_35 rfl rfl (by decide), own_of main_c_36 rfl rfl (by decide), own_of main_c_37 rfl rfl (by decide), own_of main_c_38 rfl rfl (by decide),
    own_of main_c_39 rfl rfl (by decide), own_of main_c_40 rfl rfl (by decide), own_of main_c_41 rfl rfl (by decide), own_of main_c_42 rfl rfl (by decide),
    own_of main_c_43 rfl rfl (by decide), own_of main_c_44 rfl rfl (by decide), own_of main_c_45 rfl rfl (by decide), own_of main_c_46 rfl rfl (by decide),
    own_of main_c_47 rfl rfl (by decide), own_of main_c_48 rfl rfl (by decide), own_of main_c_49 rfl rfl (by decide), own_of main_c_50 rfl rfl (by decide),
    own_of main_c_51 rfl rfl (by decide), own_of main_c_52 rfl rfl (by decide), own_of main_c_53 rfl rfl (by decide), own_of main_c_54 rfl rfl (by decide),
    own_of main_c_55 rfl rfl (by decide), own_of main_c_56 rfl rfl (by decide), own_of main_c_57 rfl rfl (by decide), own_of main_c_58 rfl rfl (by decide)⟩

theorem part0_writes : (main_part0_ops0 : List (HloOp τ sig (Elt F))).Forall fun op => op.writes ⊆ (part0_W.map (Proc.devRef (τ := τ) .tc)).toFinset :=
  part0_lines.imp fun _ h => h.writes_sub

theorem part0_fresh : (main_part0_ops0 : List (HloOp τ sig (Elt F))).Forall fun op => op.fresh = ∅ :=
  part0_lines.imp fun _ h => h.fresh

/-- Their slots are 9 … 68. -/
theorem part0_slots : ∀ y ∈ part0_W, 9 ≤ y.idx.val ∧ y.idx.val < 69 := by decide

/-- A reference stretch 0 does not write passes through it unchanged. -/
theorem after_part0_of (V : Valuation τ sig (Elt F)) (r : Ref sig .tc) (h : r ∉ part0_W) :
    StableHlo.after main_part0_ops0 V (Proc.devRef .tc r) = V (Proc.devRef .tc r) :=
  StableHlo.after_of_writes_sub main_part0_ops0 V part0_writes h

/-- In particular one whose slot is outside 9 … 68. -/
theorem after_part0_of_slot (V : Valuation τ sig (Elt F)) (r : Ref sig .tc) (h : r.idx.val < 9 ∨ 69 ≤ r.idx.val) :
    StableHlo.after main_part0_ops0 V (Proc.devRef .tc r) = V (Proc.devRef .tc r) :=
  after_part0_of V r fun hm => by have := part0_slots r hm; omega

/-! ## Stretch 1 (results in slots 69 … 128) -/

/-- The references stretch 1 writes: each line's own result, in order. -/
abbrev part1_W : List (Ref sig .tc) := [
  main_c_59, main_c_60, main_c_61, main_c_62, main_c_63, main_c_64, main_c_65, main_c_66, main_c_67, main_c_68, main_c_69, main_c_70,
  main_v0, main_cst, main_v1, main_v2, main_v3, main_v4, main_c_71, main_v5, main_v6, main_v7, main_c_72, main_v8,
  main_v9, main_v10, main_c_73, main_v11, main_v12, main_v13, main_v14, main_v15, main_v16, main_v17, main_v18, main_v19,
  main_v20, main_v21, main_c_74, main_v22, main_v23, main_v24, main_c_75, main_v25, main_v26, main_v27, main_c_76, main_v28,
  main_v29, main_v30, main_v31, main_v32, main_v33, main_v34, main_v35, main_v36, main_v37, main_v38, main_c_77, main_v39]

set_option maxHeartbeats 1000000 in
/-- Line by line: nothing allocated, the line's own result written. -/
theorem part1_lines : (main_part1_ops0 : List (HloOp τ sig (Elt F))).Forall (Own part1_W) :=
  ⟨
    own_of main_c_59 rfl rfl (by decide), own_of main_c_60 rfl rfl (by decide), own_of main_c_61 rfl rfl (by decide), own_of main_c_62 rfl rfl (by decide),
    own_of main_c_63 rfl rfl (by decide), own_of main_c_64 rfl rfl (by decide), own_of main_c_65 rfl rfl (by decide), own_of main_c_66 rfl rfl (by decide),
    own_of main_c_67 rfl rfl (by decide), own_of main_c_68 rfl rfl (by decide), own_of main_c_69 rfl rfl (by decide), own_of main_c_70 rfl rfl (by decide),
    own_of main_v0 rfl rfl (by decide), own_of main_cst rfl rfl (by decide), own_of main_v1 rfl rfl (by decide), own_of main_v2 rfl rfl (by decide),
    own_of main_v3 rfl rfl (by decide), own_of main_v4 rfl rfl (by decide), own_of main_c_71 rfl rfl (by decide), own_of main_v5 rfl rfl (by decide),
    own_of main_v6 rfl rfl (by decide), own_of main_v7 rfl rfl (by decide), own_of main_c_72 rfl rfl (by decide), own_of main_v8 rfl rfl (by decide),
    own_of main_v9 rfl rfl (by decide), own_of main_v10 rfl rfl (by decide), own_of main_c_73 rfl rfl (by decide), own_of main_v11 rfl rfl (by decide),
    own_of main_v12 rfl rfl (by decide), own_of main_v13 rfl rfl (by decide), own_of main_v14 rfl rfl (by decide), own_of main_v15 rfl rfl (by decide),
    own_of main_v16 rfl rfl (by decide), own_of main_v17 rfl rfl (by decide), own_of main_v18 rfl rfl (by decide), own_of main_v19 rfl rfl (by decide),
    own_of main_v20 rfl rfl (by decide), own_of main_v21 rfl rfl (by decide), own_of main_c_74 rfl rfl (by decide), own_of main_v22 rfl rfl (by decide),
    own_of main_v23 rfl rfl (by decide), own_of main_v24 rfl rfl (by decide), own_of main_c_75 rfl rfl (by decide), own_of main_v25 rfl rfl (by decide),
    own_of main_v26 rfl rfl (by decide), own_of main_v27 rfl rfl (by decide), own_of main_c_76 rfl rfl (by decide), own_of main_v28 rfl rfl (by decide),
    own_of main_v29 rfl rfl (by decide), own_of main_v30 rfl rfl (by decide), own_of main_v31 rfl rfl (by decide), own_of main_v32 rfl rfl (by decide),
    own_of main_v33 rfl rfl (by decide), own_of main_v34 rfl rfl (by decide), own_of main_v35 rfl rfl (by decide), own_of main_v36 rfl rfl (by decide),
    own_of main_v37 rfl rfl (by decide), own_of main_v38 rfl rfl (by decide), own_of main_c_77 rfl rfl (by decide), own_of main_v39 rfl rfl (by decide)⟩

theorem part1_writes : (main_part1_ops0 : List (HloOp τ sig (Elt F))).Forall fun op => op.writes ⊆ (part1_W.map (Proc.devRef (τ := τ) .tc)).toFinset :=
  part1_lines.imp fun _ h => h.writes_sub

theorem part1_fresh : (main_part1_ops0 : List (HloOp τ sig (Elt F))).Forall fun op => op.fresh = ∅ :=
  part1_lines.imp fun _ h => h.fresh

/-- Their slots are 69 … 128. -/
theorem part1_slots : ∀ y ∈ part1_W, 69 ≤ y.idx.val ∧ y.idx.val < 129 := by decide

/-- A reference stretch 1 does not write passes through it unchanged. -/
theorem after_part1_of (V : Valuation τ sig (Elt F)) (r : Ref sig .tc) (h : r ∉ part1_W) :
    StableHlo.after main_part1_ops0 V (Proc.devRef .tc r) = V (Proc.devRef .tc r) :=
  StableHlo.after_of_writes_sub main_part1_ops0 V part1_writes h

/-- In particular one whose slot is outside 69 … 128. -/
theorem after_part1_of_slot (V : Valuation τ sig (Elt F)) (r : Ref sig .tc) (h : r.idx.val < 69 ∨ 129 ≤ r.idx.val) :
    StableHlo.after main_part1_ops0 V (Proc.devRef .tc r) = V (Proc.devRef .tc r) :=
  after_part1_of V r fun hm => by have := part1_slots r hm; omega

/-! ## Stretch 2 (results in slots 129 … 188) -/

/-- The references stretch 2 writes: each line's own result, in order. -/
abbrev part2_W : List (Ref sig .tc) := [
  main_v40, main_v41, main_c_78, main_v42, main_v43, main_v44, main_c_79, main_v45, main_v46, main_v47, main_v48, main_v49,
  main_v50, main_v51, main_v52, main_v53, main_v54, main_v55, main_c_80, main_v56, main_v57, main_v58, main_c_81, main_v59,
  main_v60, main_v61, main_c_82, main_v62, main_v63, main_v64, main_v65, main_v66, main_v67, main_v68, main_v69, main_v70,
  main_v71, main_v72, main_c_83, main_v73, main_v74, main_v75, main_c_84, main_v76, main_v77, main_v78, main_c_85, main_v79,
  main_v80, main_v81, main_v82, main_v83, main_v84, main_v85, main_v86, main_v87, main_v88, main_v89, main_c_86, main_v90]

set_option maxHeartbeats 1000000 in
/-- Line by line: nothing allocated, the line's own result written. -/
theorem part2_lines : (main_part2_ops0 : List (HloOp τ sig (Elt F))).Forall (Own part2_W) :=
  ⟨
    own_of main_v40 rfl rfl (by decide), own_of main_v41 rfl rfl (by decide), own_of main_c_78 rfl rfl (by decide), own_of main_v42 rfl rfl (by decide),
    own_of main_v43 rfl rfl (by decide), own_of main_v44 rfl rfl (by decide), own_of main_c_79 rfl rfl (by decide), own_of main_v45 rfl rfl (by decide),
    own_of main_v46 rfl rfl (by decide), own_of main_v47 rfl rfl (by decide), own_of main_v48 rfl rfl (by decide), own_of main_v49 rfl rfl (by decide),
    own_of main_v50 rfl rfl (by decide), own_of main_v51 rfl rfl (by decide), own_of main_v52 rfl rfl (by decide), own_of main_v53 rfl rfl (by decide),
    own_of main_v54 rfl rfl (by decide), own_of main_v55 rfl rfl (by decide), own_of main_c_80 rfl rfl (by decide), own_of main_v56 rfl rfl (by decide),
    own_of main_v57 rfl rfl (by decide), own_of main_v58 rfl rfl (by decide), own_of main_c_81 rfl rfl (by decide), own_of main_v59 rfl rfl (by decide),
    own_of main_v60 rfl rfl (by decide), own_of main_v61 rfl rfl (by decide), own_of main_c_82 rfl rfl (by decide), own_of main_v62 rfl rfl (by decide),
    own_of main_v63 rfl rfl (by decide), own_of main_v64 rfl rfl (by decide), own_of main_v65 rfl rfl (by decide), own_of main_v66 rfl rfl (by decide),
    own_of main_v67 rfl rfl (by decide), own_of main_v68 rfl rfl (by decide), own_of main_v69 rfl rfl (by decide), own_of main_v70 rfl rfl (by decide),
    own_of main_v71 rfl rfl (by decide), own_of main_v72 rfl rfl (by decide), own_of main_c_83 rfl rfl (by decide), own_of main_v73 rfl rfl (by decide),
    own_of main_v74 rfl rfl (by decide), own_of main_v75 rfl rfl (by decide), own_of main_c_84 rfl rfl (by decide), own_of main_v76 rfl rfl (by decide),
    own_of main_v77 rfl rfl (by decide), own_of main_v78 rfl rfl (by decide), own_of main_c_85 rfl rfl (by decide), own_of main_v79 rfl rfl (by decide),
    own_of main_v80 rfl rfl (by decide), own_of main_v81 rfl rfl (by decide), own_of main_v82 rfl rfl (by decide), own_of main_v83 rfl rfl (by decide),
    own_of main_v84 rfl rfl (by decide), own_of main_v85 rfl rfl (by decide), own_of main_v86 rfl rfl (by decide), own_of main_v87 rfl rfl (by decide),
    own_of main_v88 rfl rfl (by decide), own_of main_v89 rfl rfl (by decide), own_of main_c_86 rfl rfl (by decide), own_of main_v90 rfl rfl (by decide)⟩

theorem part2_writes : (main_part2_ops0 : List (HloOp τ sig (Elt F))).Forall fun op => op.writes ⊆ (part2_W.map (Proc.devRef (τ := τ) .tc)).toFinset :=
  part2_lines.imp fun _ h => h.writes_sub

theorem part2_fresh : (main_part2_ops0 : List (HloOp τ sig (Elt F))).Forall fun op => op.fresh = ∅ :=
  part2_lines.imp fun _ h => h.fresh

/-- Their slots are 129 … 188. -/
theorem part2_slots : ∀ y ∈ part2_W, 129 ≤ y.idx.val ∧ y.idx.val < 189 := by decide

/-- A reference stretch 2 does not write passes through it unchanged. -/
theorem after_part2_of (V : Valuation τ sig (Elt F)) (r : Ref sig .tc) (h : r ∉ part2_W) :
    StableHlo.after main_part2_ops0 V (Proc.devRef .tc r) = V (Proc.devRef .tc r) :=
  StableHlo.after_of_writes_sub main_part2_ops0 V part2_writes h

/-- In particular one whose slot is outside 129 … 188. -/
theorem after_part2_of_slot (V : Valuation τ sig (Elt F)) (r : Ref sig .tc) (h : r.idx.val < 129 ∨ 189 ≤ r.idx.val) :
    StableHlo.after main_part2_ops0 V (Proc.devRef .tc r) = V (Proc.devRef .tc r) :=
  after_part2_of V r fun hm => by have := part2_slots r hm; omega

/-! ## Stretch 3 (results in slots 189 … 248) -/

/-- The references stretch 3 writes: each line's own result, in order. -/
abbrev part3_W : List (Ref sig .tc) := [
  main_v91, main_v92, main_c_87, main_v93, main_v94, main_v95, main_c_88, main_v96, main_v97, main_v98, main_v99, main_v100,
  main_v101, main_v102, main_v103, main_v104, main_v105, main_v106, main_c_89, main_v107, main_v108, main_v109, main_c_90, main_v110,
  main_v111, main_v112, main_c_91, main_v113, main_v114, main_v115, main_v116, main_v117, main_v118, main_v119, main_v120, main_v121,
  main_v122, main_v123, main_c_92, main_v124, main_v125, main_v126, main_c_93, main_v127, main_v128, main_v129, main_c_94, main_v130,
  main_v131, main_v132, main_v133, main_v134, main_v135, main_v136, main_v137, main_v138, main_v139, main_v140, main_c_95, main_v141]

set_option maxHeartbeats 1000000 in
/-- Line by line: nothing allocated, the line's own result written. -/
theorem part3_lines : (main_part3_ops0 : List (HloOp τ sig (Elt F))).Forall (Own part3_W) :=
  ⟨
    own_of main_v91 rfl rfl (by decide), own_of main_v92 rfl rfl (by decide), own_of main_c_87 rfl rfl (by decide), own_of main_v93 rfl rfl (by decide),
    own_of main_v94 rfl rfl (by decide), own_of main_v95 rfl rfl (by decide), own_of main_c_88 rfl rfl (by decide), own_of main_v96 rfl rfl (by decide),
    own_of main_v97 rfl rfl (by decide), own_of main_v98 rfl rfl (by decide), own_of main_v99 rfl rfl (by decide), own_of main_v100 rfl rfl (by decide),
    own_of main_v101 rfl rfl (by decide), own_of main_v102 rfl rfl (by decide), own_of main_v103 rfl rfl (by decide), own_of main_v104 rfl rfl (by decide),
    own_of main_v105 rfl rfl (by decide), own_of main_v106 rfl rfl (by decide), own_of main_c_89 rfl rfl (by decide), own_of main_v107 rfl rfl (by decide),
    own_of main_v108 rfl rfl (by decide), own_of main_v109 rfl rfl (by decide), own_of main_c_90 rfl rfl (by decide), own_of main_v110 rfl rfl (by decide),
    own_of main_v111 rfl rfl (by decide), own_of main_v112 rfl rfl (by decide), own_of main_c_91 rfl rfl (by decide), own_of main_v113 rfl rfl (by decide),
    own_of main_v114 rfl rfl (by decide), own_of main_v115 rfl rfl (by decide), own_of main_v116 rfl rfl (by decide), own_of main_v117 rfl rfl (by decide),
    own_of main_v118 rfl rfl (by decide), own_of main_v119 rfl rfl (by decide), own_of main_v120 rfl rfl (by decide), own_of main_v121 rfl rfl (by decide),
    own_of main_v122 rfl rfl (by decide), own_of main_v123 rfl rfl (by decide), own_of main_c_92 rfl rfl (by decide), own_of main_v124 rfl rfl (by decide),
    own_of main_v125 rfl rfl (by decide), own_of main_v126 rfl rfl (by decide), own_of main_c_93 rfl rfl (by decide), own_of main_v127 rfl rfl (by decide),
    own_of main_v128 rfl rfl (by decide), own_of main_v129 rfl rfl (by decide), own_of main_c_94 rfl rfl (by decide), own_of main_v130 rfl rfl (by decide),
    own_of main_v131 rfl rfl (by decide), own_of main_v132 rfl rfl (by decide), own_of main_v133 rfl rfl (by decide), own_of main_v134 rfl rfl (by decide),
    own_of main_v135 rfl rfl (by decide), own_of main_v136 rfl rfl (by decide), own_of main_v137 rfl rfl (by decide), own_of main_v138 rfl rfl (by decide),
    own_of main_v139 rfl rfl (by decide), own_of main_v140 rfl rfl (by decide), own_of main_c_95 rfl rfl (by decide), own_of main_v141 rfl rfl (by decide)⟩

theorem part3_writes : (main_part3_ops0 : List (HloOp τ sig (Elt F))).Forall fun op => op.writes ⊆ (part3_W.map (Proc.devRef (τ := τ) .tc)).toFinset :=
  part3_lines.imp fun _ h => h.writes_sub

theorem part3_fresh : (main_part3_ops0 : List (HloOp τ sig (Elt F))).Forall fun op => op.fresh = ∅ :=
  part3_lines.imp fun _ h => h.fresh

/-- Their slots are 189 … 248. -/
theorem part3_slots : ∀ y ∈ part3_W, 189 ≤ y.idx.val ∧ y.idx.val < 249 := by decide

/-- A reference stretch 3 does not write passes through it unchanged. -/
theorem after_part3_of (V : Valuation τ sig (Elt F)) (r : Ref sig .tc) (h : r ∉ part3_W) :
    StableHlo.after main_part3_ops0 V (Proc.devRef .tc r) = V (Proc.devRef .tc r) :=
  StableHlo.after_of_writes_sub main_part3_ops0 V part3_writes h

/-- In particular one whose slot is outside 189 … 248. -/
theorem after_part3_of_slot (V : Valuation τ sig (Elt F)) (r : Ref sig .tc) (h : r.idx.val < 189 ∨ 249 ≤ r.idx.val) :
    StableHlo.after main_part3_ops0 V (Proc.devRef .tc r) = V (Proc.devRef .tc r) :=
  after_part3_of V r fun hm => by have := part3_slots r hm; omega

/-! ## Stretch 4 (results in slots 249 … 308) -/

/-- The references stretch 4 writes: each line's own result, in order. -/
abbrev part4_W : List (Ref sig .tc) := [
  main_v142, main_v143, main_c_96, main_v144, main_v145, main_v146, main_c_97, main_v147, main_v148, main_v149, main_v150, main_v151,
  main_v152, main_v153, main_v154, main_v155, main_v156, main_cst_98, main_v157, main_v158, main_v159, main_c_99, main_v160, main_v161,
  main_v162, main_c_100, main_v163, main_v164, main_v165, main_c_101, main_v166, main_v167, main_v168, main_v169, main_v170, main_v171,
  main_v172, main_v173, main_v174, main_v175, main_v176, main_c_102, main_v177, main_v178, main_v179, main_c_103, main_v180, main_v181,
  main_v182, main_c_104, main_v183, main_v184, main_v185, main_v186, main_v187, main_v188, main_v189, main_v190, main_v191, main_v192]

set_option maxHeartbeats 1000000 in
/-- Line by line: nothing allocated, the line's own result written. -/
theorem part4_lines : (main_part4_ops0 : List (HloOp τ sig (Elt F))).Forall (Own part4_W) :=
  ⟨
    own_of main_v142 rfl rfl (by decide), own_of main_v143 rfl rfl (by decide), own_of main_c_96 rfl rfl (by decide), own_of main_v144 rfl rfl (by decide),
    own_of main_v145 rfl rfl (by decide), own_of main_v146 rfl rfl (by decide), own_of main_c_97 rfl rfl (by decide), own_of main_v147 rfl rfl (by decide),
    own_of main_v148 rfl rfl (by decide), own_of main_v149 rfl rfl (by decide), own_of main_v150 rfl rfl (by decide), own_of main_v151 rfl rfl (by decide),
    own_of main_v152 rfl rfl (by decide), own_of main_v153 rfl rfl (by decide), own_of main_v154 rfl rfl (by decide), own_of main_v155 rfl rfl (by decide),
    own_of main_v156 rfl rfl (by decide), own_of main_cst_98 rfl rfl (by decide), own_of main_v157 rfl rfl (by decide), own_of main_v158 rfl rfl (by decide),
    own_of main_v159 rfl rfl (by decide), own_of main_c_99 rfl rfl (by decide), own_of main_v160 rfl rfl (by decide), own_of main_v161 rfl rfl (by decide),
    own_of main_v162 rfl rfl (by decide), own_of main_c_100 rfl rfl (by decide), own_of main_v163 rfl rfl (by decide), own_of main_v164 rfl rfl (by decide),
    own_of main_v165 rfl rfl (by decide), own_of main_c_101 rfl rfl (by decide), own_of main_v166 rfl rfl (by decide), own_of main_v167 rfl rfl (by decide),
    own_of main_v168 rfl rfl (by decide), own_of main_v169 rfl rfl (by decide), own_of main_v170 rfl rfl (by decide), own_of main_v171 rfl rfl (by decide),
    own_of main_v172 rfl rfl (by decide), own_of main_v173 rfl rfl (by decide), own_of main_v174 rfl rfl (by decide), own_of main_v175 rfl rfl (by decide),
    own_of main_v176 rfl rfl (by decide), own_of main_c_102 rfl rfl (by decide), own_of main_v177 rfl rfl (by decide), own_of main_v178 rfl rfl (by decide),
    own_of main_v179 rfl rfl (by decide), own_of main_c_103 rfl rfl (by decide), own_of main_v180 rfl rfl (by decide), own_of main_v181 rfl rfl (by decide),
    own_of main_v182 rfl rfl (by decide), own_of main_c_104 rfl rfl (by decide), own_of main_v183 rfl rfl (by decide), own_of main_v184 rfl rfl (by decide),
    own_of main_v185 rfl rfl (by decide), own_of main_v186 rfl rfl (by decide), own_of main_v187 rfl rfl (by decide), own_of main_v188 rfl rfl (by decide),
    own_of main_v189 rfl rfl (by decide), own_of main_v190 rfl rfl (by decide), own_of main_v191 rfl rfl (by decide), own_of main_v192 rfl rfl (by decide)⟩

theorem part4_writes : (main_part4_ops0 : List (HloOp τ sig (Elt F))).Forall fun op => op.writes ⊆ (part4_W.map (Proc.devRef (τ := τ) .tc)).toFinset :=
  part4_lines.imp fun _ h => h.writes_sub

theorem part4_fresh : (main_part4_ops0 : List (HloOp τ sig (Elt F))).Forall fun op => op.fresh = ∅ :=
  part4_lines.imp fun _ h => h.fresh

/-- Their slots are 249 … 308. -/
theorem part4_slots : ∀ y ∈ part4_W, 249 ≤ y.idx.val ∧ y.idx.val < 309 := by decide

/-- A reference stretch 4 does not write passes through it unchanged. -/
theorem after_part4_of (V : Valuation τ sig (Elt F)) (r : Ref sig .tc) (h : r ∉ part4_W) :
    StableHlo.after main_part4_ops0 V (Proc.devRef .tc r) = V (Proc.devRef .tc r) :=
  StableHlo.after_of_writes_sub main_part4_ops0 V part4_writes h

/-- In particular one whose slot is outside 249 … 308. -/
theorem after_part4_of_slot (V : Valuation τ sig (Elt F)) (r : Ref sig .tc) (h : r.idx.val < 249 ∨ 309 ≤ r.idx.val) :
    StableHlo.after main_part4_ops0 V (Proc.devRef .tc r) = V (Proc.devRef .tc r) :=
  after_part4_of V r fun hm => by have := part4_slots r hm; omega

/-! ## Stretch 5 (results in slots 309 … 368) -/

/-- The references stretch 5 writes: each line's own result, in order. -/
abbrev part5_W : List (Ref sig .tc) := [
  main_v193, main_c_105, main_v194, main_v195, main_v196, main_c_106, main_v197, main_v198, main_v199, main_c_107, main_v200, main_v201,
  main_v202, main_v203, main_v204, main_v205, main_v206, main_v207, main_v208, main_v209, main_v210, main_c_108, main_v211, main_v212,
  main_v213, main_c_109, main_v214, main_v215, main_v216, main_c_110, main_v217, main_v218, main_v219, main_v220, main_v221, main_v222,
  main_v223, main_v224, main_v225, main_v226, main_v227, main_c_111, main_v228, main_v229, main_v230, main_c_112, main_v231, main_v232,
  main_v233, main_c_113, main_v234, main_v235, main_v236, main_v237, main_v238, main_v239, main_v240, main_v241, main_v242, main_v243]

set_option maxHeartbeats 1000000 in
/-- Line by line: nothing allocated, the line's own result written. -/
theorem part5_lines : (main_part5_ops0 : List (HloOp τ sig (Elt F))).Forall (Own part5_W) :=
  ⟨
    own_of main_v193 rfl rfl (by decide), own_of main_c_105 rfl rfl (by decide), own_of main_v194 rfl rfl (by decide), own_of main_v195 rfl rfl (by decide),
    own_of main_v196 rfl rfl (by decide), own_of main_c_106 rfl rfl (by decide), own_of main_v197 rfl rfl (by decide), own_of main_v198 rfl rfl (by decide),
    own_of main_v199 rfl rfl (by decide), own_of main_c_107 rfl rfl (by decide), own_of main_v200 rfl rfl (by decide), own_of main_v201 rfl rfl (by decide),
    own_of main_v202 rfl rfl (by decide), own_of main_v203 rfl rfl (by decide), own_of main_v204 rfl rfl (by decide), own_of main_v205 rfl rfl (by decide),
    own_of main_v206 rfl rfl (by decide), own_of main_v207 rfl rfl (by decide), own_of main_v208 rfl rfl (by decide), own_of main_v209 rfl rfl (by decide),
    own_of main_v210 rfl rfl (by decide), own_of main_c_108 rfl rfl (by decide), own_of main_v211 rfl rfl (by decide), own_of main_v212 rfl rfl (by decide),
    own_of main_v213 rfl rfl (by decide), own_of main_c_109 rfl rfl (by decide), own_of main_v214 rfl rfl (by decide), own_of main_v215 rfl rfl (by decide),
    own_of main_v216 rfl rfl (by decide), own_of main_c_110 rfl rfl (by decide), own_of main_v217 rfl rfl (by decide), own_of main_v218 rfl rfl (by decide),
    own_of main_v219 rfl rfl (by decide), own_of main_v220 rfl rfl (by decide), own_of main_v221 rfl rfl (by decide), own_of main_v222 rfl rfl (by decide),
    own_of main_v223 rfl rfl (by decide), own_of main_v224 rfl rfl (by decide), own_of main_v225 rfl rfl (by decide), own_of main_v226 rfl rfl (by decide),
    own_of main_v227 rfl rfl (by decide), own_of main_c_111 rfl rfl (by decide), own_of main_v228 rfl rfl (by decide), own_of main_v229 rfl rfl (by decide),
    own_of main_v230 rfl rfl (by decide), own_of main_c_112 rfl rfl (by decide), own_of main_v231 rfl rfl (by decide), own_of main_v232 rfl rfl (by decide),
    own_of main_v233 rfl rfl (by decide), own_of main_c_113 rfl rfl (by decide), own_of main_v234 rfl rfl (by decide), own_of main_v235 rfl rfl (by decide),
    own_of main_v236 rfl rfl (by decide), own_of main_v237 rfl rfl (by decide), own_of main_v238 rfl rfl (by decide), own_of main_v239 rfl rfl (by decide),
    own_of main_v240 rfl rfl (by decide), own_of main_v241 rfl rfl (by decide), own_of main_v242 rfl rfl (by decide), own_of main_v243 rfl rfl (by decide)⟩

theorem part5_writes : (main_part5_ops0 : List (HloOp τ sig (Elt F))).Forall fun op => op.writes ⊆ (part5_W.map (Proc.devRef (τ := τ) .tc)).toFinset :=
  part5_lines.imp fun _ h => h.writes_sub

theorem part5_fresh : (main_part5_ops0 : List (HloOp τ sig (Elt F))).Forall fun op => op.fresh = ∅ :=
  part5_lines.imp fun _ h => h.fresh

/-- Their slots are 309 … 368. -/
theorem part5_slots : ∀ y ∈ part5_W, 309 ≤ y.idx.val ∧ y.idx.val < 369 := by decide

/-- A reference stretch 5 does not write passes through it unchanged. -/
theorem after_part5_of (V : Valuation τ sig (Elt F)) (r : Ref sig .tc) (h : r ∉ part5_W) :
    StableHlo.after main_part5_ops0 V (Proc.devRef .tc r) = V (Proc.devRef .tc r) :=
  StableHlo.after_of_writes_sub main_part5_ops0 V part5_writes h

/-- In particular one whose slot is outside 309 … 368. -/
theorem after_part5_of_slot (V : Valuation τ sig (Elt F)) (r : Ref sig .tc) (h : r.idx.val < 309 ∨ 369 ≤ r.idx.val) :
    StableHlo.after main_part5_ops0 V (Proc.devRef .tc r) = V (Proc.devRef .tc r) :=
  after_part5_of V r fun hm => by have := part5_slots r hm; omega

/-! ## Stretch 6 (results in slots 369 … 428) -/

/-- The references stretch 6 writes: each line's own result, in order. -/
abbrev part6_W : List (Ref sig .tc) := [
  main_v244, main_c_114, main_v245, main_v246, main_v247, main_c_115, main_v248, main_v249, main_v250, main_c_116, main_v251, main_v252,
  main_v253, main_v254, main_v255, main_v256, main_v257, main_v258, main_v259, main_v260, main_v261, main_c_117, main_v262, main_v263,
  main_v264, main_c_118, main_v265, main_v266, main_v267, main_c_119, main_v268, main_v269, main_v270, main_v271, main_v272, main_v273,
  main_v274, main_v275, main_v276, main_v277, main_v278, main_c_120, main_v279, main_v280, main_v281, main_c_121, main_v282, main_v283,
  main_v284, main_c_122, main_v285, main_v286, main_v287, main_v288, main_v289, main_v290, main_v291, main_v292, main_v293, main_v294]

set_option maxHeartbeats 1000000 in
/-- Line by line: nothing allocated, the line's own result written. -/
theorem part6_lines : (main_part6_ops0 : List (HloOp τ sig (Elt F))).Forall (Own part6_W) :=
  ⟨
    own_of main_v244 rfl rfl (by decide), own_of main_c_114 rfl rfl (by decide), own_of main_v245 rfl rfl (by decide), own_of main_v246 rfl rfl (by decide),
    own_of main_v247 rfl rfl (by decide), own_of main_c_115 rfl rfl (by decide), own_of main_v248 rfl rfl (by decide), own_of main_v249 rfl rfl (by decide),
    own_of main_v250 rfl rfl (by decide), own_of main_c_116 rfl rfl (by decide), own_of main_v251 rfl rfl (by decide), own_of main_v252 rfl rfl (by decide),
    own_of main_v253 rfl rfl (by decide), own_of main_v254 rfl rfl (by decide), own_of main_v255 rfl rfl (by decide), own_of main_v256 rfl rfl (by decide),
    own_of main_v257 rfl rfl (by decide), own_of main_v258 rfl rfl (by decide), own_of main_v259 rfl rfl (by decide), own_of main_v260 rfl rfl (by decide),
    own_of main_v261 rfl rfl (by decide), own_of main_c_117 rfl rfl (by decide), own_of main_v262 rfl rfl (by decide), own_of main_v263 rfl rfl (by decide),
    own_of main_v264 rfl rfl (by decide), own_of main_c_118 rfl rfl (by decide), own_of main_v265 rfl rfl (by decide), own_of main_v266 rfl rfl (by decide),
    own_of main_v267 rfl rfl (by decide), own_of main_c_119 rfl rfl (by decide), own_of main_v268 rfl rfl (by decide), own_of main_v269 rfl rfl (by decide),
    own_of main_v270 rfl rfl (by decide), own_of main_v271 rfl rfl (by decide), own_of main_v272 rfl rfl (by decide), own_of main_v273 rfl rfl (by decide),
    own_of main_v274 rfl rfl (by decide), own_of main_v275 rfl rfl (by decide), own_of main_v276 rfl rfl (by decide), own_of main_v277 rfl rfl (by decide),
    own_of main_v278 rfl rfl (by decide), own_of main_c_120 rfl rfl (by decide), own_of main_v279 rfl rfl (by decide), own_of main_v280 rfl rfl (by decide),
    own_of main_v281 rfl rfl (by decide), own_of main_c_121 rfl rfl (by decide), own_of main_v282 rfl rfl (by decide), own_of main_v283 rfl rfl (by decide),
    own_of main_v284 rfl rfl (by decide), own_of main_c_122 rfl rfl (by decide), own_of main_v285 rfl rfl (by decide), own_of main_v286 rfl rfl (by decide),
    own_of main_v287 rfl rfl (by decide), own_of main_v288 rfl rfl (by decide), own_of main_v289 rfl rfl (by decide), own_of main_v290 rfl rfl (by decide),
    own_of main_v291 rfl rfl (by decide), own_of main_v292 rfl rfl (by decide), own_of main_v293 rfl rfl (by decide), own_of main_v294 rfl rfl (by decide)⟩

theorem part6_writes : (main_part6_ops0 : List (HloOp τ sig (Elt F))).Forall fun op => op.writes ⊆ (part6_W.map (Proc.devRef (τ := τ) .tc)).toFinset :=
  part6_lines.imp fun _ h => h.writes_sub

theorem part6_fresh : (main_part6_ops0 : List (HloOp τ sig (Elt F))).Forall fun op => op.fresh = ∅ :=
  part6_lines.imp fun _ h => h.fresh

/-- Their slots are 369 … 428. -/
theorem part6_slots : ∀ y ∈ part6_W, 369 ≤ y.idx.val ∧ y.idx.val < 429 := by decide

/-- A reference stretch 6 does not write passes through it unchanged. -/
theorem after_part6_of (V : Valuation τ sig (Elt F)) (r : Ref sig .tc) (h : r ∉ part6_W) :
    StableHlo.after main_part6_ops0 V (Proc.devRef .tc r) = V (Proc.devRef .tc r) :=
  StableHlo.after_of_writes_sub main_part6_ops0 V part6_writes h

/-- In particular one whose slot is outside 369 … 428. -/
theorem after_part6_of_slot (V : Valuation τ sig (Elt F)) (r : Ref sig .tc) (h : r.idx.val < 369 ∨ 429 ≤ r.idx.val) :
    StableHlo.after main_part6_ops0 V (Proc.devRef .tc r) = V (Proc.devRef .tc r) :=
  after_part6_of V r fun hm => by have := part6_slots r hm; omega

/-! ## Stretch 7 (results in slots 429 … 472) -/

/-- The references stretch 7 writes: each line's own result, in order. -/
abbrev part7_W : List (Ref sig .tc) := [
  main_v295, main_c_123, main_v296, main_v297, main_v298, main_c_124, main_v299, main_v300, main_v301, main_c_125, main_v302, main_v303,
  main_v304, main_v305, main_v306, main_v307, main_v308, main_v309, main_v310, main_v311, main_v312, main_v313, main_v314, main_v315,
  main_cst_126, main_v316, main_v317, main_v318, main_v319, main_v320, main_v321, main_cst_127, main_v322, main_v323, main_v324, main_v325,
  main_cst_128, main_v326, main_v327, main_v328, main_v329, main_v330, main_v331, main_v332]

set_option maxHeartbeats 1000000 in
/-- Line by line: nothing allocated, the line's own result written. -/
theorem part7_lines : (main_part7_ops0 : List (HloOp τ sig (Elt F))).Forall (Own part7_W) :=
  ⟨
    own_of main_v295 rfl rfl (by decide), own_of main_c_123 rfl rfl (by decide), own_of main_v296 rfl rfl (by decide), own_of main_v297 rfl rfl (by decide),
    own_of main_v298 rfl rfl (by decide), own_of main_c_124 rfl rfl (by decide), own_of main_v299 rfl rfl (by decide), own_of main_v300 rfl rfl (by decide),
    own_of main_v301 rfl rfl (by decide), own_of main_c_125 rfl rfl (by decide), own_of main_v302 rfl rfl (by decide), own_of main_v303 rfl rfl (by decide),
    own_of main_v304 rfl rfl (by decide), own_of main_v305 rfl rfl (by decide), own_of main_v306 rfl rfl (by decide), own_of main_v307 rfl rfl (by decide),
    own_of main_v308 rfl rfl (by decide), own_of main_v309 rfl rfl (by decide), own_of main_v310 rfl rfl (by decide), own_of main_v311 rfl rfl (by decide),
    own_of main_v312 rfl rfl (by decide), own_of main_v313 rfl rfl (by decide), own_of main_v314 rfl rfl (by decide), own_of main_v315 rfl rfl (by decide),
    own_of main_cst_126 rfl rfl (by decide), own_of main_v316 rfl rfl (by decide), own_of main_v317 rfl rfl (by decide), own_of main_v318 rfl rfl (by decide),
    own_of main_v319 rfl rfl (by decide), own_of main_v320 rfl rfl (by decide), own_of main_v321 rfl rfl (by decide), own_of main_cst_127 rfl rfl (by decide),
    own_of main_v322 rfl rfl (by decide), own_of main_v323 rfl rfl (by decide), own_of main_v324 rfl rfl (by decide), own_of main_v325 rfl rfl (by decide),
    own_of main_cst_128 rfl rfl (by decide), own_of main_v326 rfl rfl (by decide), own_of main_v327 rfl rfl (by decide), own_of main_v328 rfl rfl (by decide),
    own_of main_v329 rfl rfl (by decide), own_of main_v330 rfl rfl (by decide), own_of main_v331 rfl rfl (by decide), own_of main_v332 rfl rfl (by decide)⟩

theorem part7_writes : (main_part7_ops0 : List (HloOp τ sig (Elt F))).Forall fun op => op.writes ⊆ (part7_W.map (Proc.devRef (τ := τ) .tc)).toFinset :=
  part7_lines.imp fun _ h => h.writes_sub

theorem part7_fresh : (main_part7_ops0 : List (HloOp τ sig (Elt F))).Forall fun op => op.fresh = ∅ :=
  part7_lines.imp fun _ h => h.fresh

/-- Their slots are 429 … 472. -/
theorem part7_slots : ∀ y ∈ part7_W, 429 ≤ y.idx.val ∧ y.idx.val < 473 := by decide

/-- A reference stretch 7 does not write passes through it unchanged. -/
theorem after_part7_of (V : Valuation τ sig (Elt F)) (r : Ref sig .tc) (h : r ∉ part7_W) :
    StableHlo.after main_part7_ops0 V (Proc.devRef .tc r) = V (Proc.devRef .tc r) :=
  StableHlo.after_of_writes_sub main_part7_ops0 V part7_writes h

/-- In particular one whose slot is outside 429 … 472. -/
theorem after_part7_of_slot (V : Valuation τ sig (Elt F)) (r : Ref sig .tc) (h : r.idx.val < 429 ∨ 473 ≤ r.idx.val) :
    StableHlo.after main_part7_ops0 V (Proc.devRef .tc r) = V (Proc.devRef .tc r) :=
  after_part7_of V r fun hm => by have := part7_slots r hm; omega

/-! ## All the host lines before the region -/

/-- None of them allocates. -/
theorem hostOps0_fresh : (hostOps0 : List (HloOp τ sig (Elt F))).Forall fun op => op.fresh = ∅ := by
  rw [hostOps0_split]
  simp only [List.forall_append]
  exact ⟨part0_fresh, part1_fresh, part2_fresh, part3_fresh, part4_fresh, part5_fresh, part6_fresh, part7_fresh⟩

/-- A reference whose slot is below 69 is as stretches 0 … 0 leave it: stretches 1 … 7 write later slots only. -/
theorem after_hostOps0_upto0 (V : Valuation τ sig (Elt F)) (r : Ref sig .tc) (h : r.idx.val < 69) :
    StableHlo.after hostOps0 V (Proc.devRef .tc r) = StableHlo.after main_part0_ops0 V (Proc.devRef .tc r) := by
  rw [after_hostOps0, after_part7_of_slot _ r (by omega), after_part6_of_slot _ r (by omega), after_part5_of_slot _ r (by omega), after_part4_of_slot _ r (by omega), after_part3_of_slot _ r (by omega), after_part2_of_slot _ r (by omega), after_part1_of_slot _ r (by omega)]
/-- A reference whose slot is below 129 is as stretches 0 … 1 leave it: stretches 2 … 7 write later slots only. -/
theorem after_hostOps0_upto1 (V : Valuation τ sig (Elt F)) (r : Ref sig .tc) (h : r.idx.val < 129) :
    StableHlo.after hostOps0 V (Proc.devRef .tc r) = StableHlo.after main_part1_ops0 (StableHlo.after main_part0_ops0 V) (Proc.devRef .tc r) := by
  rw [after_hostOps0, after_part7_of_slot _ r (by omega), after_part6_of_slot _ r (by omega), after_part5_of_slot _ r (by omega), after_part4_of_slot _ r (by omega), after_part3_of_slot _ r (by omega), after_part2_of_slot _ r (by omega)]
/-- A reference whose slot is below 189 is as stretches 0 … 2 leave it: stretches 3 … 7 write later slots only. -/
theorem after_hostOps0_upto2 (V : Valuation τ sig (Elt F)) (r : Ref sig .tc) (h : r.idx.val < 189) :
    StableHlo.after hostOps0 V (Proc.devRef .tc r) = StableHlo.after main_part2_ops0 (StableHlo.after main_part1_ops0 (StableHlo.after main_part0_ops0 V)) (Proc.devRef .tc r) := by
  rw [after_hostOps0, after_part7_of_slot _ r (by omega), after_part6_of_slot _ r (by omega), after_part5_of_slot _ r (by omega), after_part4_of_slot _ r (by omega), after_part3_of_slot _ r (by omega)]
/-- A reference whose slot is below 249 is as stretches 0 … 3 leave it: stretches 4 … 7 write later slots only. -/
theorem after_hostOps0_upto3 (V : Valuation τ sig (Elt F)) (r : Ref sig .tc) (h : r.idx.val < 249) :
    StableHlo.after hostOps0 V (Proc.devRef .tc r) = StableHlo.after main_part3_ops0 (StableHlo.after main_part2_ops0 (StableHlo.after main_part1_ops0 (StableHlo.after main_part0_ops0 V))) (Proc.devRef .tc r) := by
  rw [after_hostOps0, after_part7_of_slot _ r (by omega), after_part6_of_slot _ r (by omega), after_part5_of_slot _ r (by omega), after_part4_of_slot _ r (by omega)]
/-- A reference whose slot is below 309 is as stretches 0 … 4 leave it: stretches 5 … 7 write later slots only. -/
theorem after_hostOps0_upto4 (V : Valuation τ sig (Elt F)) (r : Ref sig .tc) (h : r.idx.val < 309) :
    StableHlo.after hostOps0 V (Proc.devRef .tc r) = StableHlo.after main_part4_ops0 (StableHlo.after main_part3_ops0 (StableHlo.after main_part2_ops0 (StableHlo.after main_part1_ops0 (StableHlo.after main_part0_ops0 V)))) (Proc.devRef .tc r) := by
  rw [after_hostOps0, after_part7_of_slot _ r (by omega), after_part6_of_slot _ r (by omega), after_part5_of_slot _ r (by omega)]
/-- A reference whose slot is below 369 is as stretches 0 … 5 leave it: stretches 6 … 7 write later slots only. -/
theorem after_hostOps0_upto5 (V : Valuation τ sig (Elt F)) (r : Ref sig .tc) (h : r.idx.val < 369) :
    StableHlo.after hostOps0 V (Proc.devRef .tc r) = StableHlo.after main_part5_ops0 (StableHlo.after main_part4_ops0 (StableHlo.after main_part3_ops0 (StableHlo.after main_part2_ops0 (StableHlo.after main_part1_ops0 (StableHlo.after main_part0_ops0 V))))) (Proc.devRef .tc r) := by
  rw [after_hostOps0, after_part7_of_slot _ r (by omega), after_part6_of_slot _ r (by omega)]
/-- A reference whose slot is below 429 is as stretches 0 … 6 leave it: stretches 7 … 7 write later slots only. -/
theorem after_hostOps0_upto6 (V : Valuation τ sig (Elt F)) (r : Ref sig .tc) (h : r.idx.val < 429) :
    StableHlo.after hostOps0 V (Proc.devRef .tc r) = StableHlo.after main_part6_ops0 (StableHlo.after main_part5_ops0 (StableHlo.after main_part4_ops0 (StableHlo.after main_part3_ops0 (StableHlo.after main_part2_ops0 (StableHlo.after main_part1_ops0 (StableHlo.after main_part0_ops0 V)))))) (Proc.devRef .tc r) := by
  rw [after_hostOps0, after_part7_of_slot _ r (by omega)]

/-- A reference in one of the first nine slots (an argument array) is as launched after all of them. -/
theorem after_hostOps0_arg (V : Valuation τ sig (Elt F)) (r : Ref sig .tc) (h : r.idx.val < 9) :
    StableHlo.after hostOps0 V (Proc.devRef .tc r) = V (Proc.devRef .tc r) := by
  rw [after_hostOps0_upto0 V r (by omega), after_part0_of_slot _ r (by omega)]

end Cert.KernelIdeal.Hand

end
-- ==== Proof.LibScatterSet.lean ====
/-
  A scatter whose combiner keeps the update ("set"), read at an index of the result.

  `Host.scatter` is a left fold over the update's indices in row-major order: each update index lands at a result
  index (or is dropped when it falls outside the operand) and the fold replaces the element there.  With the
  overwriting combiner `fun _ b => b` the result at `i` is therefore the update's element at the LAST update index
  landing at `i`, and the operand's element when none does.  When at most one update index lands at `i` — always so
  for one index vector whose window covers every axis — "last" needs no mention: that is what is stated here, first
  for any dimension numbers, then for a window that covers all axes and is moved along the leading axis only.
-/
import Idealize.ShloMosaic.PureOps.ShapeOps
import Idealize.ShloMosaic.PureOps.Dims

namespace Idealize.ShloMosaic

variable {α : Type} {s si u : Shape} {w : Nat}

/-- One step of the scatter's fold with the overwriting combiner. -/
private abbrev setStep (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem setStep_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  generalize d.resultIdx? (u.rowMajor.symm n) idx = o at h ⊢
  cases o with
  | none => rfl
  | some i₀ =>
    have : i ≠ i₀ := fun e => h (e ▸ rfl)
    show (if i = i₀ then _ else r i) = r i
    rw [if_neg this]

private theorem setStep_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  generalize d.resultIdx? (u.rowMajor.symm n) idx = o at h ⊢
  cases o with
  | none => exact absurd h (by simp)
  | some i₀ =>
    have : i = i₀ := (Option.some.inj h).symm
    show (if i = i₀ then _ else r i) = _
    rw [if_pos this]

private theorem fold_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | n :: l, r, h => by
    rw [List.foldl_cons, fold_miss d idx upd i l _ fun n' hn' => h n' (List.mem_cons_of_mem _ hn'),
      setStep_ne d idx upd r n i (h n List.mem_cons_self)]

private theorem fold_hit (d : ScatterDims s si u) (idx : IVec si w) (upd : u.Idx → α) (i : s.Idx) (n₀ : Fin u.numel)
    (h₀ : d.resultIdx? (u.rowMajor.symm n₀) idx = some i) :
    ∀ (l : List (Fin u.numel)) (r : s.Idx → α), n₀ ∈ l → (∀ n ∈ l, d.resultIdx? (u.rowMajor.symm n) idx = some i → n = n₀) →
      l.foldl (setStep d idx upd) r i = upd (u.rowMajor.symm n₀)
  | [], _, hm, _ => absurd hm (by simp)
  | n :: l, r, hm, hu => by
    rw [List.foldl_cons]
    by_cases hl : n₀ ∈ l
    · exact fold_hit d idx upd i n₀ h₀ l _ hl fun n' hn' => hu n' (List.mem_cons_of_mem _ hn')
    · have hn : n = n₀ := by
        rcases List.mem_cons.1 hm with e | e
        · exact e.symm
        · exact absurd e hl
      rw [fold_miss d idx upd i l _ fun n' hn' e => hl (hu n' (List.mem_cons_of_mem _ hn') e ▸ hn'), hn,
        setStep_eq d idx upd r n₀ i h₀]

/-- The overwriting scatter at a result index `i` that exactly one update index `j` lands at: the update's element at `j`. -/
theorem Host.scatter_overwrite_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  have h := fold_hit d idx upd i (u.rowMajor j) (by rw [Equiv.symm_apply_apply]; exact hj) (List.finRange u.numel) x
    (List.mem_finRange _) (fun n _ hn => by rw [← huniq _ hn, Equiv.apply_symm_apply])
  rw [Equiv.symm_apply_apply] at h
  exact h

/-- The overwriting scatter at a result index no update index lands at: the operand's element. -/
theorem Host.scatter_overwrite_miss (d : ScatterDims s si u) (x : s.Idx → α) (idx : IVec si w) (upd : u.Idx → α) (i : s.Idx)
    (hmiss : ∀ j, d.resultIdx? j idx ≠ some i) : Host.scatter d (fun _ b => b) x idx upd i = x i :=
  fold_miss d idx upd i (List.finRange u.numel) x fun n _ => hmiss _

/-! ## Where an update index lands -/

/-- Update index `j` lands at `i` exactly when, on every axis, start plus window coordinate is `i`'s coordinate. -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + (d.window j a : Int) ∧ d.start j idx a + (d.window j a : Int) < s.size a
    · rw [dif_pos hc] at h
      have e := congrArg Fin.val (congrFun (Option.some.inj h) a)
      have h0 := (hc a).1
      simp only at e
      omega
    · rw [dif_neg hc] at h
      exact absurd h (by simp)
  · intro h
    have hc : ∀ a, 0 ≤ d.start j idx a + (d.window j a : Int) ∧ d.start j idx a + (d.window j a : Int) < s.size a :=
      fun a => by rw [h a]; exact ⟨Int.natCast_nonneg _, by exact_mod_cast (i a).isLt⟩
    rw [dif_pos hc]
    congr 1
    funext a
    apply Fin.ext
    show (d.start j idx a + (d.window j a : Int)).toNat = (i a).val
    rw [h a, Int.toNat_natCast]

/-! ## One start on the leading axis, the window covering every axis

The operand and the update have the same rank; the update's coordinate on each axis is the window coordinate on that
axis (`hwin`); the start is `k` on the leading axis and zero on the others (`hstart`).  Both facts are read off the
dimension numbers of a printed scatter by evaluation.  Then update index `j` lands at `(k + j 0, j 1, …)`. -/

section Window

variable {n : Nat} {ds du : Fin (n + 1) → Nat}

/-- Inside the window: the result at `i` is the update at `j`, where `i 0 = k + j 0` and `i a = j a` on the other axes. -/
theorem Host.scatter_overwrite_window_in (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (j : Shape.Idx ⟨n + 1, du⟩)
    (hj0 : ((i 0).val : Int) = k + ((j 0).val : Int)) (hja : ∀ a, a ≠ 0 → (i a).val = (j a).val) :
    Host.scatter d (fun _ b => b) x idx upd i = upd j := by
  refine Host.scatter_overwrite_hit d x idx upd i j ?_ ?_
  · rw [ScatterDims.resultIdx?_eq_some_iff]
    intro a
    rw [hstart, hwin]
    by_cases ha : a = 0
    · subst ha; rw [if_pos rfl]; exact hj0.symm
    · rw [if_neg ha, zero_add, hja a ha]
  · intro j' hj'
    rw [ScatterDims.resultIdx?_eq_some_iff] at hj'
    funext a
    apply Fin.ext
    have e := hj' a
    rw [hstart, hwin] at e
    by_cases ha : a = 0
    · subst ha; rw [if_pos rfl] at e; omega
    · rw [if_neg ha, zero_add] at e
      have := hja a ha
      omega

/-- Outside the window along the leading axis: the result at `i` is the operand's element. -/
theorem Host.scatter_overwrite_window_out (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (hout : ((i 0).val : Int) < k ∨ k + (du 0 : Int) ≤ ((i 0).val : Int)) :
    Host.scatter d (fun _ b => b) x idx upd i = x i := by
  refine Host.scatter_overwrite_miss d x idx upd i fun j hj => ?_
  rw [ScatterDims.resultIdx?_eq_some_iff] at hj
  have e := hj 0
  rw [hstart, hwin, if_pos rfl] at e
  have hlt : (j 0).val < du 0 := (j 0).isLt
  omega

end Window

end Idealize.ShloMosaic
-- ==== Proof.KHostA1.lean ====
/-
  The first banded matrix of the fused kernel, as pure mathematics: the term the host operations compose from the
  3 × 3 stencil's weights — nine overwriting scatters into a zero array, [3, 28, 512] read as [84, 512], narrowed —
  equals the closed form `Cert.Cnn.T1` entry by entry.

  Each scatter writes one tap (`dy`, `dx`).  Its index tensor holds at update index (`a`, `c`) three components: the
  row `dy`, the input column `wi = a + lo`, and the lane `(wo % 2) · 256 + (wo / 2) · 16 + c` of output column
  `wo = wi + 1 - dx`, channel `c`; every axis of the operand is scattered and the window is one element, so update
  index (`a`, `c`) lands exactly at (`dy`, `wi`; lane).  Distinct taps land on distinct entries (`dx = wi + 1 - wo`
  is read off the entry), so after the taps numbered below `t` the entry holds the weight of its tap when that tap is
  among them and zero otherwise.
-/
import proofs.«150178_g2000205257289275_pallasbulk_739_9_alg».proof.Proof.Gen.KernelIdeal
import proofs.«150178_g2000205257289275_pallasbulk_739_9_alg».proof.Proof.LibScatterSet
import proofs.«150178_g2000205257289275_pallasbulk_739_9_alg».proof.Proof.KTables
import Idealize.ShloMosaic.Lib.ValueIdx
import Idealize.ShloMosaic.Lib.ValueIdxCoords
import Idealize.ShloMosaic.Lib.ValueLayout
import Idealize.ShloMosaic.Lib.IdealHost
import Idealize.ShloMosaic.Lib.WordArith
import Idealize.ShloMosaic.Lib.Pipeline.Value

set_option maxRecDepth 16384

noncomputable section

namespace Cert.KernelIdeal.Hand

open Cert.KernelIdeal Cert.KernelIdeal.Facts₀ Idealize.ShloMosaic Idealize.ShloMosaic.ValueIdx
open Idealize.ShloMosaic.WordArith
/-! ## An overwriting scatter whose window is one element -/

section Point
variable {α : Type} {s si u : Shape} {w : Nat}

/-- With a one-element window on every axis, update index `j` lands at `i` exactly when its start is `i`. -/
theorem scatter_point_hit (d : ScatterDims s si u) (x : s.Idx → α) (idx : IVec si w) (upd : u.Idx → α)
    (hwin : ∀ j a, d.window j a = 0) (i : s.Idx) (j : u.Idx)
    (hj : ∀ a, d.start j idx a = ((i a).val : Int))
    (huniq : ∀ j', (∀ a, d.start j' idx a = ((i a).val : Int)) → j' = j) :
    Host.scatter d (fun _ b => b) x idx upd i = upd j := by
  refine Host.scatter_overwrite_hit d x idx upd i j ?_ ?_
  · rw [ScatterDims.resultIdx?_eq_some_iff]
    intro a
    rw [hwin, hj]
    simp
  · intro j' h
    rw [ScatterDims.resultIdx?_eq_some_iff] at h
    refine huniq j' fun a => ?_
    have e := h a
    rw [hwin] at e
    simpa using e

theorem scatter_point_miss (d : ScatterDims s si u) (x : s.Idx → α) (idx : IVec si w) (upd : u.Idx → α)
    (hwin : ∀ j a, d.window j a = 0) (i : s.Idx)
    (hmiss : ∀ j, ¬ ∀ a, d.start j idx a = ((i a).val : Int)) :
    Host.scatter d (fun _ b => b) x idx upd i = x i := by
  refine Host.scatter_overwrite_miss d x idx upd i fun j h => hmiss j fun a => ?_
  rw [ScatterDims.resultIdx?_eq_some_iff] at h
  have e := h a
  rw [hwin] at e
  simpa using e

end Point

/-! ## One tap of the banded matrix -/

section Tap
variable {α : Type} {n : Nat}

/-- One tap: the scatter's index tensor holds, at update index `(a, c)`, the row `dyc`, the input column `a + lo` and
    the lane of output column `wo = a + lo + 1 - dx`, channel `c`.  Read at `(dy, wi, l)`: the update's element when
    `dy = dyc` and `l` is the lane of output column `wi + 1 - dx`, the operand's element otherwise. -/
theorem tap_apply (d : ScatterDims S3x28x512 ⟨3, ![n, 16, 3]⟩ ⟨2, ![n, 16]⟩) (x : S3x28x512.Idx → α)
    (idx : IVec ⟨3, ![n, 16, 3]⟩ 32) (upd : (⟨2, ![n, 16]⟩ : Shape).Idx → α)
    (hwin : ∀ j a, d.window j a = 0)
    (hstart : ∀ (j : (⟨2, ![n, 16]⟩ : Shape).Idx) (a : Fin 3), d.start j idx a = (idx (ix3 (j 0) (j 1) a)).toInt)
    (dyc lo dx : Nat) (hdy : dyc < 3) (hlo : lo + n ≤ 28) (hdx : dx ≤ lo + 1) (hwo : lo + n ≤ 27 + dx)
    (h0 : ∀ (a : Fin n) (c : Fin 16), idx (ix3 a c (0 : Fin 3)) = BitVec.ofNat 32 dyc)
    (h1 : ∀ (a : Fin n) (c : Fin 16), idx (ix3 a c (1 : Fin 3)) = BitVec.ofNat 32 (a.val + lo))
    (h2 : ∀ (a : Fin n) (c : Fin 16), idx (ix3 a c (2 : Fin 3))
      = BitVec.ofNat 32 ((a.val + lo + 1 - dx) % 2 * 256 + (a.val + lo + 1 - dx) / 2 * 16 + c.val))
    (dy : Fin 3) (wi : Fin 28) (l : Fin 512) :
    Host.scatter d (fun _ b => b) x idx upd (ix3 dy wi l)
      = if h : dy.val = dyc ∧ l.val % 256 < 224 ∧ wi.val + 1 = 2 * (l.val % 256 / 16) + l.val / 256 + dx
            ∧ lo ≤ wi.val ∧ wi.val < lo + n
        then upd (ix2 ⟨wi.val - lo, by omega⟩ ⟨l.val % 16, Nat.mod_lt _ (by norm_num)⟩)
        else x (ix3 dy wi l) := by
  have st : ∀ (j : (⟨2, ![n, 16]⟩ : Shape).Idx),
      (∀ a : Fin 3, d.start j idx a = (((ix3 dy wi l : S3x28x512.Idx) a).val : Int)) ↔
        (dyc = dy.val ∧ (j 0).val + lo = wi.val ∧
          ((j 0).val + lo + 1 - dx) % 2 * 256 + ((j 0).val + lo + 1 - dx) / 2 * 16 + (j 1).val = l.val) := by
    intro j
    have hj0 : (j 0).val < n := (j 0).isLt
    have hj1 : (j 1).val < 16 := (j 1).isLt
    have e0 : d.start j idx (0 : Fin 3) = (dyc : Int) :=
      (hstart j 0).trans ((congrArg BitVec.toInt (h0 (j 0) (j 1))).trans (toInt_ofNat_small _ (by omega)))
    have e1 : d.start j idx (1 : Fin 3) = (((j 0).val + lo : Nat) : Int) :=
      (hstart j 1).trans ((congrArg BitVec.toInt (h1 (j 0) (j 1))).trans (toInt_ofNat_small _ (by omega)))
    have e2 : d.start j idx (2 : Fin 3)
        = ((((j 0).val + lo + 1 - dx) % 2 * 256 + ((j 0).val + lo + 1 - dx) / 2 * 16 + (j 1).val : Nat) : Int) :=
      (hstart j 2).trans ((congrArg BitVec.toInt (h2 (j 0) (j 1))).trans (toInt_ofNat_small _ (by omega)))
    constructor
    · intro h
      have a0 := h 0
      have a1 := h 1
      have a2 := h 2
      rw [e0] at a0; rw [e1] at a1; rw [e2] at a2
      refine ⟨?_, ?_, ?_⟩
      · exact_mod_cast a0
      · exact_mod_cast a1
      · exact_mod_cast a2
    · rintro ⟨b0, b1, b2⟩ a
      match a with
      | ⟨0, _⟩ => exact e0.trans (by exact_mod_cast b0)
      | ⟨1, _⟩ => exact e1.trans (by exact_mod_cast b1)
      | ⟨2, _⟩ => exact e2.trans (by exact_mod_cast b2)
  split
  · next h =>
    obtain ⟨hy, hl, hw, hlo', hn'⟩ := h
    refine scatter_point_hit d x idx upd hwin _ _ ((st _).2 ⟨hy.symm, ?_, ?_⟩) ?_
    · show wi.val - lo + lo = wi.val
      omega
    · show (wi.val - lo + lo + 1 - dx) % 2 * 256 + (wi.val - lo + lo + 1 - dx) / 2 * 16 + l.val % 16 = l.val
      omega
    · intro j' hj'
      obtain ⟨_, c1, c2⟩ := (st j').1 hj'
      have hj0 : (j' 0).val < n := (j' 0).isLt
      have hj1 : (j' 1).val < 16 := (j' 1).isLt
      rw [eq_ix2 j']
      congr 1
      · apply Fin.ext; show (j' 0).val = wi.val - lo; omega
      · apply Fin.ext; show (j' 1).val = l.val % 16; omega
  · next h =>
    refine scatter_point_miss d x idx upd hwin _ fun j hj => h ?_
    obtain ⟨c0, c1, c2⟩ := (st j).1 hj
    have hj0 : (j 0).val < n := (j 0).isLt
    have hj1 : (j 1).val < 16 := (j 1).isLt
    have hwoE : (j 0).val + lo + 1 - dx + dx = (j 0).val + lo + 1 := by omega
    generalize (j 0).val + lo + 1 - dx = wo at c2 hwoE
    have hwo27 : wo ≤ 27 := by omega
    have hq : wo / 2 ≤ 13 := by omega
    have hr : wo % 2 < 2 := Nat.mod_lt _ (by norm_num)
    have hl256 : l.val / 256 = wo % 2 := by omega
    have hlm : l.val % 256 = wo / 2 * 16 + (j 1).val := by omega
    refine ⟨c0.symm, ?_, ?_, ?_, ?_⟩ <;> omega

end Tap

/-! ## The index tensor and the update of one tap, as the program builds them -/

section TapTerm
variable {n : Nat}

/-- The index tensor of one tap from its row constant and its two tables: each table passed through the
    negative-index normalisation (whose mask is all zero), the three components broadcast to [n, 16, 1] and laid side
    by side on the last axis. -/
def tapIdx (b1 : S_.BroadcastsInDim (⟨2, ![n, 1]⟩ : Shape) (![] : Fin 0 → Fin 2))
    (b16 : S_.BroadcastsInDim (⟨2, ![n, 16]⟩ : Shape) (![] : Fin 0 → Fin 2))
    (b116 : (⟨2, ![n, 1]⟩ : Shape).BroadcastsInDim ⟨2, ![n, 16]⟩ (![0, 1] : Fin 2 → Fin 2))
    (b161 : (⟨2, ![n, 16]⟩ : Shape).BroadcastsInDim ⟨3, ![n, 16, 1]⟩ (![0, 1] : Fin 2 → Fin 3))
    (hcat : Shape.Concatenates [⟨3, ![n, 16, 1]⟩, ⟨3, ![n, 16, 1]⟩, ⟨3, ![n, 16, 1]⟩] ⟨3, ![n, 16, 3]⟩ 2)
    (dyv : BitVec 32) (ta : IVec ⟨2, ![n, 1]⟩ 32) (tb : IVec ⟨2, ![n, 16]⟩ 32) : IVec ⟨3, ![n, 16, 3]⟩ 32 :=
  concatenate ⟨3, ![n, 16, 3]⟩ 2
    [⟨⟨3, ![n, 16, 1]⟩, broadcastInDim ⟨3, ![n, 16, 1]⟩ ![0, 1] b161
        (id (broadcastInDim ⟨2, ![n, 16]⟩ ![] b16 (constantI S_ 32 dyv)))⟩,
     ⟨⟨3, ![n, 16, 1]⟩, broadcastInDim ⟨3, ![n, 16, 1]⟩ ![0, 1] b161 (broadcastInDim ⟨2, ![n, 16]⟩ ![0, 1] b116
        (select (constantI ⟨2, ![n, 1]⟩ 1 0#1) (addi ta (broadcastInDim ⟨2, ![n, 1]⟩ ![] b1 (constantI S_ 32 28#32))) ta))⟩,
     ⟨⟨3, ![n, 16, 1]⟩, broadcastInDim ⟨3, ![n, 16, 1]⟩ ![0, 1] b161
        (select (constantI ⟨2, ![n, 16]⟩ 1 0#1) (addi tb (broadcastInDim ⟨2, ![n, 16]⟩ ![] b16 (constantI S_ 32 512#32))) tb)⟩]
    hcat

variable (b1 : S_.BroadcastsInDim (⟨2, ![n, 1]⟩ : Shape) (![] : Fin 0 → Fin 2))
    (b16 : S_.BroadcastsInDim (⟨2, ![n, 16]⟩ : Shape) (![] : Fin 0 → Fin 2))
    (b116 : (⟨2, ![n, 1]⟩ : Shape).BroadcastsInDim ⟨2, ![n, 16]⟩ (![0, 1] : Fin 2 → Fin 2))
    (b161 : (⟨2, ![n, 16]⟩ : Shape).BroadcastsInDim ⟨3, ![n, 16, 1]⟩ (![0, 1] : Fin 2 → Fin 3))
    (hcat : Shape.Concatenates [⟨3, ![n, 16, 1]⟩, ⟨3, ![n, 16, 1]⟩, ⟨3, ![n, 16, 1]⟩] ⟨3, ![n, 16, 3]⟩ 2)
    (dyv : BitVec 32) (ta : IVec ⟨2, ![n, 1]⟩ 32) (tb : IVec ⟨2, ![n, 16]⟩ 32)

/-- Reading a [n, 16] array broadcast to [n, 16, 1]. -/
theorem bcast161_apply {β : Type} (X : (⟨2, ![n, 16]⟩ : Shape).Idx → β) (a : Fin n) (c : Fin 16) :
    broadcastInDim ⟨3, ![n, 16, 1]⟩ ![0, 1] b161 X (ix3 a c (0 : Fin 1)) = X (ix2 a c) :=
  broadcastInDim_apply _ b161 X _ (ix2 a c) fun a' =>
    match a' with
    | ⟨0, _⟩ => by
      show a.val = if n = 1 then 0 else a.val
      split
      · have := a.isLt; omega
      · rfl
    | ⟨1, _⟩ => by
      show c.val = if 16 = 1 then 0 else c.val
      rfl

/-- Reading a [n, 1] column broadcast to [n, 16]. -/
theorem bcast116_apply {β : Type} (X : (⟨2, ![n, 1]⟩ : Shape).Idx → β) (a : Fin n) (c : Fin 16) :
    broadcastInDim ⟨2, ![n, 16]⟩ ![0, 1] b116 X (ix2 a c) = X (ix2 a (0 : Fin 1)) :=
  broadcastInDim_apply _ b116 X _ (ix2 a (0 : Fin 1)) fun a' =>
    match a' with
    | ⟨0, _⟩ => by
      show a.val = if n = 1 then 0 else a.val
      split
      · have := a.isLt; omega
      · rfl
    | ⟨1, _⟩ => by
      show 0 = if 1 = 1 then 0 else c.val
      rfl

/-- Component `k` of the index tensor at update index `(a, c)` is piece `k` at `(a, c, 0)`. -/
theorem cat3_apply {β : Type} (X0 X1 X2 : (⟨3, ![n, 16, 1]⟩ : Shape).Idx → β) (a : Fin n) (c : Fin 16) :
    concatenate ⟨3, ![n, 16, 3]⟩ 2 [⟨⟨3, ![n, 16, 1]⟩, X0⟩, ⟨⟨3, ![n, 16, 1]⟩, X1⟩, ⟨⟨3, ![n, 16, 1]⟩, X2⟩] hcat (ix3 a c (0 : Fin 3))
        = X0 (ix3 a c (0 : Fin 1))
    ∧ concatenate ⟨3, ![n, 16, 3]⟩ 2 [⟨⟨3, ![n, 16, 1]⟩, X0⟩, ⟨⟨3, ![n, 16, 1]⟩, X1⟩, ⟨⟨3, ![n, 16, 1]⟩, X2⟩] hcat (ix3 a c (1 : Fin 3))
        = X1 (ix3 a c (0 : Fin 1))
    ∧ concatenate ⟨3, ![n, 16, 3]⟩ 2 [⟨⟨3, ![n, 16, 1]⟩, X0⟩, ⟨⟨3, ![n, 16, 1]⟩, X1⟩, ⟨⟨3, ![n, 16, 1]⟩, X2⟩] hcat (ix3 a c (2 : Fin 3))
        = X2 (ix3 a c (0 : Fin 1)) := by
  have hi : ∀ (k : Fin 3) (b : Fin 3), b.cast (rfl : 3 = 3) ≠ (2 : Fin 3) →
      ((ix3 a c (0 : Fin 1) : (⟨3, ![n, 16, 1]⟩ : Shape).Idx) b).val
        = ((ix3 a c k : (⟨3, ![n, 16, 3]⟩ : Shape).Idx) (b.cast (rfl : 3 = 3))).val := fun k b hb =>
    match b, hb with
    | ⟨0, _⟩, _ => rfl
    | ⟨1, _⟩, _ => rfl
    | ⟨2, _⟩, hb => absurd rfl hb
  refine ⟨?_, ?_, ?_⟩
  · exact concatenate_apply_piece 2 [⟨⟨3, ![n, 16, 1]⟩, X0⟩, ⟨⟨3, ![n, 16, 1]⟩, X1⟩, ⟨⟨3, ![n, 16, 1]⟩, X2⟩] hcat _ 0 (by simp) ⟨3, ![n, 16, 1]⟩ X0 rfl rfl 0 rfl (ix3 a c (0 : Fin 1)) (hi 0) rfl
  · exact concatenate_apply_piece 2 [⟨⟨3, ![n, 16, 1]⟩, X0⟩, ⟨⟨3, ![n, 16, 1]⟩, X1⟩, ⟨⟨3, ![n, 16, 1]⟩, X2⟩] hcat _ 1 (by simp) ⟨3, ![n, 16, 1]⟩ X1 rfl rfl 1 rfl (ix3 a c (0 : Fin 1)) (hi 1) rfl
  · exact concatenate_apply_piece 2 [⟨⟨3, ![n, 16, 1]⟩, X0⟩, ⟨⟨3, ![n, 16, 1]⟩, X1⟩, ⟨⟨3, ![n, 16, 1]⟩, X2⟩] hcat _ 2 (by simp) ⟨3, ![n, 16, 1]⟩ X2 rfl rfl 2 rfl (ix3 a c (0 : Fin 1)) (hi 2) rfl

theorem tapIdx_0 (a : Fin n) (c : Fin 16) : tapIdx b1 b16 b116 b161 hcat dyv ta tb (ix3 a c (0 : Fin 3)) = dyv := by
  unfold tapIdx
  rw [(cat3_apply hcat _ _ _ a c).1, bcast161_apply]
  exact broadcastInDim_scalar_apply b16 _ _

theorem tapIdx_1 (a : Fin n) (c : Fin 16) :
    tapIdx b1 b16 b116 b161 hcat dyv ta tb (ix3 a c (1 : Fin 3)) = ta (ix2 a (0 : Fin 1)) := by
  unfold tapIdx
  rw [(cat3_apply hcat _ _ _ a c).2.1, bcast161_apply, bcast116_apply, select_apply, constantI_apply, select_zero]

theorem tapIdx_2 (a : Fin n) (c : Fin 16) :
    tapIdx b1 b16 b116 b161 hcat dyv ta tb (ix3 a c (2 : Fin 3)) = tb (ix2 a c) := by
  unfold tapIdx
  rw [(cat3_apply hcat _ _ _ a c).2.2, bcast161_apply, select_apply, constantI_apply, select_zero]

end TapTerm

section TapUpd
variable {n : Nat}

/-- The update of one tap: row `r` of the weights, the same for every input column. -/
def tapUpd (bu : S16.BroadcastsInDim (⟨2, ![n, 16]⟩ : Shape) (![1] : Fin 1 → Fin 2)) (r : Nat)
    (hs : S9x16.Slices ![r, 0] S1x16) (w : FVec Ideal S9x16 .f32) : FVec Ideal ⟨2, ![n, 16]⟩ .f32 :=
  broadcastInDim ⟨2, ![n, 16]⟩ ![1] bu (shapeCast S16 (extractStridedSlice S1x16 ![r, 0] w hs) shapeCasts_S1x16_S16)

theorem tapUpd_apply (bu : S16.BroadcastsInDim (⟨2, ![n, 16]⟩ : Shape) (![1] : Fin 1 → Fin 2)) (r : Nat) (hr : r < 9)
    (hs : S9x16.Slices ![r, 0] S1x16) (w : FVec Ideal S9x16 .f32) (a : Fin n) (c : Fin 16) :
    tapUpd bu r hs w (ix2 a c) = w (ix2 (⟨r, hr⟩ : Fin 9) c) := by
  unfold tapUpd
  rw [broadcastInDim_apply _ bu _ _ (ix1 c) (fun a' => match a' with
    | ⟨0, _⟩ => by
      show c.val = if 16 = 1 then 0 else c.val
      rfl)]
  rw [shapeCast_apply _ shapeCasts_S1x16_S16 (ix1 c) (ix2 (0 : Fin 1) c)
    (by rw [Shape.rowMajor_val_two, Shape.rowMajor_val_one]; show 0 * 16 + c.val = c.val; omega)]
  exact extractStridedSlice_apply _ w hs _ (ix2 (⟨r, hr⟩ : Fin 9) c) fun a' => match a' with
    | ⟨0, _⟩ => by
      show r = r + 0
      rfl
    | ⟨1, _⟩ => by
      show c.val = 0 + c.val
      omega

/-- One tap of the program, read at an entry. -/
theorem tapStep_apply (d : ScatterDims S3x28x512 ⟨3, ![n, 16, 3]⟩ ⟨2, ![n, 16]⟩)
    (hwin : ∀ j a, d.window j a = 0)
    (hstart : ∀ (idx : IVec ⟨3, ![n, 16, 3]⟩ 32) (j : (⟨2, ![n, 16]⟩ : Shape).Idx) (a : Fin 3),
      d.start j idx a = (idx (ix3 (j 0) (j 1) a)).toInt)
    (b1 : S_.BroadcastsInDim (⟨2, ![n, 1]⟩ : Shape) (![] : Fin 0 → Fin 2))
    (b16 : S_.BroadcastsInDim (⟨2, ![n, 16]⟩ : Shape) (![] : Fin 0 → Fin 2))
    (b116 : (⟨2, ![n, 1]⟩ : Shape).BroadcastsInDim ⟨2, ![n, 16]⟩ (![0, 1] : Fin 2 → Fin 2))
    (b161 : (⟨2, ![n, 16]⟩ : Shape).BroadcastsInDim ⟨3, ![n, 16, 1]⟩ (![0, 1] : Fin 2 → Fin 3))
    (hcat : Shape.Concatenates [⟨3, ![n, 16, 1]⟩, ⟨3, ![n, 16, 1]⟩, ⟨3, ![n, 16, 1]⟩] ⟨3, ![n, 16, 3]⟩ 2)
    (bu : S16.BroadcastsInDim (⟨2, ![n, 16]⟩ : Shape) (![1] : Fin 1 → Fin 2))
    (dyc lo dx r : Nat) (hdy : dyc < 3) (hlo : lo + n ≤ 28) (hdx : dx ≤ lo + 1) (hwo : lo + n ≤ 27 + dx) (hr : r < 9)
    (ta : IVec ⟨2, ![n, 1]⟩ 32) (tb : IVec ⟨2, ![n, 16]⟩ 32)
    (hta : ∀ a : Fin n, ta (ix2 a (0 : Fin 1)) = BitVec.ofNat 32 (a.val + lo))
    (htb : ∀ (a : Fin n) (c : Fin 16), tb (ix2 a c)
      = BitVec.ofNat 32 ((a.val + lo + 1 - dx) % 2 * 256 + (a.val + lo + 1 - dx) / 2 * 16 + c.val))
    (hs : S9x16.Slices ![r, 0] S1x16) (w : FVec Ideal S9x16 .f32) (x : FVec Ideal S3x28x512 .f32)
    (dy : Fin 3) (wi : Fin 28) (l : Fin 512) :
    Host.scatter d (fun _ b => b) x (tapIdx b1 b16 b116 b161 hcat (BitVec.ofNat 32 dyc) ta tb) (tapUpd bu r hs w) (ix3 dy wi l)
      = if dy.val = dyc ∧ l.val % 256 < 224 ∧ wi.val + 1 = 2 * (l.val % 256 / 16) + l.val / 256 + dx
            ∧ lo ≤ wi.val ∧ wi.val < lo + n
        then w (ix2 (⟨r, hr⟩ : Fin 9) (⟨l.val % 256 % 16, Nat.mod_lt _ (by norm_num)⟩ : Fin 16))
        else x (ix3 dy wi l) := by
  rw [tap_apply d x _ _ hwin (hstart _) dyc lo dx hdy hlo hdx hwo (tapIdx_0 b1 b16 b116 b161 hcat _ ta tb)
    (fun a c => (tapIdx_1 b1 b16 b116 b161 hcat _ ta tb a c).trans (hta a))
    (fun a c => (tapIdx_2 b1 b16 b116 b161 hcat _ ta tb a c).trans (htb a c))]
  by_cases h : dy.val = dyc ∧ l.val % 256 < 224 ∧ wi.val + 1 = 2 * (l.val % 256 / 16) + l.val / 256 + dx
      ∧ lo ≤ wi.val ∧ wi.val < lo + n
  · rw [dif_pos h, if_pos h, tapUpd_apply bu r hr]
    congr 2
    apply Fin.ext
    show l.val % 16 = l.val % 256 % 16
    omega
  · rw [dif_neg h, if_neg h]

end TapUpd

/-! ## What the literal tables hold -/

theorem lit0_eq : ∀ i : Fin 27, lit0 i = BitVec.ofNat 32 (i.val + 0) := by decide
theorem lit1_eq : ∀ (a : Fin 27) (c : Fin 16), lit1 ⟨a.val * 16 + c.val, by have := a.isLt; have := c.isLt; omega⟩
    = BitVec.ofNat 32 ((a.val + 0 + 1 - 0) % 2 * 256 + (a.val + 0 + 1 - 0) / 2 * 16 + c.val) := by decide
theorem lit2_eq : ∀ i : Fin 28, lit2 i = BitVec.ofNat 32 (i.val + 0) := by decide
theorem lit3_eq : ∀ (a : Fin 28) (c : Fin 16), lit3 ⟨a.val * 16 + c.val, by have := a.isLt; have := c.isLt; omega⟩
    = BitVec.ofNat 32 ((a.val + 0 + 1 - 1) % 2 * 256 + (a.val + 0 + 1 - 1) / 2 * 16 + c.val) := by decide
theorem lit4_eq : ∀ i : Fin 27, lit4 i = BitVec.ofNat 32 (i.val + 1) := by decide
theorem lit5_eq : ∀ (a : Fin 27) (c : Fin 16), lit5 ⟨a.val * 16 + c.val, by have := a.isLt; have := c.isLt; omega⟩
    = BitVec.ofNat 32 ((a.val + 1 + 1 - 2) % 2 * 256 + (a.val + 1 + 1 - 2) / 2 * 16 + c.val) := by decide
theorem lit6_eq : ∀ i : Fin 27, lit6 i = BitVec.ofNat 32 (i.val + 0) := by decide
theorem lit7_eq : ∀ (a : Fin 27) (c : Fin 16), lit7 ⟨a.val * 16 + c.val, by have := a.isLt; have := c.isLt; omega⟩
    = BitVec.ofNat 32 ((a.val + 0 + 1 - 0) % 2 * 256 + (a.val + 0 + 1 - 0) / 2 * 16 + c.val) := by decide
theorem lit8_eq : ∀ i : Fin 28, lit8 i = BitVec.ofNat 32 (i.val + 0) := by decide
theorem lit9_eq : ∀ (a : Fin 28) (c : Fin 16), lit9 ⟨a.val * 16 + c.val, by have := a.isLt; have := c.isLt; omega⟩
    = BitVec.ofNat 32 ((a.val + 0 + 1 - 1) % 2 * 256 + (a.val + 0 + 1 - 1) / 2 * 16 + c.val) := by decide
theorem lit10_eq : ∀ i : Fin 27, lit10 i = BitVec.ofNat 32 (i.val + 1) := by decide
theorem lit11_eq : ∀ (a : Fin 27) (c : Fin 16), lit11 ⟨a.val * 16 + c.val, by have := a.isLt; have := c.isLt; omega⟩
    = BitVec.ofNat 32 ((a.val + 1 + 1 - 2) % 2 * 256 + (a.val + 1 + 1 - 2) / 2 * 16 + c.val) := by decide
theorem lit12_eq : ∀ i : Fin 27, lit12 i = BitVec.ofNat 32 (i.val + 0) := by decide
theorem lit13_eq : ∀ (a : Fin 27) (c : Fin 16), lit13 ⟨a.val * 16 + c.val, by have := a.isLt; have := c.isLt; omega⟩
    = BitVec.ofNat 32 ((a.val + 0 + 1 - 0) % 2 * 256 + (a.val + 0 + 1 - 0) / 2 * 16 + c.val) := by decide
theorem lit14_eq : ∀ i : Fin 28, lit14 i = BitVec.ofNat 32 (i.val + 0) := by decide
theorem lit15_eq : ∀ (a : Fin 28) (c : Fin 16), lit15 ⟨a.val * 16 + c.val, by have := a.isLt; have := c.isLt; omega⟩
    = BitVec.ofNat 32 ((a.val + 0 + 1 - 1) % 2 * 256 + (a.val + 0 + 1 - 1) / 2 * 16 + c.val) := by decide
theorem lit16_eq : ∀ i : Fin 27, lit16 i = BitVec.ofNat 32 (i.val + 1) := by decide
theorem lit17_eq : ∀ (a : Fin 27) (c : Fin 16), lit17 ⟨a.val * 16 + c.val, by have := a.isLt; have := c.isLt; omega⟩
    = BitVec.ofNat 32 ((a.val + 1 + 1 - 2) % 2 * 256 + (a.val + 1 + 1 - 2) / 2 * 16 + c.val) := by decide

/-! ## The dimension numbers of the two scatters: every axis scattered, a one-element window -/

theorem d27_window (j : S27x16.Idx) (a : Fin 3) : scatter_S3x28x512_S27x16x3_S27x16_n_012_012_2.window j a = 0 := by
  match a with
  | ⟨0, _⟩ => rfl
  | ⟨1, _⟩ => rfl
  | ⟨2, _⟩ => rfl

theorem d27_start (idx : IVec S27x16x3 32) (j : S27x16.Idx) (a : Fin 3) :
    scatter_S3x28x512_S27x16x3_S27x16_n_012_012_2.start j idx a = (idx (ix3 (j 0) (j 1) a)).toInt := by
  match a with
  | ⟨0, _⟩ => exact congrArg (fun k => (idx k).toInt) (funext fun b => match b with | ⟨0, _⟩ => rfl | ⟨1, _⟩ => rfl | ⟨2, _⟩ => rfl)
  | ⟨1, _⟩ => exact congrArg (fun k => (idx k).toInt) (funext fun b => match b with | ⟨0, _⟩ => rfl | ⟨1, _⟩ => rfl | ⟨2, _⟩ => rfl)
  | ⟨2, _⟩ => exact congrArg (fun k => (idx k).toInt) (funext fun b => match b with | ⟨0, _⟩ => rfl | ⟨1, _⟩ => rfl | ⟨2, _⟩ => rfl)

theorem d28_window (j : S28x16.Idx) (a : Fin 3) : scatter_S3x28x512_S28x16x3_S28x16_n_012_012_2.window j a = 0 := by
  match a with
  | ⟨0, _⟩ => rfl
  | ⟨1, _⟩ => rfl
  | ⟨2, _⟩ => rfl

theorem d28_start (idx : IVec S28x16x3 32) (j : S28x16.Idx) (a : Fin 3) :
    scatter_S3x28x512_S28x16x3_S28x16_n_012_012_2.start j idx a = (idx (ix3 (j 0) (j 1) a)).toInt := by
  match a with
  | ⟨0, _⟩ => exact congrArg (fun k => (idx k).toInt) (funext fun b => match b with | ⟨0, _⟩ => rfl | ⟨1, _⟩ => rfl | ⟨2, _⟩ => rfl)
  | ⟨1, _⟩ => exact congrArg (fun k => (idx k).toInt) (funext fun b => match b with | ⟨0, _⟩ => rfl | ⟨1, _⟩ => rfl | ⟨2, _⟩ => rfl)
  | ⟨2, _⟩ => exact congrArg (fun k => (idx k).toInt) (funext fun b => match b with | ⟨0, _⟩ => rfl | ⟨1, _⟩ => rfl | ⟨2, _⟩ => rfl)

/-! ## The closed form after the first `t` taps -/

/-- Entry (`dy`, `wi`; `l`) once the taps numbered below `t` are written (tap number `dy · 3 + dx`): the weight of tap
    (`dy`, `dx`), `dx = wi + 1 - wo`, when that tap exists and is among them; zero otherwise. -/
def bandUpTo (w : FVec Ideal S9x16 .f32) (t : Nat) (dy : Fin 3) (wi : Fin 28) (l : Fin 512) : EReal :=
  if h : l.val % 256 < 224 ∧ 2 * (l.val % 256 / 16) + l.val / 256 ≤ wi.val + 1
      ∧ wi.val ≤ 2 * (l.val % 256 / 16) + l.val / 256 + 1
      ∧ dy.val * 3 + (wi.val + 1 - (2 * (l.val % 256 / 16) + l.val / 256)) < t then
    w (ix2 (⟨dy.val * 3 + (wi.val + 1 - (2 * (l.val % 256 / 16) + l.val / 256)), by have := dy.isLt; omega⟩ : Fin 9)
      (⟨l.val % 256 % 16, Nat.mod_lt _ (by norm_num)⟩ : Fin 16))
  else 0

section Step
variable {n : Nat}

/-- Writing tap `t = dyc · 3 + dx` over the closed form up to `t` gives the closed form up to `t + 1`. -/
theorem tapStep_band (d : ScatterDims S3x28x512 ⟨3, ![n, 16, 3]⟩ ⟨2, ![n, 16]⟩)
    (hwin : ∀ j a, d.window j a = 0)
    (hstart : ∀ (idx : IVec ⟨3, ![n, 16, 3]⟩ 32) (j : (⟨2, ![n, 16]⟩ : Shape).Idx) (a : Fin 3),
      d.start j idx a = (idx (ix3 (j 0) (j 1) a)).toInt)
    (b1 : S_.BroadcastsInDim (⟨2, ![n, 1]⟩ : Shape) (![] : Fin 0 → Fin 2))
    (b16 : S_.BroadcastsInDim (⟨2, ![n, 16]⟩ : Shape) (![] : Fin 0 → Fin 2))
    (b116 : (⟨2, ![n, 1]⟩ : Shape).BroadcastsInDim ⟨2, ![n, 16]⟩ (![0, 1] : Fin 2 → Fin 2))
    (b161 : (⟨2, ![n, 16]⟩ : Shape).BroadcastsInDim ⟨3, ![n, 16, 1]⟩ (![0, 1] : Fin 2 → Fin 3))
    (hcat : Shape.Concatenates [⟨3, ![n, 16, 1]⟩, ⟨3, ![n, 16, 1]⟩, ⟨3, ![n, 16, 1]⟩] ⟨3, ![n, 16, 3]⟩ 2)
    (bu : S16.BroadcastsInDim (⟨2, ![n, 16]⟩ : Shape) (![1] : Fin 1 → Fin 2))
    (dyc lo dx t : Nat) (hdy : dyc < 3) (hdx3 : dx < 3) (ht : t = dyc * 3 + dx)
    (hlo : lo + n ≤ 28) (hdx : dx ≤ lo + 1) (hwo : lo + n ≤ 27 + dx)
    (hfirst : lo = 0 ∨ lo + 1 ≤ dx) (hlast : lo + n = 28 ∨ 27 + dx ≤ lo + n)
    (ta : IVec ⟨2, ![n, 1]⟩ 32) (tb : IVec ⟨2, ![n, 16]⟩ 32)
    (hta : ∀ a : Fin n, ta (ix2 a (0 : Fin 1)) = BitVec.ofNat 32 (a.val + lo))
    (htb : ∀ (a : Fin n) (c : Fin 16), tb (ix2 a c)
      = BitVec.ofNat 32 ((a.val + lo + 1 - dx) % 2 * 256 + (a.val + lo + 1 - dx) / 2 * 16 + c.val))
    (hs : S9x16.Slices ![t, 0] S1x16) (w : FVec Ideal S9x16 .f32) (x : FVec Ideal S3x28x512 .f32)
    (hx : ∀ dy wi l, x (ix3 dy wi l) = bandUpTo w t dy wi l) (dy : Fin 3) (wi : Fin 28) (l : Fin 512) :
    Host.scatter d (fun _ b => b) x (tapIdx b1 b16 b116 b161 hcat (BitVec.ofNat 32 dyc) ta tb) (tapUpd bu t hs w) (ix3 dy wi l)
      = bandUpTo w (t + 1) dy wi l := by
  have ht9 : t < 9 := by omega
  rw [tapStep_apply d hwin hstart b1 b16 b116 b161 hcat bu dyc lo dx t hdy hlo hdx hwo ht9 ta tb hta htb hs w x dy wi l, hx]
  unfold bandUpTo
  have hdyl := dy.isLt
  have hwil := wi.isLt
  split_ifs <;> first | rfl | (exfalso; omega) | (congr 2; apply Fin.ext; simp only []; omega)

end Step

/-! ## The banded matrix as the program builds it -/

/-- A tap whose tables have 27 rows, as the program writes it. -/
abbrev tapS27 (dyv : BitVec 32) (A : Fin 27 → BitVec 32) (B : Fin 432 → BitVec 32) (r : Nat)
    (hs : S9x16.Slices ![r, 0] S1x16) (w : FVec Ideal S9x16 .f32) (x : FVec Ideal S3x28x512 .f32) : FVec Ideal S3x28x512 .f32 :=
  Host.scatter scatter_S3x28x512_S27x16x3_S27x16_n_012_012_2 (fun _ b => b) x
    (tapIdx bcast_S_S27x1 bcast_S_S27x16 bcast_S27x1_S27x16_0_1 bcast_S27x16_S27x16x1_0_1
      concatenates_S27x16x1_S27x16x1_S27x16x1_S27x16x3_d2 dyv (fun i => A (S27x1.rowMajor i)) (fun i => B (S27x16.rowMajor i)))
    (tapUpd bcast_S16_S27x16_1 r hs w)

theorem tapS27_band (dyc lo dx t : Nat) (hdy : dyc < 3) (hdx3 : dx < 3) (ht : t = dyc * 3 + dx)
    (hlo : lo + 27 ≤ 28) (hdx : dx ≤ lo + 1) (hwo : lo + 27 ≤ 27 + dx)
    (hfirst : lo = 0 ∨ lo + 1 ≤ dx) (hlast : lo + 27 = 28 ∨ 27 + dx ≤ lo + 27)
    (A : Fin 27 → BitVec 32) (B : Fin 432 → BitVec 32)
    (hA : ∀ i : Fin 27, A i = BitVec.ofNat 32 (i.val + lo))
    (hB : ∀ (a : Fin 27) (c : Fin 16), B ⟨a.val * 16 + c.val, by have := a.isLt; have := c.isLt; omega⟩
      = BitVec.ofNat 32 ((a.val + lo + 1 - dx) % 2 * 256 + (a.val + lo + 1 - dx) / 2 * 16 + c.val))
    (hs : S9x16.Slices ![t, 0] S1x16) (w : FVec Ideal S9x16 .f32) (x : FVec Ideal S3x28x512 .f32)
    (hx : ∀ dy wi l, x (ix3 dy wi l) = bandUpTo w t dy wi l) (dy : Fin 3) (wi : Fin 28) (l : Fin 512) :
    tapS27 (BitVec.ofNat 32 dyc) A B t hs w x (ix3 dy wi l) = bandUpTo w (t + 1) dy wi l :=
  tapStep_band (n := 27) scatter_S3x28x512_S27x16x3_S27x16_n_012_012_2 d27_window d27_start _ _ _ _ _ _ dyc lo dx t
    hdy hdx3 ht hlo hdx hwo hfirst hlast
    (fun i => A (S27x1.rowMajor i)) (fun i => B (S27x16.rowMajor i))
    (fun a => by
      show A (S27x1.rowMajor (ix2 a (0 : Fin 1))) = _
      rw [← hA a]
      congr 1
      apply Fin.ext
      rw [Shape.rowMajor_val_two]
      show a.val * 1 + 0 = a.val
      omega)
    (fun a c => by
      show B (S27x16.rowMajor (ix2 a c)) = _
      rw [← hB a c]
      congr 1
      apply Fin.ext
      rw [Shape.rowMajor_val_two]
      rfl)
    hs w x hx dy wi l

/-- A tap whose tables have 28 rows, as the program writes it. -/
abbrev tapS28 (dyv : BitVec 32) (A : Fin 28 → BitVec 32) (B : Fin 448 → BitVec 32) (r : Nat)
    (hs : S9x16.Slices ![r, 0] S1x16) (w : FVec Ideal S9x16 .f32) (x : FVec Ideal S3x28x512 .f32) : FVec Ideal S3x28x512 .f32 :=
  Host.scatter scatter_S3x28x512_S28x16x3_S28x16_n_012_012_2 (fun _ b => b) x
    (tapIdx bcast_S_S28x1 bcast_S_S28x16 bcast_S28x1_S28x16_0_1 bcast_S28x16_S28x16x1_0_1
      concatenates_S28x16x1_S28x16x1_S28x16x1_S28x16x3_d2 dyv (fun i => A (S28x1.rowMajor i)) (fun i => B (S28x16.rowMajor i)))
    (tapUpd bcast_S16_S28x16_1 r hs w)

theorem tapS28_band (dyc lo dx t : Nat) (hdy : dyc < 3) (hdx3 : dx < 3) (ht : t = dyc * 3 + dx)
    (hlo : lo + 28 ≤ 28) (hdx : dx ≤ lo + 1) (hwo : lo + 28 ≤ 27 + dx)
    (hfirst : lo = 0 ∨ lo + 1 ≤ dx) (hlast : lo + 28 = 28 ∨ 27 + dx ≤ lo + 28)
    (A : Fin 28 → BitVec 32) (B : Fin 448 → BitVec 32)
    (hA : ∀ i : Fin 28, A i = BitVec.ofNat 32 (i.val + lo))
    (hB : ∀ (a : Fin 28) (c : Fin 16), B ⟨a.val * 16 + c.val, by have := a.isLt; have := c.isLt; omega⟩
      = BitVec.ofNat 32 ((a.val + lo + 1 - dx) % 2 * 256 + (a.val + lo + 1 - dx) / 2 * 16 + c.val))
    (hs : S9x16.Slices ![t, 0] S1x16) (w : FVec Ideal S9x16 .f32) (x : FVec Ideal S3x28x512 .f32)
    (hx : ∀ dy wi l, x (ix3 dy wi l) = bandUpTo w t dy wi l) (dy : Fin 3) (wi : Fin 28) (l : Fin 512) :
    tapS28 (BitVec.ofNat 32 dyc) A B t hs w x (ix3 dy wi l) = bandUpTo w (t + 1) dy wi l :=
  tapStep_band (n := 28) scatter_S3x28x512_S28x16x3_S28x16_n_012_012_2 d28_window d28_start _ _ _ _ _ _ dyc lo dx t
    hdy hdx3 ht hlo hdx hwo hfirst hlast
    (fun i => A (S28x1.rowMajor i)) (fun i => B (S28x16.rowMajor i))
    (fun a => by
      show A (S28x1.rowMajor (ix2 a (0 : Fin 1))) = _
      rw [← hA a]
      congr 1
      apply Fin.ext
      rw [Shape.rowMajor_val_two]
      show a.val * 1 + 0 = a.val
      omega)
    (fun a c => by
      show B (S28x16.rowMajor (ix2 a c)) = _
      rw [← hB a c]
      congr 1
      apply Fin.ext
      rw [Shape.rowMajor_val_two]
      rfl)
    hs w x hx dy wi l

/-- The nine taps written one after the other into a zero array. -/
def t1Pre (w : FVec Ideal S9x16 .f32) : FVec Ideal S3x28x512 .f32 :=
  (tapS27 2#32 lit16 lit17 8 slices_S9x16_S1x16_8_0 w
  (tapS28 2#32 lit14 lit15 7 slices_S9x16_S1x16_7_0 w
  (tapS27 2#32 lit12 lit13 6 slices_S9x16_S1x16_6_0 w
  (tapS27 1#32 lit10 lit11 5 slices_S9x16_S1x16_5_0 w
  (tapS28 1#32 lit8 lit9 4 slices_S9x16_S1x16_4_0 w
  (tapS27 1#32 lit6 lit7 3 slices_S9x16_S1x16_3_0 w
  (tapS27 0#32 lit4 lit5 2 slices_S9x16_S1x16_2_0 w
  (tapS28 0#32 lit2 lit3 1 slices_S9x16_S1x16_1_0 w
  (tapS27 0#32 lit0 lit1 0 slices_S9x16_S1x16_0_0 w
  (broadcastInDim S3x28x512 ![] bcast_S_S3x28x512 (constant (F := Ideal) S_ .f32 0x00000000#32)))))))))))

/-- The nine scatters' result is the closed form with all nine taps. -/
theorem t1Pre_band (w : FVec Ideal S9x16 .f32) : ∀ dy wi l, t1Pre w (ix3 dy wi l) = bandUpTo w 9 dy wi l :=
  (tapS27_band 2 1 2 8 (by norm_num) (by norm_num) (by norm_num) (by norm_num) (by norm_num) (by norm_num) (by norm_num) (by norm_num)
    lit16 lit17 lit16_eq lit17_eq _ w _
    (tapS28_band 2 0 1 7 (by norm_num) (by norm_num) (by norm_num) (by norm_num) (by norm_num) (by norm_num) (by norm_num) (by norm_num)
    lit14 lit15 lit14_eq lit15_eq _ w _
    (tapS27_band 2 0 0 6 (by norm_num) (by norm_num) (by norm_num) (by norm_num) (by norm_num) (by norm_num) (by norm_num) (by norm_num)
    lit12 lit13 lit12_eq lit13_eq _ w _
    (tapS27_band 1 1 2 5 (by norm_num) (by norm_num) (by norm_num) (by norm_num) (by norm_num) (by norm_num) (by norm_num) (by norm_num)
    lit10 lit11 lit10_eq lit11_eq _ w _
    (tapS28_band 1 0 1 4 (by norm_num) (by norm_num) (by norm_num) (by norm_num) (by norm_num) (by norm_num) (by norm_num) (by norm_num)
    lit8 lit9 lit8_eq lit9_eq _ w _
    (tapS27_band 1 0 0 3 (by norm_num) (by norm_num) (by norm_num) (by norm_num) (by norm_num) (by norm_num) (by norm_num) (by norm_num)
    lit6 lit7 lit6_eq lit7_eq _ w _
    (tapS27_band 0 1 2 2 (by norm_num) (by norm_num) (by norm_num) (by norm_num) (by norm_num) (by norm_num) (by norm_num) (by norm_num)
    lit4 lit5 lit4_eq lit5_eq _ w _
    (tapS28_band 0 0 1 1 (by norm_num) (by norm_num) (by norm_num) (by norm_num) (by norm_num) (by norm_num) (by norm_num) (by norm_num)
    lit2 lit3 lit2_eq lit3_eq _ w _
    (tapS27_band 0 0 0 0 (by norm_num) (by norm_num) (by norm_num) (by norm_num) (by norm_num) (by norm_num) (by norm_num) (by norm_num)
    lit0 lit1 lit0_eq lit1_eq _ w _
    (fun dy wi l => by
      rw [broadcastInDim_scalar_apply, constant_apply, Ideal.ofBits_zero_f32]
      unfold bandUpTo
      rw [dif_neg (by omega)]))))))))))

/-- The first banded matrix as a function of the weights: the nine scatters, [3, 28, 512] read as [84, 512], narrowed. -/
def t1Term (w : FVec Ideal S9x16 .f32) : FVec Ideal S84x512 .bf16 :=
  truncf .bf16 (shapeCast S84x512 (t1Pre w) shapeCasts_S3x28x512_S84x512) bitsLt_bf16_f32

theorem t1Term_apply (w : FVec Ideal S9x16 .f32) (k : Fin 84) (l : Fin 512) :
    t1Term w (ix2 k l) = Cert.Cnn.T1 (fun q c => w (ix2 q c)) k l := by
  unfold t1Term
  rw [truncf_apply, shapeCast_apply _ shapeCasts_S3x28x512_S84x512 (ix2 k l)
    (ix3 (⟨k.val / 28, by have := k.isLt; omega⟩ : Fin 3) (⟨k.val % 28, Nat.mod_lt _ (by norm_num)⟩ : Fin 28) l)
    (by
      rw [Shape.rowMajor_val_three, Shape.rowMajor_val_two]
      show (k.val / 28 * 28 + k.val % 28) * 512 + l.val = k.val * 512 + l.val
      omega),
    t1Pre_band]
  unfold bandUpTo Cert.Cnn.T1
  dsimp only
  have hk := k.isLt
  split_ifs <;> first | rfl | (exfalso; omega)

end Cert.KernelIdeal.Hand

end
-- ==== Proof.KHostA.lean ====
/-
  The first banded matrix after the host operations.  The host line is straight and writes every buffer once, so the
  contents of a buffer after it are the operations' functions composed along the data flow from the argument buffers.
  The line is read stretch by stretch, each at any starting contents: stretch 0 leaves the literal tables in their
  buffers; stretches 1 to 4 write the nine taps in turn, each from the tables (which the stretches in between do not
  write), the weights' argument buffer and what the stretch before left — the scatters' result so far, and the update
  and the column bound of the tap it had begun —; the stretches after do not write the matrix's buffer.  Composed,
  the buffer holds `t1Term` of the weights as launched, whose entries are the closed form `Cert.Cnn.T1`.
-/
import proofs.«150178_g2000205257289275_pallasbulk_739_9_alg».proof.Proof.Gen.KernelIdeal.Launch
import proofs.«150178_g2000205257289275_pallasbulk_739_9_alg».proof.Proof.KHostParts
import proofs.«150178_g2000205257289275_pallasbulk_739_9_alg».proof.Proof.KHostA1

set_option maxRecDepth 100000

noncomputable section

namespace Cert.KernelIdeal.Hand

open Cert.Cnn Idealize.ShloMosaic Idealize.ShloMosaic.ValueIdx Idealize.ShloMosaic.TcCoe
open Cert.KernelIdeal Cert.KernelIdeal.Gen

section Nary3

/-- Three values, one per index of `Fin 3`, as a dependent function. -/
def pick3 {β : Fin 3 → Type} (x : β 0) (y : β 1) (z : β 2) : (k : Fin 3) → β k
  | ⟨0, _⟩ => x
  | ⟨1, _⟩ => y
  | ⟨2, _⟩ => z

/-- A function of three such values, applied: the three stay arguments of this application. -/
def apply3 {β : Fin 3 → Type} {γ : Type} (f : ((k : Fin 3) → β k) → γ) (x : β 0) (y : β 1) (z : β 2) : γ := f (pick3 x y z)

variable {τ : Topo} {sig : RefSig} {Val : EltTy → Type} {x a b y : Ref sig .tc}

/-- An operation over a literal family of three operand references: the result with each operand's contents at its
    own reference, the three kept as arguments. -/
theorem nary3_result'
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = apply3 (β := fun k => ((![x, a, b] : Fin 3 → Ref sig .tc) k).ty.Contents Val) f
          (G (Proc.devRef .tc x)) (G (Proc.devRef .tc a)) (G (Proc.devRef .tc b)) := by
  unfold apply3
  rw [StableHlo.nary_result]; congr 1; funext k; fin_cases k <;> rfl

end Nary3

/-! ## The stretches, each at any starting contents -/

/-- What the tables' buffers and their all-zero masks hold, as a property of a valuation. -/
def TablesIn (W : Valuation τ sig (Elt Ideal)) : Prop :=
  (W (Proc.devRef .tc main_c) = fun i => lit0 (S27x1.rowMajor i)) ∧
  (W (Proc.devRef .tc main_c_0) = constantI S27x1 1 0#1) ∧
  (W (Proc.devRef .tc main_c_1) = fun i => lit1 (S27x16.rowMajor i)) ∧
  (W (Proc.devRef .tc main_c_2) = constantI S27x16 1 0#1) ∧
  (W (Proc.devRef .tc main_c_3) = fun i => lit2 (S28x1.rowMajor i)) ∧
  (W (Proc.devRef .tc main_c_4) = constantI S28x1 1 0#1) ∧
  (W (Proc.devRef .tc main_c_5) = fun i => lit3 (S28x16.rowMajor i)) ∧
  (W (Proc.devRef .tc main_c_6) = constantI S28x16 1 0#1) ∧
  (W (Proc.devRef .tc main_c_7) = fun i => lit4 (S27x1.rowMajor i)) ∧
  (W (Proc.devRef .tc main_c_8) = constantI S27x1 1 0#1) ∧
  (W (Proc.devRef .tc main_c_9) = fun i => lit5 (S27x16.rowMajor i)) ∧
  (W (Proc.devRef .tc main_c_10) = constantI S27x16 1 0#1) ∧
  (W (Proc.devRef .tc main_c_11) = fun i => lit6 (S27x1.rowMajor i)) ∧
  (W (Proc.devRef .tc main_c_12) = constantI S27x1 1 0#1) ∧
  (W (Proc.devRef .tc main_c_13) = fun i => lit7 (S27x16.rowMajor i)) ∧
  (W (Proc.devRef .tc main_c_14) = constantI S27x16 1 0#1) ∧
  (W (Proc.devRef .tc main_c_15) = fun i => lit8 (S28x1.rowMajor i)) ∧
  (W (Proc.devRef .tc main_c_16) = constantI S28x1 1 0#1) ∧
  (W (Proc.devRef .tc main_c_17) = fun i => lit9 (S28x16.rowMajor i)) ∧
  (W (Proc.devRef .tc main_c_18) = constantI S28x16 1 0#1) ∧
  (W (Proc.devRef .tc main_c_19) = fun i => lit10 (S27x1.rowMajor i)) ∧
  (W (Proc.devRef .tc main_c_20) = constantI S27x1 1 0#1) ∧
  (W (Proc.devRef .tc main_c_21) = fun i => lit11 (S27x16.rowMajor i)) ∧
  (W (Proc.devRef .tc main_c_22) = constantI S27x16 1 0#1) ∧
  (W (Proc.devRef .tc main_c_23) = fun i => lit12 (S27x1.rowMajor i)) ∧
  (W (Proc.devRef .tc main_c_24) = constantI S27x1 1 0#1) ∧
  (W (Proc.devRef .tc main_c_25) = fun i => lit13 (S27x16.rowMajor i)) ∧
  (W (Proc.devRef .tc main_c_26) = constantI S27x16 1 0#1) ∧
  (W (Proc.devRef .tc main_c_27) = fun i => lit14 (S28x1.rowMajor i)) ∧
  (W (Proc.devRef .tc main_c_28) = constantI S28x1 1 0#1) ∧
  (W (Proc.devRef .tc main_c_29) = fun i => lit15 (S28x16.rowMajor i)) ∧
  (W (Proc.devRef .tc main_c_30) = constantI S28x16 1 0#1) ∧
  (W (Proc.devRef .tc main_c_31) = fun i => lit16 (S27x1.rowMajor i)) ∧
  (W (Proc.devRef .tc main_c_32) = constantI S27x1 1 0#1) ∧
  (W (Proc.devRef .tc main_c_33) = fun i => lit17 (S27x16.rowMajor i)) ∧
  (W (Proc.devRef .tc main_c_34) = constantI S27x16 1 0#1)

/-- The tables' buffers pass unchanged through a stretch that writes only later slots. -/
theorem TablesIn.frame {W W' : Valuation τ sig (Elt Ideal)}
    (h : ∀ r : Ref sig .tc, r.idx.val < 69 → W' (Proc.devRef .tc r) = W (Proc.devRef .tc r)) (hT : TablesIn W) : TablesIn W' := by
  obtain ⟨hA0, hmA0, hB0, hmB0, hA1, hmA1, hB1, hmB1, hA2, hmA2, hB2, hmB2, hA3, hmA3, hB3, hmB3, hA4, hmA4, hB4, hmB4, hA5, hmA5, hB5, hmB5, hA6, hmA6, hB6, hmB6, hA7, hmA7, hB7, hmB7, hA8, hmA8, hB8, hmB8⟩ := hT
  exact ⟨(h main_c (by decide)).trans hA0,
    (h main_c_0 (by decide)).trans hmA0,
    (h main_c_1 (by decide)).trans hB0,
    (h main_c_2 (by decide)).trans hmB0,
    (h main_c_3 (by decide)).trans hA1,
    (h main_c_4 (by decide)).trans hmA1,
    (h main_c_5 (by decide)).trans hB1,
    (h main_c_6 (by decide)).trans hmB1,
    (h main_c_7 (by decide)).trans hA2,
    (h main_c_8 (by decide)).trans hmA2,
    (h main_c_9 (by decide)).trans hB2,
    (h main_c_10 (by decide)).trans hmB2,
    (h main_c_11 (by decide)).trans hA3,
    (h main_c_12 (by decide)).trans hmA3,
    (h main_c_13 (by decide)).trans hB3,
    (h main_c_14 (by decide)).trans hmB3,
    (h main_c_15 (by decide)).trans hA4,
    (h main_c_16 (by decide)).trans hmA4,
    (h main_c_17 (by decide)).trans hB4,
    (h main_c_18 (by decide)).trans hmB4,
    (h main_c_19 (by decide)).trans hA5,
    (h main_c_20 (by decide)).trans hmA5,
    (h main_c_21 (by decide)).trans hB5,
    (h main_c_22 (by decide)).trans hmB5,
    (h main_c_23 (by decide)).trans hA6,
    (h main_c_24 (by decide)).trans hmA6,
    (h main_c_25 (by decide)).trans hB6,
    (h main_c_26 (by decide)).trans hmB6,
    (h main_c_27 (by decide)).trans hA7,
    (h main_c_28 (by decide)).trans hmA7,
    (h main_c_29 (by decide)).trans hB7,
    (h main_c_30 (by decide)).trans hmB7,
    (h main_c_31 (by decide)).trans hA8,
    (h main_c_32 (by decide)).trans hmA8,
    (h main_c_33 (by decide)).trans hB8,
    (h main_c_34 (by decide)).trans hmB8⟩

set_option maxHeartbeats 4000000 in
/-- Stretch 0 leaves the tables in their buffers. -/
theorem run_part0 (V : Valuation τ sig (Elt Ideal)) : TablesIn (StableHlo.after (main_part0_ops0 (F := Ideal)) V) := by
  unfold TablesIn
  dsimp only [main_part0_ops0]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp (config := {maxSteps := 10000000}) (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne']
     try rfl)

set_option maxHeartbeats 4000000 in
/-- Stretch 1: the zero array, taps 0 and 1, and the update and the column bound of tap 2. -/
theorem run_part1 (W : Valuation τ sig (Elt Ideal)) (hT : TablesIn W) (w : FVec Ideal S9x16 .f32) (hw : W (Proc.devRef .tc main_arg1) = w) :
    (StableHlo.after (main_part1_ops0 (F := Ideal)) W (Proc.devRef .tc main_v35)
        = tapS28 0#32 lit2 lit3 1 Facts₀.slices_S9x16_S1x16_1_0 w (tapS27 0#32 lit0 lit1 0 Facts₀.slices_S9x16_S1x16_0_0 w (broadcastInDim S3x28x512 ![] Facts₀.bcast_S_S3x28x512 (constant (F := Ideal) S_ .f32 0x00000000#32))))
    ∧ (StableHlo.after (main_part1_ops0 (F := Ideal)) W (Proc.devRef .tc main_v38) = tapUpd Facts₀.bcast_S16_S27x16_1 2 Facts₀.slices_S9x16_S1x16_2_0 w)
    ∧ (StableHlo.after (main_part1_ops0 (F := Ideal)) W (Proc.devRef .tc main_v39) = broadcastInDim S27x1 ![] Facts₀.bcast_S_S27x1 (constantI S_ 32 28#32)) := by
  obtain ⟨hA0, hmA0, hB0, hmB0, hA1, hmA1, hB1, hmB1, hA2, hmA2, hB2, hmB2, hA3, hmA3, hB3, hmB3, hA4, hmA4, hB4, hmB4, hA5, hmA5, hB5, hmB5, hA6, hmA6, hB6, hmB6, hA7, hmA7, hB7, hmB7, hA8, hmA8, hB8, hmB8⟩ := hT
  dsimp only [main_part1_ops0]
  refine ⟨?_, ?_, ?_⟩ <;>
    (simp (config := {maxSteps := 10000000}) (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne',
      hA0, hmA0, hB0, hmB0, hA1, hmA1, hB1, hmB1, hw]
     try rfl)

set_option maxHeartbeats 4000000 in
/-- Stretch 2: the rest of tap 2, taps 3 and 4, and the update and the column bound of tap 5. -/
theorem run_part2 (W : Valuation τ sig (Elt Ideal)) (hT : TablesIn W) (w : FVec Ideal S9x16 .f32) (hw : W (Proc.devRef .tc main_arg1) = w)
    (X : FVec Ideal S3x28x512 .f32) (hX : W (Proc.devRef .tc main_v35) = X)
    (hU : W (Proc.devRef .tc main_v38) = tapUpd Facts₀.bcast_S16_S27x16_1 2 Facts₀.slices_S9x16_S1x16_2_0 w)
    (hB : W (Proc.devRef .tc main_v39) = broadcastInDim S27x1 ![] Facts₀.bcast_S_S27x1 (constantI S_ 32 28#32)) :
    (StableHlo.after (main_part2_ops0 (F := Ideal)) W (Proc.devRef .tc main_v86)
        = tapS28 1#32 lit8 lit9 4 Facts₀.slices_S9x16_S1x16_4_0 w (tapS27 1#32 lit6 lit7 3 Facts₀.slices_S9x16_S1x16_3_0 w (tapS27 0#32 lit4 lit5 2 Facts₀.slices_S9x16_S1x16_2_0 w X)))
    ∧ (StableHlo.after (main_part2_ops0 (F := Ideal)) W (Proc.devRef .tc main_v89) = tapUpd Facts₀.bcast_S16_S27x16_1 5 Facts₀.slices_S9x16_S1x16_5_0 w)
    ∧ (StableHlo.after (main_part2_ops0 (F := Ideal)) W (Proc.devRef .tc main_v90) = broadcastInDim S27x1 ![] Facts₀.bcast_S_S27x1 (constantI S_ 32 28#32)) := by
  obtain ⟨hA0, hmA0, hB0, hmB0, hA1, hmA1, hB1, hmB1, hA2, hmA2, hB2, hmB2, hA3, hmA3, hB3, hmB3, hA4, hmA4, hB4, hmB4, hA5, hmA5, hB5, hmB5, hA6, hmA6, hB6, hmB6, hA7, hmA7, hB7, hmB7, hA8, hmA8, hB8, hmB8⟩ := hT
  dsimp only [main_part2_ops0]
  refine ⟨?_, ?_, ?_⟩ <;>
    (simp (config := {maxSteps := 10000000}) (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne',
      hA2, hmA2, hB2, hmB2, hA3, hmA3, hB3, hmB3, hA4, hmA4, hB4, hmB4, hw, hX, hU, hB]
     try rfl)

set_option maxHeartbeats 4000000 in
/-- Stretch 3: the rest of tap 5, taps 6 and 7, and the update and the column bound of tap 8. -/
theorem run_part3 (W : Valuation τ sig (Elt Ideal)) (hT : TablesIn W) (w : FVec Ideal S9x16 .f32) (hw : W (Proc.devRef .tc main_arg1) = w)
    (X : FVec Ideal S3x28x512 .f32) (hX : W (Proc.devRef .tc main_v86) = X)
    (hU : W (Proc.devRef .tc main_v89) = tapUpd Facts₀.bcast_S16_S27x16_1 5 Facts₀.slices_S9x16_S1x16_5_0 w)
    (hB : W (Proc.devRef .tc main_v90) = broadcastInDim S27x1 ![] Facts₀.bcast_S_S27x1 (constantI S_ 32 28#32)) :
    (StableHlo.after (main_part3_ops0 (F := Ideal)) W (Proc.devRef .tc main_v137)
        = tapS28 2#32 lit14 lit15 7 Facts₀.slices_S9x16_S1x16_7_0 w (tapS27 2#32 lit12 lit13 6 Facts₀.slices_S9x16_S1x16_6_0 w (tapS27 1#32 lit10 lit11 5 Facts₀.slices_S9x16_S1x16_5_0 w X)))
    ∧ (StableHlo.after (main_part3_ops0 (F := Ideal)) W (Proc.devRef .tc main_v140) = tapUpd Facts₀.bcast_S16_S27x16_1 8 Facts₀.slices_S9x16_S1x16_8_0 w)
    ∧ (StableHlo.after (main_part3_ops0 (F := Ideal)) W (Proc.devRef .tc main_v141) = broadcastInDim S27x1 ![] Facts₀.bcast_S_S27x1 (constantI S_ 32 28#32)) := by
  obtain ⟨hA0, hmA0, hB0, hmB0, hA1, hmA1, hB1, hmB1, hA2, hmA2, hB2, hmB2, hA3, hmA3, hB3, hmB3, hA4, hmA4, hB4, hmB4, hA5, hmA5, hB5, hmB5, hA6, hmA6, hB6, hmB6, hA7, hmA7, hB7, hmB7, hA8, hmA8, hB8, hmB8⟩ := hT
  dsimp only [main_part3_ops0]
  refine ⟨?_, ?_, ?_⟩ <;>
    (simp (config := {maxSteps := 10000000}) (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne',
      hA5, hmA5, hB5, hmB5, hA6, hmA6, hB6, hmB6, hA7, hmA7, hB7, hmB7, hw, hX, hU, hB]
     try rfl)

set_option maxHeartbeats 4000000 in
/-- Stretch 4: the rest of tap 8, then [3, 28, 512] read as [84, 512] and narrowed. -/
theorem run_part4 (W : Valuation τ sig (Elt Ideal)) (hT : TablesIn W) (w : FVec Ideal S9x16 .f32) (hw : W (Proc.devRef .tc main_arg1) = w)
    (X : FVec Ideal S3x28x512 .f32) (hX : W (Proc.devRef .tc main_v137) = X)
    (hU : W (Proc.devRef .tc main_v140) = tapUpd Facts₀.bcast_S16_S27x16_1 8 Facts₀.slices_S9x16_S1x16_8_0 w)
    (hB : W (Proc.devRef .tc main_v141) = broadcastInDim S27x1 ![] Facts₀.bcast_S_S27x1 (constantI S_ 32 28#32)) :
    (StableHlo.after (main_part4_ops0 (F := Ideal)) W (Proc.devRef .tc main_v156) : FVec Ideal S84x512 .bf16)
      = truncf .bf16 (shapeCast S84x512 (tapS27 2#32 lit16 lit17 8 Facts₀.slices_S9x16_S1x16_8_0 w X) Facts₀.shapeCasts_S3x28x512_S84x512) Facts₀.bitsLt_bf16_f32 := by
  obtain ⟨hA0, hmA0, hB0, hmB0, hA1, hmA1, hB1, hmB1, hA2, hmA2, hB2, hmB2, hA3, hmA3, hB3, hmB3, hA4, hmA4, hB4, hmB4, hA5, hmA5, hB5, hmB5, hA6, hmA6, hB6, hmB6, hA7, hmA7, hB7, hmB7, hA8, hmA8, hB8, hmB8⟩ := hT
  dsimp only [main_part4_ops0]
  simp (config := {maxSteps := 10000000}) (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne',
      hA8, hmA8, hB8, hmB8, hw, hX, hU, hB]
  rfl

/-! ## The stretches one after the other -/

variable (V₀ : Valuation τ sig (Elt Ideal))

/-- The contents after stretch 0, after stretches 0 and 1, … -/
abbrev stage0 : Valuation τ sig (Elt Ideal) := StableHlo.after (main_part0_ops0 (F := Ideal)) V₀
abbrev stage1 : Valuation τ sig (Elt Ideal) := StableHlo.after (main_part1_ops0 (F := Ideal)) (stage0 V₀)
abbrev stage2 : Valuation τ sig (Elt Ideal) := StableHlo.after (main_part2_ops0 (F := Ideal)) (stage1 V₀)
abbrev stage3 : Valuation τ sig (Elt Ideal) := StableHlo.after (main_part3_ops0 (F := Ideal)) (stage2 V₀)

theorem stage0_arg : stage0 V₀ (Proc.devRef .tc main_arg1) = V₀ (Proc.devRef .tc main_arg1) :=
  after_part0_of_slot V₀ main_arg1 (Or.inl (by decide))
theorem stage1_arg : stage1 V₀ (Proc.devRef .tc main_arg1) = V₀ (Proc.devRef .tc main_arg1) :=
  (after_part1_of_slot (stage0 V₀) main_arg1 (Or.inl (by decide))).trans (stage0_arg V₀)
theorem stage2_arg : stage2 V₀ (Proc.devRef .tc main_arg1) = V₀ (Proc.devRef .tc main_arg1) :=
  (after_part2_of_slot (stage1 V₀) main_arg1 (Or.inl (by decide))).trans (stage1_arg V₀)
theorem stage3_arg : stage3 V₀ (Proc.devRef .tc main_arg1) = V₀ (Proc.devRef .tc main_arg1) :=
  (after_part3_of_slot (stage2 V₀) main_arg1 (Or.inl (by decide))).trans (stage2_arg V₀)

theorem stage0_tables : TablesIn (stage0 V₀) := run_part0 V₀
theorem stage1_tables : TablesIn (stage1 V₀) :=
  (stage0_tables V₀).frame fun r hr => after_part1_of_slot (stage0 V₀) r (Or.inl hr)
theorem stage2_tables : TablesIn (stage2 V₀) :=
  (stage1_tables V₀).frame fun r hr => after_part2_of_slot (stage1 V₀) r (Or.inl (by omega))
theorem stage3_tables : TablesIn (stage3 V₀) :=
  (stage2_tables V₀).frame fun r hr => after_part3_of_slot (stage2 V₀) r (Or.inl (by omega))

/-- The buffer of the first banded matrix after the host operations, as a term over the weights' argument buffer. -/
theorem run_t1 :
    (StableHlo.after (hostOps0 (F := Ideal)) V₀ (Proc.devRef .tc main_v156) : FVec Ideal S84x512 .bf16)
      = t1Term (V₀ (Proc.devRef .tc main_arg1)) := by
  obtain ⟨x1, u1, b1⟩ := run_part1 (stage0 V₀) (stage0_tables V₀) _ (stage0_arg V₀)
  obtain ⟨x2, u2, b2⟩ := run_part2 (stage1 V₀) (stage1_tables V₀) _ (stage1_arg V₀) _ x1 u1 b1
  obtain ⟨x3, u3, b3⟩ := run_part3 (stage2 V₀) (stage2_tables V₀) _ (stage2_arg V₀) _ x2 u2 b2
  rw [after_hostOps0_upto4 V₀ main_v156 (by decide)]
  exact run_part4 (stage3 V₀) (stage3_tables V₀) _ (stage3_arg V₀) _ x3 u3 b3

/-- After the host operations the kernel's second window's array holds `T1` of the first layer's weights. -/
theorem host_t1 (k : Fin 84) (l : Fin 512) :
    (StableHlo.after (hostOps0 (F := Ideal)) V₀ (Proc.devRef .tc main_v156) : S84x512.Idx → EReal) (ix2 k l)
      = T1 (fun q c => (V₀ (Proc.devRef .tc main_arg1) : S9x16.Idx → EReal) (ix2 q c)) k l := by
  rw [run_t1]
  exact t1Term_apply _ k l

/-- The same with the host line written as the one-element list of lines, flattened. -/
theorem host_t1_flatten (k : Fin 84) (l : Fin 512) :
    (StableHlo.after (List.flatten [hostOps0 (F := Ideal)]) V₀ (Proc.devRef .tc main_v156) : S84x512.Idx → EReal) (ix2 k l)
      = T1 (fun q c => (V₀ (Proc.devRef .tc main_arg1) : S9x16.Idx → EReal) (ix2 q c)) k l := by
  have e : ∀ L : List (HloOp τ sig (Elt Ideal)), List.flatten [L] = L := fun L => by simp
  rw [e]
  exact host_t1 V₀ k l

end Cert.KernelIdeal.Hand

end
-- ==== Proof.KHostBRd.lean ====
/-
  The index tables of the second banded matrix's scatters are constants of the first two stretches of the host
  operations: each read off its stretch, from any buffer contents.
-/
import proofs.«150178_g2000205257289275_pallasbulk_739_9_alg».proof.Proof.Gen.KernelIdeal.Launch
import Idealize.ShloMosaic.Lib.StableHlo.Run
import Idealize.ShloMosaic.PureOps.Ideal

set_option maxRecDepth 100000

noncomputable section

namespace Cert.KernelIdeal.Hand

open Idealize.ShloMosaic Idealize.ShloMosaic.TcCoe Cert.KernelIdeal Cert.KernelIdeal.Gen

set_option maxHeartbeats 0 in
/-- The four index tables of tap 0, constants of stretch 0. -/
theorem read_tab0 (W : Valuation τ sig (Elt Ideal)) :
    StableHlo.after (main_part0_ops0 (F := Ideal)) W (Proc.devRef .tc main_c_35) = (fun i => lit18 (S13x16x1.rowMajor i))
    ∧ StableHlo.after (main_part0_ops0 (F := Ideal)) W (Proc.devRef .tc main_c_36) = (constantI S13x16x1 1 0#1)
    ∧ StableHlo.after (main_part0_ops0 (F := Ideal)) W (Proc.devRef .tc main_c_37) = (fun i => lit19 (S13x1x32.rowMajor i))
    ∧ StableHlo.after (main_part0_ops0 (F := Ideal)) W (Proc.devRef .tc main_c_38) = (constantI S13x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 1, constants of stretch 0. -/
theorem read_tab1 (W : Valuation τ sig (Elt Ideal)) :
    StableHlo.after (main_part0_ops0 (F := Ideal)) W (Proc.devRef .tc main_c_39) = (fun i => lit20 (S14x16x1.rowMajor i))
    ∧ StableHlo.after (main_part0_ops0 (F := Ideal)) W (Proc.devRef .tc main_c_40) = (constantI S14x16x1 1 0#1)
    ∧ StableHlo.after (main_part0_ops0 (F := Ideal)) W (Proc.devRef .tc main_c_41) = (fun i => lit21 (S14x1x32.rowMajor i))
    ∧ StableHlo.after (main_part0_ops0 (F := Ideal)) W (Proc.devRef .tc main_c_42) = (constantI S14x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 2, constants of stretch 0. -/
theorem read_tab2 (W : Valuation τ sig (Elt Ideal)) :
    StableHlo.after (main_part0_ops0 (F := Ideal)) W (Proc.devRef .tc main_c_43) = (fun i => lit22 (S13x16x1.rowMajor i))
    ∧ StableHlo.after (main_part0_ops0 (F := Ideal)) W (Proc.devRef .tc main_c_44) = (constantI S13x16x1 1 0#1)
    ∧ StableHlo.after (main_part0_ops0 (F := Ideal)) W (Proc.devRef .tc main_c_45) = (fun i => lit23 (S13x1x32.rowMajor i))
    ∧ StableHlo.after (main_part0_ops0 (F := Ideal)) W (Proc.devRef .tc main_c_46) = (constantI S13x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 3, constants of stretch 0. -/
theorem read_tab3 (W : Valuation τ sig (Elt Ideal)) :
    StableHlo.after (main_part0_ops0 (F := Ideal)) W (Proc.devRef .tc main_c_47) = (fun i => lit24 (S13x16x1.rowMajor i))
    ∧ StableHlo.after (main_part0_ops0 (F := Ideal)) W (Proc.devRef .tc main_c_48) = (constantI S13x16x1 1 0#1)
    ∧ StableHlo.after (main_part0_ops0 (F := Ideal)) W (Proc.devRef .tc main_c_49) = (fun i => lit25 (S13x1x32.rowMajor i))
    ∧ StableHlo.after (main_part0_ops0 (F := Ideal)) W (Proc.devRef .tc main_c_50) = (constantI S13x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 4, constants of stretch 0. -/
theorem read_tab4 (W : Valuation τ sig (Elt Ideal)) :
    StableHlo.after (main_part0_ops0 (F := Ideal)) W (Proc.devRef .tc main_c_51) = (fun i => lit26 (S14x16x1.rowMajor i))
    ∧ StableHlo.after (main_part0_ops0 (F := Ideal)) W (Proc.devRef .tc main_c_52) = (constantI S14x16x1 1 0#1)
    ∧ StableHlo.after (main_part0_ops0 (F := Ideal)) W (Proc.devRef .tc main_c_53) = (fun i => lit27 (S14x1x32.rowMajor i))
    ∧ StableHlo.after (main_part0_ops0 (F := Ideal)) W (Proc.devRef .tc main_c_54) = (constantI S14x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 5, constants of stretch 0. -/
theorem read_tab5 (W : Valuation τ sig (Elt Ideal)) :
    StableHlo.after (main_part0_ops0 (F := Ideal)) W (Proc.devRef .tc main_c_55) = (fun i => lit28 (S13x16x1.rowMajor i))
    ∧ StableHlo.after (main_part0_ops0 (F := Ideal)) W (Proc.devRef .tc main_c_56) = (constantI S13x16x1 1 0#1)
    ∧ StableHlo.after (main_part0_ops0 (F := Ideal)) W (Proc.devRef .tc main_c_57) = (fun i => lit29 (S13x1x32.rowMajor i))
    ∧ StableHlo.after (main_part0_ops0 (F := Ideal)) W (Proc.devRef .tc main_c_58) = (constantI S13x1x32 1 0#1) := by
  dsimp only [main_part0_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 6, constants of stretch 1. -/
theorem read_tab6 (W : Valuation τ sig (Elt Ideal)) :
    StableHlo.after (main_part1_ops0 (F := Ideal)) W (Proc.devRef .tc main_c_59) = (fun i => lit30 (S13x16x1.rowMajor i))
    ∧ StableHlo.after (main_part1_ops0 (F := Ideal)) W (Proc.devRef .tc main_c_60) = (constantI S13x16x1 1 0#1)
    ∧ StableHlo.after (main_part1_ops0 (F := Ideal)) W (Proc.devRef .tc main_c_61) = (fun i => lit31 (S13x1x32.rowMajor i))
    ∧ StableHlo.after (main_part1_ops0 (F := Ideal)) W (Proc.devRef .tc main_c_62) = (constantI S13x1x32 1 0#1) := by
  dsimp only [main_part1_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 7, constants of stretch 1. -/
theorem read_tab7 (W : Valuation τ sig (Elt Ideal)) :
    StableHlo.after (main_part1_ops0 (F := Ideal)) W (Proc.devRef .tc main_c_63) = (fun i => lit32 (S14x16x1.rowMajor i))
    ∧ StableHlo.after (main_part1_ops0 (F := Ideal)) W (Proc.devRef .tc main_c_64) = (constantI S14x16x1 1 0#1)
    ∧ StableHlo.after (main_part1_ops0 (F := Ideal)) W (Proc.devRef .tc main_c_65) = (fun i => lit33 (S14x1x32.rowMajor i))
    ∧ StableHlo.after (main_part1_ops0 (F := Ideal)) W (Proc.devRef .tc main_c_66) = (constantI S14x1x32 1 0#1) := by
  dsimp only [main_part1_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

set_option maxHeartbeats 0 in
/-- The four index tables of tap 8, constants of stretch 1. -/
theorem read_tab8 (W : Valuation τ sig (Elt Ideal)) :
    StableHlo.after (main_part1_ops0 (F := Ideal)) W (Proc.devRef .tc main_c_67) = (fun i => lit34 (S13x16x1.rowMajor i))
    ∧ StableHlo.after (main_part1_ops0 (F := Ideal)) W (Proc.devRef .tc main_c_68) = (constantI S13x16x1 1 0#1)
    ∧ StableHlo.after (main_part1_ops0 (F := Ideal)) W (Proc.devRef .tc main_c_69) = (fun i => lit35 (S13x1x32.rowMajor i))
    ∧ StableHlo.after (main_part1_ops0 (F := Ideal)) W (Proc.devRef .tc main_c_70) = (constantI S13x1x32 1 0#1) := by
  dsimp only [main_part1_ops0]
  refine ⟨?_, ?_, ?_, ?_⟩ <;>
  (simp (config := {maxSteps := 10000000}) (disch := decide) only [StableHlo.after_cons, StableHlo.after_nil,
    StableHlo.nullary_result', StableHlo.unary_result', StableHlo.binary_result', StableHlo.ternary_result',
    StableHlo.reshape_result', StableHlo.nary_result',
    StableHlo.nullary_result_ne', StableHlo.unary_result_ne', StableHlo.binary_result_ne', StableHlo.ternary_result_ne',
    StableHlo.reshape_result_ne', StableHlo.nary_result_ne']
   try rfl)

end Cert.KernelIdeal.Hand

end
-- ==== Proof.KHostBLib.lean ====
/-
  An overwriting scatter that lays single elements, read at an index; the start indices and one step of a banded
  matrix built tap by tap; a three-operand host operation's result.

  When every axis of the operand is a scattered axis the window of an update index is one element, and the scatter is a
  partial function from update indices to places: the result at a place shows the update's element when exactly one
  update index lands there, and the operand's otherwise.  For a [3, 256, 512] band whose rows are (tap row; input
  column, input channel) and whose lanes are (parity of the output column, column pair, output channel), one tap is
  laid at `nv` places (input column `v + offI`, output column `v + offO`) by one such scatter, its start indices three
  components side by side: a constant, and two tables spread over the other channel axis.
-/
import proofs.«150178_g2000205257289275_pallasbulk_739_9_alg».proof.Proof.LibScatterSet
import Idealize.ShloMosaic.Lib.ValueIdx
import Idealize.ShloMosaic.Lib.Pipeline.Value
import Idealize.ShloMosaic.Lib.StableHlo.Run

noncomputable section

namespace Idealize.ShloMosaic

open ValueIdx

/-! ## A scatter that lays single elements

Every axis of the operand is a scattered axis, so the window of an update index is one element: update index `j`
lands where its start index says.  When the landing places are given as a function `f` of the update index, the
result at `f j` is the update's element at `j` provided no other update index lands there, and away from the range
of `f` the operand shows. -/

section Point

variable {α : Type} {s si u : Shape} {w : Nat}

/-- If update index `j` lands at `f j`, whatever `j`, then it lands at `i` exactly when `f j = i`. -/
theorem ScatterDims.resultIdx?_eq_some_iff_of_land (d : ScatterDims s si u) (idx : IVec si w) (f : u.Idx → s.Idx)
    (hland : ∀ j a, d.start j idx a + (d.window j a : Int) = ((f j a).val : Int)) (j : u.Idx) (i : s.Idx) :
    d.resultIdx? j idx = some i ↔ f j = i := by
  rw [ScatterDims.resultIdx?_eq_some_iff]
  constructor
  · intro h
    funext a
    apply Fin.ext
    have e := h a
    rw [hland] at e
    exact_mod_cast e
  · rintro rfl a
    exact hland j a

theorem Host.scatter_point_hit (d : ScatterDims s si u) (x : s.Idx → α) (idx : IVec si w) (upd : u.Idx → α)
    (f : u.Idx → s.Idx) (hland : ∀ j a, d.start j idx a + (d.window j a : Int) = ((f j a).val : Int))
    (i : s.Idx) (j : u.Idx) (hj : f j = i) (hinj : ∀ j', f j' = i → j' = j) :
    Host.scatter d (fun _ b => b) x idx upd i = upd j :=
  Host.scatter_overwrite_hit d x idx upd i j ((ScatterDims.resultIdx?_eq_some_iff_of_land d idx f hland j i).2 hj)
    fun j' h => hinj j' ((ScatterDims.resultIdx?_eq_some_iff_of_land d idx f hland j' i).1 h)

theorem Host.scatter_point_miss (d : ScatterDims s si u) (x : s.Idx → α) (idx : IVec si w) (upd : u.Idx → α)
    (f : u.Idx → s.Idx) (hland : ∀ j a, d.start j idx a + (d.window j a : Int) = ((f j a).val : Int))
    (i : s.Idx) (hmiss : ∀ j, f j ≠ i) : Host.scatter d (fun _ b => b) x idx upd i = x i :=
  Host.scatter_overwrite_miss d x idx upd i fun j h =>
    hmiss j ((ScatterDims.resultIdx?_eq_some_iff_of_land d idx f hland j i).1 h)

end Point

/-! ## Three scattered axes, the index vector last -/

section Three

variable {α : Type} {nv : Nat} {m0 m1 m2 : Nat}

/-- The dimension numbers of a scatter of single elements into a rank-3 operand: no window axis, the operand's
    three axes inserted and scattered in order, the index vector on the last axis of the indices. -/
abbrev ptDims (m0 m1 m2 n0 n1 n2 : Nat)
    (wf : ScatterDims.WF ⟨3, ![m0, m1, m2]⟩ ⟨4, ![n0, n1, n2, 3]⟩ ⟨3, ![n0, n1, n2]⟩ [] [0, 1, 2] [0, 1, 2] 3) :
    ScatterDims ⟨3, ![m0, m1, m2]⟩ ⟨4, ![n0, n1, n2, 3]⟩ ⟨3, ![n0, n1, n2]⟩ :=
  { updateWindowDims := [], insertedWindowDims := [0, 1, 2], scatterDimsToOperandDims := [0, 1, 2], indexVectorDim := 3,
    wf := wf }

variable {n0 n1 n2 : Nat}

theorem ptDims_window (wf) (j : Shape.Idx ⟨3, ![n0, n1, n2]⟩) (a : Fin 3) :
    (ptDims m0 m1 m2 n0 n1 n2 wf).window j a = 0 := by
  unfold ScatterDims.window
  rw [dif_neg]
  rw [show (ptDims m0 m1 m2 n0 n1 n2 wf).sKept = [] from rfl]
  exact List.not_mem_nil

theorem ptDims_start (wf) (j : Shape.Idx ⟨3, ![n0, n1, n2]⟩) (idx : IVec ⟨4, ![n0, n1, n2, 3]⟩ 32) (a : Fin 3) :
    (ptDims m0 m1 m2 n0 n1 n2 wf).start j idx a = (idx (ix4 (j 0) (j 1) (j 2) a)).toInt := by
  unfold ScatterDims.start
  have ha : a ∈ (ptDims m0 m1 m2 n0 n1 n2 wf).scatterDimsToOperandDims :=
    (by decide : ∀ a : Fin 3, a ∈ ([0, 1, 2] : List (Fin 3))) a
  rw [dif_pos ha]
  congr 2
  funext b
  fin_cases a <;> fin_cases b <;> rfl

end Three

end Idealize.ShloMosaic

namespace Idealize.ShloMosaic

open ValueIdx

/-! ## One tap of a banded matrix

The operand is [3, 256, 512]: tap row, then (input column, input channel) as `wi · 16 + ci`, then (parity of the output
column, output-column pair, output channel) as `par · 256 + jj · 32 + co`.  One scatter lays a 16 × 32 tap at `nv`
places: place `v` is input column `v + offI` and output column `v + offO`. -/

section Tap

variable {α : Type} {nv : Nat}

theorem Host.scatter_tap_apply (wf) (x : Shape.Idx ⟨3, ![3, 256, 512]⟩ → α) (idx : IVec ⟨4, ![nv, 16, 32, 3]⟩ 32)
    (upd : Shape.Idx ⟨3, ![nv, 16, 32]⟩ → α) (dy offI offO : Nat) (hdy : dy < 3) (hI : nv + offI ≤ 14) (hO : nv + offO ≤ 14)
    (h0 : ∀ (v : Fin nv) (ci : Fin 16) (co : Fin 32), (idx (ix4 v ci co 0)).toInt = ((dy : Nat) : Int))
    (h1 : ∀ (v : Fin nv) (ci : Fin 16) (co : Fin 32),
      (idx (ix4 v ci co 1)).toInt = (((v.val + offI) * 16 + ci.val : Nat) : Int))
    (h2 : ∀ (v : Fin nv) (ci : Fin 16) (co : Fin 32),
      (idx (ix4 v ci co 2)).toInt = (((v.val + offO) % 2 * 256 + (v.val + offO) / 2 * 32 + co.val : Nat) : Int))
    (tap : Fin 16 → Fin 32 → α) (hupd : ∀ v ci co, upd (ix3 v ci co) = tap ci co)
    (a : Fin 3) (r : Fin 256) (l : Fin 512) :
    Host.scatter (ptDims 3 256 512 nv 16 32 wf) (fun _ b => b) x idx upd (ix3 a r l)
      = if a.val = dy ∧ offI ≤ r.val / 16 ∧ r.val / 16 - offI < nv ∧ (r.val / 16 - offI + offO) % 2 = l.val / 256
            ∧ (r.val / 16 - offI + offO) / 2 = l.val % 256 / 32
        then tap ⟨r.val % 16, Nat.mod_lt _ (by norm_num)⟩ ⟨l.val % 32, Nat.mod_lt _ (by norm_num)⟩
        else x (ix3 a r l) := by
  have hr := r.isLt
  have hl := l.isLt
  let f : Shape.Idx ⟨3, ![nv, 16, 32]⟩ → Shape.Idx ⟨3, ![3, 256, 512]⟩ := fun j =>
    ix3 (⟨dy, hdy⟩ : Fin 3)
      (⟨((j 0).val + offI) * 16 + (j 1).val, by
        have b0 : (j 0).val < nv := (j 0).isLt
        have b1 : (j 1).val < 16 := (j 1).isLt
        omega⟩ : Fin 256)
      (⟨((j 0).val + offO) % 2 * 256 + ((j 0).val + offO) / 2 * 32 + (j 2).val, by
        have b0 : (j 0).val < nv := (j 0).isLt
        have b2 : (j 2).val < 32 := (j 2).isLt
        omega⟩ : Fin 512)
  have hland : ∀ j a, (ptDims 3 256 512 nv 16 32 wf).start j idx a + ((ptDims 3 256 512 nv 16 32 wf).window j a : Int)
      = ((f j a).val : Int) := by
    intro j a
    rw [ptDims_start, ptDims_window]
    fin_cases a
    · show (idx (ix4 (j 0) (j 1) (j 2) 0)).toInt + ((0 : Nat) : Int) = ((dy : Nat) : Int)
      rw [Nat.cast_zero, add_zero]
      exact h0 (j 0) (j 1) (j 2)
    · show (idx (ix4 (j 0) (j 1) (j 2) 1)).toInt + ((0 : Nat) : Int) = ((((j 0).val + offI) * 16 + (j 1).val : Nat) : Int)
      rw [Nat.cast_zero, add_zero]
      exact h1 (j 0) (j 1) (j 2)
    · show (idx (ix4 (j 0) (j 1) (j 2) 2)).toInt + ((0 : Nat) : Int)
        = ((((j 0).val + offO) % 2 * 256 + ((j 0).val + offO) / 2 * 32 + (j 2).val : Nat) : Int)
      rw [Nat.cast_zero, add_zero]
      exact h2 (j 0) (j 1) (j 2)
  by_cases hc : a.val = dy ∧ offI ≤ r.val / 16 ∧ r.val / 16 - offI < nv ∧ (r.val / 16 - offI + offO) % 2 = l.val / 256
      ∧ (r.val / 16 - offI + offO) / 2 = l.val % 256 / 32
  · rw [if_pos hc]
    obtain ⟨e0, e1, e2, e3, e4⟩ := hc
    let j : Shape.Idx ⟨3, ![nv, 16, 32]⟩ :=
      ix3 (⟨r.val / 16 - offI, e2⟩ : Fin nv) (⟨r.val % 16, Nat.mod_lt _ (by norm_num)⟩ : Fin 16)
        (⟨l.val % 32, Nat.mod_lt _ (by norm_num)⟩ : Fin 32)
    have hj : f j = ix3 a r l := by
      funext b
      apply Fin.ext
      fin_cases b
      · show dy = a.val
        omega
      · show (r.val / 16 - offI + offI) * 16 + r.val % 16 = r.val
        omega
      · show (r.val / 16 - offI + offO) % 2 * 256 + (r.val / 16 - offI + offO) / 2 * 32 + l.val % 32 = l.val
        omega
    rw [Host.scatter_point_hit _ x idx upd f hland (ix3 a r l) j hj ?_]
    · exact hupd _ _ _
    · intro j' hj'
      have c1 : ((j' 0).val + offI) * 16 + (j' 1).val = r.val := congrArg (fun i => (i 1).val) hj'
      have c2 : ((j' 0).val + offO) % 2 * 256 + ((j' 0).val + offO) / 2 * 32 + (j' 2).val = l.val :=
        congrArg (fun i => (i 2).val) hj'
      have b0 : (j' 0).val < nv := (j' 0).isLt
      have b1 : (j' 1).val < 16 := (j' 1).isLt
      have b2 : (j' 2).val < 32 := (j' 2).isLt
      funext b
      apply Fin.ext
      fin_cases b
      · show (j' 0).val = r.val / 16 - offI
        omega
      · show (j' 1).val = r.val % 16
        omega
      · show (j' 2).val = l.val % 32
        omega
  · rw [if_neg hc]
    refine Host.scatter_point_miss _ x idx upd f hland _ fun j hj => hc ?_
    have c0 : dy = a.val := congrArg (fun i => (i 0).val) hj
    have c1 : ((j 0).val + offI) * 16 + (j 1).val = r.val := congrArg (fun i => (i 1).val) hj
    have c2 : ((j 0).val + offO) % 2 * 256 + ((j 0).val + offO) / 2 * 32 + (j 2).val = l.val :=
      congrArg (fun i => (i 2).val) hj
    have b0 : (j 0).val < nv := (j 0).isLt
    have b1 : (j 1).val < 16 := (j 1).isLt
    have b2 : (j 2).val < 32 := (j 2).isLt
    have q1 : r.val / 16 = (j 0).val + offI := by omega
    have q2 : ((j 0).val + offO) / 2 ≤ 6 := by omega
    have q3 : ((j 0).val + offO) % 2 ≤ 1 := by omega
    have q4 : l.val / 256 = ((j 0).val + offO) % 2 := by omega
    have q5 : l.val % 256 / 32 = ((j 0).val + offO) / 2 := by omega
    have q6 : r.val / 16 - offI + offO = (j 0).val + offO := by omega
    rw [q6]
    refine ⟨by omega, by omega, by omega, by omega, by omega⟩

end Tap

end Idealize.ShloMosaic

namespace Idealize.ShloMosaic

open ValueIdx

/-! ## The start indices of one tap

Three index components side by side on the last axis: the tap row (a constant), a table over (place, input channel)
spread along the output channels, a table over (place, output channel) spread along the input channels.  Each table
goes through the wrap of negative entries, `select (entry < 0) (entry + extent) entry`, whose mask is constantly false. -/

section Index

variable {nv : Nat}

def tapIdx (nv : Nat) (cdy c1 c2 : IVec ⟨0, ![]⟩ 32) (rowTab : IVec ⟨3, ![nv, 16, 1]⟩ 32) (laneTab : IVec ⟨3, ![nv, 1, 32]⟩ 32)
    (g0 : Shape.BroadcastsInDim ⟨0, ![]⟩ ⟨3, ![nv, 16, 32]⟩ ![])
    (g1 : Shape.BroadcastsInDim ⟨0, ![]⟩ ⟨3, ![nv, 16, 1]⟩ ![])
    (g2 : Shape.BroadcastsInDim ⟨0, ![]⟩ ⟨3, ![nv, 1, 32]⟩ ![])
    (gr : Shape.BroadcastsInDim ⟨3, ![nv, 16, 1]⟩ ⟨3, ![nv, 16, 32]⟩ ![0, 1, 2])
    (gl : Shape.BroadcastsInDim ⟨3, ![nv, 1, 32]⟩ ⟨3, ![nv, 16, 32]⟩ ![0, 1, 2])
    (g4 : Shape.BroadcastsInDim ⟨3, ![nv, 16, 32]⟩ ⟨4, ![nv, 16, 32, 1]⟩ ![0, 1, 2])
    (gc : Shape.Concatenates [⟨4, ![nv, 16, 32, 1]⟩, ⟨4, ![nv, 16, 32, 1]⟩, ⟨4, ![nv, 16, 32, 1]⟩] ⟨4, ![nv, 16, 32, 3]⟩ 3) :
    IVec ⟨4, ![nv, 16, 32, 3]⟩ 32 :=
  concatenate ⟨4, ![nv, 16, 32, 3]⟩ 3
    [⟨⟨4, ![nv, 16, 32, 1]⟩, broadcastInDim ⟨4, ![nv, 16, 32, 1]⟩ ![0, 1, 2] g4 (id (broadcastInDim ⟨3, ![nv, 16, 32]⟩ ![] g0 cdy))⟩,
     ⟨⟨4, ![nv, 16, 32, 1]⟩, broadcastInDim ⟨4, ![nv, 16, 32, 1]⟩ ![0, 1, 2] g4 (broadcastInDim ⟨3, ![nv, 16, 32]⟩ ![0, 1, 2] gr
        (select (constantI ⟨3, ![nv, 16, 1]⟩ 1 0#1) (addi rowTab (broadcastInDim ⟨3, ![nv, 16, 1]⟩ ![] g1 c1)) rowTab))⟩,
     ⟨⟨4, ![nv, 16, 32, 1]⟩, broadcastInDim ⟨4, ![nv, 16, 32, 1]⟩ ![0, 1, 2] g4 (broadcastInDim ⟨3, ![nv, 16, 32]⟩ ![0, 1, 2] gl
        (select (constantI ⟨3, ![nv, 1, 32]⟩ 1 0#1) (addi laneTab (broadcastInDim ⟨3, ![nv, 1, 32]⟩ ![] g2 c2)) laneTab))⟩] gc

variable (cdy c1 c2 : IVec ⟨0, ![]⟩ 32) (rowTab : IVec ⟨3, ![nv, 16, 1]⟩ 32) (laneTab : IVec ⟨3, ![nv, 1, 32]⟩ 32)
    (g0 : Shape.BroadcastsInDim ⟨0, ![]⟩ ⟨3, ![nv, 16, 32]⟩ ![])
    (g1 : Shape.BroadcastsInDim ⟨0, ![]⟩ ⟨3, ![nv, 16, 1]⟩ ![])
    (g2 : Shape.BroadcastsInDim ⟨0, ![]⟩ ⟨3, ![nv, 1, 32]⟩ ![])
    (gr : Shape.BroadcastsInDim ⟨3, ![nv, 16, 1]⟩ ⟨3, ![nv, 16, 32]⟩ ![0, 1, 2])
    (gl : Shape.BroadcastsInDim ⟨3, ![nv, 1, 32]⟩ ⟨3, ![nv, 16, 32]⟩ ![0, 1, 2])
    (g4 : Shape.BroadcastsInDim ⟨3, ![nv, 16, 32]⟩ ⟨4, ![nv, 16, 32, 1]⟩ ![0, 1, 2])
    (gc : Shape.Concatenates [⟨4, ![nv, 16, 32, 1]⟩, ⟨4, ![nv, 16, 32, 1]⟩, ⟨4, ![nv, 16, 32, 1]⟩] ⟨4, ![nv, 16, 32, 3]⟩ 3)

/-- Spreading a [nv, 16, 32] array over a last unit axis, read at an index. -/
private theorem spread4_apply {β : Type} (y : Shape.Idx ⟨3, ![nv, 16, 32]⟩ → β) (v : Fin nv) (ci : Fin 16) (co : Fin 32) :
    broadcastInDim ⟨4, ![nv, 16, 32, 1]⟩ ![0, 1, 2] g4 y (ix4 v ci co 0) = y (ix3 v ci co) := by
  refine broadcastInDim_apply _ g4 y _ (ix3 v ci co) fun a => ?_
  fin_cases a
  · show v.val = if nv = 1 then 0 else v.val
    split_ifs with h
    · have := v.isLt; omega
    · rfl
  · rfl
  · rfl

theorem tapIdx_apply0 (v : Fin nv) (ci : Fin 16) (co : Fin 32) :
    tapIdx nv cdy c1 c2 rowTab laneTab g0 g1 g2 gr gl g4 gc (ix4 v ci co 0) = cdy ix0 := by
  unfold tapIdx
  rw [concatenate_apply_piece (t := ⟨4, ![nv, 16, 32, 3]⟩) (3 : Fin 4) _ _ (ix4 v ci co (0 : Fin 3)) 0 (by show (_ : Nat) < 3; omega) ⟨4, ![nv, 16, 32, 1]⟩ _ rfl rfl 0 rfl
    (ix4 v ci co (0 : Fin 1)) (fun b hb => by fin_cases b <;> first | rfl | exact absurd rfl hb) rfl]
  rw [spread4_apply]
  exact broadcastInDim_apply _ g0 cdy _ ix0 fun a => a.elim0

theorem tapIdx_apply1 (v : Fin nv) (ci : Fin 16) (co : Fin 32) :
    tapIdx nv cdy c1 c2 rowTab laneTab g0 g1 g2 gr gl g4 gc (ix4 v ci co 1) = rowTab (ix3 v ci 0) := by
  unfold tapIdx
  rw [concatenate_apply_piece (t := ⟨4, ![nv, 16, 32, 3]⟩) (3 : Fin 4) _ _ (ix4 v ci co (1 : Fin 3)) 1 (by show (_ : Nat) < 3; omega) ⟨4, ![nv, 16, 32, 1]⟩ _ rfl rfl 1 rfl
    (ix4 v ci co (0 : Fin 1)) (fun b hb => by fin_cases b <;> first | rfl | exact absurd rfl hb) rfl]
  rw [spread4_apply]
  rw [broadcastInDim_apply _ gr _ (ix3 v ci co) (ix3 v ci 0) fun a => by
    fin_cases a
    · show v.val = if nv = 1 then 0 else v.val
      split_ifs with h
      · have := v.isLt; omega
      · rfl
    · rfl
    · rfl]
  exact select_zero _ _

theorem tapIdx_apply2 (v : Fin nv) (ci : Fin 16) (co : Fin 32) :
    tapIdx nv cdy c1 c2 rowTab laneTab g0 g1 g2 gr gl g4 gc (ix4 v ci co 2) = laneTab (ix3 v 0 co) := by
  unfold tapIdx
  rw [concatenate_apply_piece (t := ⟨4, ![nv, 16, 32, 3]⟩) (3 : Fin 4) _ _ (ix4 v ci co (2 : Fin 3)) 2 (by show (_ : Nat) < 3; omega) ⟨4, ![nv, 16, 32, 1]⟩ _ rfl rfl 2 rfl
    (ix4 v ci co (0 : Fin 1)) (fun b hb => by fin_cases b <;> first | rfl | exact absurd rfl hb) rfl]
  rw [spread4_apply]
  rw [broadcastInDim_apply _ gl _ (ix3 v ci co) (ix3 v 0 co) fun a => by
    fin_cases a
    · show v.val = if nv = 1 then 0 else v.val
      split_ifs with h
      · have := v.isLt; omega
      · rfl
    · rfl
    · rfl]
  exact select_zero _ _

end Index

end Idealize.ShloMosaic

namespace Idealize.ShloMosaic.StableHlo

open TcCoe

/-! ## A three-operand operation over literal references

`nary ![x, a, b] y f` leaves `y` at `f` of the operands' contents.  Stated with the three contents as three separate
arguments (`apply3`), each at its own reference, so that rewriting goes on inside each of them. -/

section Nary3

/-- The family over `Fin 3` with the given three members. -/
def pick3 {β : Fin 3 → Type} (x : β 0) (y : β 1) (z : β 2) : (k : Fin 3) → β k
  | ⟨0, _⟩ => x
  | ⟨1, _⟩ => y
  | ⟨2, _⟩ => z

/-- A function of a family over `Fin 3` at three given members. -/
def apply3 {β : Fin 3 → Type} {γ : Type} (f : ((k : Fin 3) → β k) → γ) (x : β 0) (y : β 1) (z : β 2) : γ :=
  f (pick3 x y z)

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 (β := fun k => ((![x, a, b] : Fin 3 → Ref sig .tc) k).ty.Contents Val) f
          (F (Proc.devRef .tc x)) (F (Proc.devRef .tc a)) (F (Proc.devRef .tc b)) := by
  rw [nary_result]; unfold apply3; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 (β := fun k => ((![x, a, b] : Fin 3 → Ref sig .tc) k).ty.Contents Val) f
          (F (Proc.devRef .tc x)) (F (Proc.devRef .tc a)) (F (Proc.devRef .tc b)) :=
  nary3_result f hxs hy F

end Nary3

end Idealize.ShloMosaic.StableHlo

end
-- ==== Proof.KHostBTab.lean ====
/-
  The integer tables the host program's scatters of the second banded matrix read their start indices from, in closed
  form: each literal compared with its formula entry by entry.
-/
import proofs.«150178_g2000205257289275_pallasbulk_739_9_alg».proof.KernelIdeal

set_option maxRecDepth 100000
-- one table at a time: each comparison evaluates some hundreds of entries
set_option Elab.async false

namespace Cert.KernelIdeal.Hand

open Cert.KernelIdeal

/-! ## What the program's index tables hold

Tap (`dy`, `dx`) has a table over (place, input channel) holding `(v + offI) · 16 + ci` — at flat position `i = v · 16 + ci`
that is `i + 16 · offI` — and a table over (place, output channel) holding the lane of output column `v + offO`, where
`(offI, offO)` is (0, 1), (0, 0), (1, 0) for `dx` = 0, 1, 2: each read off the literal, entry by entry. -/

theorem lit18_eq : ∀ i : Fin 208, lit18 i = BitVec.ofNat 32 (i.val + 16 * 0) := by decide
theorem lit19_eq : ∀ i : Fin 416, lit19 i = BitVec.ofNat 32 ((i.val / 32 + 1) % 2 * 256 + (i.val / 32 + 1) / 2 * 32 + i.val % 32) := by decide
theorem lit20_eq : ∀ i : Fin 224, lit20 i = BitVec.ofNat 32 (i.val + 16 * 0) := by decide
theorem lit21_eq : ∀ i : Fin 448, lit21 i = BitVec.ofNat 32 ((i.val / 32 + 0) % 2 * 256 + (i.val / 32 + 0) / 2 * 32 + i.val % 32) := by decide
theorem lit22_eq : ∀ i : Fin 208, lit22 i = BitVec.ofNat 32 (i.val + 16 * 1) := by decide
theorem lit23_eq : ∀ i : Fin 416, lit23 i = BitVec.ofNat 32 ((i.val / 32 + 0) % 2 * 256 + (i.val / 32 + 0) / 2 * 32 + i.val % 32) := by decide
theorem lit24_eq : ∀ i : Fin 208, lit24 i = BitVec.ofNat 32 (i.val + 16 * 0) := by decide
theorem lit25_eq : ∀ i : Fin 416, lit25 i = BitVec.ofNat 32 ((i.val / 32 + 1) % 2 * 256 + (i.val / 32 + 1) / 2 * 32 + i.val % 32) := by decide
theorem lit26_eq : ∀ i : Fin 224, lit26 i = BitVec.ofNat 32 (i.val + 16 * 0) := by decide
theorem lit27_eq : ∀ i : Fin 448, lit27 i = BitVec.ofNat 32 ((i.val / 32 + 0) % 2 * 256 + (i.val / 32 + 0) / 2 * 32 + i.val % 32) := by decide
theorem lit28_eq : ∀ i : Fin 208, lit28 i = BitVec.ofNat 32 (i.val + 16 * 1) := by decide
theorem lit29_eq : ∀ i : Fin 416, lit29 i = BitVec.ofNat 32 ((i.val / 32 + 0) % 2 * 256 + (i.val / 32 + 0) / 2 * 32 + i.val % 32) := by decide
theorem lit30_eq : ∀ i : Fin 208, lit30 i = BitVec.ofNat 32 (i.val + 16 * 0) := by decide
theorem lit31_eq : ∀ i : Fin 416, lit31 i = BitVec.ofNat 32 ((i.val / 32 + 1) % 2 * 256 + (i.val / 32 + 1) / 2 * 32 + i.val % 32) := by decide
theorem lit32_eq : ∀ i : Fin 224, lit32 i = BitVec.ofNat 32 (i.val + 16 * 0) := by decide
theorem lit33_eq : ∀ i : Fin 448, lit33 i = BitVec.ofNat 32 ((i.val / 32 + 0) % 2 * 256 + (i.val / 32 + 0) / 2 * 32 + i.val % 32) := by decide
theorem lit34_eq : ∀ i : Fin 208, lit34 i = BitVec.ofNat 32 (i.val + 16 * 1) := by decide
theorem lit35_eq : ∀ i : Fin 416, lit35 i = BitVec.ofNat 32 ((i.val / 32 + 0) % 2 * 256 + (i.val / 32 + 0) / 2 * 32 + i.val % 32) := by decide

end Cert.KernelIdeal.Hand
-- ==== Proof.KHostB1.lean ====
/-
  The second banded matrix: the term the host program builds it by, against its closed form.

  The host lays the nine 16 × 32 taps of the second stencil into a zero [3, 256, 512] array, one overwriting scatter
  per tap (tap row `dy`; input column and channel `wi · 16 + ci`; output column and channel as the lane
  `par · 256 + jj · 32 + co` with `wo = 2 jj + par`), reshapes it to [768, 512] and changes the format.  Tap (`dy`, `dx`)
  owns the entries with `wi + 1 = wo + dx`, so no entry belongs to two taps and the order of the scatters does not show:
  entry (`k`, `l`) is the closed form `T2`.  First the nine taps as pure mathematics, then each scatter of the program as
  one tap, then the whole term.
-/
import proofs.«150178_g2000205257289275_pallasbulk_739_9_alg».proof.Proof.Gen.KernelIdeal
import proofs.«150178_g2000205257289275_pallasbulk_739_9_alg».proof.Proof.KTables
import proofs.«150178_g2000205257289275_pallasbulk_739_9_alg».proof.Proof.KHostBLib
import proofs.«150178_g2000205257289275_pallasbulk_739_9_alg».proof.Proof.KHostBTab
import Idealize.ShloMosaic.Lib.WordArith
import Idealize.ShloMosaic.Lib.IdealHost

set_option maxRecDepth 100000

noncomputable section

namespace Cert.KernelIdeal.Hand

open Cert.Cnn Idealize.ShloMosaic Idealize.ShloMosaic.ValueIdx

/-! ## The band, tap by tap

Entry (`dy`, `wi`, `ci`; `wo`, `co`) of the band belongs to tap (`dy`, `dx`) with `wi + 1 = wo + dx`: nine taps, no entry in two of
them.  `tapStep dy dx` lays one tap over what is there; the nine in the program's order, over zero, are the band. -/

/-- Tap (`dy`, `dx`) laid over `x`: where input column `wi = i 1 / 16` and output column `wo = 2 jj + par` (from lane
    `i 2 = par · 256 + jj · 32 + co`) satisfy `wi + 1 = wo + dx`, the tap's element (input channel, output channel). -/
def tapStep (dy dx : Nat) (tap : Fin 16 → Fin 32 → EReal) (x : Shape.Idx ⟨3, ![3, 256, 512]⟩ → EReal) :
    Shape.Idx ⟨3, ![3, 256, 512]⟩ → EReal :=
  fun i =>
    if (i 0).val = dy ∧ (i 1).val / 16 < 14 ∧ (i 2).val % 256 / 32 < 7
        ∧ (i 1).val / 16 + 1 = 2 * ((i 2).val % 256 / 32) + (i 2).val / 256 + dx then
      tap ⟨(i 1).val % 16, Nat.mod_lt _ (by norm_num)⟩ ⟨(i 2).val % 32, Nat.mod_lt _ (by norm_num)⟩
    else x i

theorem tapStep_pos (dy dx : Nat) (tap : Fin 16 → Fin 32 → EReal) (x : Shape.Idx ⟨3, ![3, 256, 512]⟩ → EReal)
    (i : Shape.Idx ⟨3, ![3, 256, 512]⟩)
    (h : (i 0).val = dy ∧ (i 1).val / 16 < 14 ∧ (i 2).val % 256 / 32 < 7
        ∧ (i 1).val / 16 + 1 = 2 * ((i 2).val % 256 / 32) + (i 2).val / 256 + dx) :
    tapStep dy dx tap x i
      = tap ⟨(i 1).val % 16, Nat.mod_lt _ (by norm_num)⟩ ⟨(i 2).val % 32, Nat.mod_lt _ (by norm_num)⟩ := if_pos h

theorem tapStep_neg (dy dx : Nat) (tap : Fin 16 → Fin 32 → EReal) (x : Shape.Idx ⟨3, ![3, 256, 512]⟩ → EReal)
    (i : Shape.Idx ⟨3, ![3, 256, 512]⟩)
    (h : ¬((i 0).val = dy ∧ (i 1).val / 16 < 14 ∧ (i 2).val % 256 / 32 < 7
        ∧ (i 1).val / 16 + 1 = 2 * ((i 2).val % 256 / 32) + (i 2).val / 256 + dx)) :
    tapStep dy dx tap x i = x i := if_neg h

/-- The tap whose sixteen rows start at row `off` of the [144, 32] weights. -/
def tapOf (w : Fin 144 → Fin 32 → EReal) (off : Nat) (hoff : off + 16 ≤ 144) (ci : Fin 16) (co : Fin 32) : EReal :=
  w ⟨off + ci.val, by have := ci.isLt; omega⟩ co

/-- The nine taps over zero, in the program's order. -/
def band (w : Fin 144 → Fin 32 → EReal) : Shape.Idx ⟨3, ![3, 256, 512]⟩ → EReal :=
  tapStep 2 2 (tapOf w 128 (by norm_num)) (tapStep 2 1 (tapOf w 112 (by norm_num)) (tapStep 2 0 (tapOf w 96 (by norm_num))
    (tapStep 1 2 (tapOf w 80 (by norm_num)) (tapStep 1 1 (tapOf w 64 (by norm_num)) (tapStep 1 0 (tapOf w 48 (by norm_num))
      (tapStep 0 2 (tapOf w 32 (by norm_num)) (tapStep 0 1 (tapOf w 16 (by norm_num)) (tapStep 0 0 (tapOf w 0 (by norm_num))
        fun _ => 0))))))))

/-- The band at (`k / 256`, `k % 256`, `l`) is the closed form's entry (`k`, `l`). -/
theorem band_apply (w : Fin 144 → Fin 32 → EReal) (i : Shape.Idx ⟨3, ![3, 256, 512]⟩) (k : Fin 768) (l : Fin 512)
    (h0 : (i 0).val = k.val / 256) (h1 : (i 1).val = k.val % 256) (h2 : (i 2).val = l.val) : band w i = T2 w k l := by
  have hk := k.isLt
  have hl := l.isLt
  unfold T2 band
  by_cases h : k.val % 256 < 224 ∧ l.val % 256 < 224 ∧ 2 * (l.val % 256 / 32) + l.val / 256 ≤ k.val % 256 / 16 + 1
      ∧ k.val % 256 / 16 ≤ 2 * (l.val % 256 / 32) + l.val / 256 + 1
  · rw [dif_pos h]
    obtain ⟨q1, q2, q3, q4⟩ := h
    have ha : k.val / 256 = 0 ∨ k.val / 256 = 1 ∨ k.val / 256 = 2 := by omega
    have hd : k.val % 256 / 16 + 1 - (2 * (l.val % 256 / 32) + l.val / 256) = 0
        ∨ k.val % 256 / 16 + 1 - (2 * (l.val % 256 / 32) + l.val / 256) = 1
        ∨ k.val % 256 / 16 + 1 - (2 * (l.val % 256 / 32) + l.val / 256) = 2 := by omega
    rcases ha with ha | ha | ha <;> rcases hd with hd | hd | hd <;>
      (repeat (first | rw [tapStep_neg _ _ _ _ _ (by omega)] | rw [tapStep_pos _ _ _ _ _ (by omega)])) <;>
      (unfold tapOf; exact congrArg₂ w (by rw [Fin.mk.injEq]; dsimp only; omega) (by rw [Fin.mk.injEq]; omega))
  · rw [dif_neg h]
    repeat rw [tapStep_neg _ _ _ _ _ (by omega)]

end Cert.KernelIdeal.Hand

namespace Cert.KernelIdeal.Hand

open Cert.Cnn Idealize.ShloMosaic Idealize.ShloMosaic.ValueIdx

/-! ## One scatter of the program is one `tapStep` -/

section Glue

variable {nv : Nat}

/-- An entry of the (place, input channel) table: place `v`, channel `ci` is row `(v + offI) · 16 + ci`. -/
theorem rowEntry_toInt (tab : Fin (Shape.numel ⟨3, ![nv, 16, 1]⟩) → BitVec 32) (offI : Nat)
    (htab : ∀ i, tab i = BitVec.ofNat 32 (i.val + 16 * offI)) (hI : nv + offI ≤ 14) (v : Fin nv) (ci : Fin 16) :
    (tab (Shape.rowMajor ⟨3, ![nv, 16, 1]⟩ (ix3 v ci 0))).toInt = (((v.val + offI) * 16 + ci.val : Nat) : Int) := by
  have hv := v.isLt
  have hc := ci.isLt
  have e : (Shape.rowMajor ⟨3, ![nv, 16, 1]⟩ (ix3 v ci 0)).val = v.val * 16 + ci.val := by
    rw [Shape.rowMajor_val_three]
    show (v.val * 16 + ci.val) * 1 + 0 = _
    omega
  rw [htab, e, WordArith.toInt_ofNat_small _ (by omega)]
  omega

/-- An entry of the (place, output channel) table: place `v`, channel `co` is the lane of output column `v + offO`. -/
theorem laneEntry_toInt (tab : Fin (Shape.numel ⟨3, ![nv, 1, 32]⟩) → BitVec 32) (offO : Nat)
    (htab : ∀ i, tab i = BitVec.ofNat 32 ((i.val / 32 + offO) % 2 * 256 + (i.val / 32 + offO) / 2 * 32 + i.val % 32))
    (hO : nv + offO ≤ 14) (v : Fin nv) (co : Fin 32) :
    (tab (Shape.rowMajor ⟨3, ![nv, 1, 32]⟩ (ix3 v 0 co))).toInt
      = (((v.val + offO) % 2 * 256 + (v.val + offO) / 2 * 32 + co.val : Nat) : Int) := by
  have hv := v.isLt
  have hc := co.isLt
  have e : (Shape.rowMajor ⟨3, ![nv, 1, 32]⟩ (ix3 v 0 co)).val = v.val * 32 + co.val := by
    rw [Shape.rowMajor_val_three]
    show (v.val * 1 + 0) * 32 + co.val = _
    omega
  have e1 : (v.val * 32 + co.val) / 32 = v.val := by omega
  have e2 : (v.val * 32 + co.val) % 32 = co.val := by omega
  rw [htab, e, e1, e2, WordArith.toInt_ofNat_small _ (by omega)]

/-- The update of one tap's scatter: the tap's sixteen rows of the weights, the same at every place. -/
theorem tapRows_apply (w : Shape.Idx ⟨2, ![144, 32]⟩ → EReal) (off : Nat)
    (hs : Shape.Slices ⟨2, ![144, 32]⟩ ![off, 0] ⟨2, ![16, 32]⟩)
    (gu : Shape.BroadcastsInDim ⟨2, ![16, 32]⟩ ⟨3, ![nv, 16, 32]⟩ ![1, 2]) (hoff : off + 16 ≤ 144)
    (v : Fin nv) (ci : Fin 16) (co : Fin 32) :
    broadcastInDim ⟨3, ![nv, 16, 32]⟩ ![1, 2] gu (extractStridedSlice ⟨2, ![16, 32]⟩ ![off, 0] w hs) (ix3 v ci co)
      = tapOf (fun q c => w (ix2 q c)) off hoff ci co := by
  rw [broadcastInDim_apply _ gu _ (ix3 v ci co) (ix2 ci co) fun a => by fin_cases a <;> rfl]
  rw [extractStridedSlice_apply _ w hs (ix2 ci co) (ix2 (⟨off + ci.val, by have := ci.isLt; omega⟩ : Fin 144) co) fun a => by
    fin_cases a
    · rfl
    · exact (Nat.zero_add _).symm]
  rfl

/-- One scatter of the program — the start indices built from the two tables, the update a tap spread over the
    places — lays that tap: `tapStep`. -/
theorem tapScatter_eq (wf) (x : Shape.Idx ⟨3, ![3, 256, 512]⟩ → EReal) (dy dx offI offO off : Nat) (hdy : dy < 3)
    (hcase : (nv = 13 ∧ offI = 0 ∧ offO = 1 ∧ dx = 0) ∨ (nv = 14 ∧ offI = 0 ∧ offO = 0 ∧ dx = 1)
      ∨ (nv = 13 ∧ offI = 1 ∧ offO = 0 ∧ dx = 2))
    (dyc : BitVec 32) (hdyc : dyc.toInt = ((dy : Nat) : Int)) (c1 c2 : IVec ⟨0, ![]⟩ 32)
    (rowLit : Fin (Shape.numel ⟨3, ![nv, 16, 1]⟩) → BitVec 32) (laneLit : Fin (Shape.numel ⟨3, ![nv, 1, 32]⟩) → BitVec 32)
    (hrow : ∀ i, rowLit i = BitVec.ofNat 32 (i.val + 16 * offI))
    (hlane : ∀ i, laneLit i = BitVec.ofNat 32 ((i.val / 32 + offO) % 2 * 256 + (i.val / 32 + offO) / 2 * 32 + i.val % 32))
    (g0 : Shape.BroadcastsInDim ⟨0, ![]⟩ ⟨3, ![nv, 16, 32]⟩ ![])
    (g1 : Shape.BroadcastsInDim ⟨0, ![]⟩ ⟨3, ![nv, 16, 1]⟩ ![])
    (g2 : Shape.BroadcastsInDim ⟨0, ![]⟩ ⟨3, ![nv, 1, 32]⟩ ![])
    (gr : Shape.BroadcastsInDim ⟨3, ![nv, 16, 1]⟩ ⟨3, ![nv, 16, 32]⟩ ![0, 1, 2])
    (gl : Shape.BroadcastsInDim ⟨3, ![nv, 1, 32]⟩ ⟨3, ![nv, 16, 32]⟩ ![0, 1, 2])
    (g4 : Shape.BroadcastsInDim ⟨3, ![nv, 16, 32]⟩ ⟨4, ![nv, 16, 32, 1]⟩ ![0, 1, 2])
    (gc : Shape.Concatenates [⟨4, ![nv, 16, 32, 1]⟩, ⟨4, ![nv, 16, 32, 1]⟩, ⟨4, ![nv, 16, 32, 1]⟩] ⟨4, ![nv, 16, 32, 3]⟩ 3)
    (w : Shape.Idx ⟨2, ![144, 32]⟩ → EReal) (hs : Shape.Slices ⟨2, ![144, 32]⟩ ![off, 0] ⟨2, ![16, 32]⟩)
    (gu : Shape.BroadcastsInDim ⟨2, ![16, 32]⟩ ⟨3, ![nv, 16, 32]⟩ ![1, 2]) (hoff : off + 16 ≤ 144) :
    Host.scatter (ptDims 3 256 512 nv 16 32 wf) (fun _ b => b) x
        (tapIdx nv (constantI ⟨0, ![]⟩ 32 dyc) c1 c2 (fun i => rowLit (Shape.rowMajor ⟨3, ![nv, 16, 1]⟩ i))
          (fun i => laneLit (Shape.rowMajor ⟨3, ![nv, 1, 32]⟩ i)) g0 g1 g2 gr gl g4 gc)
        (broadcastInDim ⟨3, ![nv, 16, 32]⟩ ![1, 2] gu (extractStridedSlice ⟨2, ![16, 32]⟩ ![off, 0] w hs))
      = tapStep dy dx (tapOf (fun q c => w (ix2 q c)) off hoff) x := by
  have hI : nv + offI ≤ 14 := by rcases hcase with ⟨a, b, c, d⟩ | ⟨a, b, c, d⟩ | ⟨a, b, c, d⟩ <;> omega
  have hO : nv + offO ≤ 14 := by rcases hcase with ⟨a, b, c, d⟩ | ⟨a, b, c, d⟩ | ⟨a, b, c, d⟩ <;> omega
  funext i
  obtain ⟨a, r, l, rfl⟩ : ∃ (a : Fin 3) (r : Fin 256) (l : Fin 512), i = ix3 a r l := ⟨i 0, i 1, i 2, eq_ix3 i⟩
  have e := Host.scatter_tap_apply wf x
    (tapIdx nv (constantI ⟨0, ![]⟩ 32 dyc) c1 c2 (fun i => rowLit (Shape.rowMajor ⟨3, ![nv, 16, 1]⟩ i))
      (fun i => laneLit (Shape.rowMajor ⟨3, ![nv, 1, 32]⟩ i)) g0 g1 g2 gr gl g4 gc)
    (broadcastInDim ⟨3, ![nv, 16, 32]⟩ ![1, 2] gu (extractStridedSlice ⟨2, ![16, 32]⟩ ![off, 0] w hs))
    dy offI offO hdy hI hO
    (fun v ci co => by rw [tapIdx_apply0]; exact hdyc)
    (fun v ci co => by rw [tapIdx_apply1]; exact rowEntry_toInt rowLit offI hrow hI v ci)
    (fun v ci co => by rw [tapIdx_apply2]; exact laneEntry_toInt laneLit offO hlane hO v co)
    (tapOf (fun q c => w (ix2 q c)) off hoff) (fun v ci co => tapRows_apply w off hs gu hoff v ci co) a r l
  refine e.trans (if_congr ?_ rfl rfl)
  have h1 : r.val < 256 := r.isLt
  have h2 : l.val < 512 := l.isLt
  show (a.val = dy ∧ offI ≤ r.val / 16 ∧ r.val / 16 - offI < nv ∧ (r.val / 16 - offI + offO) % 2 = l.val / 256
      ∧ (r.val / 16 - offI + offO) / 2 = l.val % 256 / 32)
    ↔ (a.val = dy ∧ r.val / 16 < 14 ∧ l.val % 256 / 32 < 7 ∧ r.val / 16 + 1 = 2 * (l.val % 256 / 32) + l.val / 256 + dx)
  rcases hcase with ⟨ha, hb, hc, hd⟩ | ⟨ha, hb, hc, hd⟩ | ⟨ha, hb, hc, hd⟩ <;> omega

end Glue

end Cert.KernelIdeal.Hand

namespace Cert.KernelIdeal.Hand

open Cert.Cnn Idealize.ShloMosaic Idealize.ShloMosaic.ValueIdx Cert.KernelIdeal Cert.KernelIdeal.Gen

/-! ## The second banded matrix as the host builds it -/

/-- One tap's scatter over 13 places as the program writes it: tap row `dyc`, the two index tables, the tap's
    sixteen rows of the weights from row `off`. -/
def tapScat13 (dyc : BitVec 32) (rowLit : Fin 208 → BitVec 32) (laneLit : Fin 416 → BitVec 32) (off : Nat)
    (hs : S144x32.Slices ![off, 0] S16x32) (w : FVec Ideal S144x32 .f32) (x : FVec Ideal S3x256x512 .f32) :
    FVec Ideal S3x256x512 .f32 :=
  Host.scatter scatter_S3x256x512_S13x16x32x3_S13x16x32_n_012_012_3 (fun _ b => b) x
    (tapIdx 13 (constantI S_ 32 dyc) (constantI S_ 32 256#32) (constantI S_ 32 512#32)
      (fun i => rowLit (S13x16x1.rowMajor i)) (fun i => laneLit (S13x1x32.rowMajor i))
      bcast_S_S13x16x32 bcast_S_S13x16x1 bcast_S_S13x1x32 bcast_S13x16x1_S13x16x32_0_1_2 bcast_S13x1x32_S13x16x32_0_1_2
      bcast_S13x16x32_S13x16x32x1_0_1_2 concatenates_S13x16x32x1_S13x16x32x1_S13x16x32x1_S13x16x32x3_d3)
    (broadcastInDim S13x16x32 ![1, 2] bcast_S16x32_S13x16x32_1_2 (extractStridedSlice S16x32 ![off, 0] w hs))

/-- One tap's scatter over 14 places as the program writes it: tap row `dyc`, the two index tables, the tap's
    sixteen rows of the weights from row `off`. -/
def tapScat14 (dyc : BitVec 32) (rowLit : Fin 224 → BitVec 32) (laneLit : Fin 448 → BitVec 32) (off : Nat)
    (hs : S144x32.Slices ![off, 0] S16x32) (w : FVec Ideal S144x32 .f32) (x : FVec Ideal S3x256x512 .f32) :
    FVec Ideal S3x256x512 .f32 :=
  Host.scatter scatter_S3x256x512_S14x16x32x3_S14x16x32_n_012_012_3 (fun _ b => b) x
    (tapIdx 14 (constantI S_ 32 dyc) (constantI S_ 32 256#32) (constantI S_ 32 512#32)
      (fun i => rowLit (S14x16x1.rowMajor i)) (fun i => laneLit (S14x1x32.rowMajor i))
      bcast_S_S14x16x32 bcast_S_S14x16x1 bcast_S_S14x1x32 bcast_S14x16x1_S14x16x32_0_1_2 bcast_S14x1x32_S14x16x32_0_1_2
      bcast_S14x16x32_S14x16x32x1_0_1_2 concatenates_S14x16x32x1_S14x16x32x1_S14x16x32x1_S14x16x32x3_d3)
    (broadcastInDim S14x16x32 ![1, 2] bcast_S16x32_S14x16x32_1_2 (extractStridedSlice S16x32 ![off, 0] w hs))

theorem tapScat13_eq (dy dx offI offO off : Nat) (hdy : dy < 3) (hcase : (offI = 0 ∧ offO = 1 ∧ dx = 0) ∨ (offI = 1 ∧ offO = 0 ∧ dx = 2))
    (dyc : BitVec 32) (hdyc : dyc.toInt = ((dy : Nat) : Int)) (rowLit : Fin 208 → BitVec 32) (laneLit : Fin 416 → BitVec 32)
    (hrow : ∀ i : Fin 208, rowLit i = BitVec.ofNat 32 (i.val + 16 * offI))
    (hlane : ∀ i : Fin 416, laneLit i = BitVec.ofNat 32 ((i.val / 32 + offO) % 2 * 256 + (i.val / 32 + offO) / 2 * 32 + i.val % 32))
    (hs : S144x32.Slices ![off, 0] S16x32) (hoff : off + 16 ≤ 144) (w : FVec Ideal S144x32 .f32) (x : FVec Ideal S3x256x512 .f32) :
    tapScat13 dyc rowLit laneLit off hs w x = tapStep dy dx (tapOf (fun q c => w (ix2 q c)) off hoff) x :=
  tapScatter_eq (nv := 13) scatter_S3x256x512_S13x16x32x3_S13x16x32_n_012_012_3_wf x dy dx offI offO off hdy
    (hcase.elim (fun h => Or.inl ⟨rfl, h.1, h.2.1, h.2.2⟩) fun h => Or.inr (Or.inr ⟨rfl, h.1, h.2.1, h.2.2⟩))
    dyc hdyc (constantI S_ 32 256#32) (constantI S_ 32 512#32) rowLit laneLit hrow hlane
    bcast_S_S13x16x32 bcast_S_S13x16x1 bcast_S_S13x1x32 bcast_S13x16x1_S13x16x32_0_1_2 bcast_S13x1x32_S13x16x32_0_1_2
    bcast_S13x16x32_S13x16x32x1_0_1_2 concatenates_S13x16x32x1_S13x16x32x1_S13x16x32x1_S13x16x32x3_d3
    w hs bcast_S16x32_S13x16x32_1_2 hoff

theorem tapScat14_eq (dy dx offI offO off : Nat) (hdy : dy < 3) (hcase : offI = 0 ∧ offO = 0 ∧ dx = 1)
    (dyc : BitVec 32) (hdyc : dyc.toInt = ((dy : Nat) : Int)) (rowLit : Fin 224 → BitVec 32) (laneLit : Fin 448 → BitVec 32)
    (hrow : ∀ i : Fin 224, rowLit i = BitVec.ofNat 32 (i.val + 16 * offI))
    (hlane : ∀ i : Fin 448, laneLit i = BitVec.ofNat 32 ((i.val / 32 + offO) % 2 * 256 + (i.val / 32 + offO) / 2 * 32 + i.val % 32))
    (hs : S144x32.Slices ![off, 0] S16x32) (hoff : off + 16 ≤ 144) (w : FVec Ideal S144x32 .f32) (x : FVec Ideal S3x256x512 .f32) :
    tapScat14 dyc rowLit laneLit off hs w x = tapStep dy dx (tapOf (fun q c => w (ix2 q c)) off hoff) x :=
  tapScatter_eq (nv := 14) scatter_S3x256x512_S14x16x32x3_S14x16x32_n_012_012_3_wf x dy dx offI offO off hdy
    (Or.inr (Or.inl ⟨rfl, hcase.1, hcase.2.1, hcase.2.2⟩))
    dyc hdyc (constantI S_ 32 256#32) (constantI S_ 32 512#32) rowLit laneLit hrow hlane
    bcast_S_S14x16x32 bcast_S_S14x16x1 bcast_S_S14x1x32 bcast_S14x16x1_S14x16x32_0_1_2 bcast_S14x1x32_S14x16x32_0_1_2
    bcast_S14x16x32_S14x16x32x1_0_1_2 concatenates_S14x16x32x1_S14x16x32x1_S14x16x32x1_S14x16x32x3_d3
    w hs bcast_S16x32_S14x16x32_1_2 hoff

/-- The host's term for the second banded matrix, from the [144, 32] weights: nine scatters into a zero array, the
    three tap rows laid end to end, then the change of format. -/
def t2Term (w : FVec Ideal S144x32 .f32) : FVec Ideal S768x512 .bf16 :=
  truncf .bf16 (shapeCast S768x512
      (tapScat13 2#32 lit34 lit35 128 slices_S144x32_S16x32_128_0 w
      (tapScat14 2#32 lit32 lit33 112 slices_S144x32_S16x32_112_0 w
      (tapScat13 2#32 lit30 lit31 96 slices_S144x32_S16x32_96_0 w
      (tapScat13 1#32 lit28 lit29 80 slices_S144x32_S16x32_80_0 w
      (tapScat14 1#32 lit26 lit27 64 slices_S144x32_S16x32_64_0 w
      (tapScat13 1#32 lit24 lit25 48 slices_S144x32_S16x32_48_0 w
      (tapScat13 0#32 lit22 lit23 32 slices_S144x32_S16x32_32_0 w
      (tapScat14 0#32 lit20 lit21 16 slices_S144x32_S16x32_16_0 w
      (tapScat13 0#32 lit18 lit19 0 slices_S144x32_S16x32_0_0 w
      (broadcastInDim S3x256x512 ![] bcast_S_S3x256x512 (constant (F := Ideal) S_ .f32 0x00000000#32)))))))))))
      shapeCasts_S3x256x512_S768x512) bitsLt_bf16_f32

/-- The zero array the scatters start from. -/
theorem zeros_eq : (broadcastInDim S3x256x512 ![] bcast_S_S3x256x512 (constant (F := Ideal) S_ .f32 0x00000000#32)
    : FVec Ideal S3x256x512 .f32) = fun _ => 0 := by
  funext i
  rw [broadcastInDim_scalar_apply, constant_apply, Ideal.ofBits_zero_f32]

/-- The host's term is the closed form. -/
theorem t2Term_apply (w : FVec Ideal S144x32 .f32) (k : Fin 768) (l : Fin 512) :
    t2Term w (ix2 k l) = T2 (fun q c => w (ix2 q c)) k l := by
  have hk := k.isLt
  unfold t2Term
  rw [truncf_apply, shapeCast_apply _ shapeCasts_S3x256x512_S768x512 (ix2 k l)
    (ix3 (⟨k.val / 256, by omega⟩ : Fin 3) (⟨k.val % 256, Nat.mod_lt _ (by norm_num)⟩ : Fin 256) l) (by
      rw [Shape.rowMajor_val_three, Shape.rowMajor_val_two]
      show (k.val / 256 * 256 + k.val % 256) * 512 + l.val = k.val * 512 + l.val
      omega)]
  rw [tapScat13_eq 2 2 1 0 128 (by norm_num) (Or.inr ⟨rfl, rfl, rfl⟩) 2#32 (by decide) lit34 lit35 lit34_eq lit35_eq _ (by norm_num),
    tapScat14_eq 2 1 0 0 112 (by norm_num) ⟨rfl, rfl, rfl⟩ 2#32 (by decide) lit32 lit33 lit32_eq lit33_eq _ (by norm_num),
    tapScat13_eq 2 0 0 1 96 (by norm_num) (Or.inl ⟨rfl, rfl, rfl⟩) 2#32 (by decide) lit30 lit31 lit30_eq lit31_eq _ (by norm_num),
    tapScat13_eq 1 2 1 0 80 (by norm_num) (Or.inr ⟨rfl, rfl, rfl⟩) 1#32 (by decide) lit28 lit29 lit28_eq lit29_eq _ (by norm_num),
    tapScat14_eq 1 1 0 0 64 (by norm_num) ⟨rfl, rfl, rfl⟩ 1#32 (by decide) lit26 lit27 lit26_eq lit27_eq _ (by norm_num),
    tapScat13_eq 1 0 0 1 48 (by norm_num) (Or.inl ⟨rfl, rfl, rfl⟩) 1#32 (by decide) lit24 lit25 lit24_eq lit25_eq _ (by norm_num),
    tapScat13_eq 0 2 1 0 32 (by norm_num) (Or.inr ⟨rfl, rfl, rfl⟩) 0#32 (by decide) lit22 lit23 lit22_eq lit23_eq _ (by norm_num),
    tapScat14_eq 0 1 0 0 16 (by norm_num) ⟨rfl, rfl, rfl⟩ 0#32 (by decide) lit20 lit21 lit20_eq lit21_eq _ (by norm_num),
    tapScat13_eq 0 0 0 1 0 (by norm_num) (Or.inl ⟨rfl, rfl, rfl⟩) 0#32 (by decide) lit18 lit19 lit18_eq lit19_eq _ (by norm_num),
    zeros_eq]
  exact band_apply _ _ k l rfl rfl rfl

end Cert.KernelIdeal.Hand

end
-- ==== Proof.KHostBS4.lean ====
/-
  Stretch 4 of the host operations read on its own, from any buffer contents `W`: the zero array, taps 0 and 1 laid over it, and tap 2's sixteen rows cut out of the weights.  The index tables it reads
  are constants of earlier stretches and the weights are an argument, so they enter as what `W` holds.
-/
import proofs.«150178_g2000205257289275_pallasbulk_739_9_alg».proof.Proof.Gen.KernelIdeal.Launch
import proofs.«150178_g2000205257289275_pallasbulk_739_9_alg».proof.Proof.KHostB1

set_option maxRecDepth 100000

noncomputable section

namespace Cert.KernelIdeal.Hand

open Cert.Cnn Idealize.ShloMosaic Idealize.ShloMosaic.TcCoe Idealize.ShloMosaic.ValueIdx Cert.KernelIdeal Cert.KernelIdeal.Gen

set_option maxHeartbeats 0 in
/-- Stretch 4 of the host operations, from any contents `W` holding the tables it reads and the band so far. -/
theorem stage4 (W : Valuation τ sig (Elt Ideal)) (w : FVec Ideal S144x32 .f32)
    (ha : W (Proc.devRef .tc main_arg3) = w)
    (h35 : W (Proc.devRef .tc main_c_35) = fun i => lit18 (S13x16x1.rowMajor i))
    (h36 : W (Proc.devRef .tc main_c_36) = constantI S13x16x1 1 0#1)
    (h37 : W (Proc.devRef .tc main_c_37) = fun i => lit19 (S13x1x32.rowMajor i))
    (h38 : W (Proc.devRef .tc main_c_38) = constantI S13x1x32 1 0#1)
    (h39 : W (Proc.devRef .tc main_c_39) = fun i => lit20 (S14x16x1.rowMajor i))
    (h40 : W (Proc.devRef .tc main_c_40) = constantI S14x16x1 1 0#1)
    (h41 : W (Proc.devRef .tc main_c_41) = fun i => lit21 (S14x1x32.rowMajor i))
    (h42 : W (Proc.devRef .tc main_c_42) = constantI S14x1x32 1 0#1) :
    (StableHlo.after (main_part4_ops0 (F := Ideal)) W (Proc.devRef .tc main_v191) : S3x256x512.Idx → EReal)
      = (tapScat14 0#32 lit20 lit21 16 slices_S144x32_S16x32_16_0 w
        (tapScat13 0#32 lit18 lit19 0 slices_S144x32_S16x32_0_0 w
        (broadcastInDim S3x256x512 ![] bcast_S_S3x256x512 (constant (F := Ideal) S_ .f32 0x00000000#32)))) := by
  dsimp only [main_part4_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rw [ha, h35, h36, h37, h38, h39, h40, h41, h42]
  rfl

/-- Stretch 4 ends by cutting the next tap's sixteen rows out of the weights. -/
theorem stage4_slice (W : Valuation τ sig (Elt Ideal)) :
    (StableHlo.after (main_part4_ops0 (F := Ideal)) W (Proc.devRef .tc main_v192) : S16x32.Idx → EReal)
      = extractStridedSlice S16x32 ![32, 0] (W (Proc.devRef .tc main_arg3)) slices_S144x32_S16x32_32_0 := by
  dsimp only [main_part4_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

end Cert.KernelIdeal.Hand

end
-- ==== Proof.KHostBS5.lean ====
/-
  Stretch 5 of the host operations read on its own, from any buffer contents `W`: taps 2, 3 and 4 laid over the band so far, and tap 5's sixteen rows cut out of the weights.  The index tables it reads
  are constants of earlier stretches and the weights are an argument, so they enter as what `W` holds.
-/
import proofs.«150178_g2000205257289275_pallasbulk_739_9_alg».proof.Proof.Gen.KernelIdeal.Launch
import proofs.«150178_g2000205257289275_pallasbulk_739_9_alg».proof.Proof.KHostB1

set_option maxRecDepth 100000

noncomputable section

namespace Cert.KernelIdeal.Hand

open Cert.Cnn Idealize.ShloMosaic Idealize.ShloMosaic.TcCoe Idealize.ShloMosaic.ValueIdx Cert.KernelIdeal Cert.KernelIdeal.Gen

set_option maxHeartbeats 0 in
/-- Stretch 5 of the host operations, from any contents `W` holding the tables it reads and the band so far. -/
theorem stage5 (W : Valuation τ sig (Elt Ideal)) (w : FVec Ideal S144x32 .f32) (X : FVec Ideal S3x256x512 .f32)
    (ha : W (Proc.devRef .tc main_arg3) = w)
    (h43 : W (Proc.devRef .tc main_c_43) = fun i => lit22 (S13x16x1.rowMajor i))
    (h44 : W (Proc.devRef .tc main_c_44) = constantI S13x16x1 1 0#1)
    (h45 : W (Proc.devRef .tc main_c_45) = fun i => lit23 (S13x1x32.rowMajor i))
    (h46 : W (Proc.devRef .tc main_c_46) = constantI S13x1x32 1 0#1)
    (h47 : W (Proc.devRef .tc main_c_47) = fun i => lit24 (S13x16x1.rowMajor i))
    (h48 : W (Proc.devRef .tc main_c_48) = constantI S13x16x1 1 0#1)
    (h49 : W (Proc.devRef .tc main_c_49) = fun i => lit25 (S13x1x32.rowMajor i))
    (h50 : W (Proc.devRef .tc main_c_50) = constantI S13x1x32 1 0#1)
    (h51 : W (Proc.devRef .tc main_c_51) = fun i => lit26 (S14x16x1.rowMajor i))
    (h52 : W (Proc.devRef .tc main_c_52) = constantI S14x16x1 1 0#1)
    (h53 : W (Proc.devRef .tc main_c_53) = fun i => lit27 (S14x1x32.rowMajor i))
    (h54 : W (Proc.devRef .tc main_c_54) = constantI S14x1x32 1 0#1)
    (hX : W (Proc.devRef .tc main_v191) = X)
    (hs : W (Proc.devRef .tc main_v192) = extractStridedSlice S16x32 ![32, 0] w slices_S144x32_S16x32_32_0) :
    (StableHlo.after (main_part5_ops0 (F := Ideal)) W (Proc.devRef .tc main_v242) : S3x256x512.Idx → EReal)
      = (tapScat14 1#32 lit26 lit27 64 slices_S144x32_S16x32_64_0 w
        (tapScat13 1#32 lit24 lit25 48 slices_S144x32_S16x32_48_0 w
        (tapScat13 0#32 lit22 lit23 32 slices_S144x32_S16x32_32_0 w
        X))) := by
  dsimp only [main_part5_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rw [ha, h43, h44, h45, h46, h47, h48, h49, h50, h51, h52, h53, h54, hX, hs]
  rfl

/-- Stretch 5 ends by cutting the next tap's sixteen rows out of the weights. -/
theorem stage5_slice (W : Valuation τ sig (Elt Ideal)) :
    (StableHlo.after (main_part5_ops0 (F := Ideal)) W (Proc.devRef .tc main_v243) : S16x32.Idx → EReal)
      = extractStridedSlice S16x32 ![80, 0] (W (Proc.devRef .tc main_arg3)) slices_S144x32_S16x32_80_0 := by
  dsimp only [main_part5_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

end Cert.KernelIdeal.Hand

end
-- ==== Proof.KHostBS6.lean ====
/-
  Stretch 6 of the host operations read on its own, from any buffer contents `W`: taps 5, 6 and 7 laid over the band so far, and the last tap's sixteen rows cut out of the weights.  The index tables it reads
  are constants of earlier stretches and the weights are an argument, so they enter as what `W` holds.
-/
import proofs.«150178_g2000205257289275_pallasbulk_739_9_alg».proof.Proof.Gen.KernelIdeal.Launch
import proofs.«150178_g2000205257289275_pallasbulk_739_9_alg».proof.Proof.KHostB1

set_option maxRecDepth 100000

noncomputable section

namespace Cert.KernelIdeal.Hand

open Cert.Cnn Idealize.ShloMosaic Idealize.ShloMosaic.TcCoe Idealize.ShloMosaic.ValueIdx Cert.KernelIdeal Cert.KernelIdeal.Gen

set_option maxHeartbeats 0 in
/-- Stretch 6 of the host operations, from any contents `W` holding the tables it reads and the band so far. -/
theorem stage6 (W : Valuation τ sig (Elt Ideal)) (w : FVec Ideal S144x32 .f32) (X : FVec Ideal S3x256x512 .f32)
    (ha : W (Proc.devRef .tc main_arg3) = w)
    (h55 : W (Proc.devRef .tc main_c_55) = fun i => lit28 (S13x16x1.rowMajor i))
    (h56 : W (Proc.devRef .tc main_c_56) = constantI S13x16x1 1 0#1)
    (h57 : W (Proc.devRef .tc main_c_57) = fun i => lit29 (S13x1x32.rowMajor i))
    (h58 : W (Proc.devRef .tc main_c_58) = constantI S13x1x32 1 0#1)
    (h59 : W (Proc.devRef .tc main_c_59) = fun i => lit30 (S13x16x1.rowMajor i))
    (h60 : W (Proc.devRef .tc main_c_60) = constantI S13x16x1 1 0#1)
    (h61 : W (Proc.devRef .tc main_c_61) = fun i => lit31 (S13x1x32.rowMajor i))
    (h62 : W (Proc.devRef .tc main_c_62) = constantI S13x1x32 1 0#1)
    (h63 : W (Proc.devRef .tc main_c_63) = fun i => lit32 (S14x16x1.rowMajor i))
    (h64 : W (Proc.devRef .tc main_c_64) = constantI S14x16x1 1 0#1)
    (h65 : W (Proc.devRef .tc main_c_65) = fun i => lit33 (S14x1x32.rowMajor i))
    (h66 : W (Proc.devRef .tc main_c_66) = constantI S14x1x32 1 0#1)
    (hX : W (Proc.devRef .tc main_v242) = X)
    (hs : W (Proc.devRef .tc main_v243) = extractStridedSlice S16x32 ![80, 0] w slices_S144x32_S16x32_80_0) :
    (StableHlo.after (main_part6_ops0 (F := Ideal)) W (Proc.devRef .tc main_v293) : S3x256x512.Idx → EReal)
      = (tapScat14 2#32 lit32 lit33 112 slices_S144x32_S16x32_112_0 w
        (tapScat13 2#32 lit30 lit31 96 slices_S144x32_S16x32_96_0 w
        (tapScat13 1#32 lit28 lit29 80 slices_S144x32_S16x32_80_0 w
        X))) := by
  dsimp only [main_part6_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rw [ha, h55, h56, h57, h58, h59, h60, h61, h62, h63, h64, h65, h66, hX, hs]
  rfl

/-- Stretch 6 ends by cutting the next tap's sixteen rows out of the weights. -/
theorem stage6_slice (W : Valuation τ sig (Elt Ideal)) :
    (StableHlo.after (main_part6_ops0 (F := Ideal)) W (Proc.devRef .tc main_v294) : S16x32.Idx → EReal)
      = extractStridedSlice S16x32 ![128, 0] (W (Proc.devRef .tc main_arg3)) slices_S144x32_S16x32_128_0 := by
  dsimp only [main_part6_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

end Cert.KernelIdeal.Hand

end
-- ==== Proof.KHostBS7.lean ====
/-
  Stretch 7 of the host operations read on its own, from any buffer contents `W`: the last tap laid over the band so far, the three tap rows put end to end, the change of format.  The index tables it reads
  are constants of earlier stretches and the weights are an argument, so they enter as what `W` holds.
-/
import proofs.«150178_g2000205257289275_pallasbulk_739_9_alg».proof.Proof.Gen.KernelIdeal.Launch
import proofs.«150178_g2000205257289275_pallasbulk_739_9_alg».proof.Proof.KHostB1

set_option maxRecDepth 100000

noncomputable section

namespace Cert.KernelIdeal.Hand

open Cert.Cnn Idealize.ShloMosaic Idealize.ShloMosaic.TcCoe Idealize.ShloMosaic.ValueIdx Cert.KernelIdeal Cert.KernelIdeal.Gen

set_option maxHeartbeats 0 in
/-- Stretch 7 of the host operations, from any contents `W` holding the tables it reads. -/
theorem stage7 (W : Valuation τ sig (Elt Ideal)) (w : FVec Ideal S144x32 .f32) (X : FVec Ideal S3x256x512 .f32)
    (h67 : W (Proc.devRef .tc main_c_67) = fun i => lit34 (S13x16x1.rowMajor i))
    (h68 : W (Proc.devRef .tc main_c_68) = constantI S13x16x1 1 0#1)
    (h69 : W (Proc.devRef .tc main_c_69) = fun i => lit35 (S13x1x32.rowMajor i))
    (h70 : W (Proc.devRef .tc main_c_70) = constantI S13x1x32 1 0#1)
    (hX : W (Proc.devRef .tc main_v293) = X)
    (hs : W (Proc.devRef .tc main_v294) = extractStridedSlice S16x32 ![128, 0] w slices_S144x32_S16x32_128_0) :
    (StableHlo.after (main_part7_ops0 (F := Ideal)) W (Proc.devRef .tc main_v312) : S768x512.Idx → EReal)
      = truncf .bf16 (shapeCast S768x512
      (tapScat13 2#32 lit34 lit35 128 slices_S144x32_S16x32_128_0 w
        X)
      shapeCasts_S3x256x512_S768x512) bitsLt_bf16_f32 := by
  dsimp only [main_part7_ops0]
  simp (config := {maxSteps := 10000000}) (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rw [h67, h68, h69, h70, hX, hs]
  rfl

end Cert.KernelIdeal.Hand

end
-- ==== Proof.KHostB.lean ====
/-
  The second banded matrix after the host operations: the stretches put together.

  A table is written once, in stretch 0 or 1, and the weights argument never; the later stretches write other slots, so
  each stretch finds them as they were.  Stretch 4 starts the band from zero, stretches 5, 6 and 7 go on from the
  band the stretch before left, and the last one reshapes it and changes the format: the buffer holds the host's term of
  the weights, whose entries are the closed form.
-/
import proofs.«150178_g2000205257289275_pallasbulk_739_9_alg».proof.Proof.KHostParts
import proofs.«150178_g2000205257289275_pallasbulk_739_9_alg».proof.Proof.KHostBRd
import proofs.«150178_g2000205257289275_pallasbulk_739_9_alg».proof.Proof.KHostBS4
import proofs.«150178_g2000205257289275_pallasbulk_739_9_alg».proof.Proof.KHostBS5
import proofs.«150178_g2000205257289275_pallasbulk_739_9_alg».proof.Proof.KHostBS6
import proofs.«150178_g2000205257289275_pallasbulk_739_9_alg».proof.Proof.KHostBS7

set_option maxRecDepth 100000

noncomputable section

namespace Cert.KernelIdeal.Hand

open Cert.Cnn Idealize.ShloMosaic Idealize.ShloMosaic.TcCoe Idealize.ShloMosaic.ValueIdx Cert.KernelIdeal Cert.KernelIdeal.Gen

/-! ## The tables and the weights as each stretch finds them

A table is written once, in stretch 0 or 1, and the weights argument never: the later stretches write other slots. -/

/-- Table `main_c_35` as stretch 4 finds it. -/
theorem tab_35 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_35) = (fun i => lit18 (S13x16x1.rowMajor i)) := by
  rw [after_part3_of_slot _ _ (by decide), after_part2_of_slot _ _ (by decide), after_part1_of_slot _ _ (by decide)]
  exact (read_tab0 _).1

/-- Table `main_c_36` as stretch 4 finds it. -/
theorem tab_36 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_36) = (constantI S13x16x1 1 0#1) := by
  rw [after_part3_of_slot _ _ (by decide), after_part2_of_slot _ _ (by decide), after_part1_of_slot _ _ (by decide)]
  exact (read_tab0 _).2.1

/-- Table `main_c_37` as stretch 4 finds it. -/
theorem tab_37 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_37) = (fun i => lit19 (S13x1x32.rowMajor i)) := by
  rw [after_part3_of_slot _ _ (by decide), after_part2_of_slot _ _ (by decide), after_part1_of_slot _ _ (by decide)]
  exact (read_tab0 _).2.2.1

/-- Table `main_c_38` as stretch 4 finds it. -/
theorem tab_38 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_38) = (constantI S13x1x32 1 0#1) := by
  rw [after_part3_of_slot _ _ (by decide), after_part2_of_slot _ _ (by decide), after_part1_of_slot _ _ (by decide)]
  exact (read_tab0 _).2.2.2

/-- Table `main_c_39` as stretch 4 finds it. -/
theorem tab_39 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_39) = (fun i => lit20 (S14x16x1.rowMajor i)) := by
  rw [after_part3_of_slot _ _ (by decide), after_part2_of_slot _ _ (by decide), after_part1_of_slot _ _ (by decide)]
  exact (read_tab1 _).1

/-- Table `main_c_40` as stretch 4 finds it. -/
theorem tab_40 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_40) = (constantI S14x16x1 1 0#1) := by
  rw [after_part3_of_slot _ _ (by decide), after_part2_of_slot _ _ (by decide), after_part1_of_slot _ _ (by decide)]
  exact (read_tab1 _).2.1

/-- Table `main_c_41` as stretch 4 finds it. -/
theorem tab_41 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_41) = (fun i => lit21 (S14x1x32.rowMajor i)) := by
  rw [after_part3_of_slot _ _ (by decide), after_part2_of_slot _ _ (by decide), after_part1_of_slot _ _ (by decide)]
  exact (read_tab1 _).2.2.1

/-- Table `main_c_42` as stretch 4 finds it. -/
theorem tab_42 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_c_42) = (constantI S14x1x32 1 0#1) := by
  rw [after_part3_of_slot _ _ (by decide), after_part2_of_slot _ _ (by decide), after_part1_of_slot _ _ (by decide)]
  exact (read_tab1 _).2.2.2

/-- Table `main_c_43` as stretch 5 finds it. -/
theorem tab_43 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_43) = (fun i => lit22 (S13x16x1.rowMajor i)) := by
  rw [after_part4_of_slot _ _ (by decide), after_part3_of_slot _ _ (by decide), after_part2_of_slot _ _ (by decide), after_part1_of_slot _ _ (by decide)]
  exact (read_tab2 _).1

/-- Table `main_c_44` as stretch 5 finds it. -/
theorem tab_44 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_44) = (constantI S13x16x1 1 0#1) := by
  rw [after_part4_of_slot _ _ (by decide), after_part3_of_slot _ _ (by decide), after_part2_of_slot _ _ (by decide), after_part1_of_slot _ _ (by decide)]
  exact (read_tab2 _).2.1

/-- Table `main_c_45` as stretch 5 finds it. -/
theorem tab_45 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_45) = (fun i => lit23 (S13x1x32.rowMajor i)) := by
  rw [after_part4_of_slot _ _ (by decide), after_part3_of_slot _ _ (by decide), after_part2_of_slot _ _ (by decide), after_part1_of_slot _ _ (by decide)]
  exact (read_tab2 _).2.2.1

/-- Table `main_c_46` as stretch 5 finds it. -/
theorem tab_46 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_46) = (constantI S13x1x32 1 0#1) := by
  rw [after_part4_of_slot _ _ (by decide), after_part3_of_slot _ _ (by decide), after_part2_of_slot _ _ (by decide), after_part1_of_slot _ _ (by decide)]
  exact (read_tab2 _).2.2.2

/-- Table `main_c_47` as stretch 5 finds it. -/
theorem tab_47 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_47) = (fun i => lit24 (S13x16x1.rowMajor i)) := by
  rw [after_part4_of_slot _ _ (by decide), after_part3_of_slot _ _ (by decide), after_part2_of_slot _ _ (by decide), after_part1_of_slot _ _ (by decide)]
  exact (read_tab3 _).1

/-- Table `main_c_48` as stretch 5 finds it. -/
theorem tab_48 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_48) = (constantI S13x16x1 1 0#1) := by
  rw [after_part4_of_slot _ _ (by decide), after_part3_of_slot _ _ (by decide), after_part2_of_slot _ _ (by decide), after_part1_of_slot _ _ (by decide)]
  exact (read_tab3 _).2.1

/-- Table `main_c_49` as stretch 5 finds it. -/
theorem tab_49 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_49) = (fun i => lit25 (S13x1x32.rowMajor i)) := by
  rw [after_part4_of_slot _ _ (by decide), after_part3_of_slot _ _ (by decide), after_part2_of_slot _ _ (by decide), after_part1_of_slot _ _ (by decide)]
  exact (read_tab3 _).2.2.1

/-- Table `main_c_50` as stretch 5 finds it. -/
theorem tab_50 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_50) = (constantI S13x1x32 1 0#1) := by
  rw [after_part4_of_slot _ _ (by decide), after_part3_of_slot _ _ (by decide), after_part2_of_slot _ _ (by decide), after_part1_of_slot _ _ (by decide)]
  exact (read_tab3 _).2.2.2

/-- Table `main_c_51` as stretch 5 finds it. -/
theorem tab_51 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_51) = (fun i => lit26 (S14x16x1.rowMajor i)) := by
  rw [after_part4_of_slot _ _ (by decide), after_part3_of_slot _ _ (by decide), after_part2_of_slot _ _ (by decide), after_part1_of_slot _ _ (by decide)]
  exact (read_tab4 _).1

/-- Table `main_c_52` as stretch 5 finds it. -/
theorem tab_52 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_52) = (constantI S14x16x1 1 0#1) := by
  rw [after_part4_of_slot _ _ (by decide), after_part3_of_slot _ _ (by decide), after_part2_of_slot _ _ (by decide), after_part1_of_slot _ _ (by decide)]
  exact (read_tab4 _).2.1

/-- Table `main_c_53` as stretch 5 finds it. -/
theorem tab_53 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_53) = (fun i => lit27 (S14x1x32.rowMajor i)) := by
  rw [after_part4_of_slot _ _ (by decide), after_part3_of_slot _ _ (by decide), after_part2_of_slot _ _ (by decide), after_part1_of_slot _ _ (by decide)]
  exact (read_tab4 _).2.2.1

/-- Table `main_c_54` as stretch 5 finds it. -/
theorem tab_54 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_c_54) = (constantI S14x1x32 1 0#1) := by
  rw [after_part4_of_slot _ _ (by decide), after_part3_of_slot _ _ (by decide), after_part2_of_slot _ _ (by decide), after_part1_of_slot _ _ (by decide)]
  exact (read_tab4 _).2.2.2

/-- Table `main_c_55` as stretch 6 finds it. -/
theorem tab_55 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_55) = (fun i => lit28 (S13x16x1.rowMajor i)) := by
  rw [after_part5_of_slot _ _ (by decide), after_part4_of_slot _ _ (by decide), after_part3_of_slot _ _ (by decide), after_part2_of_slot _ _ (by decide), after_part1_of_slot _ _ (by decide)]
  exact (read_tab5 _).1

/-- Table `main_c_56` as stretch 6 finds it. -/
theorem tab_56 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_56) = (constantI S13x16x1 1 0#1) := by
  rw [after_part5_of_slot _ _ (by decide), after_part4_of_slot _ _ (by decide), after_part3_of_slot _ _ (by decide), after_part2_of_slot _ _ (by decide), after_part1_of_slot _ _ (by decide)]
  exact (read_tab5 _).2.1

/-- Table `main_c_57` as stretch 6 finds it. -/
theorem tab_57 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_57) = (fun i => lit29 (S13x1x32.rowMajor i)) := by
  rw [after_part5_of_slot _ _ (by decide), after_part4_of_slot _ _ (by decide), after_part3_of_slot _ _ (by decide), after_part2_of_slot _ _ (by decide), after_part1_of_slot _ _ (by decide)]
  exact (read_tab5 _).2.2.1

/-- Table `main_c_58` as stretch 6 finds it. -/
theorem tab_58 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_58) = (constantI S13x1x32 1 0#1) := by
  rw [after_part5_of_slot _ _ (by decide), after_part4_of_slot _ _ (by decide), after_part3_of_slot _ _ (by decide), after_part2_of_slot _ _ (by decide), after_part1_of_slot _ _ (by decide)]
  exact (read_tab5 _).2.2.2

/-- Table `main_c_59` as stretch 6 finds it. -/
theorem tab_59 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_59) = (fun i => lit30 (S13x16x1.rowMajor i)) := by
  rw [after_part5_of_slot _ _ (by decide), after_part4_of_slot _ _ (by decide), after_part3_of_slot _ _ (by decide), after_part2_of_slot _ _ (by decide)]
  exact (read_tab6 _).1

/-- Table `main_c_60` as stretch 6 finds it. -/
theorem tab_60 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_60) = (constantI S13x16x1 1 0#1) := by
  rw [after_part5_of_slot _ _ (by decide), after_part4_of_slot _ _ (by decide), after_part3_of_slot _ _ (by decide), after_part2_of_slot _ _ (by decide)]
  exact (read_tab6 _).2.1

/-- Table `main_c_61` as stretch 6 finds it. -/
theorem tab_61 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_61) = (fun i => lit31 (S13x1x32.rowMajor i)) := by
  rw [after_part5_of_slot _ _ (by decide), after_part4_of_slot _ _ (by decide), after_part3_of_slot _ _ (by decide), after_part2_of_slot _ _ (by decide)]
  exact (read_tab6 _).2.2.1

/-- Table `main_c_62` as stretch 6 finds it. -/
theorem tab_62 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_62) = (constantI S13x1x32 1 0#1) := by
  rw [after_part5_of_slot _ _ (by decide), after_part4_of_slot _ _ (by decide), after_part3_of_slot _ _ (by decide), after_part2_of_slot _ _ (by decide)]
  exact (read_tab6 _).2.2.2

/-- Table `main_c_63` as stretch 6 finds it. -/
theorem tab_63 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_63) = (fun i => lit32 (S14x16x1.rowMajor i)) := by
  rw [after_part5_of_slot _ _ (by decide), after_part4_of_slot _ _ (by decide), after_part3_of_slot _ _ (by decide), after_part2_of_slot _ _ (by decide)]
  exact (read_tab7 _).1

/-- Table `main_c_64` as stretch 6 finds it. -/
theorem tab_64 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_64) = (constantI S14x16x1 1 0#1) := by
  rw [after_part5_of_slot _ _ (by decide), after_part4_of_slot _ _ (by decide), after_part3_of_slot _ _ (by decide), after_part2_of_slot _ _ (by decide)]
  exact (read_tab7 _).2.1

/-- Table `main_c_65` as stretch 6 finds it. -/
theorem tab_65 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_65) = (fun i => lit33 (S14x1x32.rowMajor i)) := by
  rw [after_part5_of_slot _ _ (by decide), after_part4_of_slot _ _ (by decide), after_part3_of_slot _ _ (by decide), after_part2_of_slot _ _ (by decide)]
  exact (read_tab7 _).2.2.1

/-- Table `main_c_66` as stretch 6 finds it. -/
theorem tab_66 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_c_66) = (constantI S14x1x32 1 0#1) := by
  rw [after_part5_of_slot _ _ (by decide), after_part4_of_slot _ _ (by decide), after_part3_of_slot _ _ (by decide), after_part2_of_slot _ _ (by decide)]
  exact (read_tab7 _).2.2.2

/-- Table `main_c_67` as stretch 7 finds it. -/
theorem tab_67 (V₀ : Valuation τ sig (Elt Ideal)) :
    (StableHlo.after (main_part6_ops0 (F := Ideal)) (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))))) (Proc.devRef .tc main_c_67) = (fun i => lit34 (S13x16x1.rowMajor i)) := by
  rw [after_part6_of_slot _ _ (by decide), after_part5_of_slot _ _ (by decide), after_part4_of_slot _ _ (by decide), after_part3_of_slot _ _ (by decide), after_part2_of_slot _ _ (by decide)]
  exact (read_tab8 _).1

/-- Table `main_c_68` as stretch 7 finds it. -/
theorem tab_68 (V₀ : Valuation τ sig (Elt Ideal)) :
    (StableHlo.after (main_part6_ops0 (F := Ideal)) (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))))) (Proc.devRef .tc main_c_68) = (constantI S13x16x1 1 0#1) := by
  rw [after_part6_of_slot _ _ (by decide), after_part5_of_slot _ _ (by decide), after_part4_of_slot _ _ (by decide), after_part3_of_slot _ _ (by decide), after_part2_of_slot _ _ (by decide)]
  exact (read_tab8 _).2.1

/-- Table `main_c_69` as stretch 7 finds it. -/
theorem tab_69 (V₀ : Valuation τ sig (Elt Ideal)) :
    (StableHlo.after (main_part6_ops0 (F := Ideal)) (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))))) (Proc.devRef .tc main_c_69) = (fun i => lit35 (S13x1x32.rowMajor i)) := by
  rw [after_part6_of_slot _ _ (by decide), after_part5_of_slot _ _ (by decide), after_part4_of_slot _ _ (by decide), after_part3_of_slot _ _ (by decide), after_part2_of_slot _ _ (by decide)]
  exact (read_tab8 _).2.2.1

/-- Table `main_c_70` as stretch 7 finds it. -/
theorem tab_70 (V₀ : Valuation τ sig (Elt Ideal)) :
    (StableHlo.after (main_part6_ops0 (F := Ideal)) (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))))) (Proc.devRef .tc main_c_70) = (constantI S13x1x32 1 0#1) := by
  rw [after_part6_of_slot _ _ (by decide), after_part5_of_slot _ _ (by decide), after_part4_of_slot _ _ (by decide), after_part3_of_slot _ _ (by decide), after_part2_of_slot _ _ (by decide)]
  exact (read_tab8 _).2.2.2

/-- The weights argument as stretch 3 finds it: as launched. -/
theorem arg_A2 (V₀ : Valuation τ sig (Elt Ideal)) :
    (StableHlo.after (main_part2_ops0 (F := Ideal)) (StableHlo.after (main_part1_ops0 (F := Ideal)) (StableHlo.after (main_part0_ops0 (F := Ideal)) V₀))) (Proc.devRef .tc main_arg3) = V₀ (Proc.devRef .tc main_arg3) := by
  rw [after_part2_of_slot _ _ (by decide), after_part1_of_slot _ _ (by decide), after_part0_of_slot _ _ (by decide)]

/-- The weights argument as stretch 4 finds it: as launched. -/
theorem arg_A3 (V₀ : Valuation τ sig (Elt Ideal)) :
    (StableHlo.after (main_part3_ops0 (F := Ideal)) (StableHlo.after (main_part2_ops0 (F := Ideal)) (StableHlo.after (main_part1_ops0 (F := Ideal)) (StableHlo.after (main_part0_ops0 (F := Ideal)) V₀)))) (Proc.devRef .tc main_arg3) = V₀ (Proc.devRef .tc main_arg3) := by
  rw [after_part3_of_slot _ _ (by decide), after_part2_of_slot _ _ (by decide), after_part1_of_slot _ _ (by decide), after_part0_of_slot _ _ (by decide)]

/-- The weights argument as stretch 5 finds it: as launched. -/
theorem arg_A4 (V₀ : Valuation τ sig (Elt Ideal)) :
    (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (Proc.devRef .tc main_arg3) = V₀ (Proc.devRef .tc main_arg3) := by
  rw [after_part4_of_slot _ _ (by decide), after_part3_of_slot _ _ (by decide), after_part2_of_slot _ _ (by decide), after_part1_of_slot _ _ (by decide), after_part0_of_slot _ _ (by decide)]

/-- The weights argument as stretch 6 finds it: as launched. -/
theorem arg_A5 (V₀ : Valuation τ sig (Elt Ideal)) :
    (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (Proc.devRef .tc main_arg3) = V₀ (Proc.devRef .tc main_arg3) := by
  rw [after_part5_of_slot _ _ (by decide), after_part4_of_slot _ _ (by decide), after_part3_of_slot _ _ (by decide), after_part2_of_slot _ _ (by decide), after_part1_of_slot _ _ (by decide), after_part0_of_slot _ _ (by decide)]

/-! ## The buffer after the host operations -/

/-- After the host operations the second banded matrix's buffer holds the host's term of the weights argument. -/
theorem host_t2_term (V₀ : Valuation τ sig (Elt Ideal)) :
    (StableHlo.after (hostOps0 (F := Ideal)) V₀ (Proc.devRef .tc main_v312) : S768x512.Idx → EReal)
      = t2Term (V₀ (Proc.devRef .tc main_arg3)) := by
  rw [after_hostOps0]
  rw [stage7 (StableHlo.after (main_part6_ops0 (F := Ideal)) (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))))) (V₀ (Proc.devRef .tc main_arg3)) _
      (tab_67 V₀) (tab_68 V₀) (tab_69 V₀) (tab_70 V₀) rfl (by rw [stage6_slice, arg_A5])]
  rw [stage6 (StableHlo.after (main_part5_ops0 (F := Ideal)) (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀)))))) (V₀ (Proc.devRef .tc main_arg3)) _
      (arg_A5 V₀) (tab_55 V₀) (tab_56 V₀) (tab_57 V₀) (tab_58 V₀) (tab_59 V₀) (tab_60 V₀) (tab_61 V₀) (tab_62 V₀) (tab_63 V₀) (tab_64 V₀) (tab_65 V₀) (tab_66 V₀) rfl (by rw [stage5_slice, arg_A4])]
  rw [stage5 (StableHlo.after (main_part4_ops0 (F := Ideal)) (StableHlo.after (main_part3_ops0 (F := Ideal)) (StableHlo.after (main_part2_ops0 (F := Ideal)) (StableHlo.after (main_part1_ops0 (F := Ideal)) (StableHlo.after (main_part0_ops0 (F := Ideal)) V₀))))) (V₀ (Proc.devRef .tc main_arg3)) _
      (arg_A4 V₀) (tab_43 V₀) (tab_44 V₀) (tab_45 V₀) (tab_46 V₀) (tab_47 V₀) (tab_48 V₀) (tab_49 V₀) (tab_50 V₀) (tab_51 V₀) (tab_52 V₀) (tab_53 V₀) (tab_54 V₀) rfl (by rw [stage4_slice, arg_A3])]
  rw [stage4 (StableHlo.after (main_part3_ops0 (F := Ideal)) (StableHlo.after (main_part2_ops0 (F := Ideal)) (StableHlo.after (main_part1_ops0 (F := Ideal)) (StableHlo.after (main_part0_ops0 (F := Ideal)) V₀)))) (V₀ (Proc.devRef .tc main_arg3))
      (arg_A3 V₀) (tab_35 V₀) (tab_36 V₀) (tab_37 V₀) (tab_38 V₀) (tab_39 V₀) (tab_40 V₀) (tab_41 V₀) (tab_42 V₀)]
  rfl

/-- The second banded matrix after the host operations, entry by entry, from the weights argument. -/
theorem host_t2 (V₀ : Valuation τ sig (Elt Ideal)) (k : Fin 768) (l : Fin 512) :
    (StableHlo.after (hostOps0 (F := Ideal)) V₀ (Proc.devRef .tc main_v312) : S768x512.Idx → EReal) (ix2 k l)
      = T2 (fun q c => (V₀ (Proc.devRef .tc main_arg3) : S144x32.Idx → EReal) (ix2 q c)) k l := by
  rw [host_t2_term]
  exact t2Term_apply _ k l

end Cert.KernelIdeal.Hand

end
-- ==== Proof.KHostC.lean ====
/-
  Seven small tables the host builds for the fused kernel before its one call, each read at an index: the images
  flattened to rows, the two bias rows repeated over the column pairs and padded with idle lanes, the first dense
  matrix padded to 256 rows per pooled image row, the second dense matrix, and the two dense biases as rows.

  The host runs 464 operations in eight stretches.  Six of the tables are written by short chains at the end of
  the last stretch, each from an argument array; the flattened images by one operation of the second stretch.  An
  argument array is written by no operation, so it passes through every stretch unchanged; a chain is evaluated
  operation by operation from where it starts, at whatever the buffers held there.  What is left is the arithmetic
  of reshapes, broadcasts and concatenations read at an index.
-/
import proofs.«150178_g2000205257289275_pallasbulk_739_9_alg».proof.Proof.KHostParts
import proofs.«150178_g2000205257289275_pallasbulk_739_9_alg».proof.Proof.KTables
import Idealize.ShloMosaic.Lib.StableHlo.Run
import Idealize.ShloMosaic.Lib.Pipeline.Value
import Idealize.ShloMosaic.Lib.ValueLayout
import Idealize.ShloMosaic.Lib.IdealHost

set_option maxRecDepth 16384
-- one declaration at a time: the long lists elaborated side by side hold too much memory
set_option Elab.async false

noncomputable section

namespace Cert.KernelIdeal.Hand

open Cert.Cnn Idealize.ShloMosaic Idealize.ShloMosaic.ValueIdx Cert.KernelIdeal Cert.KernelIdeal.Gen

/-! ## The operations' shapes of terms, read at an index -/

section Math
variable {α : Type}

/-- A row of `c` values repeated over `n` rows (`n · c = 224`), flattened, followed by 32 copies of a scalar `z`,
    as a `[1, 256]` row: lane `l` is value `l mod c` below 224 and `z` from there on. -/
theorem hc_tiledRow_apply (n c : ℕ) (hnc : n * c = 224) (hc : 0 < c) (b : (⟨1, ![c]⟩ : Shape).Idx → α)
    (z : (⟨0, ![]⟩ : Shape).Idx → α)
    (h1 : (⟨1, ![c]⟩ : Shape).ShapeCasts ⟨2, ![1, c]⟩)
    (h2 : (⟨2, ![1, c]⟩ : Shape).BroadcastsInDim ⟨2, ![n, c]⟩ ![0, 1])
    (h3 : (⟨2, ![n, c]⟩ : Shape).ShapeCasts ⟨1, ![224]⟩)
    (h4 : (⟨0, ![]⟩ : Shape).BroadcastsInDim ⟨1, ![32]⟩ ![])
    (h5 : Shape.Concatenates [(⟨1, ![224]⟩ : Shape), ⟨1, ![32]⟩] ⟨1, ![256]⟩ 0)
    (h6 : (⟨1, ![256]⟩ : Shape).ShapeCasts ⟨2, ![1, 256]⟩) (l : Fin 256) :
    shapeCast ⟨2, ![1, 256]⟩ (concatenate ⟨1, ![256]⟩ 0
        [⟨⟨1, ![224]⟩, shapeCast ⟨1, ![224]⟩ (broadcastInDim ⟨2, ![n, c]⟩ ![0, 1] h2 (shapeCast ⟨2, ![1, c]⟩ b h1)) h3⟩,
         ⟨⟨1, ![32]⟩, broadcastInDim ⟨1, ![32]⟩ ![] h4 z⟩] h5) h6 (ix2 (0 : Fin 1) l)
      = if l.val < 224 then b (ix1 ⟨l.val % c, Nat.mod_lt _ hc⟩) else z ix0 := by
  rw [shapeCast_a_1a_apply]
  by_cases hl : l.val < 224
  · rw [if_pos hl]
    have hdiv : l.val / c < n := by
      rw [Nat.div_lt_iff_lt_mul hc, hnc]; exact hl
    rw [concatenate_pair_apply_left (s₁ := ⟨1, ![224]⟩) (s₂ := ⟨1, ![32]⟩) (0 : Fin 1) _ _ h5 (ix1 l) rfl (ix1 ⟨l.val, hl⟩)
      (fun a => match a with | ⟨0, _⟩ => rfl)]
    rw [shapeCast_apply _ h3 (ix1 ⟨l.val, hl⟩) (ix2 ⟨l.val / c, hdiv⟩ ⟨l.val % c, Nat.mod_lt _ hc⟩)
      (by rw [Shape.rowMajor_val_two, Shape.rowMajor_val_one]
          show l.val / c * c + l.val % c = l.val
          exact Nat.div_add_mod' _ _)]
    rw [broadcastInDim_apply _ h2 _ (ix2 ⟨l.val / c, hdiv⟩ ⟨l.val % c, Nat.mod_lt _ hc⟩)
      (ix2 (0 : Fin 1) ⟨l.val % c, Nat.mod_lt _ hc⟩)
      (fun a => match a with
        | ⟨0, _⟩ => (if_pos rfl).symm
        | ⟨1, _⟩ => by
          show l.val % c = if c = 1 then 0 else l.val % c
          split
          · next h => rw [h, Nat.mod_one]
          · rfl)]
    rw [shapeCast_a_1a_apply]
  · rw [if_neg hl]
    have hl' : l.val - 224 < 32 := by have := l.isLt; omega
    rw [concatenate_pair_apply_right (s₁ := ⟨1, ![224]⟩) (s₂ := ⟨1, ![32]⟩) (0 : Fin 1) _ _ h5 (ix1 l) rfl rfl (ix1 ⟨l.val - 224, hl'⟩)
      (fun a ha => absurd (Subsingleton.elim _ _) ha)
      (by show l.val - 224 + 224 = l.val; omega)]
    rw [broadcastInDim_scalar_apply]

end Math

section Math2
variable {α : Type}

/-- A `[1568, 128]` matrix cut into seven blocks of 224 rows, each followed by 32 rows of a scalar `z`, as a
    `[1792, 128]` matrix: row `k` is row `k mod 256` of block `k / 256` below 224, and `z` from there on. -/
theorem hc_paddedRows_apply (f : (⟨2, ![1568, 128]⟩ : Shape).Idx → α) (z : (⟨0, ![]⟩ : Shape).Idx → α)
    (h1 : (⟨2, ![1568, 128]⟩ : Shape).ShapeCasts ⟨3, ![7, 224, 128]⟩)
    (h2 : (⟨0, ![]⟩ : Shape).BroadcastsInDim ⟨3, ![7, 32, 128]⟩ ![])
    (h3 : Shape.Concatenates [(⟨3, ![7, 224, 128]⟩ : Shape), ⟨3, ![7, 32, 128]⟩] ⟨3, ![7, 256, 128]⟩ 1)
    (h4 : (⟨3, ![7, 256, 128]⟩ : Shape).ShapeCasts ⟨2, ![1792, 128]⟩) (k : Fin 1792) (c : Fin 128) :
    shapeCast ⟨2, ![1792, 128]⟩ (concatenate ⟨3, ![7, 256, 128]⟩ 1
        [⟨⟨3, ![7, 224, 128]⟩, shapeCast ⟨3, ![7, 224, 128]⟩ f h1⟩,
         ⟨⟨3, ![7, 32, 128]⟩, broadcastInDim ⟨3, ![7, 32, 128]⟩ ![] h2 z⟩] h3) h4 (ix2 k c)
      = if h : k.val % 256 < 224 then f (ix2 ⟨k.val / 256 * 224 + k.val % 256, by have := k.isLt; omega⟩ c) else z ix0 := by
  have hg : k.val / 256 < 7 := by have := k.isLt; omega
  have hr : k.val % 256 < 256 := Nat.mod_lt _ (by norm_num)
  rw [shapeCast_apply _ h4 (ix2 k c) (ix3 ⟨k.val / 256, hg⟩ ⟨k.val % 256, hr⟩ c)
    (by rw [Shape.rowMajor_val_three, Shape.rowMajor_val_two]
        show (k.val / 256 * 256 + k.val % 256) * 128 + c.val = k.val * 128 + c.val
        rw [Nat.div_add_mod' k.val 256])]
  by_cases hl : k.val % 256 < 224
  · rw [dif_pos hl]
    rw [concatenate_pair_apply_left (s₁ := ⟨3, ![7, 224, 128]⟩) (s₂ := ⟨3, ![7, 32, 128]⟩) (1 : Fin 3) _ _ h3
      (ix3 ⟨k.val / 256, hg⟩ ⟨k.val % 256, hr⟩ c) rfl (ix3 ⟨k.val / 256, hg⟩ ⟨k.val % 256, hl⟩ c)
      (fun a => match a with | ⟨0, _⟩ => rfl | ⟨1, _⟩ => rfl | ⟨2, _⟩ => rfl)]
    rw [shapeCast_apply _ h1 (ix3 ⟨k.val / 256, hg⟩ ⟨k.val % 256, hl⟩ c)
      (ix2 ⟨k.val / 256 * 224 + k.val % 256, by omega⟩ c)
      (by rw [Shape.rowMajor_val_three, Shape.rowMajor_val_two]; rfl)]
  · rw [dif_neg hl]
    have hl' : k.val % 256 - 224 < 32 := by omega
    rw [concatenate_pair_apply_right (s₁ := ⟨3, ![7, 224, 128]⟩) (s₂ := ⟨3, ![7, 32, 128]⟩) (1 : Fin 3) _ _ h3
      (ix3 ⟨k.val / 256, hg⟩ ⟨k.val % 256, hr⟩ c) rfl rfl (ix3 ⟨k.val / 256, hg⟩ ⟨k.val % 256 - 224, hl'⟩ c)
      (fun a ha => match a, ha with
        | ⟨0, _⟩, _ => rfl
        | ⟨1, _⟩, ha => absurd rfl ha
        | ⟨2, _⟩, _ => rfl)
      (by show k.val % 256 - 224 + 224 = k.val % 256; omega)]
    rw [broadcastInDim_scalar_apply]

/-- A `[16384, 1, 28, 28]` array flattened to `[16384, 784]`: lane `p` of row `n` is pixel `(p / 28, p mod 28)`
    of image `n`. -/
theorem hc_flatImages_apply (x : (⟨4, ![16384, 1, 28, 28]⟩ : Shape).Idx → α)
    (h : (⟨4, ![16384, 1, 28, 28]⟩ : Shape).ShapeCasts ⟨2, ![16384, 784]⟩) (n : Fin 16384) (p : Fin 784) :
    shapeCast ⟨2, ![16384, 784]⟩ x h (ix2 n p)
      = x (ix4 n (0 : Fin 1) ⟨p.val / 28, by have := p.isLt; omega⟩ ⟨p.val % 28, Nat.mod_lt _ (by norm_num)⟩) :=
  shapeCast_apply x h _ _ (by
    rw [Shape.rowMajor_val_four, Shape.rowMajor_val_two]
    show ((n.val * 1 + 0) * 28 + p.val / 28) * 28 + p.val % 28 = n.val * 784 + p.val
    have := Nat.div_add_mod' p.val 28
    omega)

end Math2

/-! ## Cutting a line of host operations -/

section Lines
variable {τ' : Topo} {sig' : RefSig} {Val : EltTy → Type}

/-- Running a line is running its first `n` operations and then the rest. -/
theorem hc_take_drop (ops : List (HloOp τ' sig' Val)) (n : ℕ) (V : Valuation τ' sig' Val) :
    StableHlo.after ops V = StableHlo.after (ops.drop n) (StableHlo.after (ops.take n) V) := by
  conv_lhs => rw [← List.take_append_drop n ops]
  exact StableHlo.after_append _ _ _

/-- What holds of every operation of a line holds of every one of its first `n`. -/
theorem hc_forall_take {α : Type} {p : α → Prop} {l : List α} (h : l.Forall p) (n : ℕ) : (l.take n).Forall p :=
  List.forall_iff_forall_mem.mpr fun x hx => List.forall_iff_forall_mem.mp h x (List.mem_of_mem_take hx)

end Lines

/-- What the buffers hold after the first seven stretches. -/
def hc_frontV (V : Valuation τ sig (Elt Ideal)) : Valuation τ sig (Elt Ideal) :=
  StableHlo.after main_part6_ops0 (StableHlo.after main_part5_ops0 (StableHlo.after main_part4_ops0 (StableHlo.after main_part3_ops0
    (StableHlo.after main_part2_ops0 (StableHlo.after main_part1_ops0 (StableHlo.after main_part0_ops0 V))))))

/-- An argument array (slots 0 … 8) passes through the first seven stretches unchanged. -/
theorem hc_front_arg (V : Valuation τ sig (Elt Ideal)) (r : Ref sig .tc) (h : r.idx.val < 9) :
    hc_frontV V (Proc.devRef .tc r) = V (Proc.devRef .tc r) := by
  unfold hc_frontV
  rw [after_part6_of_slot _ r (Or.inl (by omega)), after_part5_of_slot _ r (Or.inl (by omega)),
    after_part4_of_slot _ r (Or.inl (by omega)), after_part3_of_slot _ r (Or.inl (by omega)),
    after_part2_of_slot _ r (Or.inl (by omega)), after_part1_of_slot _ r (Or.inl (by omega)),
    after_part0_of_slot _ r (Or.inl (by omega))]

/-- and through any first operations of the last stretch, -/
theorem hc_part7_take_arg (n : ℕ) (W : Valuation τ sig (Elt Ideal)) (r : Ref sig .tc) (h : r.idx.val < 429) :
    StableHlo.after ((main_part7_ops0 (F := Ideal)).take n) W (Proc.devRef .tc r) = W (Proc.devRef .tc r) :=
  StableHlo.after_of_writes_sub _ W (hc_forall_take part7_writes n) fun hm => by
    have := part7_slots r hm; omega

/-- and through any first operations of the second stretch. -/
theorem hc_part1_take_arg (n : ℕ) (W : Valuation τ sig (Elt Ideal)) (r : Ref sig .tc) (h : r.idx.val < 69) :
    StableHlo.after ((main_part1_ops0 (F := Ideal)).take n) W (Proc.devRef .tc r) = W (Proc.devRef .tc r) :=
  StableHlo.after_of_writes_sub _ W (hc_forall_take part1_writes n) fun hm => by
    have := part1_slots r hm; omega

/-- After all 464 operations a buffer holds what the last stretch, from its operation `n` on, leaves in it, run from
    what the operations before left. -/
theorem hc_after_back (V : Valuation τ sig (Elt Ideal)) (n : ℕ) (b : Ref sig .tc) :
    StableHlo.after (hostOps0 (F := Ideal)) V (Proc.devRef .tc b)
      = StableHlo.after ((main_part7_ops0 (F := Ideal)).drop n)
          (StableHlo.after ((main_part7_ops0 (F := Ideal)).take n) (hc_frontV V)) (Proc.devRef .tc b) := by
  rw [after_hostOps0, hc_take_drop (main_part7_ops0 (F := Ideal)) n]
  rfl

/-! ## The chains, each run from where it starts -/

/-- The second dense bias as a row: the last operation. -/
theorem hc_back_v332 (W : Valuation τ sig (Elt Ideal)) :
    StableHlo.after ((main_part7_ops0 (F := Ideal)).drop 43) W (Proc.devRef .tc main_v332)
      = fun i => shapeCast S1x128 (W (Proc.devRef .tc main_arg8) : FVec Ideal S128 .f32) shapeCasts_S128_S1x128 i := by
  simp only [main_part7_ops0, List.drop_succ_cons, List.drop_zero]
  after_results_simp
  try rfl

/-- The first dense bias as a row. -/
theorem hc_back_v331 (W : Valuation τ sig (Elt Ideal)) :
    StableHlo.after ((main_part7_ops0 (F := Ideal)).drop 42) W (Proc.devRef .tc main_v331)
      = fun i => shapeCast S1x128 (W (Proc.devRef .tc main_arg6) : FVec Ideal S128 .f32) shapeCasts_S128_S1x128 i := by
  simp only [main_part7_ops0, List.drop_succ_cons, List.drop_zero]
  after_results_simp
  try rfl

/-- The second dense matrix, rounded (at the ideal instance rounding is the identity). -/
theorem hc_back_v330 (W : Valuation τ sig (Elt Ideal)) :
    StableHlo.after ((main_part7_ops0 (F := Ideal)).drop 41) W (Proc.devRef .tc main_v330)
      = (truncf .bf16 (W (Proc.devRef .tc main_arg7) : FVec Ideal S128x128 .f32) bitsLt_bf16_f32 : FVec Ideal S128x128 .bf16) := by
  simp only [main_part7_ops0, List.drop_succ_cons, List.drop_zero]
  after_results_simp
  try rfl

/-- The first dense matrix: seven blocks of 224 rows, 32 zero rows after each, rounded. -/
theorem hc_back_v329 (W : Valuation τ sig (Elt Ideal)) :
    StableHlo.after ((main_part7_ops0 (F := Ideal)).drop 35) W (Proc.devRef .tc main_v329)
      = (truncf .bf16 (fun i => shapeCast S1792x128 (concatenate S7x256x128 1
          [⟨S7x224x128, fun i => shapeCast S7x224x128 (W (Proc.devRef .tc main_arg5) : FVec Ideal S1568x128 .f32) shapeCasts_S1568x128_S7x224x128 i⟩,
           ⟨S7x32x128, broadcastInDim S7x32x128 ![] bcast_S_S7x32x128 (constant (F := Ideal) S_ .f32 0x00000000#32)⟩]
          concatenates_S7x224x128_S7x32x128_S7x256x128_d1) shapeCasts_S7x256x128_S1792x128 i : FVec Ideal S1792x128 .f32)
        bitsLt_bf16_f32 : FVec Ideal S1792x128 .bf16) := by
  simp only [main_part7_ops0, List.drop_succ_cons, List.drop_zero]
  after_results_simp
  try rfl

/-- The second layer's bias row: the bias over 7 column pairs, then 32 zeros. -/
theorem hc_back_v324 (W : Valuation τ sig (Elt Ideal)) :
    StableHlo.after ((main_part7_ops0 (F := Ideal)).drop 28) W (Proc.devRef .tc main_v324)
      = fun i => shapeCast S1x256 (concatenate S256 0
          [⟨S224, fun i => shapeCast S224 (broadcastInDim S7x32 ![0, 1] bcast_S1x32_S7x32_0_1
              (fun i => shapeCast S1x32 (W (Proc.devRef .tc main_arg4) : FVec Ideal S32 .f32) shapeCasts_S32_S1x32 i)) shapeCasts_S7x32_S224 i⟩,
           ⟨S32, broadcastInDim S32 ![] bcast_S_S32 (constant (F := Ideal) S_ .f32 0x00000000#32)⟩]
          concatenates_S224_S32_S256_d0) shapeCasts_S256_S1x256 i := by
  simp only [main_part7_ops0, List.drop_succ_cons, List.drop_zero]
  after_results_simp
  try rfl

/-- The first layer's bias row: the bias over 14 column pairs, then 32 zeros. -/
theorem hc_back_v318 (W : Valuation τ sig (Elt Ideal)) :
    StableHlo.after ((main_part7_ops0 (F := Ideal)).drop 21) W (Proc.devRef .tc main_v318)
      = fun i => shapeCast S1x256 (concatenate S256 0
          [⟨S224, fun i => shapeCast S224 (broadcastInDim S14x16 ![0, 1] bcast_S1x16_S14x16_0_1
              (fun i => shapeCast S1x16 (W (Proc.devRef .tc main_arg2) : FVec Ideal S16 .f32) shapeCasts_S16_S1x16 i)) shapeCasts_S14x16_S224 i⟩,
           ⟨S32, broadcastInDim S32 ![] bcast_S_S32 (constant (F := Ideal) S_ .f32 0x00000000#32)⟩]
          concatenates_S224_S32_S256_d0) shapeCasts_S256_S1x256 i := by
  simp only [main_part7_ops0, List.drop_succ_cons, List.drop_zero]
  after_results_simp
  try rfl

/-- The flattened images: operation 12 of the second stretch, which no later operation of the stretch overwrites. -/
theorem hc_back_v0 (W : Valuation τ sig (Elt Ideal)) :
    StableHlo.after ((main_part1_ops0 (F := Ideal)).drop 12) W (Proc.devRef .tc main_v0)
      = fun i => shapeCast S16384x784 (W (Proc.devRef .tc main_arg0) : FVec Ideal S16384x1x28x28 .f32)
          shapeCasts_S16384x1x28x28_S16384x784 i := by
  simp only [main_part1_ops0, List.drop_succ_cons, List.drop_zero]
  after_results_simp
  try rfl

/-! ## The seven tables -/

variable (V₀ : Valuation τ sig (Elt Ideal))

theorem host_fb2 (c : Fin 128) :
    StableHlo.after (hostOps0 (F := Ideal)) V₀ (Proc.devRef .tc main_v332) (ix2 (0 : Fin 1) c)
      = V₀ (Proc.devRef .tc main_arg8) (ix1 c) := by
  rw [hc_after_back V₀ 43, hc_back_v332, hc_part7_take_arg 43 _ main_arg8 (by decide), hc_front_arg V₀ main_arg8 (by decide)]
  exact shapeCast_a_1a_apply _ _ _ c

theorem host_fb1 (c : Fin 128) :
    StableHlo.after (hostOps0 (F := Ideal)) V₀ (Proc.devRef .tc main_v331) (ix2 (0 : Fin 1) c)
      = V₀ (Proc.devRef .tc main_arg6) (ix1 c) := by
  rw [hc_after_back V₀ 42, hc_back_v331, hc_part7_take_arg 42 _ main_arg6 (by decide), hc_front_arg V₀ main_arg6 (by decide)]
  exact shapeCast_a_1a_apply _ _ _ c

theorem host_w2 (k c : Fin 128) :
    StableHlo.after (hostOps0 (F := Ideal)) V₀ (Proc.devRef .tc main_v330) (ix2 k c)
      = V₀ (Proc.devRef .tc main_arg7) (ix2 k c) := by
  rw [hc_after_back V₀ 41, hc_back_v330, hc_part7_take_arg 41 _ main_arg7 (by decide), hc_front_arg V₀ main_arg7 (by decide)]
  rfl

theorem host_w1 (k : Fin 1792) (c : Fin 128) :
    StableHlo.after (hostOps0 (F := Ideal)) V₀ (Proc.devRef .tc main_v329) (ix2 k c)
      = W1p (fun f c => V₀ (Proc.devRef .tc main_arg5) (ix2 f c)) k c := by
  rw [hc_after_back V₀ 35, hc_back_v329, hc_part7_take_arg 35 _ main_arg5 (by decide), hc_front_arg V₀ main_arg5 (by decide),
    truncf_apply]
  refine (hc_paddedRows_apply (V₀ (Proc.devRef .tc main_arg5) : FVec Ideal S1568x128 .f32)
    (constant (F := Ideal) S_ .f32 0x00000000#32) shapeCasts_S1568x128_S7x224x128 bcast_S_S7x32x128
    concatenates_S7x224x128_S7x32x128_S7x256x128_d1 shapeCasts_S7x256x128_S1792x128 k c).trans ?_
  unfold W1p
  by_cases h : k.val % 256 < 224
  · rw [dif_pos h, dif_pos h]
  · rw [dif_neg h, dif_neg h]; exact Ideal.ofBits_zero_f32

theorem host_b2 (l : Fin 256) :
    StableHlo.after (hostOps0 (F := Ideal)) V₀ (Proc.devRef .tc main_v324) (ix2 (0 : Fin 1) l)
      = B2 (fun c => V₀ (Proc.devRef .tc main_arg4) (ix1 c)) l := by
  rw [hc_after_back V₀ 28, hc_back_v324, hc_part7_take_arg 28 _ main_arg4 (by decide), hc_front_arg V₀ main_arg4 (by decide)]
  refine (hc_tiledRow_apply 7 32 rfl (by norm_num) (V₀ (Proc.devRef .tc main_arg4) : FVec Ideal S32 .f32) _ _ _ _ _ _ _ l).trans ?_
  unfold B2
  by_cases h : l.val < 224
  · rw [if_pos h, if_pos h]
  · rw [if_neg h, if_neg h]; exact Ideal.ofBits_zero_f32

theorem host_b1 (l : Fin 256) :
    StableHlo.after (hostOps0 (F := Ideal)) V₀ (Proc.devRef .tc main_v318) (ix2 (0 : Fin 1) l)
      = B1 (fun c => V₀ (Proc.devRef .tc main_arg2) (ix1 c)) l := by
  rw [hc_after_back V₀ 21, hc_back_v318, hc_part7_take_arg 21 _ main_arg2 (by decide), hc_front_arg V₀ main_arg2 (by decide)]
  refine (hc_tiledRow_apply 14 16 rfl (by norm_num) (V₀ (Proc.devRef .tc main_arg2) : FVec Ideal S16 .f32) _ _ _ _ _ _ _ l).trans ?_
  unfold B1
  by_cases h : l.val < 224
  · rw [if_pos h, if_pos h]
  · rw [if_neg h, if_neg h]; exact Ideal.ofBits_zero_f32

theorem host_x (n : Fin 16384) (p : Fin 784) :
    StableHlo.after (hostOps0 (F := Ideal)) V₀ (Proc.devRef .tc main_v0) (ix2 n p)
      = V₀ (Proc.devRef .tc main_arg0)
          (ix4 n (0 : Fin 1) ⟨p.val / 28, by have := p.isLt; omega⟩ ⟨p.val % 28, Nat.mod_lt _ (by norm_num)⟩) := by
  rw [after_hostOps0_upto1 V₀ main_v0 (by decide), hc_take_drop (main_part1_ops0 (F := Ideal)) 12, hc_back_v0,
    hc_part1_take_arg 12 _ main_arg0 (by decide), after_part0_of_slot V₀ main_arg0 (Or.inl (by decide))]
  exact hc_flatImages_apply _ _ n p

end Cert.KernelIdeal.Hand

end
-- ==== Proof.KValue.lean ====
/-
  The fused kernel program's result buffer as the network of the nine argument arrays.

  The program reshapes the images to rows of 784 pixels and builds the banded matrices, bias rows and padded dense
  matrix from the weights; its one region then runs over 64 points, point t reading rows 256 t … 256 t + 255 of the
  images and all of every table, and writing rows 256 t … 256 t + 255 of a [16384, 128] array; the last line keeps
  the first ten columns.  Here: each window's block read off the array the region finds; the stored block at an
  entry as the network's column for that row's image; so point t writes block t of ONE array, the network over the
  whole batch; the 64 blocks tile that array; the slice of it is the result.
-/
import proofs.«150178_g2000205257289275_pallasbulk_739_9_alg».proof.Proof.KRun
import proofs.«150178_g2000205257289275_pallasbulk_739_9_alg».proof.Proof.KBodyApply
import proofs.«150178_g2000205257289275_pallasbulk_739_9_alg».proof.Proof.KHostA
import proofs.«150178_g2000205257289275_pallasbulk_739_9_alg».proof.Proof.KHostB
import proofs.«150178_g2000205257289275_pallasbulk_739_9_alg».proof.Proof.KHostC
import Idealize.ShloMosaic.Lib.Pipeline.Value
import Idealize.ShloMosaic.Lib.ValueIdx
import Idealize.ShloMosaic.Lib.Tactic

set_option maxRecDepth 16384
set_option Elab.async false

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Cnn

variable (m : (ℓ : Loc nD τ sig) → Buf (Elt Ideal) ℓ) (ρ : Dev nD → PrngReg)

/-! ## Zero offsets, and where each window's block sits -/

theorem off_zero : (![0, 0] : Fin 2 → Nat) = fun _ => 0 := funext fun a => by fin_cases a <;> rfl

/-- The image window and the result window move down their arrays one block of 256 rows per point. -/
theorem idx_moving : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- The eight table windows stay at block (0, 0). -/
theorem idx_fixed : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## One entry of the stored block -/

/-- The stored block at (r, j), when the image block's row r is image 256 T + r of a batch a0 and the eight tables
    are the closed forms of a1 … a8: the network's column j for that image. -/
theorem body_at (T : ℕ) (hT : T < 64)
    (x : Vec Ideal S256x784 .f32) (t1 : Vec Ideal S84x512 .bf16) (b1 : Vec Ideal S1x256 .f32) (t2 : Vec Ideal S768x512 .bf16) (b2 : Vec Ideal S1x256 .f32) (w1 : Vec Ideal S1792x128 .bf16) (fb1 : Vec Ideal S1x128 .f32) (w2 : Vec Ideal S128x128 .bf16) (fb2 : Vec Ideal S1x128 .f32)
    (a0 : SX.Idx → EReal) (a1 : SW1.Idx → EReal) (a2 : SB1.Idx → EReal) (a3 : SW2.Idx → EReal) (a4 : SB2.Idx → EReal) (a5 : SF1.Idx → EReal) (a6 : SV128.Idx → EReal) (a7 : SF2.Idx → EReal) (a8 : SV128.Idx → EReal)
    (hx : ∀ (r : Fin 256) (p : Fin 784), x (ix2 r p) = a0 (ix4 (⟨256 * T + r.val, by have := r.isLt; omega⟩ : Fin 16384) (0 : Fin 1) (⟨p.val / 28, by have := p.isLt; omega⟩ : Fin 28) (⟨p.val % 28, Nat.mod_lt _ (by decide)⟩ : Fin 28)))
    (ht1 : ∀ (k : Fin 84) (l : Fin 512), t1 (ix2 k l) = T1 (fun q c => a1 (ix2 q c)) k l)
    (hb1 : ∀ l : Fin 256, b1 (ix2 (0 : Fin 1) l) = B1 (fun c => a2 (ix1 c)) l)
    (ht2 : ∀ (k : Fin 768) (l : Fin 512), t2 (ix2 k l) = T2 (fun q c => a3 (ix2 q c)) k l)
    (hb2 : ∀ l : Fin 256, b2 (ix2 (0 : Fin 1) l) = B2 (fun c => a4 (ix1 c)) l)
    (hw1 : ∀ (k : Fin 1792) (l : Fin 128), w1 (ix2 k l) = W1p (fun f c => a5 (ix2 f c)) k l)
    (hfb1 : ∀ l : Fin 128, fb1 (ix2 (0 : Fin 1) l) = a6 (ix1 l))
    (hw2 : ∀ (k l : Fin 128), w2 (ix2 k l) = a7 (ix2 k l))
    (hfb2 : ∀ l : Fin 128, fb2 (ix2 (0 : Fin 1) l) = a8 (ix1 l))
    (j : S256x128.Idx) (i : SOut128.Idx) (hi0 : (i 0).val = 256 * T + (j 0).val) (hi1 : (i 1).val = (j 1).val) :
    bodyOut (F := Ideal) x t1 b1 t2 b2 w1 fb1 w2 fb2 j = G128 a0 a1 a2 a3 a4 a5 a6 a7 a8 i := by
  have himg : rowImg x (j 0) = fun a b => a0 (ix4 (i 0) (0 : Fin 1) a b) := by
    funext a b
    have ha : a.val < 28 := a.isLt
    have hb : b.val < 28 := b.isLt
    show x (ix2 (j 0) ⟨28 * a.val + b.val, _⟩) = _
    refine (hx (j 0) (⟨28 * a.val + b.val, by omega⟩ : Fin 784)).trans (congrArg a0 (funext fun d => ?_))
    match d with
    | ⟨0, _⟩ => exact Fin.ext hi0.symm
    | ⟨1, _⟩ => rfl
    | ⟨2, _⟩ => exact Fin.ext (by show (28 * a.val + b.val) / 28 = a.val; omega)
    | ⟨3, _⟩ => exact Fin.ext (by show (28 * a.val + b.val) % 28 = b.val; omega)
  have hj : j = ix2 (j 0) (j 1) := eq_ix2 j
  have hi : i 1 = j 1 := Fin.ext hi1
  calc bodyOut (F := Ideal) x t1 b1 t2 b2 w1 fb1 w2 fb2 j
      = bodyOut (F := Ideal) x t1 b1 t2 b2 w1 fb1 w2 fb2 (ix2 (j 0) (j 1)) := congrArg _ hj
    _ = logit ⟨rowImg x (j 0), fun q c => a1 (ix2 q c), fun c => a2 (ix1 c)⟩ (fun q c => a3 (ix2 q c)) (fun c => a4 (ix1 c)) (fun f c => a5 (ix2 f c)) (fun c => a6 (ix1 c)) (fun k c => a7 (ix2 k c)) (fun c => a8 (ix1 c)) (j 1) :=
        bodyOut_apply x t1 b1 t2 b2 w1 fb1 w2 fb2 _ _ _ _ _ _ _ _ ht1 hb1 ht2 hb2 hw1 hfb1 hw2 hfb2 (j 0) (j 1)
    _ = G128 a0 a1 a2 a3 a4 a5 a6 a7 a8 i := by
        rw [himg, ← hi]; rfl

/-! ## The windows' blocks, read off the arrays the region finds -/

/-- Row r of the image window's block at point t is row 256 t + r of the reshaped batch. -/
theorem iblk0_apply (c : Dev nD) (t : Fin cfg0.N) (y : S256x784.Idx) (k : S16384x784.Idx)
    (hk0 : (k 0).val = 256 * t.val + (y 0).val) (hk1 : (k 1).val = (y 1).val) :
    (iblk m c 0 t : Vec Ideal S256x784 .f32) y = (V m c main_v0 : S16384x784.Idx → EReal) k := by
  obtain ⟨e0, e1, -, -⟩ := idx_moving t
  unfold iblk
  rw [View.read_apply]
  show V m c main_v0 _ = V m c main_v0 k
  refine congrArg (V m c main_v0 : S16384x784.Idx → EReal) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 784 + 1 * (y 1).val = (k 1).val; rw [e1, hk1]; omega

/-- Window 1 (the first layer's banded matrix): its block is the whole array at every point (block index (0, 0)). -/
theorem iblk1_eq (c : Dev nD) (t : Fin cfg0.N) :
    (iblk m c 1 t : Vec Ideal S84x512 .bf16) = (V m c main_v156 : S84x512.Idx → EReal) := by
  obtain ⟨⟨e0, e1⟩, -⟩ := idx_fixed t
  funext y
  unfold iblk
  rw [View.read_apply]
  show V m c main_v156 _ = V m c main_v156 y
  refine congrArg (V m c main_v156 : S84x512.Idx → EReal) (funext fun a => Fin.ext ?_)
  match a with
  | ⟨0, _⟩ => show win0_1.index t (0 : Fin 2) * 84 + 1 * (y 0).val = (y 0).val; rw [e0]; omega
  | ⟨1, _⟩ => show win0_1.index t (1 : Fin 2) * 512 + 1 * (y 1).val = (y 1).val; rw [e1]; omega

/-- Window 2 (the first layer's bias row): its block is the whole array at every point (block index (0, 0)). -/
theorem iblk2_eq (c : Dev nD) (t : Fin cfg0.N) :
    (iblk m c 2 t : Vec Ideal S1x256 .f32) = (V m c main_v318 : S1x256.Idx → EReal) := by
  obtain ⟨-, ⟨e0, e1⟩, -⟩ := idx_fixed t
  funext y
  unfold iblk
  rw [View.read_apply]
  show V m c main_v318 _ = V m c main_v318 y
  refine congrArg (V m c main_v318 : S1x256.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Window 3 (the second layer's banded matrix): its block is the whole array at every point (block index (0, 0)). -/
theorem iblk3_eq (c : Dev nD) (t : Fin cfg0.N) :
    (iblk m c 3 t : Vec Ideal S768x512 .bf16) = (V m c main_v312 : S768x512.Idx → EReal) := by
  obtain ⟨-, -, ⟨e0, e1⟩, -⟩ := idx_fixed t
  funext y
  unfold iblk
  rw [View.read_apply]
  show V m c main_v312 _ = V m c main_v312 y
  refine congrArg (V m c main_v312 : S768x512.Idx → EReal) (funext fun a => Fin.ext ?_)
  match a with
  | ⟨0, _⟩ => show win0_3.index t (0 : Fin 2) * 768 + 1 * (y 0).val = (y 0).val; rw [e0]; omega
  | ⟨1, _⟩ => show win0_3.index t (1 : Fin 2) * 512 + 1 * (y 1).val = (y 1).val; rw [e1]; omega

/-- Window 4 (the second layer's bias row): its block is the whole array at every point (block index (0, 0)). -/
theorem iblk4_eq (c : Dev nD) (t : Fin cfg0.N) :
    (iblk m c 4 t : Vec Ideal S1x256 .f32) = (V m c main_v324 : S1x256.Idx → EReal) := by
  obtain ⟨-, -, -, ⟨e0, e1⟩, -⟩ := idx_fixed t
  funext y
  unfold iblk
  rw [View.read_apply]
  show V m c main_v324 _ = V m c main_v324 y
  refine congrArg (V m c main_v324 : S1x256.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Window 5 (the padded first dense matrix): its block is the whole array at every point (block index (0, 0)). -/
theorem iblk5_eq (c : Dev nD) (t : Fin cfg0.N) :
    (iblk m c 5 t : Vec Ideal S1792x128 .bf16) = (V m c main_v329 : S1792x128.Idx → EReal) := by
  obtain ⟨-, -, -, -, ⟨e0, e1⟩, -⟩ := idx_fixed t
  funext y
  unfold iblk
  rw [View.read_apply]
  show V m c main_v329 _ = V m c main_v329 y
  refine congrArg (V m c main_v329 : S1792x128.Idx → EReal) (funext fun a => Fin.ext ?_)
  match a with
  | ⟨0, _⟩ => show win0_5.index t (0 : Fin 2) * 1792 + 1 * (y 0).val = (y 0).val; rw [e0]; omega
  | ⟨1, _⟩ => show win0_5.index t (1 : Fin 2) * 128 + 1 * (y 1).val = (y 1).val; rw [e1]; omega

/-- Window 6 (the first dense layer's bias row): its block is the whole array at every point (block index (0, 0)). -/
theorem iblk6_eq (c : Dev nD) (t : Fin cfg0.N) :
    (iblk m c 6 t : Vec Ideal S1x128 .f32) = (V m c main_v331 : S1x128.Idx → EReal) := by
  obtain ⟨-, -, -, -, -, ⟨e0, e1⟩, -⟩ := idx_fixed t
  funext y
  unfold iblk
  rw [View.read_apply]
  show V m c main_v331 _ = V m c main_v331 y
  refine congrArg (V m c main_v331 : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7 (the second dense matrix): its block is the whole array at every point (block index (0, 0)). -/
theorem iblk7_eq (c : Dev nD) (t : Fin cfg0.N) :
    (iblk m c 7 t : Vec Ideal S128x128 .bf16) = (V m c main_v330 : S128x128.Idx → EReal) := by
  obtain ⟨-, -, -, -, -, -, ⟨e0, e1⟩, -⟩ := idx_fixed t
  funext y
  unfold iblk
  rw [View.read_apply]
  show V m c main_v330 _ = V m c main_v330 y
  refine congrArg (V m c main_v330 : S128x128.Idx → EReal) (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8 (the second dense layer's bias row): its block is the whole array at every point (block index (0, 0)). -/
theorem iblk8_eq (c : Dev nD) (t : Fin cfg0.N) :
    (iblk m c 8 t : Vec Ideal S1x128 .f32) = (V m c main_v332 : S1x128.Idx → EReal) := by
  obtain ⟨-, -, -, -, -, -, -, ⟨e0, e1⟩⟩ := idx_fixed t
  funext y
  unfold iblk
  rw [View.read_apply]
  show V m c main_v332 _ = V m c main_v332 y
  refine congrArg (V m c main_v332 : S1x128.Idx → EReal) (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-! ## Those arrays, from the arguments: the host lines before the region -/

/-- What the region finds in a buffer: the host lines run from the launch contents. -/
theorem V_eq (c : Dev nD) (b : Ref sig .tc) :
    V m c b = StableHlo.after (hostOps0 (F := Ideal)) (fun b => m (c, b)) (Proc.devRef .tc b) := by
  show StableHlo.after (List.flatten [hostOps0]) _ _ = _
  rw [List.flatten_cons, List.flatten_nil, List.append_nil]

/-- The image array the region finds is the batch with its 28 × 28 pixels laid in one row of 784. -/
theorem V_x (c : Dev nD) (n : Fin 16384) (p : Fin 784) :
    (V m c main_v0 : S16384x784.Idx → EReal) (ix2 n p)
      = (m ((c : Thread nD τ).loc main_arg0) : SX.Idx → EReal) (ix4 n (0 : Fin 1) (⟨p.val / 28, by have := p.isLt; omega⟩ : Fin 28) (⟨p.val % 28, Nat.mod_lt _ (by decide)⟩ : Fin 28)) :=
  (congrFun (V_eq m c main_v0) (ix2 n p)).trans (host_x (fun b => m (c, b)) n p)

/-- The first layer's banded matrix the region finds is the closed form of the first stencil. -/
theorem V_t1 (c : Dev nD) (k : Fin 84) (l : Fin 512) :
    (V m c main_v156 : S84x512.Idx → EReal) (ix2 k l) = T1 (fun q c' => (m ((c : Thread nD τ).loc main_arg1) : SW1.Idx → EReal) (ix2 q c')) k l :=
  (congrFun (V_eq m c main_v156) (ix2 k l)).trans (host_t1 (fun b => m (c, b)) k l)

/-- Its bias row is the first bias repeated over the column pairs. -/
theorem V_b1 (c : Dev nD) (l : Fin 256) :
    (V m c main_v318 : S1x256.Idx → EReal) (ix2 (0 : Fin 1) l) = B1 (fun c' => (m ((c : Thread nD τ).loc main_arg2) : SB1.Idx → EReal) (ix1 c')) l :=
  (congrFun (V_eq m c main_v318) (ix2 (0 : Fin 1) l)).trans (host_b1 (fun b => m (c, b)) l)

/-- The second layer's banded matrix is the closed form of the second stencil. -/
theorem V_t2 (c : Dev nD) (k : Fin 768) (l : Fin 512) :
    (V m c main_v312 : S768x512.Idx → EReal) (ix2 k l) = T2 (fun q c' => (m ((c : Thread nD τ).loc main_arg3) : SW2.Idx → EReal) (ix2 q c')) k l :=
  (congrFun (V_eq m c main_v312) (ix2 k l)).trans (host_t2 (fun b => m (c, b)) k l)

/-- Its bias row is the second bias repeated over the column pairs. -/
theorem V_b2 (c : Dev nD) (l : Fin 256) :
    (V m c main_v324 : S1x256.Idx → EReal) (ix2 (0 : Fin 1) l) = B2 (fun c' => (m ((c : Thread nD τ).loc main_arg4) : SB2.Idx → EReal) (ix1 c')) l :=
  (congrFun (V_eq m c main_v324) (ix2 (0 : Fin 1) l)).trans (host_b2 (fun b => m (c, b)) l)

/-- The first dense matrix, padded from 224 to 256 rows per pooled image row. -/
theorem V_w1 (c : Dev nD) (k : Fin 1792) (l : Fin 128) :
    (V m c main_v329 : S1792x128.Idx → EReal) (ix2 k l) = W1p (fun f c' => (m ((c : Thread nD τ).loc main_arg5) : SF1.Idx → EReal) (ix2 f c')) k l :=
  (congrFun (V_eq m c main_v329) (ix2 k l)).trans (host_w1 (fun b => m (c, b)) k l)

/-- The first dense bias as a row. -/
theorem V_fb1 (c : Dev nD) (l : Fin 128) :
    (V m c main_v331 : S1x128.Idx → EReal) (ix2 (0 : Fin 1) l) = (m ((c : Thread nD τ).loc main_arg6) : SV128.Idx → EReal) (ix1 l) :=
  (congrFun (V_eq m c main_v331) (ix2 (0 : Fin 1) l)).trans (host_fb1 (fun b => m (c, b)) l)

/-- The second dense matrix, unchanged. -/
theorem V_w2 (c : Dev nD) (k l : Fin 128) :
    (V m c main_v330 : S128x128.Idx → EReal) (ix2 k l) = (m ((c : Thread nD τ).loc main_arg7) : SF2.Idx → EReal) (ix2 k l) :=
  (congrFun (V_eq m c main_v330) (ix2 k l)).trans (host_w2 (fun b => m (c, b)) k l)

/-- The second dense bias as a row. -/
theorem V_fb2 (c : Dev nD) (l : Fin 128) :
    (V m c main_v332 : S1x128.Idx → EReal) (ix2 (0 : Fin 1) l) = (m ((c : Thread nD τ).loc main_arg8) : SV128.Idx → EReal) (ix1 l) :=
  (congrFun (V_eq m c main_v332) (ix2 (0 : Fin 1) l)).trans (host_fb2 (fun b => m (c, b)) l)

/-! ## What each point writes back, the cover, and the array after the region -/

/-- Point t writes back block t of the network's [16384, 128] array of the nine arguments. -/
theorem flushed_eq (c : Dev nD) (t : Fin cfg0.N) :
    (dats (F := Ideal) m 0 c).flushed 9 t = ((cfg0.win 9).blk t).view.read (Elt Ideal) (G128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨-, -, e0, e1⟩ := idx_moving t
  have hN : cfg0.N = 64 := N_0
  have ht : t.val < 64 := by have := t.isLt; omega
  show (cfg0.win 9).cut (grid0.coords t) ((dats (F := Ideal) m 0 c).after 9 t) = _
  rw [after9]
  unfold out9
  rw [View.canon_unit_zero off_zero]
  simp only [View.ld_unit_zero (S := S256x784) off_zero, View.ld_unit_zero (S := S84x512) off_zero, View.ld_unit_zero (S := S1x256) off_zero, View.ld_unit_zero (S := S768x512) off_zero, View.ld_unit_zero (S := S1792x128) off_zero, View.ld_unit_zero (S := S1x128) off_zero, View.ld_unit_zero (S := S128x128) off_zero]
  rw [iblk1_eq m c t, iblk2_eq m c t, iblk3_eq m c t, iblk4_eq m c t, iblk5_eq m c t, iblk6_eq m c t, iblk7_eq m c t, iblk8_eq m c t]
  funext j
  show bodyOut (F := Ideal) (iblk m c 0 t) (V m c main_v156) (V m c main_v318) (V m c main_v312) (V m c main_v324) (V m c main_v329) (V m c main_v331) (V m c main_v330) (V m c main_v332) j
    = (G128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 9).blk t).view.emb j)
  refine body_at t.val ht (iblk m c 0 t) (V m c main_v156) (V m c main_v318) (V m c main_v312) (V m c main_v324) (V m c main_v329) (V m c main_v331) (V m c main_v330) (V m c main_v332)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (fun r p => (iblk0_apply m c t (ix2 r p) (ix2 (⟨256 * t.val + r.val, by have := r.isLt; omega⟩ : Fin 16384) p) rfl rfl).trans (V_x m c _ p))
    (V_t1 m c) (V_b1 m c) (V_t2 m c) (V_b2 m c) (V_w1 m c) (V_fb1 m c) (V_w2 m c) (V_fb2 m c)
    j (((cfg0.win 9).blk t).view.emb j) ?_ ?_
  · show win0_9.index t (0 : Fin 2) * 256 + 1 * (j 0).val = 256 * t.val + (j 0).val
    rw [e0]; omega
  · show win0_9.index t (1 : Fin 2) * 128 + 1 * (j 1).val = (j 1).val
    rw [e1]; omega

/-- An index of the result array is in point t's block iff each coordinate is in the block's range on its axis. -/
theorem mem_blk9 (t : Fin cfg0.N) (i : S16384x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v333).slice (win0_9.rect t)).set ↔ _
  rw [View.set_slice_whole, Rect.mem_set_unit]
  exact Iff.rfl

/-- The 64 blocks of 256 rows tile the 16384 rows: row n is in point n / 256's block. -/
theorem blocks_tile (i : S16384x128.Idx) :
    ∃ t : Fin cfg0.N, (cfg0.win 9).flush t = true ∧ i ∈ ((cfg0.win 9).blk t).view.set := by
  have hN : cfg0.N = 64 := N_0
  have h0 : (i 0).val < 16384 := idx2_lt0 i
  have h1 : (i 1).val < 128 := idx2_lt1 i
  have hq : (i 0).val / 256 < cfg0.N := by omega
  obtain ⟨-, -, e0, e1⟩ := idx_moving ⟨(i 0).val / 256, hq⟩
  have e0' : win0_9.index ⟨(i 0).val / 256, hq⟩ (0 : Fin 2) = (i 0).val / 256 := e0
  refine ⟨⟨(i 0).val / 256, hq⟩, flush0_9 _, ?_⟩
  rw [mem_blk9]
  intro a
  match a with
  | ⟨0, _⟩ =>
    show win0_9.index ⟨(i 0).val / 256, hq⟩ (0 : Fin 2) * 256 ≤ (i 0).val ∧ (i 0).val < win0_9.index ⟨(i 0).val / 256, hq⟩ (0 : Fin 2) * 256 + 256
    rw [e0']; omega
  | ⟨1, _⟩ =>
    show win0_9.index ⟨(i 0).val / 256, hq⟩ (1 : Fin 2) * 128 ≤ (i 1).val ∧ (i 1).val < win0_9.index ⟨(i 0).val / 256, hq⟩ (1 : Fin 2) * 128 + 128
    rw [e1]; omega

/-- THE ARRAY THE REGION LEAVES: the network's [16384, 128] array of the nine arguments. -/
theorem arr9_eq (c : Dev nD) : (dats (F := Ideal) m 0 c).arrAt 9 cfg0.N = G128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats (F := Ideal) m 0 c).arrAt_eq_of_cover 9 (G128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) blocks_tile

/-! ## The host line after the region, and the run -/

/-- The first ten of the 128 columns of the network's array are the result. -/
theorem first_ten (a0 : SX.Idx → EReal) (a1 : SW1.Idx → EReal) (a2 : SB1.Idx → EReal) (a3 : SW2.Idx → EReal) (a4 : SB2.Idx → EReal) (a5 : SF1.Idx → EReal) (a6 : SV128.Idx → EReal) (a7 : SF2.Idx → EReal) (a8 : SV128.Idx → EReal) :
    (extractStridedSlice S16384x10 ![0, 0] (G128 a0 a1 a2 a3 a4 a5 a6 a7 a8 : S16384x128.Idx → EReal) slices_S16384x128_S16384x10_0_0 : S16384x10.Idx → EReal)
      = G a0 a1 a2 a3 a4 a5 a6 a7 a8 := by
  funext i
  have hi1 : (i 1).val < 10 := idx2_lt1 i
  refine (extractStridedSlice_apply ![0, 0] _ slices_S16384x128_S16384x10_0_0 i (ix2 (i 0) (⟨(i 1).val, by omega⟩ : Fin 128)) ?_).trans rfl
  intro a
  match a with
  | ⟨0, _⟩ => show (i 0).val = 0 + (i 0).val; omega
  | ⟨1, _⟩ => show (i 1).val = 0 + (i 1).val; omega

/-- THE RESULT BUFFER: the line after the region slices the array the region left. -/
theorem result_eq (c : Dev nD) :
    Pipeline.afterTail₀ cfgs (dats (F := Ideal) m) 0 (V0 m) [hostOps1] c main_v334 = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after (hostOps1 (F := Ideal)) _ (Proc.devRef .tc main_v334) = _
  after_results
  have e : Pipeline.withArrays (cfgs 0).spec c (V0 m c) (fun w => (dats (F := Ideal) m 0 c).arrAt w (cfgs 0).N) (Proc.devRef .tc main_v333)
      = G128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (Pipeline.withArrays_arr (cfgs 0).spec launch0.win.arr_inj c (V0 m c) (fun w => (dats (F := Ideal) m 0 c).arrAt w (cfgs 0).N) 9).trans (arr9_eq m c)
  refine Eq.trans ?_ (first_ten (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
  first
    | exact congrArg (fun X : S16384x128.Idx → EReal => extractStridedSlice S16384x10 ![0, 0] X slices_S16384x128_S16384x10_0_0) e
    | rw [e]

/-- THE RUN, READ: the result buffer at the network's ten columns, the nine arguments unchanged. -/
theorem value_run : θ_run (defs (F := Ideal)) (onTc (τ := τ) (main (F := Ideal))) ⟨m, fun _ => 0, ρ⟩ (fun r => ∀ c : Dev nD,
      r.2.mem ((c.tc : Thread nD τ).loc main_v334) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c =>
    ⟨((h c).2 main_v334 (Pipeline.mem_restRefs_of main_v334 (by decide) (by decide))).trans (result_eq m c),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c),
     ((h c).2 main_arg8 (Pipeline.mem_restRefs_of main_arg8 (by decide) (by decide))).trans (W_main_arg8 m c)⟩)
    (run_main m ρ)

end Cert.KernelIdeal.Hand

end
-- ==== Proof.RBody.lean ====
/-
  The three kernels of the idealized reference program, each as the body half of a frame proof stated at a
  PARAMETER V: the buffer contents of the TensorCore when the kernel's region is entered.

  Each kernel loads its input blocks through fixed unit-stride rectangles, computes, and stores into its output
  block through fixed rectangles that cover it.  What such a body leaves in the output block is therefore a
  closed function of the input blocks: the stored values laid over one another, the last store on top
  (View.canon).  Per kernel this file names the blocks (iblkK), the rectangles, the contents the body leaves
  (outK_W), proves the Hoare triple of the body on whole staging buffers (sound_kernelK), packages the proof data
  (datK) and derives the obligation the pipeline's launch rule asks of the body at every grid point
  (body_obligationK).

  Kernel 0 convolves a zero-padded [8,30,30,1] block with a 3x3 filter bank (nine shifted [8,28,28,1] loads
  gathered into a [6272,9] patch matrix times a [9,16] matrix), adds a bias, clamps at zero, takes 2x2 maxima and
  writes the [8,14,14,16] result into the interior of an [8,16,16,16] block it first fills with zeros: two stores,
  the later over the earlier.  Kernel 1 is the same computation at [8,16,16,16] -> [8,7,7,32] with a single store
  of the whole block.  Kernel 2 is two dense layers on a [512,1568] block with a single whole-block store.
-/
import proofs.«150178_g2000205257289275_pallasbulk_739_9_alg».proof.Proof.Gen.ReferenceIdeal.Launch
import proofs.«150178_g2000205257289275_pallasbulk_739_9_alg».proof.Proof.Gen.ReferenceIdeal.Skeleton
import proofs.«150178_g2000205257289275_pallasbulk_739_9_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the buffer contents of the TensorCore when a region is entered
variable (V : (c : Dev nD) → (b : Ref sig .tc) → Buf (Elt F) ((c : Thread nD τ).loc b))

/-! # Kernel 0: 3x3 convolution, bias, clamp at zero, 2x2 maxima, written inside a zero border -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The nine shifted [8,28,28,1] rectangles of the padded [8,30,30,1] block: row shift `d`, column shift `d'`. -/
abbrev r0_00 : Rect S8x30x30x1 := Rect.unit (s := S8x30x30x1) ![0, 0, 0, 0] S8x28x28x1.size inb_S8x30x30x1_S8x28x28x1_0_0_0_0
abbrev r0_01 : Rect S8x30x30x1 := Rect.unit (s := S8x30x30x1) ![0, 0, 1, 0] S8x28x28x1.size inb_S8x30x30x1_S8x28x28x1_0_0_1_0
abbrev r0_02 : Rect S8x30x30x1 := Rect.unit (s := S8x30x30x1) ![0, 0, 2, 0] S8x28x28x1.size inb_S8x30x30x1_S8x28x28x1_0_0_2_0
abbrev r0_10 : Rect S8x30x30x1 := Rect.unit (s := S8x30x30x1) ![0, 1, 0, 0] S8x28x28x1.size inb_S8x30x30x1_S8x28x28x1_0_1_0_0
abbrev r0_11 : Rect S8x30x30x1 := Rect.unit (s := S8x30x30x1) ![0, 1, 1, 0] S8x28x28x1.size inb_S8x30x30x1_S8x28x28x1_0_1_1_0
abbrev r0_12 : Rect S8x30x30x1 := Rect.unit (s := S8x30x30x1) ![0, 1, 2, 0] S8x28x28x1.size inb_S8x30x30x1_S8x28x28x1_0_1_2_0
abbrev r0_20 : Rect S8x30x30x1 := Rect.unit (s := S8x30x30x1) ![0, 2, 0, 0] S8x28x28x1.size inb_S8x30x30x1_S8x28x28x1_0_2_0_0
abbrev r0_21 : Rect S8x30x30x1 := Rect.unit (s := S8x30x30x1) ![0, 2, 1, 0] S8x28x28x1.size inb_S8x30x30x1_S8x28x28x1_0_2_1_0
abbrev r0_22 : Rect S8x30x30x1 := Rect.unit (s := S8x30x30x1) ![0, 2, 2, 0] S8x28x28x1.size inb_S8x30x30x1_S8x28x28x1_0_2_2_0
/-- The filter matrix and the bias row, each loaded whole. -/
abbrev rW1 : Rect S9x16 := Rect.unit (s := S9x16) ![0, 0] S9x16.size inb_S9x16_S9x16_0_0
abbrev rW2 : Rect S1x16 := Rect.unit (s := S1x16) ![0, 0] S1x16.size inb_S1x16_S1x16_0_0
/-- The output block whole (the zero fill) and its [8,14,14,16] interior at offset [0,1,1,0] (the result). -/
abbrev rWhole0 : Rect S8x16x16x16 := Rect.unit (s := S8x16x16x16) ![0, 0, 0, 0] S8x16x16x16.size inb_S8x16x16x16_S8x16x16x16_0_0_0_0
abbrev rInterior0 : Rect S8x16x16x16 := Rect.unit (s := S8x16x16x16) ![0, 1, 1, 0] S8x14x14x16.size inb_S8x16x16x16_S8x14x14x16_0_1_1_0

/-- The patch matrix: the nine shifted views of the padded block side by side. -/
def patches0 (x0 : Vec F S8x30x30x1 .f32) : FVec F S6272x9 .f32 :=
  k0_pay3 (View.ld x0 r0_00) (View.ld x0 r0_01) (View.ld x0 r0_02) (View.ld x0 r0_10) (View.ld x0 r0_11) (View.ld x0 r0_12)
    (View.ld x0 r0_20) (View.ld x0 r0_21) (View.ld x0 r0_22)

/-- What the body leaves in the output block: the pooled result on the interior, laid over zeros everywhere
    (the two stores as pieces, the later one first). -/
def out0_3 (x0 : Vec F S8x30x30x1 .f32) (x1 : Vec F S9x16 .f32) (x2 : Vec F S1x16 .f32) : Vec F S8x16x16x16 .f32 :=
  View.canon [⟨rInterior0, k0_pay1 (patches0 x0) (View.ld x1 rW1) (View.ld x2 rW2)⟩, ⟨rWhole0, k0_pay2⟩]

/-- The proof data of pipeline 0 on core `c`: the arrays as the region finds them; after the body each input's
    buffer still at its block and the output's at `out0_3` of the input blocks; the invariant is the untouched rest;
    nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not: unfetched, the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The earlier of the two stores is of the whole block, so the two together cover it, whatever the later one is. -/
theorem cover0_3 (p : rInterior0.shape.Idx → Elt F .f32) (q : rWhole0.shape.Idx → Elt F .f32) (y : S8x16x16x16.Idx) :
    ∃ pc ∈ ([⟨rInterior0, p⟩, ⟨rWhole0, q⟩] : List (View.Piece (Elt F) S8x16x16x16 .f32)), y ∈ pc.1.set :=
  View.cover_of_wholeMem _ (View.Piece.wholeMem_cons (View.Piece.wholeMem_here (by rfl))) y

set_option maxHeartbeats 1000000 in
/-- The body on whole staging buffers, the inputs' at read contents `x0 x1 x2` and the output's at anything, runs to a
    state with the inputs' as they were and the output's at `out0_3` of them.  The two loads of the output buffer
    (one before the zero fill, one of the interior after it) read values nothing uses. -/
theorem sound_kernel0 (c : Dev nD) (E : Set ℕ) (i : grid0.Coords)
    (arg1 : Memref sig .tc .vmem S8x30x30x1 .f32) (harg1 : arg1.IsWhole) (arg2 : Memref sig .tc .vmem S9x16 .f32) (harg2 : arg2.IsWhole)
    (arg3 : Memref sig .tc .vmem S1x16 .f32) (harg3 : arg3.IsWhole) (arg4 : Memref sig .tc .vmem S8x16x16x16 .f32) (harg4 : arg4.IsWhole)
    (x0 : Vec F S8x30x30x1 .f32) (x1 : Vec F S9x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__conv3x3_relu_pool_kernel i arg1 harg1 arg2 harg2 arg3 harg3 arg4 harg4) K := by
  simp only [cc0__conv3x3_relu_pool_kernel_eq_skeleton]; unfold cc0__conv3x3_relu_pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-- What the body is called with at point `t`: the invariant, what the core owes, and each window's current staging
    buffer at what the pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch rule asks of the body, at every point. -/
theorem body_obligation0 (c : Dev nD) : BodyObligation (dat0 (F := F) V c) (defs₀ (F := F)) Variants.none () Set.univ := fun t => by
  rw [bigSep_W0, bigSep_W0]
  exact sound_body0 V c t

/-! # Kernel 1: the same computation on [8,16,16,16] blocks, one store of the whole [8,7,7,32] block -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The nine shifted [8,14,14,16] rectangles of the zero-bordered [8,16,16,16] block. -/
abbrev r1_00 : Rect S8x16x16x16 := Rect.unit (s := S8x16x16x16) ![0, 0, 0, 0] S8x14x14x16.size inb_S8x16x16x16_S8x14x14x16_0_0_0_0
abbrev r1_01 : Rect S8x16x16x16 := Rect.unit (s := S8x16x16x16) ![0, 0, 1, 0] S8x14x14x16.size inb_S8x16x16x16_S8x14x14x16_0_0_1_0
abbrev r1_02 : Rect S8x16x16x16 := Rect.unit (s := S8x16x16x16) ![0, 0, 2, 0] S8x14x14x16.size inb_S8x16x16x16_S8x14x14x16_0_0_2_0
abbrev r1_10 : Rect S8x16x16x16 := Rect.unit (s := S8x16x16x16) ![0, 1, 0, 0] S8x14x14x16.size inb_S8x16x16x16_S8x14x14x16_0_1_0_0
abbrev r1_11 : Rect S8x16x16x16 := Rect.unit (s := S8x16x16x16) ![0, 1, 1, 0] S8x14x14x16.size inb_S8x16x16x16_S8x14x14x16_0_1_1_0
abbrev r1_12 : Rect S8x16x16x16 := Rect.unit (s := S8x16x16x16) ![0, 1, 2, 0] S8x14x14x16.size inb_S8x16x16x16_S8x14x14x16_0_1_2_0
abbrev r1_20 : Rect S8x16x16x16 := Rect.unit (s := S8x16x16x16) ![0, 2, 0, 0] S8x14x14x16.size inb_S8x16x16x16_S8x14x14x16_0_2_0_0
abbrev r1_21 : Rect S8x16x16x16 := Rect.unit (s := S8x16x16x16) ![0, 2, 1, 0] S8x14x14x16.size inb_S8x16x16x16_S8x14x14x16_0_2_1_0
abbrev r1_22 : Rect S8x16x16x16 := Rect.unit (s := S8x16x16x16) ![0, 2, 2, 0] S8x14x14x16.size inb_S8x16x16x16_S8x14x14x16_0_2_2_0
/-- The filter matrix, the bias row and the output block, each accessed whole. -/
abbrev r1_W1 : Rect S144x32 := Rect.unit (s := S144x32) ![0, 0] S144x32.size inb_S144x32_S144x32_0_0
abbrev r1_W2 : Rect S1x32 := Rect.unit (s := S1x32) ![0, 0] S1x32.size inb_S1x32_S1x32_0_0
abbrev rWhole1 : Rect S8x7x7x32 := Rect.unit (s := S8x7x7x32) ![0, 0, 0, 0] S8x7x7x32.size inb_S8x7x7x32_S8x7x7x32_0_0_0_0

/-- The patch matrix: the nine shifted views of the input block side by side. -/
def patches1 (x0 : Vec F S8x16x16x16 .f32) : FVec F S1568x144 .f32 :=
  k1_pay2 (View.ld x0 r1_00) (View.ld x0 r1_01) (View.ld x0 r1_02) (View.ld x0 r1_10) (View.ld x0 r1_11) (View.ld x0 r1_12)
    (View.ld x0 r1_20) (View.ld x0 r1_21) (View.ld x0 r1_22)

/-- What the body leaves in the output block: its one store, which is the whole block. -/
def out1_3 (x0 : Vec F S8x16x16x16 .f32) (x1 : Vec F S144x32 .f32) (x2 : Vec F S1x32 .f32) : Vec F S8x7x7x32 .f32 :=
  View.canon [⟨rWhole1, k1_pay1 (patches1 x0) (View.ld x1 r1_W1) (View.ld x2 r1_W2)⟩]

/-- The proof data of pipeline 1 on core `c`, as for pipeline 0. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not: unfetched, the block
    index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The one store is of the whole block, so it covers it. -/
theorem cover1_3 (p : rWhole1.shape.Idx → Elt F .f32) (y : S8x7x7x32.Idx) :
    ∃ pc ∈ ([⟨rWhole1, p⟩] : List (View.Piece (Elt F) S8x7x7x32 .f32)), y ∈ pc.1.set :=
  View.cover_of_wholeMem _ (View.Piece.wholeMem_here (by rfl)) y

set_option maxHeartbeats 1000000 in
/-- The body on whole staging buffers, the inputs' at read contents `x0 x1 x2` and the output's at anything, runs to a
    state with the inputs' as they were and the output's at `out1_3` of them. -/
theorem sound_kernel1 (c : Dev nD) (E : Set ℕ) (i : grid1.Coords)
    (arg1 : Memref sig .tc .vmem S8x16x16x16 .f32) (harg1 : arg1.IsWhole) (arg2 : Memref sig .tc .vmem S144x32 .f32) (harg2 : arg2.IsWhole)
    (arg3 : Memref sig .tc .vmem S1x32 .f32) (harg3 : arg3.IsWhole) (arg4 : Memref sig .tc .vmem S8x7x7x32 .f32) (harg4 : arg4.IsWhole)
    (x0 : Vec F S8x16x16x16 .f32) (x1 : Vec F S144x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__conv3x3_relu_pool_kernel i arg1 harg1 arg2 harg2 arg3 harg3 arg4 harg4) K := by
  simp only [cc1__conv3x3_relu_pool_kernel_eq_skeleton]; unfold cc1__conv3x3_relu_pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, what the core owes, and each window's current staging
    buffer at what the pipeline left there; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch rule asks of the body, at every point. -/
theorem body_obligation1 (c : Dev nD) : BodyObligation (dat1 (F := F) V c) (defs₀ (F := F)) Variants.none () Set.univ := fun t => by
  rw [bigSep_W1, bigSep_W1]
  exact sound_body1 V c t

/-! # Kernel 2: two dense layers on a [512,1568] block, one store of the whole [512,128] block -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Every access of this kernel is of a whole block. -/
abbrev r2_W0 : Rect S512x1568 := Rect.unit (s := S512x1568) ![0, 0] S512x1568.size inb_S512x1568_S512x1568_0_0
abbrev r2_W1 : Rect S1568x128 := Rect.unit (s := S1568x128) ![0, 0] S1568x128.size inb_S1568x128_S1568x128_0_0
abbrev r2_W2 : Rect S1x128 := Rect.unit (s := S1x128) ![0, 0] S1x128.size inb_S1x128_S1x128_0_0
abbrev r2_W3 : Rect S128x128 := Rect.unit (s := S128x128) ![0, 0] S128x128.size inb_S128x128_S128x128_0_0
abbrev rWhole2 : Rect S512x128 := Rect.unit (s := S512x128) ![0, 0] S512x128.size inb_S512x128_S512x128_0_0

/-- What the body leaves in the output block: its one store, which is the whole block. -/
def out2_5 (x0 : Vec F S512x1568 .f32) (x1 : Vec F S1568x128 .f32) (x2 : Vec F S1x128 .f32) (x3 : Vec F S128x128 .f32)
    (x4 : Vec F S1x128 .f32) : Vec F S512x128 .f32 :=
  View.canon [⟨rWhole2, k2_pay1 (View.ld x0 r2_W0) (View.ld x1 r2_W1) (View.ld x2 r2_W2) (View.ld x3 r2_W3) (View.ld x4 r2_W2)⟩]

/-- The proof data of pipeline 2 on core `c`, as for pipeline 0. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not: unfetched, the block
    index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-- The one store is of the whole block, so it covers it. -/
theorem cover2_5 (p : rWhole2.shape.Idx → Elt F .f32) (y : S512x128.Idx) :
    ∃ pc ∈ ([⟨rWhole2, p⟩] : List (View.Piece (Elt F) S512x128 .f32)), y ∈ pc.1.set :=
  View.cover_of_wholeMem _ (View.Piece.wholeMem_here (by rfl)) y

set_option maxHeartbeats 1000000 in
/-- The body on whole staging buffers, the inputs' at read contents `x0 … x4` and the output's at anything, runs to a
    state with the inputs' as they were and the output's at `out2_5` of them. -/
theorem sound_kernel2 (c : Dev nD) (E : Set ℕ) (i : grid2.Coords)
    (arg1 : Memref sig .tc .vmem S512x1568 .f32) (harg1 : arg1.IsWhole) (arg2 : Memref sig .tc .vmem S1568x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S512x128 .f32) (harg6 : arg6.IsWhole)
    (x0 : Vec F S512x1568 .f32) (x1 : Vec F S1568x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- What the body is called with at point `t`: the invariant, what the core owes, and each window's current staging
    buffer at what the pipeline left there; -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's triple applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch rule asks of the body, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RRun.lean ====
/-
  The run of the idealized reference program's @main, from the launch to the return.

  @main is nine items in order: three stretches of host operations (a transpose and a constant; the padding
  function's two operations; a bias reshape), the first convolution region, a bias reshape, the second
  convolution region, three reshapes, the dense-layers region, and a final slice into the result. Between two
  items a core holds every unscoped buffer whole at a NAMED valuation: `W0` is the launch memory, a host
  stretch takes `WJ` to `StableHlo.after` of its operations, and a region takes it to the same valuation with
  the region's arrays replaced by what its write-backs leave (`Dat.arrAt … N`). Beside the buffers ride the
  core's generator register at some state and its dues, which are nothing throughout.

  The several-regions launch theorem composes the nine segments; reading the last thread state against a final
  memory says every unscoped buffer ends at `W9`. The frame claim follows because no stretch and no region
  writes an argument, so `W9` at an argument walks back to the launch memory.
-/
import proofs.«150178_g2000205257289275_pallasbulk_739_9_alg».proof.Proof.Gen.ReferenceIdeal.Regions
import proofs.«150178_g2000205257289275_pallasbulk_739_9_alg».proof.Proof.RBody
import Idealize.ShloMosaic.Lib.Pipeline.RegionsLoop
import Idealize.ShloMosaic.Lib.Pipeline.FrameSuffix

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at each boundary between two items -/

/-- At launch: the launch memory. -/
abbrev W0 : Dev nD → Valuation τ sig (Elt F) := fun c b => m (c, b)
/-- After the transpose and the constant. -/
abbrev W1 : Dev nD → Valuation τ sig (Elt F) := fun c => StableHlo.after hostOps0 (W0 m c)
/-- After the padding. -/
abbrev W2 : Dev nD → Valuation τ sig (Elt F) := fun c => StableHlo.after hostOps0_1 (W1 m c)
/-- After the first bias reshape: what the first convolution region is entered from. -/
abbrev W3 : Dev nD → Valuation τ sig (Elt F) := fun c => StableHlo.after hostOps0_2 (W2 m c)
/-- The same, read at the TensorCore's references: the first region's entry contents. -/
abbrev E0 : (c : Dev nD) → (b : Ref sig .tc) → Buf (Elt F) ((c : Thread nD τ).loc b) := fun c b => W3 m c (Proc.devRef .tc b)
/-- At the first region's exit: its four arrays at what the pipeline's write-backs leave (the three inputs as
    entered, the output every block written), every other buffer as entered. -/
def W4 (c : Dev nD) : Valuation τ sig (Elt F) :=
  Pipeline.withArrays spec0 c (W3 m c) fun w => (dat0 (E0 m) c).arrAt w cfg0.N
/-- After the second bias reshape: what the second convolution region is entered from. -/
abbrev W5 : Dev nD → Valuation τ sig (Elt F) := fun c => StableHlo.after hostOps1 (W4 m c)
abbrev E1 : (c : Dev nD) → (b : Ref sig .tc) → Buf (Elt F) ((c : Thread nD τ).loc b) := fun c b => W5 m c (Proc.devRef .tc b)
/-- At the second region's exit. -/
def W6 (c : Dev nD) : Valuation τ sig (Elt F) :=
  Pipeline.withArrays spec1 c (W5 m c) fun w => (dat1 (E1 m) c).arrAt w cfg1.N
/-- After the flattening and the two dense biases' reshapes: what the dense-layers region is entered from. -/
abbrev W7 : Dev nD → Valuation τ sig (Elt F) := fun c => StableHlo.after hostOps2 (W6 m c)
abbrev E2 : (c : Dev nD) → (b : Ref sig .tc) → Buf (Elt F) ((c : Thread nD τ).loc b) := fun c b => W7 m c (Proc.devRef .tc b)
/-- At the dense-layers region's exit. -/
def W8 (c : Dev nD) : Valuation τ sig (Elt F) :=
  Pipeline.withArrays spec2 c (W7 m c) fun w => (dat2 (E2 m) c).arrAt w cfg2.N
/-- After the final slice: what @main returns with. -/
abbrev W9 : Dev nD → Valuation τ sig (Elt F) := fun c => StableHlo.after hostOps3 (W8 m c)

/-! ### A region's exit valuation at its arrays and off them -/

theorem W4_arr (c : Dev nD) (w : Fin cfg0.W) :
    W4 m c (Proc.devRef .tc (Pipeline.arrRef spec0 w)) = (dat0 (E0 m) c).arrAt w cfg0.N := by
  unfold W4; exact Pipeline.withArrays_arr spec0 winFacts0.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (E1 m) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (E2 m) c).arrAt w cfg2.N := by
  unfold W8; exact Pipeline.withArrays_arr spec2 winFacts2.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- A region changes only its output array: a reference other than `main_v3` holds after the first region what it
    held before — off the region's arrays by definition, at an input array because the pipeline never writes one. -/
theorem W4_keep (c : Dev nD) (b : Ref sig .tc) (hb : b ≠ main_v3) : W4 m c (Proc.devRef .tc b) = W3 m c (Proc.devRef .tc b) := by
  by_cases h : ∃ w, Pipeline.arrRef spec0 w = b
  · obtain ⟨w, rfl⟩ := h
    have hin : (cfg0.win w).isOut = false := by revert hb; revert w; decide
    rw [W4_arr, (dat0 (E0 m) c).arrAt_in w hin, A_eq0]
  · exact W4_of_ne m c b fun w e => h ⟨w, e⟩
theorem W6_keep (c : Dev nD) (b : Ref sig .tc) (hb : b ≠ main_v5) : W6 m c (Proc.devRef .tc b) = W5 m c (Proc.devRef .tc b) := by
  by_cases h : ∃ w, Pipeline.arrRef spec1 w = b
  · obtain ⟨w, rfl⟩ := h
    have hin : (cfg1.win w).isOut = false := by revert hb; revert w; decide
    rw [W6_arr, (dat1 (E1 m) c).arrAt_in w hin, A_eq1]
  · exact W6_of_ne m c b fun w e => h ⟨w, e⟩
theorem W8_keep (c : Dev nD) (b : Ref sig .tc) (hb : b ≠ main_v9) : W8 m c (Proc.devRef .tc b) = W7 m c (Proc.devRef .tc b) := by
  by_cases h : ∃ w, Pipeline.arrRef spec2 w = b
  · obtain ⟨w, rfl⟩ := h
    have hin : (cfg2.win w).isOut = false := by revert hb; revert w; decide
    rw [W8_arr, (dat2 (E2 m) c).arrAt_in w hin, A_eq2]
  · exact W8_of_ne m c b fun w e => h ⟨w, e⟩

/-! ### The arguments end as launched -/

/-- A reference that no host stretch writes and that is no region's output holds at the return what it held at launch. -/
theorem W9_launch (c : Dev nD) (b : Ref sig .tc)
    (h0 : b ∉ hostOps0_W) (h1 : b ∉ hostOps0_1_W) (h2 : b ∉ hostOps0_2_W) (h3 : b ≠ main_v3)
    (h4 : b ∉ hostOps1_W) (h5 : b ≠ main_v5) (h6 : b ∉ hostOps2_W) (h7 : b ≠ main_v9) (h8 : b ∉ hostOps3_W) :
    W9 m c (Proc.devRef .tc b) = m ((c : Thread nD τ).loc b) :=
  calc W9 m c (Proc.devRef .tc b)
    _ = W8 m c (Proc.devRef .tc b) := StableHlo.after_of_writes_sub hostOps3 _ hostOps3_writes h8
    _ = W7 m c (Proc.devRef .tc b) := W8_keep m c b h7
    _ = W6 m c (Proc.devRef .tc b) := StableHlo.after_of_writes_sub hostOps2 _ hostOps2_writes h6
    _ = W5 m c (Proc.devRef .tc b) := W6_keep m c b h5
    _ = W4 m c (Proc.devRef .tc b) := StableHlo.after_of_writes_sub hostOps1 _ hostOps1_writes h4
    _ = W3 m c (Proc.devRef .tc b) := W4_keep m c b h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W9_main_arg0 (c : Dev nD) : W9 m c (Proc.devRef .tc main_arg0) = m ((c : Thread nD τ).loc main_arg0) :=
  W9_launch m c main_arg0 (by decide) (by decide) (by decide) (by decide) (by decide) (by decide) (by decide) (by decide) (by decide)
theorem W9_main_arg1 (c : Dev nD) : W9 m c (Proc.devRef .tc main_arg1) = m ((c : Thread nD τ).loc main_arg1) :=
  W9_launch m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_launch m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_launch m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_launch m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_launch m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_launch m c main_arg6 (by decide) (by decide) (by decide) (by decide) (by decide) (by decide) (by decide) (by decide) (by decide)
theorem W9_main_arg7 (c : Dev nD) : W9 m c (Proc.devRef .tc main_arg7) = m ((c : Thread nD τ).loc main_arg7) :=
  W9_launch m c main_arg7 (by decide) (by decide) (by decide) (by decide) (by decide) (by decide) (by decide) (by decide) (by decide)
theorem W9_main_arg8 (c : Dev nD) : W9 m c (Proc.devRef .tc main_arg8) = m ((c : Thread nD τ).loc main_arg8) :=
  W9_launch m c main_arg8 (by decide) (by decide) (by decide) (by decide) (by decide) (by decide) (by decide) (by decide) (by decide)

/-! ## The proof data of the three pipelines, and what rides beside the buffers -/

/-- Every pipeline's proof data, each at the contents its region is entered from. A literal case split on the
    pipeline's index, so that the configuration pinned at a numeral reduces to the printed one. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

/-- No host loop: no variant. -/
abbrev noVariants : Variants := Variants.none
/-- No core owes another anything, so no pair carries a level. -/
abbrev noPairs : GSem nD τ sig → Finset Unit := fun _ => ∅
abbrev noLevel : GSem nD τ sig → Unit → ℕ := fun _ _ => 0

/-- What a core holds beside its unscoped buffers through every segment: its generator register at some state (a
    region's invariant takes it and gives it back) and its dues, which are none. -/
abbrev Ride (c : Dev nD) : sProp 𝕄 :=
  iprop((∃ r, prngReg c r) ∗ ∃ W, owes (c : Thread nD τ) (0 : CellTallies nD τ sig Unit) W)

/-- A stretch of host operations as a segment over every unscoped buffer, from the contents `W` to
    `StableHlo.after` of the stretch, `Ride` untouched. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W9`, the generator register at some state. -/
abbrev Tend (c : Dev nD) : sProp 𝕄 :=
  iprop(StableHlo.held (c : Thread nD τ) (Pipeline.ucRefs τ sig) (W9 m c) ∗ ∃ r, prngReg c r)

/-- The chain's last step: the final stretch's thread state is `Tend` beside the core owing nothing. -/
theorem ride_end (c : Dev nD) :
    iprop(StableHlo.held (c : Thread nD τ) (Pipeline.ucRefs τ sig) (W9 m c) ∗ Ride (F := F) c)
      ⊢ iprop(Tend m c ∗ ∃ W, owes (c : Thread nD τ) (0 : CellTallies nD τ sig Unit) W) := by
  iintro ⟨Hbufs, Hprng, Hdues⟩
  isplitr [Hdues]
  · isplitl [Hbufs]; · iexact Hbufs
    iexact Hprng
  iexact Hdues

/-! ## A region of this program as a segment

The three kernels are of one kind: no prefetched table, no semaphore of the kernel's own, nothing owed at any
point and no bound kept on the pairs its waits record, every input array held whole, and as invariant at every point the scoped buffers no window stages beside
the generator register. So the segment record is written once, for any pipeline `p` of the three, over two
valuations: `Win` the region is entered from, and `Wout`, which has the region's arrays at what the write-backs
leave and agrees with `Win` off them. -/

-- a library lemma stated over `pin pcs a p` unifies with the program's configuration only when unification may unfold
-- plain definitions in a metavariable's type
set_option backward.isDefEq.respectTransparency.types false in
/-- Pipeline `p`'s region as a segment, entered from every unscoped buffer at `Win` and left at `Wout`.
    ENTRY: the arrays are split out of the unscoped buffers at the entry contents (`hA`), the other buffers bypass
    the region (`Z`), the generator register enters the invariant (`X`), no table is prefetched, nothing is owed.
    The invariant at both ends is the scoped rest beside the register (`hΦ`). EXIT: the arrays at what the write-backs
    leave (`hF`) and the bypassing buffers (`hrest`) are every unscoped buffer at `Wout`. -/
def regionSeg (p : Fin 3) (kit : Pipeline.LaunchFacts (nD := nD) (τ := τ) cfgs p)
    (Win Wout : Dev nD → Valuation τ sig (Elt F))
    (hbody : ∀ c, BodyObligation (pdats m p c) (defs₀ (F := F)) Variants.none () Set.univ)
    (hq : ∀ c w, (pdats m p c).q w = fullShare)
    (howed : ∀ c t, (pdats m p c).owed t = 0)
    (hrec : ∀ c, (pdats m p c).recorded 0 = Set.univ)
    (hΦ : ∀ c t, (pdats m p c).Φ t = Pipeline.ΦA (Pipeline.pin (pcfgs (F := F)) adm p).spec c)
    (hA : ∀ c w, (pdats m p c).A w = Win c (Proc.devRef .tc (Pipeline.arrRef (Pipeline.pin (pcfgs (F := F)) adm p).spec w)))
    (hF : ∀ c w, (pdats m p c).arrAt w (Pipeline.pin (pcfgs (F := F)) adm p).N
      = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wout c (Proc.devRef .tc b) = Win c (Proc.devRef .tc b)) :
    Pipeline.RegionSeg (pcfgs (F := F)) adm (pdats m) () defs₀ noVariants noPairs noLevel p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noPairs noLevel p howed
  pre c := iprop(StableHlo.held (c : Thread nD τ) (Pipeline.ucRefs τ sig) (Win c) ∗ Ride c)
  post c := iprop(StableHlo.held (c : Thread nD τ) (Pipeline.ucRefs τ sig) (Wout c) ∗ Ride c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Win c (Proc.devRef .tc b))
  hentry c := by
    rw [Pipeline.ownSems0_none]
    have hsplit := Pipeline.arrays_of_unscopedBufs (p := p) (pcfgs (F := F)) adm (pdats m) kit.win kit.arr_whole c
      ((pdats m p c).share_full (hq c)) (fun b => Win c (Proc.devRef .tc b)) (hA c)
    rw [Pipeline.unscopedBufs_held] at hsplit
    iintro ⟨⟨Hbufs, Hprng, Hdues⟩, -, -⟩
    ihave Hparts := hsplit $$ Hbufs
    icases Hparts with ⟨Harr, Hrest⟩
    imodintro
    isplitl [Harr]; · iexact Harr
    isplitr
    · unfold Pipeline.prefHeld
      rw [show (Finset.univ : Finset (Fin 0)) = ∅ from rfl, BI.bigSep_empty]
      iempintro
    isplitl [Hdues]
    · unfold Pipeline.Dat.owesAt Pipeline.owesWithin
      icases Hdues with ⟨%W, Hdues⟩
      iexists W
      isplitr; · ipureintro; exact fun x _ => Or.inl ((hrec c).symm ▸ Set.mem_univ x)
      rw [howed c 0]
      iexact Hdues
    isplitl [Hprng]; · iexact Hprng
    iexact Hrest
  hin c := by
    rw [hΦ c 0]
    unfold Pipeline.ΦA
    iintro ⟨Hprng, -, Hscoped⟩
    isplitl [Hscoped]; · iexact Hscoped
    iexact Hprng
  hout c := by
    rw [Pipeline.ownSems0_none, hΦ c (Fin.last _)]
    unfold Pipeline.ΦA
    iintro ⟨Hscoped, Hprng⟩
    isplitl [Hprng]; · iexact Hprng
    isplitr; · iempintro
    iexact Hscoped
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => Win c (Proc.devRef .tc b)) (fun b => Wout c (Proc.devRef .tc b))
      ((pdats m p c).arrAt · (Pipeline.pin (pcfgs (F := F)) adm p).N) (hF c) (hrest c)
    rw [Pipeline.unscopedBufs_held] at hjoin
    iintro ⟨Harr, Hdues, Hprng, Hrest⟩
    imodintro
    isplitl [Harr Hrest]
    · iapply hjoin
      isplitl [Harr] <;> iassumption
    isplitl [Hprng]; · iexact Hprng
    unfold Pipeline.Dat.owesAt Pipeline.owesWithin
    icases Hdues with ⟨%W, -, Hdues⟩
    iexists W
    rw [howed c (Fin.last _)]
    iexact Hdues

/-! ## The three regions -/

/-- The first convolution region: entered at `W3`, left at `W4`. -/
def reg0 : Pipeline.RegionSeg (pcfgs (F := F)) adm (pdats m) () defs₀ noVariants noPairs noLevel 0 :=
  regionSeg m 0 launch0 (W3 m) (W4 m) (fun c => body_obligation0 (E0 m) c) (fun _ _ => rfl) (fun _ _ => rfl) (fun _ => rfl) (fun _ _ => rfl)
    (fun c w => A_eq0 (E0 m) c w) (fun c w => (W4_arr m c w).symm)
    (fun c b hb => W4_of_ne m c b fun w e => hb (Finset.mem_image.mpr ⟨w, Finset.mem_univ _, e⟩))
/-- The second convolution region: entered at `W5`, left at `W6`. -/
def reg1 : Pipeline.RegionSeg (pcfgs (F := F)) adm (pdats m) () defs₀ noVariants noPairs noLevel 1 :=
  regionSeg m 1 launch1 (W5 m) (W6 m) (fun c => body_obligation1 (E1 m) c) (fun _ _ => rfl) (fun _ _ => rfl) (fun _ => rfl) (fun _ _ => rfl)
    (fun c w => A_eq1 (E1 m) c w) (fun c w => (W6_arr m c w).symm)
    (fun c b hb => W6_of_ne m c b fun w e => hb (Finset.mem_image.mpr ⟨w, Finset.mem_univ _, e⟩))
/-- The dense-layers region: entered at `W7`, left at `W8`. -/
def reg2 : Pipeline.RegionSeg (pcfgs (F := F)) adm (pdats m) () defs₀ noVariants noPairs noLevel 2 :=
  regionSeg m 2 launch2 (W7 m) (W8 m) (fun c => body_obligation2 (E2 m) c) (fun _ _ => rfl) (fun _ _ => rfl) (fun _ => rfl) (fun _ _ => rfl)
    (fun c w => A_eq2 (E2 m) c w) (fun c w => (W8_arr m c w).symm)
    (fun c b hb => W8_of_ne m c b fun w e => hb (Finset.mem_image.mpr ⟨w, Finset.mem_univ _, e⟩))
/-! ## @main as its nine segments, and the launch -/

/-- @main's segments in order. -/
abbrev mainSegs : List (Pipeline.Seg (pcfgs (F := F)) adm (pdats m) () defs₀ noVariants noPairs noLevel) :=
  [ .host (hostSeg hostOps0 hostOps0_sub hostOps0_fresh (W0 m)),
    .host (hostSeg hostOps0_1 hostOps0_1_sub hostOps0_1_fresh (W1 m)),
    .host (hostSeg hostOps0_2 hostOps0_2_sub hostOps0_2_fresh (W2 m)),
    .region (reg0 m),
    .host (hostSeg hostOps1 hostOps1_sub hostOps1_fresh (W4 m)),
    .region (reg1 m),
    .host (hostSeg hostOps2 hostOps2_sub hostOps2_fresh (W6 m)),
    .region (reg2 m),
    .host (hostSeg hostOps3 hostOps3_sub hostOps3_fresh (W8 m)) ]

/-- @main is the run of its segments: it is the chain of its nine items, and the segments' run is the chain of
    their fragments, the same nine. -/
theorem main_run (c : Dev nD) : main (F := F) c = Pipeline.Seg.run (mainSegs m) :=
  (main_chain c).trans (by chain_rfl)

-- the launch theorem's implicit arguments are found by unifying its conclusion with this one, which takes unfolding
-- plain definitions in a metavariable's type
set_option backward.isDefEq.respectTransparency.types false in
/-- THE RUN. From any memory `m` with zero counters and any generator registers, every weakly fair execution of
    @main on the TensorCores terminates without a fault, and in every final memory each unscoped buffer of each
    core holds `W9 m c` at it. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m c b) :=
  Pipeline.θ_run_regions_kit (pcfgs (F := F)) adm (pdats m) () cellOf_inj emb₁ defs₀ noVariants noPairs noLevel m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tend m)
    (hch := ⟨fun _ => .rfl, fun _ => .rfl, fun _ => .rfl, fun _ => .rfl, fun _ => .rfl, fun _ => .rfl, fun _ => .rfl,
      fun _ => .rfl, fun _ => .rfl, fun c => ride_end m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdues, -, Hprng, -⟩, -⟩
      imodintro
      isplitl [Hbufs]; · iexact Hbufs
      isplitl [Hprng]; · iexists _; iexact Hprng
      iexists ∅; iexact Hdues)
    (QY := fun c s => ∀ b ∈ Pipeline.ucRefs τ sig, s.mem ((c : Thread nD τ).1, b) = W9 m c b)
    (hfin := fun c s' => by
      iintro ⟨⟨Hbufs, -⟩, HSI⟩
      unfold StableHlo.held
      imodintro
      iapply (pointsTo_read_all (Pipeline.ucRefs τ sig) (fun b => ((c : Thread nD τ).1, b)) (W9 m c) s')
      isplitl [Hbufs] <;> iassumption)
    (hQ := fun _ h => h)

/-- THE FRAME: @main runs, and every argument array ends holding its launch contents — each argument is an unscoped
    buffer, so the run names its final contents, `W9`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩) (run_all m ρ)

end Cert.ReferenceIdeal.Hand

end
-- ==== Proof.RVal0Pay.lean ====
/-
  The first convolution layer's two computed values, read entry by entry.

  The patch matrix has one row per output position (image b, row h, column v of a block of 8 images, row
  (b · 28 + h) · 28 + v) and one column per tap q of the 3 × 3 stencil: its entry is the q-th shifted view of the
  padded block at (b, h, v).  The stored value multiplies the patch matrix by the [9, 16] weights, adds the bias row,
  cuts negatives to zero and keeps the largest entry of each 2 × 2 square of positions: first down the two rows, then
  across the two columns.  Every reshape, slice and concatenation on the way is read at an index by one small lemma.
-/
import proofs.«150178_g2000205257289275_pallasbulk_739_9_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand.Conv0

open Idealize.ShloMosaic Idealize.ShloMosaic.ValueIdx Cert.ReferenceIdeal Cert.ReferenceIdeal.Gen
open scoped BigOperators

/-! ## The patch matrix -/

/-- Entry (r, q) of the patch matrix, r the row of position (b, h, v): the q-th of the nine views at (b, h, v). -/
theorem pay3_apply (v0 v2 v4 v6 v8 v10 v12 v14 v16 : Vec Ideal S8x28x28x1 .f32) (b : Fin 8) (h v : Fin 28) (q : Fin 9)
    (r : Fin 6272) (hr : r.val = (b.val * 28 + h.val) * 28 + v.val) :
    k0_pay3 v0 v2 v4 v6 v8 v10 v12 v14 v16 (ix2 r q)
      = (![v0, v2, v4, v6, v8, v10, v12, v14, v16] : Fin 9 → S8x28x28x1.Idx → Ideal .f32) q (ix4 b h v (0 : Fin 1)) := by
  unfold k0_pay3
  refine (shapeCast_apply _ _ (ix2 r q) (ix4 b h v q) ?_).trans ?_
  · rw [Shape.rowMajor_val_four, Shape.rowMajor_val_two]
    show ((b.val * 28 + h.val) * 28 + v.val) * 9 + q.val = r.val * 9 + q.val
    rw [hr]
  · simp only [shapeCast_self]
    exact concatenate_ofFn_unit_apply (t := S8x28x28x9) (s₁ := S8x28x28x1) (3 : Fin 4)
      (![v0, v2, v4, v6, v8, v10, v12, v14, v16] : Fin 9 → S8x28x28x1.Idx → Ideal .f32) _ rfl rfl (ix4 b h v q) q rfl
      (ix4 b h v (0 : Fin 1)) (fun bb hb => by
        match bb with
        | ⟨0, _⟩ => rfl
        | ⟨1, _⟩ => rfl
        | ⟨2, _⟩ => rfl
        | ⟨3, _⟩ => exact absurd rfl hb)

/-! ## The matrix product -/

theorem lhs_conv_0 (i : S6272x16.Idx) (q : dot_S6272x9_S9x16_S6272x16_1_0_0_1_n_n.contr.Idx) :
    (dot_S6272x9_S9x16_S6272x16_1_0_0_1_n_n.lhsIdx i q 0).val = (i 0).val := by
  unfold DotDims.lhsIdx
  rw [dif_neg (show ¬(0 : Fin S6272x9.rank) ∈ dot_S6272x9_S9x16_S6272x16_1_0_0_1_n_n.lhsBatch by decide),
    dif_pos (show (0 : Fin S6272x9.rank) ∈ dot_S6272x9_S9x16_S6272x16_1_0_0_1_n_n.lhsNonContracting by decide)]
  rfl

theorem lhs_conv_1 (i : S6272x16.Idx) (q : dot_S6272x9_S9x16_S6272x16_1_0_0_1_n_n.contr.Idx) :
    (dot_S6272x9_S9x16_S6272x16_1_0_0_1_n_n.lhsIdx i q 1).val = (q ⟨0, by decide⟩).val :=
  dot_S6272x9_S9x16_S6272x16_1_0_0_1_n_n.lhsIdx_val_of_single rfl i q

theorem rhs_conv_0 (i : S6272x16.Idx) (q : dot_S6272x9_S9x16_S6272x16_1_0_0_1_n_n.contr.Idx) :
    (dot_S6272x9_S9x16_S6272x16_1_0_0_1_n_n.rhsIdx i q 0).val = (q ⟨0, by decide⟩).val :=
  dot_S6272x9_S9x16_S6272x16_1_0_0_1_n_n.rhsIdx_val_of_single rfl i q

theorem rhs_conv_1 (i : S6272x16.Idx) (q : dot_S6272x9_S9x16_S6272x16_1_0_0_1_n_n.contr.Idx) :
    (dot_S6272x9_S9x16_S6272x16_1_0_0_1_n_n.rhsIdx i q 1).val = (i 1).val := by
  unfold DotDims.rhsIdx
  rw [dif_neg (show ¬(1 : Fin S9x16.rank) ∈ dot_S6272x9_S9x16_S6272x16_1_0_0_1_n_n.rhsBatch by decide),
    dif_pos (show (1 : Fin S9x16.rank) ∈ dot_S6272x9_S9x16_S6272x16_1_0_0_1_n_n.rhsNonContracting by decide)]
  rfl

/-- Entry (r, c) of the product of the patch matrix with the weights: the nine taps of row r against column c. -/
theorem conv_matmul_apply (P : FVec Ideal S6272x9 .f32) (w : FVec Ideal S9x16 .f32) (r : Fin 6272) (c : Fin 16) :
    matmul dot_S6272x9_S9x16_S6272x16_1_0_0_1_n_n none P w (constant (F := Ideal) S6272x16 .f32 0x00000000#32) (ix2 r c)
      = ∑ k : Fin 9, P (ix2 r k) * w (ix2 k c) := by
  show FloatOps.matmul dot_S6272x9_S9x16_S6272x16_1_0_0_1_n_n none P w (constant (F := Ideal) S6272x16 .f32 0x00000000#32) (ix2 r c) = _
  rw [Ideal.matmul_constant_zero_apply, ← Equiv.sum_comp (ValueIdx.contrEquiv1 dot_S6272x9_S9x16_S6272x16_1_0_0_1_n_n 9 rfl rfl).symm]
  refine Finset.sum_congr rfl fun k _ => ?_
  have hk := ValueIdx.contrEquiv1_symm_val dot_S6272x9_S9x16_S6272x16_1_0_0_1_n_n 9 rfl rfl k
  have el : dot_S6272x9_S9x16_S6272x16_1_0_0_1_n_n.lhsIdx (ix2 r c) ((ValueIdx.contrEquiv1 dot_S6272x9_S9x16_S6272x16_1_0_0_1_n_n 9 rfl rfl).symm k) = ix2 r k :=
    funext fun a => Fin.ext (by
      match a with
      | ⟨0, _⟩ => exact lhs_conv_0 _ _
      | ⟨1, _⟩ => exact (lhs_conv_1 _ _).trans hk)
  have er : dot_S6272x9_S9x16_S6272x16_1_0_0_1_n_n.rhsIdx (ix2 r c) ((ValueIdx.contrEquiv1 dot_S6272x9_S9x16_S6272x16_1_0_0_1_n_n 9 rfl rfl).symm k) = ix2 k c :=
    funext fun a => Fin.ext (by
      match a with
      | ⟨0, _⟩ => exact (rhs_conv_0 _ _).trans hk
      | ⟨1, _⟩ => exact rhs_conv_1 _ _)
  rw [el, er]

/-! ## The 2 × 2 maximum -/

variable {α : Type}

/-- [8,14,14,1,16] → [8,14,14,16]: the unit axis dropped. -/
theorem cast_drop3 (x : S8x14x14x1x16.Idx → α) (h : S8x14x14x1x16.ShapeCasts S8x14x14x16) (b : Fin 8) (i j : Fin 14) (c : Fin 16) :
    shapeCast S8x14x14x16 x h (ix4 b i j c) = x (ix5 b i j (0 : Fin 1) c) :=
  shapeCast_apply x h _ _ (by
    rw [Shape.rowMajor_val_five, Shape.rowMajor_val_four]
    show (((b.val * 14 + i.val) * 14 + j.val) * 1 + 0) * 16 + c.val = ((b.val * 14 + i.val) * 14 + j.val) * 16 + c.val
    omega)

/-- [8,14,28,16] → [8,14,14,2,16]: column 2j + e of a row becomes (j, e). -/
theorem cast_cols (x : S8x14x28x16.Idx → α) (h : S8x14x28x16.ShapeCasts S8x14x14x2x16) (b : Fin 8) (i j : Fin 14) (e : Fin 2) (c : Fin 16)
    (v : Fin 28) (hv : v.val = 2 * j.val + e.val) :
    shapeCast S8x14x14x2x16 x h (ix5 b i j e c) = x (ix4 b i v c) :=
  shapeCast_apply x h _ _ (by
    rw [Shape.rowMajor_val_five, Shape.rowMajor_val_four]
    show ((b.val * 14 + i.val) * 28 + v.val) * 16 + c.val = (((b.val * 14 + i.val) * 14 + j.val) * 2 + e.val) * 16 + c.val
    omega)

/-- [8,14,1,28,16] → [8,14,28,16]: the unit axis dropped. -/
theorem cast_drop2 (x : S8x14x1x28x16.Idx → α) (h : S8x14x1x28x16.ShapeCasts S8x14x28x16) (b : Fin 8) (i : Fin 14) (v : Fin 28) (c : Fin 16) :
    shapeCast S8x14x28x16 x h (ix4 b i v c) = x (ix5 b i (0 : Fin 1) v c) :=
  shapeCast_apply x h _ _ (by
    rw [Shape.rowMajor_val_five, Shape.rowMajor_val_four]
    show (((b.val * 14 + i.val) * 1 + 0) * 28 + v.val) * 16 + c.val = ((b.val * 14 + i.val) * 28 + v.val) * 16 + c.val
    omega)

/-- [6272,16] → [8,14,2,28,16]: row ((b·14 + i)·2 + e)·28 + v becomes (b, i, e, v). -/
theorem cast_rows (x : S6272x16.Idx → α) (h : S6272x16.ShapeCasts S8x14x2x28x16) (b : Fin 8) (i : Fin 14) (e : Fin 2) (v : Fin 28) (c : Fin 16)
    (r : Fin 6272) (hr : r.val = ((b.val * 14 + i.val) * 2 + e.val) * 28 + v.val) :
    shapeCast S8x14x2x28x16 x h (ix5 b i e v c) = x (ix2 r c) :=
  shapeCast_apply x h _ _ (by
    rw [Shape.rowMajor_val_five, Shape.rowMajor_val_two]
    show r.val * 16 + c.val = ((((b.val * 14 + i.val) * 2 + e.val) * 28 + v.val)) * 16 + c.val
    rw [hr])

/-- One of the two row slabs of [8,14,2,28,16]. -/
theorem slice_rowpair (o : Nat) (x : S8x14x2x28x16.Idx → α) (h : S8x14x2x28x16.Slices ![0, 0, o, 0, 0] S8x14x1x28x16)
    (b : Fin 8) (i : Fin 14) (v : Fin 28) (c : Fin 16) (e : Fin 2) (he : e.val = o) :
    extractStridedSlice S8x14x1x28x16 ![0, 0, o, 0, 0] x h (ix5 b i (0 : Fin 1) v c) = x (ix5 b i e v c) :=
  extractStridedSlice_apply _ _ _ _ _ (fun ax => by
    match ax with
    | ⟨0, _⟩ => exact (Nat.zero_add _).symm
    | ⟨1, _⟩ => exact (Nat.zero_add _).symm
    | ⟨2, _⟩ => exact he
    | ⟨3, _⟩ => exact (Nat.zero_add _).symm
    | ⟨4, _⟩ => exact (Nat.zero_add _).symm)

/-- The 2 × 2 maximum read at (b, i, j, c): the four entries of the pre-pool matrix at rows 2i, 2i+1 and
    columns 2j, 2j+1 of image b, the pair down a column first. -/
theorem pool_apply (Y : FVec Ideal S6272x16 .f32) (b : Fin 8) (i j : Fin 14) (c : Fin 16) (r00 r10 r01 r11 : Fin 6272)
    (h00 : r00.val = (b.val * 28 + 2 * i.val) * 28 + 2 * j.val)
    (h10 : r10.val = (b.val * 28 + (2 * i.val + 1)) * 28 + 2 * j.val)
    (h01 : r01.val = (b.val * 28 + 2 * i.val) * 28 + (2 * j.val + 1))
    (h11 : r11.val = (b.val * 28 + (2 * i.val + 1)) * 28 + (2 * j.val + 1)) :
    maximumf
      (shapeCast S8x14x14x16 (extractStridedSlice S8x14x14x1x16 ![0, 0, 0, 0, 0]
        (shapeCast S8x14x14x2x16 (maximumf
          (shapeCast S8x14x28x16 (extractStridedSlice S8x14x1x28x16 ![0, 0, 0, 0, 0] (shapeCast S8x14x2x28x16 Y shapeCasts_S6272x16_S8x14x2x28x16) slices_S8x14x2x28x16_o0_0_0_0_0_S8x14x1x28x16) shapeCasts_S8x14x1x28x16_S8x14x28x16)
          (shapeCast S8x14x28x16 (extractStridedSlice S8x14x1x28x16 ![0, 0, 1, 0, 0] (shapeCast S8x14x2x28x16 Y shapeCasts_S6272x16_S8x14x2x28x16) slices_S8x14x2x28x16_o0_0_1_0_0_S8x14x1x28x16) shapeCasts_S8x14x1x28x16_S8x14x28x16))
          shapeCasts_S8x14x28x16_S8x14x14x2x16) slices_S8x14x14x2x16_o0_0_0_0_0_S8x14x14x1x16) shapeCasts_S8x14x14x1x16_S8x14x14x16)
      (shapeCast S8x14x14x16 (extractStridedSlice S8x14x14x1x16 ![0, 0, 0, 1, 0]
        (shapeCast S8x14x14x2x16 (maximumf
          (shapeCast S8x14x28x16 (extractStridedSlice S8x14x1x28x16 ![0, 0, 0, 0, 0] (shapeCast S8x14x2x28x16 Y shapeCasts_S6272x16_S8x14x2x28x16) slices_S8x14x2x28x16_o0_0_0_0_0_S8x14x1x28x16) shapeCasts_S8x14x1x28x16_S8x14x28x16)
          (shapeCast S8x14x28x16 (extractStridedSlice S8x14x1x28x16 ![0, 0, 1, 0, 0] (shapeCast S8x14x2x28x16 Y shapeCasts_S6272x16_S8x14x2x28x16) slices_S8x14x2x28x16_o0_0_1_0_0_S8x14x1x28x16) shapeCasts_S8x14x1x28x16_S8x14x28x16))
          shapeCasts_S8x14x28x16_S8x14x14x2x16) slices_S8x14x14x2x16_o0_0_0_1_0_S8x14x14x1x16) shapeCasts_S8x14x14x1x16_S8x14x14x16)
      (ix4 b i j c)
      = max (max (Y (ix2 r00 c)) (Y (ix2 r10 c))) (max (Y (ix2 r01 c)) (Y (ix2 r11 c))) := by
  have hj := j.isLt
  rw [maximumf_apply, cast_drop3, cast_drop3,
    slice5_axis3_apply 0 _ _ b i j (0 : Fin 1) c (0 : Fin 2) rfl,
    slice5_axis3_apply 1 _ _ b i j (0 : Fin 1) c (1 : Fin 2) rfl,
    cast_cols _ _ b i j 0 c ⟨2 * j.val, by omega⟩ rfl, cast_cols _ _ b i j 1 c ⟨2 * j.val + 1, by omega⟩ rfl,
    maximumf_apply, maximumf_apply, cast_drop2, cast_drop2, cast_drop2, cast_drop2]
  rw [slice_rowpair 0 _ _ b i _ c 0 rfl, slice_rowpair 1 _ _ b i _ c 1 rfl,
    slice_rowpair 0 _ _ b i _ c 0 rfl, slice_rowpair 1 _ _ b i _ c 1 rfl]
  rw [cast_rows _ _ b i 0 _ c r00 (by rw [h00]; show _ = ((b.val * 14 + i.val) * 2 + 0) * 28 + 2 * j.val; omega),
    cast_rows _ _ b i 1 _ c r10 (by rw [h10]; show _ = ((b.val * 14 + i.val) * 2 + 1) * 28 + 2 * j.val; omega),
    cast_rows _ _ b i 0 _ c r01 (by rw [h01]; show _ = ((b.val * 14 + i.val) * 2 + 0) * 28 + (2 * j.val + 1); omega),
    cast_rows _ _ b i 1 _ c r11 (by rw [h11]; show _ = ((b.val * 14 + i.val) * 2 + 1) * 28 + (2 * j.val + 1); omega)]

/-! ## The stored value -/

/-- One entry of the first layer before the maximum: row r of the patch matrix against column c of the weights,
    the bias added, negatives cut to zero. -/
def act (P : FVec Ideal S6272x9 .f32) (w : Vec Ideal S9x16 .f32) (bias : Vec Ideal S1x16 .f32) (r : Fin 6272) (c : Fin 16) : EReal :=
  max ((∑ q : Fin 9, P (ix2 r q) * w (ix2 q c)) + bias (ix2 (0 : Fin 1) c)) 0

/-- The stored value of the first layer at (b, i, j, c): the largest of the four entries of the 2 × 2 square. -/
theorem pay1_apply (P : FVec Ideal S6272x9 .f32) (w : Vec Ideal S9x16 .f32) (bias : Vec Ideal S1x16 .f32)
    (b : Fin 8) (i j : Fin 14) (c : Fin 16) (r00 r10 r01 r11 : Fin 6272)
    (h00 : r00.val = (b.val * 28 + 2 * i.val) * 28 + 2 * j.val)
    (h10 : r10.val = (b.val * 28 + (2 * i.val + 1)) * 28 + 2 * j.val)
    (h01 : r01.val = (b.val * 28 + 2 * i.val) * 28 + (2 * j.val + 1))
    (h11 : r11.val = (b.val * 28 + (2 * i.val + 1)) * 28 + (2 * j.val + 1)) :
    k0_pay1 P w bias (ix4 b i j c)
      = max (max (act P w bias r00 c) (act P w bias r10 c)) (max (act P w bias r01 c) (act P w bias r11 c)) := by
  unfold k0_pay1
  refine (pool_apply _ b i j c r00 r10 r01 r11 h00 h10 h01 h11).trans ?_
  simp only [maximumf_apply, addf_apply, broadcast_apply, conv_matmul_apply, broadcastTo_1b_ab_apply, shapeCast_self]
  unfold act
  rw [show (Scalar.ofBits .f32 0x00000000#32 : Ideal .f32) = 0 from Ideal.ofBits_zero_f32]

end Cert.ReferenceIdeal.Hand.Conv0

end
-- ==== Proof.RVal0.lean ====
/-
  Region 0 of the reference program: the array it leaves, as a function of the arrays it reads.

  Each grid point takes a block of 8 zero-padded images, the [9, 16] weights and the bias row, and writes a block of
  8 results: the first convolution layer of the network (3 × 3 stencil, bias, cut at zero, 2 × 2 maximum) stored inside
  a zero border.  First one block: the nine shifted views are the padded image at the stencil's offsets, so an entry of
  the patch matrix times the weights is the network's convolution, and the two stores (zeros everywhere, then the
  pooled value on the interior) read back as the bordered pooled array.  Then the array: point t's blocks sit at
  images 8t … 8t + 7, every image is in one block, so the blocks written back make up the bordered pooled array of
  every image.
-/
import proofs.«150178_g2000205257289275_pallasbulk_739_9_alg».proof.Proof.RBody
import proofs.«150178_g2000205257289275_pallasbulk_739_9_alg».proof.Proof.Spec
import proofs.«150178_g2000205257289275_pallasbulk_739_9_alg».proof.Proof.RVal0Pay

noncomputable section

namespace Cert.ReferenceIdeal.Hand

open Idealize.ShloMosaic Idealize.ShloMosaic.ValueIdx Cert.ReferenceIdeal Cert.ReferenceIdeal.Gen
open scoped BigOperators
open Cert.Cnn Idealize.ShloMosaic.TcCoe
open Idealize.ShloMosaic.Pipeline (Dat)

namespace Conv0

/-! ## One block -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The q-th shifted view of a padded block at (n, h, v) is the block at row h + q / 3, column v + q % 3. -/
theorem taps_apply (x0 : Vec Ideal S8x30x30x1 .f32) (X : Fin 8 → ℕ → ℕ → EReal)
    (hX : ∀ (n : Fin 8) (i j : Fin 30), x0 (ix4 n i j (0 : Fin 1)) = X n i.val j.val)
    (n : Fin 8) (h v : Fin 28) (q : Fin 9) :
    (![View.ld x0 r0_00, View.ld x0 r0_01, View.ld x0 r0_02, View.ld x0 r0_10, View.ld x0 r0_11, View.ld x0 r0_12,
        View.ld x0 r0_20, View.ld x0 r0_21, View.ld x0 r0_22] : Fin 9 → S8x28x28x1.Idx → Ideal .f32) q (ix4 n h v (0 : Fin 1))
      = X n (h.val + q.val / 3) (v.val + q.val % 3) := by
  have hh := h.isLt
  have hv := v.isLt
  have key : ∀ (dy dx : ℕ) (hdy : dy ≤ 2) (hdx : dx ≤ 2)
      (inb : ∀ a, (![0, dy, dx, 0] : Fin 4 → ℕ) a + S8x28x28x1.size a ≤ S8x30x30x1.size a),
      View.ld x0 (Rect.unit (s := S8x30x30x1) ![0, dy, dx, 0] S8x28x28x1.size inb) (ix4 n h v (0 : Fin 1))
        = X n (h.val + dy) (v.val + dx) := by
    intro dy dx hdy hdx inb
    rw [← hX n ⟨h.val + dy, by omega⟩ ⟨v.val + dx, by omega⟩]
    show x0 _ = x0 _
    congr 1
    funext a
    apply Fin.ext
    match a with
    | ⟨0, _⟩ => show 0 + 1 * n.val = n.val; omega
    | ⟨1, _⟩ => show dy + 1 * h.val = h.val + dy; omega
    | ⟨2, _⟩ => show dx + 1 * v.val = v.val + dx; omega
    | ⟨3, _⟩ => show 0 + 1 * 0 = 0; rfl
  have all : ∀ (k : ℕ) (hk : k < 9),
      (![View.ld x0 r0_00, View.ld x0 r0_01, View.ld x0 r0_02, View.ld x0 r0_10, View.ld x0 r0_11, View.ld x0 r0_12,
          View.ld x0 r0_20, View.ld x0 r0_21, View.ld x0 r0_22] : Fin 9 → S8x28x28x1.Idx → Ideal .f32) ⟨k, hk⟩ (ix4 n h v (0 : Fin 1))
        = X n (h.val + k / 3) (v.val + k % 3) := by
    intro k hk
    interval_cases k
    · exact key 0 0 (by omega) (by omega) inb_S8x30x30x1_S8x28x28x1_0_0_0_0
    · exact key 0 1 (by omega) (by omega) inb_S8x30x30x1_S8x28x28x1_0_0_1_0
    · exact key 0 2 (by omega) (by omega) inb_S8x30x30x1_S8x28x28x1_0_0_2_0
    · exact key 1 0 (by omega) (by omega) inb_S8x30x30x1_S8x28x28x1_0_1_0_0
    · exact key 1 1 (by omega) (by omega) inb_S8x30x30x1_S8x28x28x1_0_1_1_0
    · exact key 1 2 (by omega) (by omega) inb_S8x30x30x1_S8x28x28x1_0_1_2_0
    · exact key 2 0 (by omega) (by omega) inb_S8x30x30x1_S8x28x28x1_0_2_0_0
    · exact key 2 1 (by omega) (by omega) inb_S8x30x30x1_S8x28x28x1_0_2_1_0
    · exact key 2 2 (by omega) (by omega) inb_S8x30x30x1_S8x28x28x1_0_2_2_0
  exact all q.val q.isLt

section Block

variable (x0 : Vec Ideal S8x30x30x1 .f32) (x1 : Vec Ideal S9x16 .f32) (x2 : Vec Ideal S1x16 .f32)
  (img : Fin 8 → Fin 28 → Fin 28 → EReal) (w : Fin 9 → Fin 16 → EReal) (bias : Fin 16 → EReal)
  (h0 : ∀ (n : Fin 8) (i j : Fin 30), x0 (ix4 n i j (0 : Fin 1)) = xpad (img n) i.val j.val)
  (h1 : ∀ (q : Fin 9) (ch : Fin 16), x1 (ix2 q ch) = w q ch)
  (h2 : ∀ ch : Fin 16, x2 (ix2 (0 : Fin 1) ch) = bias ch)

include h0 h1 h2

/-- One entry before the maximum is the network's first layer at that position of that image. -/
theorem act_patches (n : Fin 8) (h v : Fin 28) (ch : Fin 16) (r : Fin 6272) (hr : r.val = (n.val * 28 + h.val) * 28 + v.val) :
    act (patches0 x0) (View.ld x1 rW1) (View.ld x2 rW2) r ch = act1 (img n) w bias h.val v.val ch := by
  unfold act act1 conv1 patches0
  rw [View.ld_unit_zero (S := S9x16) zeros2, View.ld_unit_zero (S := S1x16) zeros2, h2]
  congr 2
  refine Finset.sum_congr rfl fun q _ => ?_
  rw [pay3_apply _ _ _ _ _ _ _ _ _ n h v q r hr, taps_apply x0 (fun n i j => xpad (img n) i j) h0 n h v q, h1]

/-- What the body leaves in the output block, entry by entry: the pooled first layer inside a zero border. -/
theorem out0_apply (n : Fin 8) (i j : Fin 16) (ch : Fin 16) :
    out0_3 x0 x1 x2 (ix4 n i j ch) = p1pad (img n) w bias i.val j.val ch := by
  have hn := n.isLt
  unfold out0_3 p1pad
  by_cases hin : (1 ≤ i.val ∧ i.val ≤ 14) ∧ (1 ≤ j.val ∧ j.val ≤ 14)
  · rw [if_pos hin]
    obtain ⟨⟨hi1, hi2⟩, hj1, hj2⟩ := hin
    have e : ix4 n i j ch = rInterior0.emb (ix4 n (⟨i.val - 1, by omega⟩ : Fin 14) (⟨j.val - 1, by omega⟩ : Fin 14) ch) := by
      funext a
      apply Fin.ext
      match a with
      | ⟨0, _⟩ => show n.val = 0 + 1 * n.val; omega
      | ⟨1, _⟩ => show i.val = 1 + 1 * (i.val - 1); omega
      | ⟨2, _⟩ => show j.val = 1 + 1 * (j.val - 1); omega
      | ⟨3, _⟩ => show ch.val = 0 + 1 * ch.val; omega
    rw [e, View.canon_cons_emb]
    rw [pay1_apply _ _ _ n ⟨i.val - 1, by omega⟩ ⟨j.val - 1, by omega⟩ ch
      ⟨(n.val * 28 + 2 * (i.val - 1)) * 28 + 2 * (j.val - 1), by omega⟩
      ⟨(n.val * 28 + (2 * (i.val - 1) + 1)) * 28 + 2 * (j.val - 1), by omega⟩
      ⟨(n.val * 28 + 2 * (i.val - 1)) * 28 + (2 * (j.val - 1) + 1), by omega⟩
      ⟨(n.val * 28 + (2 * (i.val - 1) + 1)) * 28 + (2 * (j.val - 1) + 1), by omega⟩ rfl rfl rfl rfl]
    unfold pool1
    rw [act_patches x0 x1 x2 img w bias h0 h1 h2 n ⟨2 * (i.val - 1), by omega⟩ ⟨2 * (j.val - 1), by omega⟩ ch _ rfl,
      act_patches x0 x1 x2 img w bias h0 h1 h2 n ⟨2 * (i.val - 1) + 1, by omega⟩ ⟨2 * (j.val - 1), by omega⟩ ch _ rfl,
      act_patches x0 x1 x2 img w bias h0 h1 h2 n ⟨2 * (i.val - 1), by omega⟩ ⟨2 * (j.val - 1) + 1, by omega⟩ ch _ rfl,
      act_patches x0 x1 x2 img w bias h0 h1 h2 n ⟨2 * (i.val - 1) + 1, by omega⟩ ⟨2 * (j.val - 1) + 1, by omega⟩ ch _ rfl]
  · rw [if_neg hin, View.canon_cons_of_not_mem _ _ (by
      show ix4 n i j ch ∉ rInterior0.set
      rw [Rect.mem_set_unit]
      intro hmem
      have m1 : 1 ≤ i.val ∧ i.val < 1 + 14 := hmem 1
      have m2 : 1 ≤ j.val ∧ j.val < 1 + 14 := hmem 2
      exact hin ⟨⟨m1.1, by omega⟩, m2.1, by omega⟩), View.canon_unit_zero zeros4]
    show (Scalar.ofBits .f32 0x00000000#32 : Ideal .f32) = 0
    exact Ideal.ofBits_zero_f32

/-- The same at any index of the block. -/
theorem out0_eq (y : S8x16x16x16.Idx) :
    out0_3 x0 x1 x2 y = p1pad (img (y 0)) w bias (y 1).val (y 2).val (y 3) := by
  obtain ⟨n, i, j, ch, rfl⟩ : ∃ (n : Fin 8) (i j ch : Fin 16), y = ix4 n i j ch := ⟨y 0, y 1, y 2, y 3, eq_ix4 y⟩
  exact out0_apply x0 x1 x2 img w bias h0 h1 h2 n i j ch

end Block

/-! ## From blocks to the array -/

/-- The block indices of region 0, decided over its 2048 points: the image block and the result block move with the
    point along the batch axis, the weights and the bias stay. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The array region 0 leaves: image by image the pooled first layer inside a zero border. -/
abbrev G0 (img : Fin 16384 → Fin 28 → Fin 28 → EReal) (w : Fin 9 → Fin 16 → EReal) (b : Fin 16 → EReal) :
    S16384x16x16x16.Idx → EReal :=
  fun i => p1pad (img (i 0)) w b (i 1).val (i 2).val (i 3)

/-- `G0` at an array index, from the index's coordinates. -/
theorem G0_at (img : Fin 16384 → Fin 28 → Fin 28 → EReal) (w : Fin 9 → Fin 16 → EReal) (b : Fin 16 → EReal)
    (i : S16384x16x16x16.Idx) (k : Fin 16384) (y : S8x16x16x16.Idx)
    (hk : (i 0).val = k.val) (e1 : (i 1).val = (y 1).val) (e2 : (i 2).val = (y 2).val) (e3 : (i 3).val = (y 3).val) :
    p1pad (img k) w b (y 1).val (y 2).val (y 3) = G0 img w b i := by
  have q0 : i 0 = k := Fin.ext hk
  have q3 : i 3 = y 3 := Fin.ext e3
  show _ = p1pad (img (i 0)) w b (i 1).val (i 2).val (i 3)
  rw [q0, q3, e1, e2]

section Region

variable (V : (c : Dev nD) → (b : Ref sig .tc) → Buf (Elt Ideal) ((c : Thread nD τ).loc b))
variable (c : Dev nD) (img : Fin 16384 → Fin 28 → Fin 28 → EReal) (w : Fin 9 → Fin 16 → EReal) (b : Fin 16 → EReal)
  (h0 : ∀ (n : Fin 16384) (i j : Fin 30), V c main_v1 (ix4 n i j (0 : Fin 1)) = xpad (img n) i.val j.val)
  (h1 : ∀ (q : Fin 9) (ch : Fin 16), V c main_arg1 (ix2 q ch) = w q ch)
  (h2 : ∀ ch : Fin 16, V c main_v2 (ix2 (0 : Fin 1) ch) = b ch)

include h0 h1 h2

/-- What point t writes back is block t of `G0`. -/
theorem flushed0_eq (t : Fin cfg0.N) :
    (dat0 V c).flushed 3 t = ((cfg0.win 3).blk t).view.read (Elt Ideal) (G0 img w b) := by
  show (cfg0.win 3).cut (grid0.coords t) ((dat0 V c).after 3 t) = _
  rw [after0_3]
  have hN : t.val < 2048 := lt_of_lt_of_eq t.isLt N_0
  obtain ⟨a0, a1, a2, a3, b0, b1, c0, c1, e0, e1, e2, e3⟩ := idx_facts0 t
  funext y
  have hy := out0_eq (iblk0 V c 0 t) (iblk0 V c 1 t) (iblk0 V c 2 t)
    (fun n => img ⟨t.val * 8 + n.val, by have := n.isLt; omega⟩) w b
    (by
      intro n i j
      show V c main_v1 (((cfg0.win 0).blk t).view.emb (ix4 n i j (0 : Fin 1))) = _
      rw [← h0 ⟨t.val * 8 + n.val, by have := n.isLt; omega⟩ i j]
      congr 1
      funext a
      apply Fin.ext
      match a with
      | ⟨0, _⟩ => show win0_0.index t (0 : Fin 4) * 8 + 1 * n.val = t.val * 8 + n.val; omega
      | ⟨1, _⟩ => show win0_0.index t (1 : Fin 4) * 30 + 1 * i.val = i.val; omega
      | ⟨2, _⟩ => show win0_0.index t (2 : Fin 4) * 30 + 1 * j.val = j.val; omega
      | ⟨3, _⟩ => show win0_0.index t (3 : Fin 4) * 1 + 1 * 0 = 0; omega)
    (by
      intro q ch
      show V c main_arg1 (((cfg0.win 1).blk t).view.emb (ix2 q ch)) = _
      rw [← h1 q ch]
      congr 1
      funext a
      apply Fin.ext
      match a with
      | ⟨0, _⟩ => show win0_1.index t (0 : Fin 2) * 9 + 1 * q.val = q.val; omega
      | ⟨1, _⟩ => show win0_1.index t (1 : Fin 2) * 16 + 1 * ch.val = ch.val; omega)
    (by
      intro ch
      show V c main_v2 (((cfg0.win 2).blk t).view.emb (ix2 (0 : Fin 1) ch)) = _
      rw [← h2 ch]
      congr 1
      funext a
      apply Fin.ext
      match a with
      | ⟨0, _⟩ => show win0_2.index t (0 : Fin 2) * 1 + 1 * 0 = 0; omega
      | ⟨1, _⟩ => show win0_2.index t (1 : Fin 2) * 16 + 1 * ch.val = ch.val; omega)
    y
  refine hy.trans ?_
  refine G0_at img w b (((cfg0.win 3).blk t).view.emb y) _ y ?_ ?_ ?_ ?_
  · show win0_3.index t (0 : Fin 4) * 8 + 1 * (y 0).val = t.val * 8 + (y 0).val; omega
  · show win0_3.index t (1 : Fin 4) * 16 + 1 * (y 1).val = (y 1).val; omega
  · show win0_3.index t (2 : Fin 4) * 16 + 1 * (y 2).val = (y 2).val; omega
  · show win0_3.index t (3 : Fin 4) * 16 + 1 * (y 3).val = (y 3).val; omega

end Region

/-- An index of the result array is in point t's block iff each coordinate is in the block's range on its axis. -/
theorem mem_blk0 (t : Fin cfg0.N) (i : S16384x16x16x16.Idx) :
    i ∈ ((cfg0.win 3).blk t).view.set ↔ ∀ a : Fin 4, win0_3.index t a * S8x16x16x16.size a ≤ (i a).val ∧ (i a).val < win0_3.index t a * S8x16x16x16.size a + S8x16x16x16.size a := by
  show i ∈ ((View.whole main_v3).slice (win0_3.rect t)).set ↔ _
  rw [View.set_slice_whole, Rect.mem_set_unit]
  exact Iff.rfl

/-- Every index of the result array is in the block of the point that holds its image: image k is in block k / 8. -/
theorem cover0 (i : S16384x16x16x16.Idx) : ∃ t : Fin cfg0.N, (cfg0.win 3).flush t = true ∧ i ∈ ((cfg0.win 3).blk t).view.set := by
  have hi0 : (i 0).val < 16384 := (i 0).isLt
  have hi1 : (i 1).val < 16 := (i 1).isLt
  have hi2 : (i 2).val < 16 := (i 2).isLt
  have hi3 : (i 3).val < 16 := (i 3).isLt
  have hN : cfg0.N = 2048 := N_0
  let t : Fin cfg0.N := ⟨(i 0).val / 8, by rw [hN]; omega⟩
  obtain ⟨-, -, -, -, -, -, -, -, e0, e1, e2, e3⟩ := idx_facts0 t
  have ht : t.val = (i 0).val / 8 := rfl
  refine ⟨t, flush0_3 t, ?_⟩
  rw [mem_blk0]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 16 ≤ (i 1).val ∧ (i 1).val < win0_3.index t (1 : Fin 4) * 16 + 16; omega
  | ⟨2, _⟩ => show win0_3.index t (2 : Fin 4) * 16 ≤ (i 2).val ∧ (i 2).val < win0_3.index t (2 : Fin 4) * 16 + 16; omega
  | ⟨3, _⟩ => show win0_3.index t (3 : Fin 4) * 16 ≤ (i 3).val ∧ (i 3).val < win0_3.index t (3 : Fin 4) * 16 + 16; omega

end Conv0

/-- The array region 0 leaves in its result window, as a function of the arrays it reads: for image n the pooled first
    layer of the network inside a zero border. -/
theorem arr0_eq (V : (c : Dev nD) → (b : Ref sig .tc) → Buf (Elt Ideal) ((c : Thread nD τ).loc b)) (c : Dev nD)
    (img : Fin 16384 → Fin 28 → Fin 28 → EReal) (w : Fin 9 → Fin 16 → EReal) (b : Fin 16 → EReal)
    (h0 : ∀ (n : Fin 16384) (i j : Fin 30), V c main_v1 (ix4 n i j (0 : Fin 1)) = xpad (img n) i.val j.val)
    (h1 : ∀ (q : Fin 9) (ch : Fin 16), V c main_arg1 (ix2 q ch) = w q ch)
    (h2 : ∀ ch : Fin 16, V c main_v2 (ix2 (0 : Fin 1) ch) = b ch) :
    (dat0 V c).arrAt 3 cfg0.N = fun i => p1pad (img (i 0)) w b (i 1).val (i 2).val (i 3) :=
  (dat0 V c).arrAt_eq_of_cover 3 (Conv0.G0 img w b) (fun t _ => Conv0.flushed0_eq V c img w b h0 h1 h2 t) Conv0.cover0

end Cert.ReferenceIdeal.Hand

end
-- ==== Proof.RPay1.lean ====
/-
  The second convolution kernel's two pure values, read at an index.

  The patch matrix: nine shifted [8,14,14,16] windows of a zero-bordered [8,16,16,16] block laid side by side on
  the channel axis and flattened to [1568,144].  Row (b·14 + y)·14 + x, column q of it is the block at image b,
  row y + q/16/3, column x + q/16%3, channel q%16: column q belongs to tap q/16 and input channel q%16.

  The result block: the patch matrix times a [144,32] matrix, plus a bias row, cut at zero, then the largest of
  each 2 × 2 square of positions, rows paired first and columns second.
-/
import proofs.«150178_g2000205257289275_pallasbulk_739_9_alg».proof.Proof.Gen.ReferenceIdeal.Skeleton
import Idealize.ShloMosaic.Lib.Pipeline.FrameBody
import Idealize.ShloMosaic.Lib.ValueLayout
import Idealize.ShloMosaic.PureOps.Ideal.Laws

noncomputable section

open scoped BigOperators

namespace Cert.ReferenceIdeal.Hand

open Idealize.ShloMosaic Idealize.ShloMosaic.ValueIdx
open Cert.ReferenceIdeal Cert.ReferenceIdeal.Gen

/-! ## The patch matrix -/

/-- Row (b·14 + y)·14 + x of a [1568, 144] matrix obtained by flattening the three leading axes of an
    [8,14,14,144] array is position (b, y, x) of the array. -/
theorem flatten_rows_apply {α : Type} (X : S8x14x14x144.Idx → α) (h : S8x14x14x144.ShapeCasts S1568x144)
    (b : Fin 8) (y x : Fin 14) (q : Fin 144) (r : Fin 1568) (hr : r.val = (b.val * 14 + y.val) * 14 + x.val) :
    shapeCast S1568x144 X h (ix2 r q) = X (ix4 b y x q) :=
  shapeCast_apply X h _ _ (by
    rw [Shape.rowMajor_val_four, Shape.rowMajor_val_two]
    show ((b.val * 14 + y.val) * 14 + x.val) * 144 + q.val = r.val * 144 + q.val
    rw [hr])

/-- A [8,14,14,16] window of an [8,16,16,16] block taken at row offset dy and column offset dx reads the
    block at the shifted position. -/
theorem window_apply (X : Vec Ideal S8x16x16x16 .f32) (dy dx : Nat)
    (inb : ∀ a, (![0, dy, dx, 0] : Fin 4 → Nat) a + S8x14x14x16.size a ≤ S8x16x16x16.size a)
    (b : Fin 8) (y x : Fin 14) (ci : Fin 16) (hy : y.val + dy < 16) (hx : x.val + dx < 16) :
    View.ld X (Rect.unit (s := S8x16x16x16) ![0, dy, dx, 0] S8x14x14x16.size inb) (ix4 b y x ci)
      = X (ix4 b ⟨y.val + dy, hy⟩ ⟨x.val + dx, hx⟩ ci) := by
  show X _ = X _
  congr 1
  funext a
  apply Fin.ext
  match a with
  | ⟨0, _⟩ => show 0 + 1 * b.val = b.val; omega
  | ⟨1, _⟩ => show dy + 1 * y.val = y.val + dy; omega
  | ⟨2, _⟩ => show dx + 1 * x.val = x.val + dx; omega
  | ⟨3, _⟩ => show 0 + 1 * ci.val = ci.val; omega

/-- Nine [8,14,14,16] arrays side by side on the channel axis: channel q of the result is channel q % 16 of
    array number q / 16. -/
theorem nine_side_by_side_apply (v : Fin 9 → Vec Ideal S8x14x14x16 .f32)
    (h : Shape.Concatenates (([⟨S8x14x14x16, v 0⟩, ⟨S8x14x14x16, v 1⟩, ⟨S8x14x14x16, v 2⟩, ⟨S8x14x14x16, v 3⟩,
      ⟨S8x14x14x16, v 4⟩, ⟨S8x14x14x16, v 5⟩, ⟨S8x14x14x16, v 6⟩, ⟨S8x14x14x16, v 7⟩, ⟨S8x14x14x16, v 8⟩] :
        List ((s : Shape) × (s.Idx → Elt Ideal .f32))).map (·.1)) S8x14x14x144 3)
    (b : Fin 8) (y x : Fin 14) (q : Fin 144) (n : Fin 9) (hn : q.val / 16 = n.val) :
    concatenate S8x14x14x144 3 [⟨S8x14x14x16, v 0⟩, ⟨S8x14x14x16, v 1⟩, ⟨S8x14x14x16, v 2⟩, ⟨S8x14x14x16, v 3⟩,
      ⟨S8x14x14x16, v 4⟩, ⟨S8x14x14x16, v 5⟩, ⟨S8x14x14x16, v 6⟩, ⟨S8x14x14x16, v 7⟩, ⟨S8x14x14x16, v 8⟩] h (ix4 b y x q)
      = v n (ix4 b y x ⟨q.val % 16, Nat.mod_lt _ (by norm_num)⟩) := by
  refine concatenate_ofFn_apply (t := S8x14x14x144) (s₁ := S8x14x14x16) 3 v h rfl 16 rfl (ix4 b y x q) n hn _ rfl ?_
  intro c hc
  match c with
  | ⟨0, _⟩ => rfl
  | ⟨1, _⟩ => rfl
  | ⟨2, _⟩ => rfl
  | ⟨3, _⟩ => exact absurd rfl hc

/-- The flattened side-by-side matrix of nine [8,14,14,16] arrays at row (b·14 + y)·14 + x, column q: array
    number q / 16 at position (b, y, x), channel q % 16. -/
theorem pay2_apply (v : Fin 9 → Vec Ideal S8x14x14x16 .f32) (b : Fin 8) (y x : Fin 14) (q : Fin 144) (r : Fin 1568)
    (hr : r.val = (b.val * 14 + y.val) * 14 + x.val) (n : Fin 9) (hn : q.val / 16 = n.val) :
    k1_pay2 (v 0) (v 1) (v 2) (v 3) (v 4) (v 5) (v 6) (v 7) (v 8) (ix2 r q)
      = v n (ix4 b y x ⟨q.val % 16, Nat.mod_lt _ (by norm_num)⟩) := by
  unfold k1_pay2
  rw [shapeCast_self (v 0), shapeCast_self (v 1), shapeCast_self (v 2), shapeCast_self (v 3), shapeCast_self (v 4),
    shapeCast_self (v 5), shapeCast_self (v 6), shapeCast_self (v 7), shapeCast_self (v 8)]
  rw [flatten_rows_apply _ _ b y x q r hr]
  exact nine_side_by_side_apply v _ b y x q n hn

/-- The nine windows of a block, in the order the kernel loads them: window number k has row offset k / 3 and
    column offset k % 3. -/
def windows (X : Vec Ideal S8x16x16x16 .f32) : Fin 9 → Vec Ideal S8x14x14x16 .f32
  | ⟨0, _⟩ => View.ld X (Rect.unit (s := S8x16x16x16) ![0, 0, 0, 0] S8x14x14x16.size inb_S8x16x16x16_S8x14x14x16_0_0_0_0)
  | ⟨1, _⟩ => View.ld X (Rect.unit (s := S8x16x16x16) ![0, 0, 1, 0] S8x14x14x16.size inb_S8x16x16x16_S8x14x14x16_0_0_1_0)
  | ⟨2, _⟩ => View.ld X (Rect.unit (s := S8x16x16x16) ![0, 0, 2, 0] S8x14x14x16.size inb_S8x16x16x16_S8x14x14x16_0_0_2_0)
  | ⟨3, _⟩ => View.ld X (Rect.unit (s := S8x16x16x16) ![0, 1, 0, 0] S8x14x14x16.size inb_S8x16x16x16_S8x14x14x16_0_1_0_0)
  | ⟨4, _⟩ => View.ld X (Rect.unit (s := S8x16x16x16) ![0, 1, 1, 0] S8x14x14x16.size inb_S8x16x16x16_S8x14x14x16_0_1_1_0)
  | ⟨5, _⟩ => View.ld X (Rect.unit (s := S8x16x16x16) ![0, 1, 2, 0] S8x14x14x16.size inb_S8x16x16x16_S8x14x14x16_0_1_2_0)
  | ⟨6, _⟩ => View.ld X (Rect.unit (s := S8x16x16x16) ![0, 2, 0, 0] S8x14x14x16.size inb_S8x16x16x16_S8x14x14x16_0_2_0_0)
  | ⟨7, _⟩ => View.ld X (Rect.unit (s := S8x16x16x16) ![0, 2, 1, 0] S8x14x14x16.size inb_S8x16x16x16_S8x14x14x16_0_2_1_0)
  | ⟨8, _⟩ => View.ld X (Rect.unit (s := S8x16x16x16) ![0, 2, 2, 0] S8x14x14x16.size inb_S8x16x16x16_S8x14x14x16_0_2_2_0)

/-- Window number k at (b, y, x, ci) is the block at (b, y + k/3, x + k%3, ci). -/
theorem windows_apply (X : Vec Ideal S8x16x16x16 .f32) (k : Fin 9) (b : Fin 8) (y x : Fin 14) (ci : Fin 16)
    (hy : y.val + k.val / 3 < 16) (hx : x.val + k.val % 3 < 16) :
    windows X k (ix4 b y x ci) = X (ix4 b ⟨y.val + k.val / 3, hy⟩ ⟨x.val + k.val % 3, hx⟩ ci) := by
  have key : ∀ (dy dx : Nat) (inb : ∀ a, (![0, dy, dx, 0] : Fin 4 → Nat) a + S8x14x14x16.size a ≤ S8x16x16x16.size a),
      dy = k.val / 3 → dx = k.val % 3 →
      View.ld X (Rect.unit (s := S8x16x16x16) ![0, dy, dx, 0] S8x14x14x16.size inb) (ix4 b y x ci)
        = X (ix4 b ⟨y.val + k.val / 3, hy⟩ ⟨x.val + k.val % 3, hx⟩ ci) := by
    intro dy dx inb hdy hdx
    subst hdy hdx
    exact window_apply X _ _ inb b y x ci hy hx
  obtain ⟨k, hk⟩ := k
  interval_cases k
  · exact key 0 0 _ (by norm_num) (by norm_num)
  · exact key 0 1 _ (by norm_num) (by norm_num)
  · exact key 0 2 _ (by norm_num) (by norm_num)
  · exact key 1 0 _ (by norm_num) (by norm_num)
  · exact key 1 1 _ (by norm_num) (by norm_num)
  · exact key 1 2 _ (by norm_num) (by norm_num)
  · exact key 2 0 _ (by norm_num) (by norm_num)
  · exact key 2 1 _ (by norm_num) (by norm_num)
  · exact key 2 2 _ (by norm_num) (by norm_num)

/-- The patch matrix of a block at row (b·14 + y)·14 + x, column q: the block at image b, row y + q/16/3,
    column x + q/16%3, channel q%16. -/
theorem patch_apply (X : Vec Ideal S8x16x16x16 .f32) (b : Fin 8) (y x : Fin 14) (q : Fin 144) (r : Fin 1568)
    (hr : r.val = (b.val * 14 + y.val) * 14 + x.val)
    (hy : y.val + q.val / 16 / 3 < 16) (hx : x.val + q.val / 16 % 3 < 16) :
    k1_pay2 (windows X 0) (windows X 1) (windows X 2) (windows X 3) (windows X 4) (windows X 5) (windows X 6)
        (windows X 7) (windows X 8) (ix2 r q)
      = X (ix4 b ⟨y.val + q.val / 16 / 3, hy⟩ ⟨x.val + q.val / 16 % 3, hx⟩ ⟨q.val % 16, Nat.mod_lt _ (by norm_num)⟩) := by
  have hq : q.val / 16 < 9 := by have := q.isLt; omega
  rw [pay2_apply (windows X) b y x q r hr ⟨q.val / 16, hq⟩ rfl]
  exact windows_apply X ⟨q.val / 16, hq⟩ b y x _ hy hx

/-! ## The matrix product -/

theorem lhs_prod_0 (i : S1568x32.Idx) (q : dot_S1568x144_S144x32_S1568x32_1_0_0_1_n_n.contr.Idx) :
    (dot_S1568x144_S144x32_S1568x32_1_0_0_1_n_n.lhsIdx i q 0).val = (i 0).val := by
  unfold DotDims.lhsIdx
  rw [dif_neg (show ¬(0 : Fin S1568x144.rank) ∈ dot_S1568x144_S144x32_S1568x32_1_0_0_1_n_n.lhsBatch by decide),
    dif_pos (show (0 : Fin S1568x144.rank) ∈ dot_S1568x144_S144x32_S1568x32_1_0_0_1_n_n.lhsNonContracting by decide)]
  rfl
theorem lhs_prod_1 (i : S1568x32.Idx) (q : dot_S1568x144_S144x32_S1568x32_1_0_0_1_n_n.contr.Idx) :
    (dot_S1568x144_S144x32_S1568x32_1_0_0_1_n_n.lhsIdx i q 1).val = (q ⟨0, by decide⟩).val :=
  dot_S1568x144_S144x32_S1568x32_1_0_0_1_n_n.lhsIdx_val_of_single rfl i q
theorem rhs_prod_0 (i : S1568x32.Idx) (q : dot_S1568x144_S144x32_S1568x32_1_0_0_1_n_n.contr.Idx) :
    (dot_S1568x144_S144x32_S1568x32_1_0_0_1_n_n.rhsIdx i q 0).val = (q ⟨0, by decide⟩).val :=
  dot_S1568x144_S144x32_S1568x32_1_0_0_1_n_n.rhsIdx_val_of_single rfl i q
theorem rhs_prod_1 (i : S1568x32.Idx) (q : dot_S1568x144_S144x32_S1568x32_1_0_0_1_n_n.contr.Idx) :
    (dot_S1568x144_S144x32_S1568x32_1_0_0_1_n_n.rhsIdx i q 1).val = (i 1).val := by
  unfold DotDims.rhsIdx
  rw [dif_neg (show ¬(1 : Fin S144x32.rank) ∈ dot_S1568x144_S144x32_S1568x32_1_0_0_1_n_n.rhsBatch by decide),
    dif_pos (show (1 : Fin S144x32.rank) ∈ dot_S1568x144_S144x32_S1568x32_1_0_0_1_n_n.rhsNonContracting by decide)]
  rfl

/-- The product into a zero accumulator, at row r and column co: the sum over the 144 columns of the left row
    times the right column. -/
theorem product_apply (P : FVec Ideal S1568x144 .f32) (W : FVec Ideal S144x32 .f32) (r : Fin 1568) (co : Fin 32) :
    matmul dot_S1568x144_S144x32_S1568x32_1_0_0_1_n_n none P W (constant (F := Ideal) S1568x32 .f32 0x00000000#32) (ix2 r co)
      = ∑ q : Fin 144, P (ix2 r q) * W (ix2 q co) := by
  show FloatOps.matmul _ _ _ _ _ _ = _
  rw [Ideal.matmul_constant_zero_apply,
    ← Equiv.sum_comp (contrEquiv1 dot_S1568x144_S144x32_S1568x32_1_0_0_1_n_n 144 rfl rfl).symm]
  refine Finset.sum_congr rfl fun k _ => ?_
  have hk := contrEquiv1_symm_val dot_S1568x144_S144x32_S1568x32_1_0_0_1_n_n 144 rfl rfl k
  have el : dot_S1568x144_S144x32_S1568x32_1_0_0_1_n_n.lhsIdx (ix2 r co)
      ((contrEquiv1 dot_S1568x144_S144x32_S1568x32_1_0_0_1_n_n 144 rfl rfl).symm k) = ix2 r k :=
    funext fun a => Fin.ext (by
      match a with
      | ⟨0, _⟩ => exact lhs_prod_0 _ _
      | ⟨1, _⟩ => exact (lhs_prod_1 _ _).trans hk)
  have er : dot_S1568x144_S144x32_S1568x32_1_0_0_1_n_n.rhsIdx (ix2 r co)
      ((contrEquiv1 dot_S1568x144_S144x32_S1568x32_1_0_0_1_n_n 144 rfl rfl).symm k) = ix2 k co :=
    funext fun a => Fin.ext (by
      match a with
      | ⟨0, _⟩ => exact (rhs_prod_0 _ _).trans hk
      | ⟨1, _⟩ => exact rhs_prod_1 _ _)
  rw [el, er]

/-! ## The bias, the cut at zero, the 2 × 2 maxima -/

/-- A [1568, 32] matrix read as [8, 7, 2, 14, 32]: position (b, i, s, x) is row ((b·7 + i)·2 + s)·14 + x. -/
theorem row_pairs_apply {α : Type} (X : S1568x32.Idx → α) (h : S1568x32.ShapeCasts S8x7x2x14x32)
    (b : Fin 8) (i : Fin 7) (s : Fin 2) (x : Fin 14) (co : Fin 32) (r : Fin 1568)
    (hr : r.val = ((b.val * 7 + i.val) * 2 + s.val) * 14 + x.val) :
    shapeCast S8x7x2x14x32 X h (ix5 b i s x co) = X (ix2 r co) :=
  shapeCast_apply X h _ _ (by
    rw [Shape.rowMajor_val_five, Shape.rowMajor_val_two]
    show r.val * 32 + co.val = (((b.val * 7 + i.val) * 2 + s.val) * 14 + x.val) * 32 + co.val
    rw [hr])

/-- Member o of each pair of rows. -/
theorem row_member_apply {α : Type} (X : S8x7x2x14x32.Idx → α) (o : Nat) (ho : o < 2)
    (h : S8x7x2x14x32.Slices ![0, 0, o, 0, 0] S8x7x1x14x32)
    (b : Fin 8) (i : Fin 7) (u : Fin 1) (x : Fin 14) (co : Fin 32) :
    extractStridedSlice S8x7x1x14x32 ![0, 0, o, 0, 0] X h (ix5 b i u x co) = X (ix5 b i ⟨o, ho⟩ x co) :=
  extractStridedSlice_apply _ _ _ _ _ (fun ax => by
    match ax with
    | ⟨0, _⟩ => exact (Nat.zero_add _).symm
    | ⟨1, _⟩ => exact (Nat.zero_add _).symm
    | ⟨2, _⟩ => show o = o + u.val; omega
    | ⟨3, _⟩ => exact (Nat.zero_add _).symm
    | ⟨4, _⟩ => exact (Nat.zero_add _).symm)

/-- The unit axis left by taking one member of each pair of rows, dropped. -/
theorem drop_row_unit_apply {α : Type} (X : S8x7x1x14x32.Idx → α) (h : S8x7x1x14x32.ShapeCasts S8x7x14x32)
    (b : Fin 8) (i : Fin 7) (x : Fin 14) (co : Fin 32) :
    shapeCast S8x7x14x32 X h (ix4 b i x co) = X (ix5 b i (0 : Fin 1) x co) :=
  shapeCast_apply X h _ _ (by
    rw [Shape.rowMajor_val_five, Shape.rowMajor_val_four]
    show (((b.val * 7 + i.val) * 1 + 0) * 14 + x.val) * 32 + co.val = ((b.val * 7 + i.val) * 14 + x.val) * 32 + co.val
    omega)

/-- An [8, 7, 14, 32] array read as [8, 7, 7, 2, 32]: position (b, i, j, s) is column 2j + s. -/
theorem col_pairs_apply {α : Type} (X : S8x7x14x32.Idx → α) (h : S8x7x14x32.ShapeCasts S8x7x7x2x32)
    (b : Fin 8) (i j : Fin 7) (s : Fin 2) (co : Fin 32) (x : Fin 14) (hx : x.val = 2 * j.val + s.val) :
    shapeCast S8x7x7x2x32 X h (ix5 b i j s co) = X (ix4 b i x co) :=
  shapeCast_apply X h _ _ (by
    rw [Shape.rowMajor_val_five, Shape.rowMajor_val_four]
    show ((b.val * 7 + i.val) * 14 + x.val) * 32 + co.val = (((b.val * 7 + i.val) * 7 + j.val) * 2 + s.val) * 32 + co.val
    rw [hx]; ring)

/-- The unit axis left by taking one member of each pair of columns, dropped. -/
theorem drop_col_unit_apply {α : Type} (X : S8x7x7x1x32.Idx → α) (h : S8x7x7x1x32.ShapeCasts S8x7x7x32)
    (b : Fin 8) (i j : Fin 7) (co : Fin 32) :
    shapeCast S8x7x7x32 X h (ix4 b i j co) = X (ix5 b i j (0 : Fin 1) co) :=
  shapeCast_apply X h _ _ (by
    rw [Shape.rowMajor_val_five, Shape.rowMajor_val_four]
    show ((((b.val * 7 + i.val) * 7 + j.val) * 1 + 0) * 32 + co.val) = ((b.val * 7 + i.val) * 7 + j.val) * 32 + co.val
    omega)

/-- Row (b·14 + y)·14 + x of a [1568, ·] matrix. -/
def rowOf (b : Fin 8) (y x : Nat) (hy : y < 14) (hx : x < 14) : Fin 1568 :=
  ⟨(b.val * 14 + y) * 14 + x, by have := b.isLt; omega⟩

/-- One position's value before the maxima: the patch row times the filter column, plus the bias, cut at zero. -/
def preAct (P : FVec Ideal S1568x144 .f32) (W : FVec Ideal S144x32 .f32) (B : FVec Ideal S1x32 .f32) (r : Fin 1568) (co : Fin 32) : EReal :=
  max (∑ q : Fin 144, P (ix2 r q) * W (ix2 q co) + B (ix2 (0 : Fin 1) co)) 0

/-- The kernel's result block at (b, i, j, co): the largest of the four positions (2i + s, 2j + s'), the two rows
    of each column compared first. -/
theorem pay1_apply (P : FVec Ideal S1568x144 .f32) (W : FVec Ideal S144x32 .f32) (B : FVec Ideal S1x32 .f32)
    (b : Fin 8) (i j : Fin 7) (co : Fin 32) :
    k1_pay1 P W B (ix4 b i j co)
      = max (max (preAct P W B (rowOf b (2 * i.val) (2 * j.val) (by omega) (by omega)) co)
                 (preAct P W B (rowOf b (2 * i.val + 1) (2 * j.val) (by omega) (by omega)) co))
            (max (preAct P W B (rowOf b (2 * i.val) (2 * j.val + 1) (by omega) (by omega)) co)
                 (preAct P W B (rowOf b (2 * i.val + 1) (2 * j.val + 1) (by omega) (by omega)) co)) := by
  -- the value before the maxima, at any row
  have hpre : ∀ (r : Fin 1568),
      maximumf (addf (matmul dot_S1568x144_S144x32_S1568x32_1_0_0_1_n_n none P W (constant (F := Ideal) S1568x32 .f32 0x00000000#32))
          (broadcastTo S1568x32 (shapeCast S1x32 B shapeCasts_S1x32_S1x32) broadcasts_S1x32_S1568x32))
        (broadcast S1568x32 (Scalar.ofBits (F := Ideal) .f32 0x00000000#32)) (ix2 r co) = preAct P W B r co := by
    intro r
    rw [maximumf_apply, addf_apply, product_apply, shapeCast_self, broadcastTo_1b_ab_apply, broadcast_apply]
    show max _ (Ideal.ofBits .f32 0x00000000#32) = _
    rw [Ideal.ofBits_zero_f32]
    rfl
  unfold k1_pay1
  rw [maximumf_apply, drop_col_unit_apply, drop_col_unit_apply,
    slice5_axis3_apply 0 _ _ b i j (0 : Fin 1) co (0 : Fin 2) rfl,
    slice5_axis3_apply 1 _ _ b i j (0 : Fin 1) co (1 : Fin 2) rfl,
    col_pairs_apply _ _ b i j (0 : Fin 2) co ⟨2 * j.val, by omega⟩ rfl,
    col_pairs_apply _ _ b i j (1 : Fin 2) co ⟨2 * j.val + 1, by omega⟩ rfl,
    maximumf_apply, maximumf_apply, drop_row_unit_apply, drop_row_unit_apply, drop_row_unit_apply, drop_row_unit_apply,
    row_member_apply _ 0 (by norm_num), row_member_apply _ 1 (by norm_num),
    row_member_apply _ 0 (by norm_num), row_member_apply _ 1 (by norm_num)]
  rw [row_pairs_apply _ _ b i ⟨0, by norm_num⟩ ⟨2 * j.val, by omega⟩ co (rowOf b (2 * i.val) (2 * j.val) (by omega) (by omega)) (by
      show (b.val * 14 + 2 * i.val) * 14 + 2 * j.val = ((b.val * 7 + i.val) * 2 + 0) * 14 + 2 * j.val; ring),
    row_pairs_apply _ _ b i ⟨1, by norm_num⟩ ⟨2 * j.val, by omega⟩ co (rowOf b (2 * i.val + 1) (2 * j.val) (by omega) (by omega)) (by
      show (b.val * 14 + (2 * i.val + 1)) * 14 + 2 * j.val = ((b.val * 7 + i.val) * 2 + 1) * 14 + 2 * j.val; ring),
    row_pairs_apply _ _ b i ⟨0, by norm_num⟩ ⟨2 * j.val + 1, by omega⟩ co (rowOf b (2 * i.val) (2 * j.val + 1) (by omega) (by omega)) (by
      show (b.val * 14 + 2 * i.val) * 14 + (2 * j.val + 1) = ((b.val * 7 + i.val) * 2 + 0) * 14 + (2 * j.val + 1); ring),
    row_pairs_apply _ _ b i ⟨1, by norm_num⟩ ⟨2 * j.val + 1, by omega⟩ co (rowOf b (2 * i.val + 1) (2 * j.val + 1) (by omega) (by omega)) (by
      show (b.val * 14 + (2 * i.val + 1)) * 14 + (2 * j.val + 1) = ((b.val * 7 + i.val) * 2 + 1) * 14 + (2 * j.val + 1); ring),
    hpre, hpre, hpre, hpre]

end Cert.ReferenceIdeal.Hand

end
-- ==== Proof.RVal1.lean ====
/-
  The second convolution layer's array after its kernel has run over the grid, as a function of the arrays the kernel reads.

  Grid point t of 2048 works on images 8t … 8t + 7: it reads block t of the padded, pooled first layer
  ([8,16,16,16] of [16384,16,16,16]), the whole filter matrix and bias row, and writes block t of the result
  ([8,7,7,32] of [16384,7,7,32]).  When the input array holds the padded pooled first layer of each image,
  what a point writes back is the specification's second pooled layer of its eight images; the 2048 blocks tile
  the result array, so the array ends holding the second pooled layer of every image.
-/
import proofs.«150178_g2000205257289275_pallasbulk_739_9_alg».proof.Proof.RBody
import proofs.«150178_g2000205257289275_pallasbulk_739_9_alg».proof.Proof.Spec
import proofs.«150178_g2000205257289275_pallasbulk_739_9_alg».proof.Proof.RPay1
import Idealize.ShloMosaic.Lib.Pipeline.Value

noncomputable section

open scoped BigOperators

namespace Cert.ReferenceIdeal.Hand

open Idealize.ShloMosaic Idealize.ShloMosaic.TcCoe Idealize.ShloMosaic.ValueIdx
open Idealize.ShloMosaic.Pipeline (Dat)
open Cert.Cnn Cert.ReferenceIdeal Cert.ReferenceIdeal.Gen

-- the buffer contents of the TensorCore when the region is entered
variable (V : (c : Dev nD) → (b : Ref sig .tc) → Buf (Elt Ideal) ((c : Thread nD τ).loc b))

/-! ## Where each window's block lies -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The printed index maps, decided over the grid: the input block and the output block of point t are block t
    along the image axis; the filter matrix and the bias row are always block 0. -/
theorem idx_facts1 : ∀ t : Fin cfg1.N,
    win1_0.index t (0 : Fin 4) = t.val ∧ win1_0.index t (1 : Fin 4) = 0 ∧ win1_0.index t (2 : Fin 4) = 0
    ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0
    ∧ win1_3.index t (3 : Fin 4) = 0 :=
  (by decide +kernel : ∀ t : Fin grid1.N, _)

/-- The input block of point t at (b, y, x, ci) is the array at image 8t + b. -/
theorem blk1_0_apply (c : Dev nD) (t : Fin cfg1.N) (b : Fin 8) (y x ci : Fin 16) (n : Fin 16384)
    (hn : n.val = t.val * 8 + b.val) :
    (iblk1 V c 0 t : Vec Ideal S8x16x16x16 .f32) (ix4 b y x ci) = V c main_v3 (ix4 n y x ci) := by
  obtain ⟨e0, e1, e2, e3, -⟩ := idx_facts1 t
  unfold iblk1
  rw [View.read_apply]
  show V c main_v3 _ = V c main_v3 _
  congr 1
  funext a
  apply Fin.ext
  match a with
  | ⟨0, _⟩ => show win1_0.index t (0 : Fin 4) * 8 + 1 * b.val = n.val; rw [e0, hn]; omega
  | ⟨1, _⟩ => show win1_0.index t (1 : Fin 4) * 16 + 1 * y.val = y.val; rw [e1]; omega
  | ⟨2, _⟩ => show win1_0.index t (2 : Fin 4) * 16 + 1 * x.val = x.val; rw [e2]; omega
  | ⟨3, _⟩ => show win1_0.index t (3 : Fin 4) * 16 + 1 * ci.val = ci.val; rw [e3]; omega

/-- The filter block of any point is the filter array. -/
theorem blk1_1_apply (c : Dev nD) (t : Fin cfg1.N) (q : Fin 144) (co : Fin 32) :
    (iblk1 V c 1 t : Vec Ideal S144x32 .f32) (ix2 q co) = V c main_arg3 (ix2 q co) := by
  obtain ⟨-, -, -, -, e0, e1, -⟩ := idx_facts1 t
  unfold iblk1
  rw [View.read_apply]
  show V c main_arg3 _ = V c main_arg3 _
  congr 1
  funext a
  apply Fin.ext
  match a with
  | ⟨0, _⟩ => show win1_1.index t (0 : Fin 2) * 144 + 1 * q.val = q.val; rw [e0]; omega
  | ⟨1, _⟩ => show win1_1.index t (1 : Fin 2) * 32 + 1 * co.val = co.val; rw [e1]; omega

/-- The bias block of any point is the bias row. -/
theorem blk1_2_apply (c : Dev nD) (t : Fin cfg1.N) (u : Fin 1) (co : Fin 32) :
    (iblk1 V c 2 t : Vec Ideal S1x32 .f32) (ix2 u co) = V c main_v4 (ix2 u co) := by
  obtain ⟨-, -, -, -, -, -, e0, e1, -⟩ := idx_facts1 t
  unfold iblk1
  rw [View.read_apply]
  show V c main_v4 _ = V c main_v4 _
  congr 1
  funext a
  apply Fin.ext
  match a with
  | ⟨0, _⟩ => show win1_2.index t (0 : Fin 2) * 1 + 1 * u.val = u.val; rw [e0]; omega
  | ⟨1, _⟩ => show win1_2.index t (1 : Fin 2) * 32 + 1 * co.val = co.val; rw [e1]; omega

/-! ## One block: the kernel's result is the specification's second pooled layer -/

/-- The patch matrix of the body is the side-by-side matrix of the nine windows. -/
theorem patches1_eq (X : Vec Ideal S8x16x16x16 .f32) :
    patches1 X = k1_pay2 (windows X 0) (windows X 1) (windows X 2) (windows X 3) (windows X 4) (windows X 5)
      (windows X 6) (windows X 7) (windows X 8) := rfl

/-- At a block holding the padded pooled first layer of eight images, with the filter matrix and the bias row
    as the specification names them, one position's value before the maxima is the specification's. -/
theorem preAct_eq_act2 (X : Vec Ideal S8x16x16x16 .f32) (W : Vec Ideal S144x32 .f32) (B : Vec Ideal S1x32 .f32)
    (L : Fin 8 → L1) (w2 : Fin 144 → Fin 32 → EReal) (b2 : Fin 32 → EReal)
    (hX : ∀ (b : Fin 8) (y x ci : Fin 16), X (ix4 b y x ci) = p1pad (L b).img (L b).w (L b).b y.val x.val ci)
    (hW : ∀ (q : Fin 144) (co : Fin 32), W (ix2 q co) = w2 q co)
    (hB : ∀ co : Fin 32, B (ix2 (0 : Fin 1) co) = b2 co)
    (b : Fin 8) (y x : Nat) (hy : y < 14) (hx : x < 14) (co : Fin 32) :
    preAct (patches1 X) W B (rowOf b y x hy hx) co = act2 (L b) w2 b2 y x co := by
  unfold preAct act2 conv2
  rw [hB]
  congr 2
  refine Finset.sum_congr rfl fun q _ => ?_
  have hq : q.val / 16 < 9 := by have := q.isLt; omega
  rw [patches1_eq, patch_apply X b ⟨y, hy⟩ ⟨x, hx⟩ q (rowOf b y x hy hx) rfl
    (by show y + q.val / 16 / 3 < 16; omega) (by show x + q.val / 16 % 3 < 16; omega), hX, hW]

/-- The kernel's result block at (b, i, j, co) is the specification's second pooled layer of image b of the
    block at (i, j, co). -/
theorem block_eq_pool2 (X : Vec Ideal S8x16x16x16 .f32) (W : Vec Ideal S144x32 .f32) (B : Vec Ideal S1x32 .f32)
    (L : Fin 8 → L1) (w2 : Fin 144 → Fin 32 → EReal) (b2 : Fin 32 → EReal)
    (hX : ∀ (b : Fin 8) (y x ci : Fin 16), X (ix4 b y x ci) = p1pad (L b).img (L b).w (L b).b y.val x.val ci)
    (hW : ∀ (q : Fin 144) (co : Fin 32), W (ix2 q co) = w2 q co)
    (hB : ∀ co : Fin 32, B (ix2 (0 : Fin 1) co) = b2 co)
    (b : Fin 8) (i j : Fin 7) (co : Fin 32) :
    k1_pay1 (patches1 X) (View.ld W r1_W1) (View.ld B r1_W2) (ix4 b i j co) = pool2 (L b) w2 b2 i.val j.val co := by
  rw [View.ld_unit_zero (S := S144x32) zeros2, View.ld_unit_zero (S := S1x32) zeros2, pay1_apply,
    preAct_eq_act2 X W B L w2 b2 hX hW hB, preAct_eq_act2 X W B L w2 b2 hX hW hB,
    preAct_eq_act2 X W B L w2 b2 hX hW hB, preAct_eq_act2 X W B L w2 b2 hX hW hB]
  rfl

/-! ## From blocks to the array -/

/-- The specification's second pooled layer of every image, as one array. -/
def pooled2 (l : Fin 16384 → L1) (w2 : Fin 144 → Fin 32 → EReal) (b2 : Fin 32 → EReal) : S16384x7x7x32.Idx → EReal :=
  fun i => pool2 (l (i 0)) w2 b2 (i 1).val (i 2).val (i 3)

/-- What point t writes back is block t of the second pooled layer. -/
theorem flushed1_eq (c : Dev nD) (l : Fin 16384 → L1) (w2 : Fin 144 → Fin 32 → EReal) (b2 : Fin 32 → EReal)
    (h0 : ∀ (n : Fin 16384) (i j : Fin 16) (ci : Fin 16),
      V c main_v3 (ix4 n i j ci) = p1pad (l n).img (l n).w (l n).b i.val j.val ci)
    (h1 : ∀ (q : Fin 144) (co : Fin 32), V c main_arg3 (ix2 q co) = w2 q co)
    (h2 : ∀ co : Fin 32, V c main_v4 (ix2 (0 : Fin 1) co) = b2 co) (t : Fin cfg1.N) :
    (dat1 V c).flushed 3 t = ((cfg1.win 3).blk t).view.read (Elt Ideal) (pooled2 l w2 b2) := by
  obtain ⟨-, -, -, -, -, -, -, -, e0, e1, e2, e3⟩ := idx_facts1 t
  have hN : t.val < 2048 := Nat.lt_of_lt_of_eq t.isLt N_1
  show (cfg1.win 3).cut (grid1.coords t) ((dat1 V c).after 3 t) = _
  rw [after1_3]
  unfold out1_3
  rw [View.canon_unit_zero zeros4]
  refine funext fun (j : S8x7x7x32.Idx) => ?_
  have hj0 : (j 0).val < 8 := (j 0).isLt
  have hj1 : (j 1).val < 7 := (j 1).isLt
  have hj2 : (j 2).val < 7 := (j 2).isLt
  have hj3 : (j 3).val < 32 := (j 3).isLt
  have ex : (cfg1.win 3).xinj (grid1.coords t) j = ix4 (⟨(j 0).val, hj0⟩ : Fin 8) (⟨(j 1).val, hj1⟩ : Fin 7)
      (⟨(j 2).val, hj2⟩ : Fin 7) (⟨(j 3).val, hj3⟩ : Fin 32) :=
    funext fun a => Fin.ext (by
      match a with
      | ⟨0, _⟩ => rfl
      | ⟨1, _⟩ => rfl
      | ⟨2, _⟩ => rfl
      | ⟨3, _⟩ => rfl)
  have ee : ((cfg1.win 3).blk t).view.emb j = ix4 (⟨t.val * 8 + (j 0).val, by omega⟩ : Fin 16384) (⟨(j 1).val, hj1⟩ : Fin 7)
      (⟨(j 2).val, hj2⟩ : Fin 7) (⟨(j 3).val, hj3⟩ : Fin 32) :=
    funext fun a => Fin.ext (by
      match a with
      | ⟨0, _⟩ => show win1_3.index t (0 : Fin 4) * 8 + 1 * (j 0).val = t.val * 8 + (j 0).val; rw [e0]; omega
      | ⟨1, _⟩ => show win1_3.index t (1 : Fin 4) * 7 + 1 * (j 1).val = (j 1).val; rw [e1]; omega
      | ⟨2, _⟩ => show win1_3.index t (2 : Fin 4) * 7 + 1 * (j 2).val = (j 2).val; rw [e2]; omega
      | ⟨3, _⟩ => show win1_3.index t (3 : Fin 4) * 32 + 1 * (j 3).val = (j 3).val; rw [e3]; omega)
  show k1_pay1 (patches1 (iblk1 V c 0 t)) (View.ld (iblk1 V c 1 t) r1_W1) (View.ld (iblk1 V c 2 t) r1_W2)
      ((cfg1.win 3).xinj (grid1.coords t) j) = pooled2 l w2 b2 (((cfg1.win 3).blk t).view.emb j)
  rw [ex, ee]
  exact block_eq_pool2 (iblk1 V c 0 t) (iblk1 V c 1 t) (iblk1 V c 2 t)
    (fun b => l ⟨t.val * 8 + b.val, by have := b.isLt; omega⟩) w2 b2
    (fun b y x ci => (blk1_0_apply V c t b y x ci _ rfl).trans (h0 _ y x ci))
    (fun q co => (blk1_1_apply V c t q co).trans (h1 q co))
    (fun co => (blk1_2_apply V c t 0 co).trans (h2 co)) _ _ _ _

/-- Every index of the result array lies in the block of the point its image number over eight names. -/
theorem cover1 (i : S16384x7x7x32.Idx) :
    ∃ t : Fin cfg1.N, (cfg1.win 3).flush t = true ∧ i ∈ ((cfg1.win 3).blk t).view.set := by
  have hi0 : (i 0).val < 16384 := (i 0).isLt
  have hi1 : (i 1).val < 7 := (i 1).isLt
  have hi2 : (i 2).val < 7 := (i 2).isLt
  have hi3 : (i 3).val < 32 := (i 3).isLt
  obtain ⟨t, ht⟩ : ∃ t : Fin cfg1.N, t.val = (i 0).val / 8 :=
    ⟨⟨(i 0).val / 8, by rw [show cfg1.N = 2048 from N_1]; omega⟩, rfl⟩
  obtain ⟨-, -, -, -, -, -, -, -, e0, e1, e2, e3⟩ := idx_facts1 t
  refine ⟨t, flush1_3 t, ?_⟩
  show i ∈ ((View.whole main_v5).slice (win1_3.rect t)).set
  rw [View.set_slice_whole, Rect.mem_set_unit]
  intro a
  match a with
  | ⟨0, _⟩ =>
    show win1_3.index t (0 : Fin 4) * 8 ≤ (i 0).val ∧ (i 0).val < win1_3.index t (0 : Fin 4) * 8 + 8
    rw [e0, ht]; omega
  | ⟨1, _⟩ =>
    show win1_3.index t (1 : Fin 4) * 7 ≤ (i 1).val ∧ (i 1).val < win1_3.index t (1 : Fin 4) * 7 + 7
    rw [e1]; omega
  | ⟨2, _⟩ =>
    show win1_3.index t (2 : Fin 4) * 7 ≤ (i 2).val ∧ (i 2).val < win1_3.index t (2 : Fin 4) * 7 + 7
    rw [e2]; omega
  | ⟨3, _⟩ =>
    show win1_3.index t (3 : Fin 4) * 32 ≤ (i 3).val ∧ (i 3).val < win1_3.index t (3 : Fin 4) * 32 + 32
    rw [e3]; omega

/-- THE ARRAY AFTER THE REGION: when the region finds the padded pooled first layer of every image in its input
    array, the filter matrix and the bias row in the other two, its result array ends holding the
    specification's second pooled layer of every image. -/
theorem arr1_eq (c : Dev nD) (l : Fin 16384 → L1) (w2 : Fin 144 → Fin 32 → EReal) (b2 : Fin 32 → EReal)
    (h0 : ∀ (n : Fin 16384) (i j : Fin 16) (ci : Fin 16),
      V c main_v3 (ix4 n i j ci) = p1pad (l n).img (l n).w (l n).b i.val j.val ci)
    (h1 : ∀ (q : Fin 144) (co : Fin 32), V c main_arg3 (ix2 q co) = w2 q co)
    (h2 : ∀ co : Fin 32, V c main_v4 (ix2 (0 : Fin 1) co) = b2 co) :
    (dat1 V c).arrAt 3 cfg1.N = fun i => pool2 (l (i 0)) w2 b2 (i 1).val (i 2).val (i 3) :=
  (dat1 V c).arrAt_eq_of_cover 3 (pooled2 l w2 b2) (fun t _ => flushed1_eq V c l w2 b2 h0 h1 h2 t) cover1

end Cert.ReferenceIdeal.Hand

end
-- ==== Proof.RVal2.lean ====
/-
  The array the dense region leaves, as one function of the five arrays it reads.

  The region runs over 32 grid points.  At point `t` it reads rows `512 t … 512 t + 511` of the [16384, 1568] feature
  array and, whole, the [1568, 128] and [128, 128] weight arrays and the two [1, 128] bias rows; it writes rows
  `512 t … 512 t + 511` of the [16384, 128] output array.  What it stores at row `r`, column `j` of its block is

      ∑ k, max (∑ f, x (r, f) · W₁ (f, k) + b₁ k) 0 · W₂ (k, j) + b₂ j

  (each matrix product read at an index is the sum over its one contracted axis; a bias row broadcast over the rows
  reads its own entry; the clamp is a maximum with zero).  Block `t` of the output is therefore the restriction to
  those rows of ONE function of the whole arrays, the 32 blocks tile the output array, and so the array after the
  region is that function.
-/
import proofs.«150178_g2000205257289275_pallasbulk_739_9_alg».proof.Proof.RBody
import Idealize.ShloMosaic.Lib.Pipeline.Value
import Idealize.ShloMosaic.Lib.ValueIdx
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen
open Idealize.ShloMosaic.TcCoe Idealize.SL.Sem

/-! ## The two matrix products at an index -/

theorem lhs_dense1_0 (i : S512x128.Idx) (q : dot_S512x1568_S1568x128_S512x128_1_0_0_1_n_n.contr.Idx) :
    (dot_S512x1568_S1568x128_S512x128_1_0_0_1_n_n.lhsIdx i q 0).val = (i 0).val := by
  unfold DotDims.lhsIdx
  rw [dif_neg (show ¬(0 : Fin S512x1568.rank) ∈ dot_S512x1568_S1568x128_S512x128_1_0_0_1_n_n.lhsBatch by decide),
    dif_pos (show (0 : Fin S512x1568.rank) ∈ dot_S512x1568_S1568x128_S512x128_1_0_0_1_n_n.lhsNonContracting by decide)]
  rfl

theorem lhs_dense1_1 (i : S512x128.Idx) (q : dot_S512x1568_S1568x128_S512x128_1_0_0_1_n_n.contr.Idx) :
    (dot_S512x1568_S1568x128_S512x128_1_0_0_1_n_n.lhsIdx i q 1).val = (q ⟨0, by decide⟩).val :=
  dot_S512x1568_S1568x128_S512x128_1_0_0_1_n_n.lhsIdx_val_of_single rfl i q

theorem rhs_dense1_0 (i : S512x128.Idx) (q : dot_S512x1568_S1568x128_S512x128_1_0_0_1_n_n.contr.Idx) :
    (dot_S512x1568_S1568x128_S512x128_1_0_0_1_n_n.rhsIdx i q 0).val = (q ⟨0, by decide⟩).val :=
  dot_S512x1568_S1568x128_S512x128_1_0_0_1_n_n.rhsIdx_val_of_single rfl i q

theorem rhs_dense1_1 (i : S512x128.Idx) (q : dot_S512x1568_S1568x128_S512x128_1_0_0_1_n_n.contr.Idx) :
    (dot_S512x1568_S1568x128_S512x128_1_0_0_1_n_n.rhsIdx i q 1).val = (i 1).val := by
  unfold DotDims.rhsIdx
  rw [dif_neg (show ¬(1 : Fin S1568x128.rank) ∈ dot_S512x1568_S1568x128_S512x128_1_0_0_1_n_n.rhsBatch by decide),
    dif_pos (show (1 : Fin S1568x128.rank) ∈ dot_S512x1568_S1568x128_S512x128_1_0_0_1_n_n.rhsNonContracting by decide)]
  rfl

/-- The first dense product: row `r` of the left factor against column `k` of the right one. -/
theorem dense1_apply (a : FVec Ideal S512x1568 .f32) (b : FVec Ideal S1568x128 .f32) (r : Fin 512) (k : Fin 128) :
    matmul dot_S512x1568_S1568x128_S512x128_1_0_0_1_n_n none a b (constant S512x128 .f32 0x00000000#32) (ix2 r k)
      = ∑ f : Fin 1568, a (ix2 r f) * b (ix2 f k) := by
  simp only [matmul]
  rw [Ideal.matmul_constant_zero_apply,
    ← Equiv.sum_comp (contrEquiv1 dot_S512x1568_S1568x128_S512x128_1_0_0_1_n_n 1568 rfl rfl).symm]
  refine Finset.sum_congr rfl fun f _ => ?_
  have hk := contrEquiv1_symm_val dot_S512x1568_S1568x128_S512x128_1_0_0_1_n_n 1568 rfl rfl f
  have el : dot_S512x1568_S1568x128_S512x128_1_0_0_1_n_n.lhsIdx (ix2 r k)
      ((contrEquiv1 dot_S512x1568_S1568x128_S512x128_1_0_0_1_n_n 1568 rfl rfl).symm f) = ix2 r f :=
    funext fun x => Fin.ext (by
      match x with
      | ⟨0, _⟩ => exact lhs_dense1_0 _ _
      | ⟨1, _⟩ => exact (lhs_dense1_1 _ _).trans hk)
  have er : dot_S512x1568_S1568x128_S512x128_1_0_0_1_n_n.rhsIdx (ix2 r k)
      ((contrEquiv1 dot_S512x1568_S1568x128_S512x128_1_0_0_1_n_n 1568 rfl rfl).symm f) = ix2 f k :=
    funext fun x => Fin.ext (by
      match x with
      | ⟨0, _⟩ => exact (rhs_dense1_0 _ _).trans hk
      | ⟨1, _⟩ => exact rhs_dense1_1 _ _)
  rw [el, er]

theorem lhs_dense2_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

theorem lhs_dense2_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

theorem rhs_dense2_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

theorem rhs_dense2_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The second dense product, the same way over 128 terms. -/
theorem dense2_apply (a : FVec Ideal S512x128 .f32) (b : FVec Ideal S128x128 .f32) (r : Fin 512) (j : Fin 128) :
    matmul dot_S512x128_S128x128_S512x128_1_0_0_1_n_n none a b (constant S512x128 .f32 0x00000000#32) (ix2 r j)
      = ∑ k : Fin 128, a (ix2 r k) * b (ix2 k j) := by
  simp only [matmul]
  rw [Ideal.matmul_constant_zero_apply,
    ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r j)
      ((contrEquiv1 dot_S512x128_S128x128_S512x128_1_0_0_1_n_n 128 rfl rfl).symm k) = ix2 r k :=
    funext fun x => Fin.ext (by
      match x with
      | ⟨0, _⟩ => exact lhs_dense2_0 _ _
      | ⟨1, _⟩ => exact (lhs_dense2_1 _ _).trans hk)
  have er : dot_S512x128_S128x128_S512x128_1_0_0_1_n_n.rhsIdx (ix2 r j)
      ((contrEquiv1 dot_S512x128_S128x128_S512x128_1_0_0_1_n_n 128 rfl rfl).symm k) = ix2 k j :=
    funext fun x => Fin.ext (by
      match x with
      | ⟨0, _⟩ => exact (rhs_dense2_0 _ _).trans hk
      | ⟨1, _⟩ => exact rhs_dense2_1 _ _)
  rw [el, er]

/-! ## The bias row spread over the 512 rows -/

/-- A [1,128] row broadcast to [512,128] reads, at row `r` and column `k`, the row's entry `k`. -/
theorem biasRow_apply (b : FVec Ideal S1x128 .f32) (r : Fin 512) (k : Fin 128) :
    broadcastTo S512x128 b broadcasts_S1x128_S512x128 (ix2 r k) = b (ix2 (0 : Fin 1) k) := by
  refine broadcastTo_apply b _ (ix2 r k) (ix2 (0 : Fin 1) k) fun a => ?_
  match a with
  | ⟨0, _⟩ => rfl
  | ⟨1, _⟩ => rfl

/-! ## The kernel's stored value at an index -/

/-- Entry `(r, j)` of what the dense kernel stores: the second layer's sum over the 128 hidden units of the first
    layer's biased, clamped sums over the 1568 features. -/
theorem k2_pay1_apply (x0 : Vec Ideal S512x1568 .f32) (x1 : Vec Ideal S1568x128 .f32) (x2 : Vec Ideal S1x128 .f32)
    (x3 : Vec Ideal S128x128 .f32) (x4 : Vec Ideal S1x128 .f32) (r : Fin 512) (j : Fin 128) :
    k2_pay1 x0 x1 x2 x3 x4 (ix2 r j)
      = ∑ k : Fin 128, max (∑ f : Fin 1568, x0 (ix2 r f) * x1 (ix2 f k) + x2 (ix2 (0 : Fin 1) k)) 0 * x3 (ix2 k j)
        + x4 (ix2 (0 : Fin 1) j) := by
  unfold k2_pay1
  simp only [shapeCast_self]
  rw [addf_apply, dense2_apply, biasRow_apply]
  refine congrArg (· + x4 (ix2 (0 : Fin 1) j)) (Finset.sum_congr rfl fun k _ => ?_)
  rw [maximumf_apply, addf_apply, dense1_apply, biasRow_apply, broadcast_apply]
  show max _ (Ideal.ofBits .f32 0x00000000#32) * _ = _
  rw [Ideal.ofBits_zero_f32]

/-! ## The blocks of the six windows -/

/-- Over the 32 grid points: the feature window and the output window move down one block of rows per point; the
    weights and the bias rows stay at their only block. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b))

/-- Row `r` of the feature block at point `t` is row `512 t + r` of the feature array. -/
theorem featBlk_apply (c : Dev nD) (t : Fin cfg2.N) (r : Fin 512) (f : Fin 1568) (n : Fin 16384)
    (hn : n.val = 512 * t.val + r.val) :
    (iblk2 V c 0 t : Vec Ideal S512x1568 .f32) (ix2 r f) = (V c main_v6 : S16384x1568.Idx → EReal) (ix2 n f) := by
  obtain ⟨e0, e1, -⟩ := index_facts2 t
  unfold iblk2
  rw [View.read_apply]
  show V c main_v6 _ = V c main_v6 _
  congr 1
  funext a
  apply Fin.ext
  match a with
  | ⟨0, _⟩ => show win2_0.index t (0 : Fin 2) * 512 + 1 * r.val = n.val; rw [e0, hn]; omega
  | ⟨1, _⟩ => show win2_0.index t (1 : Fin 2) * 1568 + 1 * f.val = f.val; rw [e1]; omega

/-- The first layer's weight block is the whole weight array at every point. -/
theorem w1Blk_apply (c : Dev nD) (t : Fin cfg2.N) (f : Fin 1568) (k : Fin 128) :
    (iblk2 V c 1 t : Vec Ideal S1568x128 .f32) (ix2 f k) = (V c main_arg5 : S1568x128.Idx → EReal) (ix2 f k) := by
  obtain ⟨-, -, e0, e1, -⟩ := index_facts2 t
  unfold iblk2
  rw [View.read_apply]
  show V c main_arg5 _ = V c main_arg5 _
  congr 1
  funext a
  apply Fin.ext
  match a with
  | ⟨0, _⟩ => show win2_1.index t (0 : Fin 2) * 1568 + 1 * f.val = f.val; rw [e0]; omega
  | ⟨1, _⟩ => show win2_1.index t (1 : Fin 2) * 128 + 1 * k.val = k.val; rw [e1]; omega

/-- So is the first bias row's, -/
theorem b1Blk_apply (c : Dev nD) (t : Fin cfg2.N) (k : Fin 128) :
    (iblk2 V c 2 t : Vec Ideal S1x128 .f32) (ix2 (0 : Fin 1) k) = (V c main_v7 : S1x128.Idx → EReal) (ix2 (0 : Fin 1) k) := by
  obtain ⟨-, -, -, -, e0, e1, -⟩ := index_facts2 t
  unfold iblk2
  rw [View.read_apply]
  show V c main_v7 _ = V c main_v7 _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 128 + 1 * k.val = k.val; rw [e1]; omega

/-- the second layer's weights', -/
theorem w2Blk_apply (c : Dev nD) (t : Fin cfg2.N) (k j : Fin 128) :
    (iblk2 V c 3 t : Vec Ideal S128x128 .f32) (ix2 k j) = (V c main_arg7 : S128x128.Idx → EReal) (ix2 k j) := by
  obtain ⟨-, -, -, -, -, -, e0, e1, -⟩ := index_facts2 t
  unfold iblk2
  rw [View.read_apply]
  show V c main_arg7 _ = V c main_arg7 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * j.val = j.val; rw [e1]; omega

/-- and the second bias row's. -/
theorem b2Blk_apply (c : Dev nD) (t : Fin cfg2.N) (j : Fin 128) :
    (iblk2 V c 4 t : Vec Ideal S1x128 .f32) (ix2 (0 : Fin 1) j) = (V c main_v8 : S1x128.Idx → EReal) (ix2 (0 : Fin 1) j) := by
  obtain ⟨-, -, -, -, -, -, -, -, e0, e1, -⟩ := index_facts2 t
  unfold iblk2
  rw [View.read_apply]
  show V c main_v8 _ = V c main_v8 _
  congr 1
  funext a
  apply Fin.ext
  match a with
  | ⟨0, _⟩ => show win2_4.index t (0 : Fin 2) * 1 + 1 * (0 : Fin 1).val = (0 : Fin 1).val; rw [e0]; rfl
  | ⟨1, _⟩ => show win2_4.index t (1 : Fin 2) * 128 + 1 * j.val = j.val; rw [e1]; omega

end Blocks

/-- Entry `(r, j)` of the output block at point `t` sits at row `512 t + r`, column `j` of the output array. -/
theorem outBlk_emb (t : Fin cfg2.N) (r : Fin 512) (j : Fin 128) (n : Fin 16384) (hn : n.val = 512 * t.val + r.val) :
    ((cfg2.win 5).blk t).view.emb (ix2 r j) = (ix2 n j : S16384x128.Idx) := by
  obtain ⟨-, -, -, -, -, -, -, -, -, -, e0, e1⟩ := index_facts2 t
  funext a
  apply Fin.ext
  match a with
  | ⟨0, _⟩ => show win2_5.index t (0 : Fin 2) * 512 + 1 * r.val = n.val; rw [e0, hn]; omega
  | ⟨1, _⟩ => show win2_5.index t (1 : Fin 2) * 128 + 1 * j.val = j.val; rw [e1]; omega

/-! ## The array after the region -/

/-- The two dense layers on the whole batch, entry by entry. -/
def denseArr (fv : Fin 16384 → Fin 1568 → EReal) (f1w : Fin 1568 → Fin 128 → EReal) (f1b : Fin 128 → EReal)
    (f2w : Fin 128 → Fin 128 → EReal) (f2b : Fin 128 → EReal) : S16384x128.Idx → EReal :=
  fun i => ∑ k : Fin 128, max (∑ f : Fin 1568, fv (i 0) f * f1w f k + f1b k) 0 * f2w k (i 1) + f2b (i 1)

theorem zeroOffsets2 : (![0, 0] : Fin 2 → Nat) = fun _ => 0 :=
  funext fun a => by match a with | ⟨0, _⟩ => rfl | ⟨1, _⟩ => rfl

section Array
variable (V : (c : Dev nD) → (b : Ref sig .tc) → Buf (Elt Ideal) ((c : Thread nD τ).loc b))

/-- What point `t` writes back is block `t` of `denseArr` of the five input arrays. -/
theorem flushed2_eq (c : Dev nD) (fv : Fin 16384 → Fin 1568 → EReal) (f1w : Fin 1568 → Fin 128 → EReal) (f1b : Fin 128 → EReal)
    (f2w : Fin 128 → Fin 128 → EReal) (f2b : Fin 128 → EReal)
    (h0 : ∀ (n : Fin 16384) (f : Fin 1568), V c main_v6 (ix2 n f) = fv n f)
    (h1 : ∀ (f : Fin 1568) (k : Fin 128), V c main_arg5 (ix2 f k) = f1w f k)
    (h2 : ∀ k : Fin 128, V c main_v7 (ix2 (0 : Fin 1) k) = f1b k)
    (h3 : ∀ (k j : Fin 128), V c main_arg7 (ix2 k j) = f2w k j)
    (h4 : ∀ j : Fin 128, V c main_v8 (ix2 (0 : Fin 1) j) = f2b j) (t : Fin cfg2.N) :
    (dat2 V c).flushed 5 t = ((cfg2.win 5).blk t).view.read (Elt Ideal) (denseArr fv f1w f1b f2w f2b) := by
  show (cfg2.win 5).cut (grid2.coords t) ((dat2 V c).after 5 t) = _
  rw [after2_5]
  unfold out2_5
  rw [View.canon_unit_zero zeroOffsets2]
  simp only [View.ld_unit_zero (S := S512x1568) zeroOffsets2, View.ld_unit_zero (S := S1568x128) zeroOffsets2,
    View.ld_unit_zero (S := S1x128) zeroOffsets2, View.ld_unit_zero (S := S128x128) zeroOffsets2]
  funext j
  obtain ⟨r, jj, rfl⟩ : ∃ (r : Fin 512) (jj : Fin 128), j = ix2 r jj := ⟨j 0, j 1, eq_ix2 j⟩
  have hN : cfg2.N = 32 := N_2
  have hr := r.isLt
  have ht := t.isLt
  have hb : 512 * t.val + r.val < 16384 := by omega
  have hn : (⟨512 * t.val + r.val, hb⟩ : Fin 16384).val = 512 * t.val + r.val := rfl
  rw [View.read_apply, outBlk_emb t r jj ⟨512 * t.val + r.val, hb⟩ hn]
  show k2_pay1 (iblk2 V c 0 t) (iblk2 V c 1 t) (iblk2 V c 2 t) (iblk2 V c 3 t) (iblk2 V c 4 t) (ix2 r jj)
    = ∑ k : Fin 128, max (∑ f : Fin 1568, fv ⟨512 * t.val + r.val, hb⟩ f * f1w f k + f1b k) 0 * f2w k jj + f2b jj
  rw [k2_pay1_apply]
  simp only [featBlk_apply V c t r _ ⟨512 * t.val + r.val, hb⟩ hn, w1Blk_apply, b1Blk_apply, w2Blk_apply, b2Blk_apply,
    h0, h1, h2, h3, h4]

/-- An index of the output array is in point `t`'s block iff each coordinate is in the block's range on its axis. -/
theorem mem_outBlk (t : Fin cfg2.N) (i : S16384x128.Idx) :
    i ∈ ((cfg2.win 5).blk t).view.set ↔ ∀ a : Fin 2, win2_5.index t a * S512x128.size a ≤ (i a).val
      ∧ (i a).val < win2_5.index t a * S512x128.size a + S512x128.size a := by
  show i ∈ ((View.whole main_v9).slice (win2_5.rect t)).set ↔ _
  rw [View.set_slice_whole, Rect.mem_set_unit]
  exact Iff.rfl

/-- Row `n` of the output array is written by point `n / 512`: the 32 blocks tile the array. -/
theorem outBlk_cover (i : S16384x128.Idx) :
    ∃ t : Fin cfg2.N, (cfg2.win 5).flush t = true ∧ i ∈ ((cfg2.win 5).blk t).view.set := by
  have hN : cfg2.N = 32 := N_2
  have hi0 : (i 0).val < 16384 := (i 0).isLt
  have hi1 : (i 1).val < 128 := (i 1).isLt
  have hq : (i 0).val / 512 < cfg2.N := by omega
  obtain ⟨-, -, -, -, -, -, -, -, -, -, e0, e1⟩ := index_facts2 ⟨(i 0).val / 512, hq⟩
  refine ⟨⟨(i 0).val / 512, hq⟩, flush2_5 _, ?_⟩
  rw [mem_outBlk]
  intro a
  match a with
  | ⟨0, _⟩ =>
    show win2_5.index ⟨(i 0).val / 512, hq⟩ (0 : Fin 2) * 512 ≤ (i 0).val
      ∧ (i 0).val < win2_5.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win2_5.index ⟨(i 0).val / 512, hq⟩ (1 : Fin 2) * 128 ≤ (i 1).val
      ∧ (i 1).val < win2_5.index ⟨(i 0).val / 512, hq⟩ (1 : Fin 2) * 128 + 128
    rw [e1]
    omega

/-- THE ARRAY the dense region leaves: both layers of the five arrays it reads, entry by entry. -/
theorem arr2_eq (c : Dev nD) (fv : Fin 16384 → Fin 1568 → EReal) (f1w : Fin 1568 → Fin 128 → EReal) (f1b : Fin 128 → EReal)
    (f2w : Fin 128 → Fin 128 → EReal) (f2b : Fin 128 → EReal)
    (h0 : ∀ (n : Fin 16384) (f : Fin 1568), V c main_v6 (ix2 n f) = fv n f)
    (h1 : ∀ (f : Fin 1568) (k : Fin 128), V c main_arg5 (ix2 f k) = f1w f k)
    (h2 : ∀ k : Fin 128, V c main_v7 (ix2 (0 : Fin 1) k) = f1b k)
    (h3 : ∀ (k j : Fin 128), V c main_arg7 (ix2 k j) = f2w k j)
    (h4 : ∀ j : Fin 128, V c main_v8 (ix2 (0 : Fin 1) j) = f2b j) :
    (dat2 V c).arrAt 5 cfg2.N
      = fun i : S16384x128.Idx => ∑ k : Fin 128, max (∑ f : Fin 1568, fv (i 0) f * f1w f k + f1b k) 0 * f2w k (i 1) + f2b (i 1) :=
  (dat2 V c).arrAt_eq_of_cover 5 (denseArr fv f1w f1b f2w f2b)
    (fun t _ => flushed2_eq V c fv f1w f1b f2w f2b h0 h1 h2 h3 h4 t) outBlk_cover

end Array

end Cert.ReferenceIdeal.Hand

end
-- ==== Proof.RValue.lean ====
/-
  The reference program's result as the specification's function of its arguments.

  The run of @main names the contents of every unscoped buffer at each boundary between two items.  This file reads
  those contents from the launch to the return.  The transposed image batch padded with a zero border is the
  specification's padded image; a bias reshaped to a one-row matrix has the bias in its row; a buffer that no earlier
  item writes still holds its launch contents.  With these the first region's output array is the pooled first layer
  inside its zero border, which the second region reads unchanged; its output array is the pooled second layer, whose
  row-major flattening is the specification's feature vector (entry `f` of row `n` sits at position
  `(f / 224, f % 224 / 32, f % 32)` of image `n`); the third region's output array is then all 128 columns of the last
  layer, and the final slice keeps the first ten: the specification's `G` of the nine argument arrays.
-/
import proofs.«150178_g2000205257289275_pallasbulk_739_9_alg».proof.Proof.Spec
import proofs.«150178_g2000205257289275_pallasbulk_739_9_alg».proof.Proof.RRun
import proofs.«150178_g2000205257289275_pallasbulk_739_9_alg».proof.Proof.RVal0
import proofs.«150178_g2000205257289275_pallasbulk_739_9_alg».proof.Proof.RVal1
import proofs.«150178_g2000205257289275_pallasbulk_739_9_alg».proof.Proof.RVal2
import Idealize.ShloMosaic.Lib.Pipeline.Value
import Idealize.ShloMosaic.Lib.ValueLayout
import Idealize.ShloMosaic.Lib.KernelVsHost
import Idealize.ShloMosaic.Lib.ValueIdx

noncomputable section

open scoped BigOperators

namespace Cert.ReferenceIdeal.Hand

open Idealize.ShloMosaic Idealize.ShloMosaic.TcCoe Idealize.ShloMosaic.ValueIdx
open Idealize.SL.Sem
open Cert.ReferenceIdeal Cert.ReferenceIdeal.Gen
open Cert.Cnn

variable (m : (ℓ : Loc nD τ sig) → Buf (Elt Ideal) ℓ)

/-! ## What no stretch and no earlier region writes is still the launch memory -/

/-- At the first region's entry. -/
theorem W3_launch (c : Dev nD) (b : Ref sig .tc) (h0 : b ∉ hostOps0_W) (h1 : b ∉ hostOps0_1_W) (h2 : b ∉ hostOps0_2_W) :
    W3 m c (Proc.devRef .tc b) = m ((c : Thread nD τ).loc b) :=
  calc W3 m c (Proc.devRef .tc b)
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-- At the first region's exit. -/
theorem W4_launch (c : Dev nD) (b : Ref sig .tc) (h0 : b ∉ hostOps0_W) (h1 : b ∉ hostOps0_1_W) (h2 : b ∉ hostOps0_2_W)
    (h3 : b ≠ main_v3) : W4 m c (Proc.devRef .tc b) = m ((c : Thread nD τ).loc b) :=
  (W4_keep m c b h3).trans (W3_launch m c b h0 h1 h2)

/-- At the second region's entry. -/
theorem W5_launch (c : Dev nD) (b : Ref sig .tc) (h0 : b ∉ hostOps0_W) (h1 : b ∉ hostOps0_1_W) (h2 : b ∉ hostOps0_2_W)
    (h3 : b ≠ main_v3) (h4 : b ∉ hostOps1_W) : W5 m c (Proc.devRef .tc b) = m ((c : Thread nD τ).loc b) :=
  (StableHlo.after_of_writes_sub hostOps1 _ hostOps1_writes h4).trans (W4_launch m c b h0 h1 h2 h3)

/-- At the second region's exit. -/
theorem W6_launch (c : Dev nD) (b : Ref sig .tc) (h0 : b ∉ hostOps0_W) (h1 : b ∉ hostOps0_1_W) (h2 : b ∉ hostOps0_2_W)
    (h3 : b ≠ main_v3) (h4 : b ∉ hostOps1_W) (h5 : b ≠ main_v5) : W6 m c (Proc.devRef .tc b) = m ((c : Thread nD τ).loc b) :=
  (W6_keep m c b h5).trans (W5_launch m c b h0 h1 h2 h3 h4)

/-- At the third region's entry. -/
theorem W7_launch (c : Dev nD) (b : Ref sig .tc) (h0 : b ∉ hostOps0_W) (h1 : b ∉ hostOps0_1_W) (h2 : b ∉ hostOps0_2_W)
    (h3 : b ≠ main_v3) (h4 : b ∉ hostOps1_W) (h5 : b ≠ main_v5) (h6 : b ∉ hostOps2_W) :
    W7 m c (Proc.devRef .tc b) = m ((c : Thread nD τ).loc b) :=
  (StableHlo.after_of_writes_sub hostOps2 _ hostOps2_writes h6).trans (W6_launch m c b h0 h1 h2 h3 h4 h5)

/-! ## The host operations before the first region, read at an index -/

/-- The transposed image batch: channel last. -/
theorem v0_eq (c : Dev nD) :
    (W1 m c (Proc.devRef .tc main_v0) : S16384x28x28x1.Idx → EReal)
      = transpose S16384x28x28x1 [0, 2, 3, 1] (m ((c : Thread nD τ).loc main_arg0)) transposes_S16384x1x28x28_S16384x28x28x1_0_2_3_1 := by
  show StableHlo.after hostOps0 _ (Proc.devRef .tc main_v0) = _
  after_results

/-- The padded batch is the padding operation on the transposed batch, the padding value the converted integer zero. -/
theorem v1_eq (c : Dev nD) :
    (W3 m c (Proc.devRef .tc main_v1) : S16384x30x30x1.Idx → EReal)
      = pad S16384x30x30x1 ![0, 1, 1, 0] ![0, 1, 1, 0] ![0, 0, 0, 0]
          (transpose S16384x28x28x1 [0, 2, 3, 1] (m ((c : Thread nD τ).loc main_arg0)) transposes_S16384x1x28x28_S16384x28x28x1_0_2_3_1)
          (sitofp (F := Ideal) .f32 (constantI S_ 32 0#32) : S_.Idx → EReal) pads_S16384x28x28x1_S16384x30x30x1_000_110_110_000 h_S_ := by
  show StableHlo.after hostOps0_2 _ (Proc.devRef .tc main_v1) = _
  after_results
  simp only [StableHlo.TRef.ofBuf, StableHlo.TRef.toBuf, cast_eq]

/-- Entry (n, i, j) of the padded batch is the specification's padded image n at (i, j). -/
theorem v1_apply (c : Dev nD) (n : Fin 16384) (i j : Fin 30) :
    (W3 m c (Proc.devRef .tc main_v1) : S16384x30x30x1.Idx → EReal) (ix4 n i j (0 : Fin 1))
      = xpad (fun a b => m ((c : Thread nD τ).loc main_arg0) (ix4 n (0 : Fin 1) a b)) i.val j.val := by
  rw [v1_eq]
  unfold xpad
  by_cases h : (1 ≤ i.val ∧ i.val ≤ 28) ∧ (1 ≤ j.val ∧ j.val ≤ 28)
  · rw [dif_pos h]
    refine (pad_apply_of_inside _ _ _ _ _ _ _ _ (ix4 n ⟨i.val - 1, by omega⟩ ⟨j.val - 1, by omega⟩ (0 : Fin 1)) ?_).trans ?_
    · intro a
      match a with
      | ⟨0, _⟩ => show n.val = 0 + n.val * (0 + 1); omega
      | ⟨1, _⟩ => show i.val = 1 + (i.val - 1) * (0 + 1); omega
      | ⟨2, _⟩ => show j.val = 1 + (j.val - 1) * (0 + 1); omega
      | ⟨3, _⟩ => show (0 : ℕ) = 0 + 0 * (0 + 1); omega
    · exact transpose_apply _ _ _ _ _ (fun b => match b with | ⟨0, _⟩ => rfl | ⟨1, _⟩ => rfl | ⟨2, _⟩ => rfl | ⟨3, _⟩ => rfl)
  · rw [dif_neg h]
    have hz : (sitofp (F := Ideal) .f32 (constantI S_ 32 0#32) : S_.Idx → EReal) (Shape.Idx.first h_S_) = 0 := sitofp_zero
    by_cases hi : 1 ≤ i.val ∧ i.val ≤ 28
    · refine (pad_apply_of_not_inside _ _ _ _ _ _ _ _ (2 : Fin 4) ?_).trans hz
      show ¬ (1 ≤ j.val ∧ (j.val - 1) % (0 + 1) = 0 ∧ (j.val - 1) / (0 + 1) < 28)
      omega
    · refine (pad_apply_of_not_inside _ _ _ _ _ _ _ _ (1 : Fin 4) ?_).trans hz
      show ¬ (1 ≤ i.val ∧ (i.val - 1) % (0 + 1) = 0 ∧ (i.val - 1) / (0 + 1) < 28)
      omega

/-- The first bias as a one-row matrix. -/
theorem v2_apply (c : Dev nD) (ch : Fin 16) :
    (W3 m c (Proc.devRef .tc main_v2) : S1x16.Idx → EReal) (ix2 (0 : Fin 1) ch) = m ((c : Thread nD τ).loc main_arg2) (ix1 ch) := by
  have e : (W3 m c (Proc.devRef .tc main_v2) : S1x16.Idx → EReal)
      = shapeCast S1x16 (m ((c : Thread nD τ).loc main_arg2) : S16.Idx → EReal) shapeCasts_S16_S1x16 := by
    show StableHlo.after hostOps0_2 _ (Proc.devRef .tc main_v2) = _
    after_results
    rfl
  rw [e]
  exact shapeCast_a_1a_apply _ _ _ _

/-! ## The first region -/

/-- The first layer's parameters with image `n`, read off core `c`'s launch memory. -/
abbrev lay (c : Dev nD) (n : Fin 16384) : L1 :=
  l1Of (m ((c : Thread nD τ).loc main_arg0)) (m ((c : Thread nD τ).loc main_arg1)) (m ((c : Thread nD τ).loc main_arg2)) n

/-- What the first region leaves in its output array: the pooled first layer inside a zero border. -/
theorem v3_eq (c : Dev nD) :
    (W4 m c (Proc.devRef .tc main_v3) : S16384x16x16x16.Idx → EReal)
      = fun i => p1pad (lay m c (i 0)).img (lay m c (i 0)).w (lay m c (i 0)).b (i 1).val (i 2).val (i 3) :=
  (W4_arr m c 3).trans <|
    arr0_eq (E0 m) c (fun n => (lay m c n).img) (fun q ch => m ((c : Thread nD τ).loc main_arg1) (ix2 q ch))
      (fun ch => m ((c : Thread nD τ).loc main_arg2) (ix1 ch))
      (v1_apply m c)
      (fun q ch => congrFun (W3_launch m c main_arg1 (by decide) (by decide) (by decide)) (ix2 q ch))
      (v2_apply m c)

/-! ## The second region -/

/-- The second bias as a one-row matrix. -/
theorem v4_apply (c : Dev nD) (co : Fin 32) :
    (W5 m c (Proc.devRef .tc main_v4) : S1x32.Idx → EReal) (ix2 (0 : Fin 1) co) = m ((c : Thread nD τ).loc main_arg4) (ix1 co) := by
  have e : (W5 m c (Proc.devRef .tc main_v4) : S1x32.Idx → EReal)
      = shapeCast S1x32 (W4 m c (Proc.devRef .tc main_arg4) : S32.Idx → EReal) shapeCasts_S32_S1x32 := by
    show StableHlo.after hostOps1 _ (Proc.devRef .tc main_v4) = _
    after_results
    rfl
  rw [e, W4_launch m c main_arg4 (by decide) (by decide) (by decide) (by decide)]
  exact shapeCast_a_1a_apply _ _ _ _

/-- What the second region leaves in its output array: the pooled second layer. -/
theorem v5_eq (c : Dev nD) :
    (W6 m c (Proc.devRef .tc main_v5) : S16384x7x7x32.Idx → EReal)
      = fun i => pool2 (lay m c (i 0)) (fun q co => m ((c : Thread nD τ).loc main_arg3) (ix2 q co))
          (fun co => m ((c : Thread nD τ).loc main_arg4) (ix1 co)) (i 1).val (i 2).val (i 3) :=
  (W6_arr m c 3).trans <|
    arr1_eq (E1 m) c (lay m c) (fun q co => m ((c : Thread nD τ).loc main_arg3) (ix2 q co))
      (fun co => m ((c : Thread nD τ).loc main_arg4) (ix1 co))
      (fun n i j ci => (congrFun ((StableHlo.after_of_writes_sub hostOps1 _ hostOps1_writes (by decide) :
          W5 m c (Proc.devRef .tc main_v3) = W4 m c (Proc.devRef .tc main_v3)).trans (v3_eq m c)) (ix4 n i j ci)))
      (fun q co => congrFun (W5_launch m c main_arg3 (by decide) (by decide) (by decide) (by decide) (by decide)) (ix2 q co))
      (v4_apply m c)

/-! ## The third region -/

/-- The flattened pooled array: row `n`, entry `f` is the specification's feature `f` of image `n`. -/
theorem v6_apply (c : Dev nD) (n : Fin 16384) (f : Fin 1568) :
    (W7 m c (Proc.devRef .tc main_v6) : S16384x1568.Idx → EReal) (ix2 n f)
      = feat (lay m c n) (fun q co => m ((c : Thread nD τ).loc main_arg3) (ix2 q co))
          (fun co => m ((c : Thread nD τ).loc main_arg4) (ix1 co)) f := by
  have e : (W7 m c (Proc.devRef .tc main_v6) : S16384x1568.Idx → EReal)
      = shapeCast S16384x1568 (W6 m c (Proc.devRef .tc main_v5) : S16384x7x7x32.Idx → EReal) shapeCasts_S16384x7x7x32_S16384x1568 := by
    show StableHlo.after hostOps2 _ (Proc.devRef .tc main_v6) = _
    after_results
    rfl
  rw [e, v5_eq]
  have hf : f.val < 1568 := f.isLt
  refine (shapeCast_apply _ _ (ix2 n f)
    (ix4 n (⟨f.val / 224, by omega⟩ : Fin 7) (⟨f.val % 224 / 32, by omega⟩ : Fin 7) (⟨f.val % 32, by omega⟩ : Fin 32)) ?_).trans ?_
  · rw [Shape.rowMajor_val_two, Shape.rowMajor_val_four]
    show ((n.val * 7 + f.val / 224) * 7 + f.val % 224 / 32) * 32 + f.val % 32 = n.val * 1568 + f.val
    omega
  · rfl

/-- The first dense bias as a one-row matrix. -/
theorem v7_apply (c : Dev nD) (k : Fin 128) :
    (W7 m c (Proc.devRef .tc main_v7) : S1x128.Idx → EReal) (ix2 (0 : Fin 1) k) = m ((c : Thread nD τ).loc main_arg6) (ix1 k) := by
  have e : (W7 m c (Proc.devRef .tc main_v7) : S1x128.Idx → EReal)
      = shapeCast S1x128 (W6 m c (Proc.devRef .tc main_arg6) : S128.Idx → EReal) shapeCasts_S128_S1x128 := by
    show StableHlo.after hostOps2 _ (Proc.devRef .tc main_v7) = _
    after_results
    rfl
  rw [e, W6_launch m c main_arg6 (by decide) (by decide) (by decide) (by decide) (by decide) (by decide)]
  exact shapeCast_a_1a_apply _ _ _ _

/-- The second dense bias as a one-row matrix. -/
theorem v8_apply (c : Dev nD) (j : Fin 128) :
    (W7 m c (Proc.devRef .tc main_v8) : S1x128.Idx → EReal) (ix2 (0 : Fin 1) j) = m ((c : Thread nD τ).loc main_arg8) (ix1 j) := by
  have e : (W7 m c (Proc.devRef .tc main_v8) : S1x128.Idx → EReal)
      = shapeCast S1x128 (W6 m c (Proc.devRef .tc main_arg8) : S128.Idx → EReal) shapeCasts_S128_S1x128 := by
    show StableHlo.after hostOps2 _ (Proc.devRef .tc main_v8) = _
    after_results
    rfl
  rw [e, W6_launch m c main_arg8 (by decide) (by decide) (by decide) (by decide) (by decide) (by decide)]
  exact shapeCast_a_1a_apply _ _ _ _

/-- What the third region leaves in its output array: all 128 columns of the network's last layer. -/
theorem v9_eq (c : Dev nD) :
    (W8 m c (Proc.devRef .tc main_v9) : S16384x128.Idx → EReal)
      = G128 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  (W8_arr m c 5).trans <|
    arr2_eq (E2 m) c
      (fun n => feat (lay m c n) (fun q co => m ((c : Thread nD τ).loc main_arg3) (ix2 q co))
        (fun co => m ((c : Thread nD τ).loc main_arg4) (ix1 co)))
      (fun f k => m ((c : Thread nD τ).loc main_arg5) (ix2 f k)) (fun k => m ((c : Thread nD τ).loc main_arg6) (ix1 k))
      (fun k j => m ((c : Thread nD τ).loc main_arg7) (ix2 k j)) (fun j => m ((c : Thread nD τ).loc main_arg8) (ix1 j))
      (v6_apply m c)
      (fun f k => congrFun (W7_launch m c main_arg5 (by decide) (by decide) (by decide) (by decide) (by decide) (by decide) (by decide)) (ix2 f k))
      (v7_apply m c)
      (fun k j => congrFun (W7_launch m c main_arg7 (by decide) (by decide) (by decide) (by decide) (by decide) (by decide) (by decide)) (ix2 k j))
      (v8_apply m c)

/-! ## The result -/

/-- The result buffer holds the specification's function of the nine argument arrays. -/
theorem result_eq (c : Dev nD) :
    W9 (F := Ideal) m c (Proc.devRef .tc main_v10)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have e : (W9 m c (Proc.devRef .tc main_v10) : S16384x10.Idx → EReal)
      = extractStridedSlice S16384x10 ![0, 0] (W8 m c (Proc.devRef .tc main_v9) : S16384x128.Idx → EReal) slices_S16384x128_S16384x10_0_0 := by
    show StableHlo.after hostOps3 _ (Proc.devRef .tc main_v10) = _
    after_results
  refine e.trans ?_
  rw [v9_eq]
  funext i
  refine (extractStridedSlice_apply _ _ _ i (ix2 (i 0) (⟨(i 1).val, lt_trans (i 1).isLt (by norm_num)⟩ : Fin 128)) ?_).trans rfl
  intro a
  match a with
  | ⟨0, _⟩ => exact (Nat.zero_add _).symm
  | ⟨1, _⟩ => exact (Nat.zero_add _).symm

/-- The reference program runs, and on every core its result buffer ends at the specification's function of the launch
    contents of the nine argument buffers, which end as launched. -/
theorem value_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v10 (by decide))).trans (result_eq m c),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩) (run_all m ρ)

end Cert.ReferenceIdeal.Hand

end
-- ==== Proof.lean ====
/-
  The certificate of the fused convolutional-network kernel against its three-call reference.

  Both programs compute, for each of 16384 images, the same function of the nine argument arrays
  (`Cert.Cnn.G`, Proof/Spec.lean): two rounds of 3 × 3 convolution, bias, cut at zero and 2 × 2 maximum, then two
  dense layers, of which ten columns are kept.  The reference does each convolution as one product with the patch
  matrix; the kernel does each output row as a product of a lane window with a banded matrix built on the host, takes
  the maxima first and adds the bias and cuts at zero afterwards — the same numbers, because adding a bias and cutting
  at zero is monotone, and a sum is unchanged by the zero entries of the band.  Over the extended reals nothing here
  needs the inputs to be finite: only commutativity and associativity of sums, `0 * x = 0`, and monotonicity are used.

  The three frames are the three runs with their results forgotten; nothing was rewritten by the idealization.
-/
import proofs.«150178_g2000205257289275_pallasbulk_739_9_alg».proof.Defs
import proofs.«150178_g2000205257289275_pallasbulk_739_9_alg».proof.Proof.Gen.Kernel
import proofs.«150178_g2000205257289275_pallasbulk_739_9_alg».proof.Proof.Gen.KernelIdeal
import proofs.«150178_g2000205257289275_pallasbulk_739_9_alg».proof.Proof.Gen.ReferenceIdeal
import proofs.«150178_g2000205257289275_pallasbulk_739_9_alg».proof.Proof.Gen.Pre_finite_inputs
import proofs.«150178_g2000205257289275_pallasbulk_739_9_alg».proof.Proof.KRunBits
import proofs.«150178_g2000205257289275_pallasbulk_739_9_alg».proof.Proof.KValue
import proofs.«150178_g2000205257289275_pallasbulk_739_9_alg».proof.Proof.RValue

noncomputable section

namespace Cert.Proof

open Idealize.ShloMosaic Idealize.SL.Sem

/-- The word-level kernel runs and leaves its arguments alone. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the idealized reference. -/
theorem frame_ri : Cert.frame_ReferenceIdeal := fun m ρ _ => Cert.ReferenceIdeal.Hand.frame m ρ

/-- Both idealized programs end with the network's function of the arguments in their result buffer; from memories
    that agree on the arguments these are the same array. -/
theorem algebraic : Cert.algebraic_KernelIdeal_ReferenceIdeal := by
  intro m ρ m' ρ' _ hagree
  refine ⟨fun c => Cert.Cnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Hand.value_run m ρ, ?_⟩
  refine (θ_run Cert.ReferenceIdeal.defs _ _).mono (fun r h c => ?_) (Cert.ReferenceIdeal.Hand.value_run m' ρ')
  obtain ⟨h0, hrest⟩ := h c
  refine ⟨?_, hrest⟩
  obtain ⟨e0, e1, e2, e3, e4, e5, e6, e7, e8⟩ := hagree c
  rw [h0, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
